-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S3x1024 : Shape := ⟨2, ![3, 1024]⟩
abbrev S1024x50257 : Shape := ⟨2, ![1024, 50257]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S1024x50257 : S_.BroadcastsInDim S1024x50257 (![] : Fin 0 → Fin S1024x50257.rank)
  reducesTo_S1024x50257_S_d0_1 : S1024x50257.ReducesTo [0, 1] S_

variable [Facts]

def fn {F : FTy → Type} [FloatOps F] (main_arg0 : FVec F S4096x1024 .f32) (main_arg1 : IVec S4096 32) (main_arg2 : FVec F S3x1024 .f32) (main_arg3 : FVec F S1024x50257 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3x1024 .f32 := Host.absf main_arg2
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S1024x50257 .f32 := Host.absf main_arg3
  let main_cst_2 : FVec F S_ .f32 := constant S_ .f32 0x7F800000#32
  let main_v10 : FVec F S1024x50257 .f32 := broadcastInDim S1024x50257 ![] bcast_S_S1024x50257 main_cst_2
  let main_v11 : IVec S1024x50257 1 := cmpf .olt main_v9 main_v10
  let main_c_3 : IVec S_ 1 := constantI S_ 1 1#1
  let main_v12 : IVec S_ 1 := (fun x v => Host.reduce IntOp.andi x v reducesTo_S1024x50257_S_d0_1 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S3x1024 : Shape := ⟨2, ![3, 1024]⟩
abbrev S1024x50257 : Shape := ⟨2, ![1024, 50257]⟩
abbrev S1024x3 : Shape := ⟨2, ![1024, 3]⟩
abbrev S4096x3 : Shape := ⟨2, ![4096, 3]⟩
abbrev S_ : Shape := ⟨0, ![]⟩
abbrev S4096x1 : Shape := ⟨2, ![4096, 1]⟩
abbrev S1024x20000 : Shape := ⟨2, ![1024, 20000]⟩
abbrev S1024x1024 : Shape := ⟨2, ![1024, 1024]⟩
abbrev S1024x1 : Shape := ⟨2, ![1024, 1]⟩
abbrev S1024 : Shape := ⟨1, ![1024]⟩
abbrev S1024x10257 : Shape := ⟨2, ![1024, 10257]⟩

abbrev nBuf : Space → Nat
  | .hbm => 60
  | .vmem => 39
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S3x1024, .f32⟩
  | .hbm, ⟨3, _⟩ => ⟨S1024x50257, .f32⟩
  | .hbm, ⟨4, _⟩ => ⟨S1024x3, .f32⟩
  | .hbm, ⟨5, _⟩ => ⟨S4096x3, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S4096x3, .f32⟩
  | .hbm, ⟨13, _⟩ => ⟨S4096x3, .f32⟩
  | .hbm, ⟨14, _⟩ => ⟨S4096x3, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x3, .f32⟩
  | .hbm, ⟨20, _⟩ => ⟨S4096x3, .f32⟩
  | .hbm, ⟨21, _⟩ => ⟨S4096x1, .i32⟩
  | .hbm, ⟨22, _⟩ => ⟨S_, .f32⟩
  | .hbm, ⟨23, _⟩ => ⟨S4096, .f32⟩
  | .hbm, ⟨24, _⟩ => ⟨S1024x20000, .f32⟩
  | .hbm, ⟨25, _⟩ => ⟨S4096x1, .f32⟩
  | .hbm, ⟨26, _⟩ => ⟨S4096x1, .f32⟩
  | .hbm, ⟨27, _⟩ => ⟨S4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i1⟩
  | .hbm, ⟨35, _⟩ => ⟨S4096, .f32⟩
  | .hbm, ⟨36, _⟩ => ⟨S1024x20000, .f32⟩
  | .hbm, ⟨37, _⟩ => ⟨S4096x1, .f32⟩
  | .hbm, ⟨38, _⟩ => ⟨S4096x1, .f32⟩
  | .hbm, ⟨39, _⟩ => ⟨S4096, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S4096, .f32⟩
  | .hbm, ⟨48, _⟩ => ⟨S1024x10257, .f32⟩
  | .hbm, ⟨49, _⟩ => ⟨S4096x1, .f32⟩
  | .hbm, ⟨50, _⟩ => ⟨S4096x1, .f32⟩
  | .hbm, ⟨51, _⟩ => ⟨S4096, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S4096, .i1⟩
  | .hbm, ⟨59, _⟩ => ⟨S4096, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1024, .f32⟩
  | .local _ .vmem, ⟨14, _⟩ => ⟨S1024x1024, .f32⟩
  | .local _ .vmem, ⟨15, _⟩ => ⟨S1024x1, .i32⟩
  | .local _ .vmem, ⟨16, _⟩ => ⟨S1024x1, .i32⟩
  | .local _ .vmem, ⟨17, _⟩ => ⟨S1024x1, .f32⟩
  | .local _ .vmem, ⟨18, _⟩ => ⟨S1024x1, .f32⟩
  | .local _ .vmem, ⟨19, _⟩ => ⟨S1024x1024, .f32⟩
  | .local _ .vmem, ⟨20, _⟩ => ⟨S1024x1024, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1024, .f32⟩
  | .local _ .vmem, ⟨27, _⟩ => ⟨S1024x1024, .f32⟩
  | .local _ .vmem, ⟨28, _⟩ => ⟨S1024x1, .i32⟩
  | .local _ .vmem, ⟨29, _⟩ => ⟨S1024x1, .i32⟩
  | .local _ .vmem, ⟨30, _⟩ => ⟨S1024x1, .f32⟩
  | .local _ .vmem, ⟨31, _⟩ => ⟨S1024x1, .f32⟩
  | .local _ .vmem, ⟨32, _⟩ => ⟨S1024x1024, .f32⟩
  | .local _ .vmem, ⟨33, _⟩ => ⟨S1024x1024, .f32⟩
  | .local _ .vmem, ⟨34, _⟩ => ⟨S1024x1, .f32⟩
  | .local _ .vmem, ⟨35, _⟩ => ⟨S1024x1, .f32⟩
  | .local _ .vmem, ⟨36, _⟩ => ⟨S1024x1, .f32⟩
  | .local _ .vmem, ⟨37, _⟩ => ⟨S1024x1, .f32⟩
  | .local _ .vmem, ⟨38, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![4, 20], ![false, false]⟩

def k0_cond2 (i : grid0.Coords) : BitVec 1 :=
  let arg1 : BitVec 32 := BitVec.ofNat 32 (i 1).val
  let c19_i32 : BitVec 32 := 19#32
  let v57 : BitVec 1 := Scalar.cmpi .eq arg1 c19_i32
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 20], ![false, false]⟩

def k1_cond2 (i : grid1.Coords) : BitVec 1 :=
  let arg1 : BitVec 32 := BitVec.ofNat 32 (i 1).val
  let c19_i32 : BitVec 32 := 19#32
  let v57 : BitVec 1 := Scalar.cmpi .eq arg1 c19_i32
  let v58 : BitVec 32 := Scalar.extui v57
  let c0_i32_27 : BitVec 32 := 0#32
  let v59 : BitVec 1 := Scalar.cmpi .ne v58 c0_i32_27
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 11], ![false, false]⟩

def k2_cond2 (i : grid2.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_26 : BitVec 32 := 0#32
  let v59 : BitVec 1 := Scalar.cmpi .ne v58 c0_i32_26
  v59

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  transposes_S3x1024_S1024x3_1_0 : S3x1024.Transposes [1, 0] S1024x3
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  shapeCasts_S4096_S4096x1 : S4096.ShapeCasts S4096x1
  slices_S1024x50257_S1024x20000_0_0 : S1024x50257.Slices ![0, 0] S1024x20000
  slices_S4096x3_S4096x1_0_0 : S4096x3.Slices ![0, 0] S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  iota_S1024x1024_d1_w32 : S1024x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  shapeCasts_S4096x1_S4096 : S4096x1.ShapeCasts S4096
  slices_S1024x50257_S1024x20000_0_20000 : S1024x50257.Slices ![0, 20000] S1024x20000
  slices_S4096x3_S4096x1_0_1 : S4096x3.Slices ![0, 1] S4096x1
  slices_S1024x50257_S1024x10257_0_40000 : S1024x50257.Slices ![0, 40000] S1024x10257
  slices_S4096x3_S4096x1_0_2 : S4096x3.Slices ![0, 2] S4096x1
  dot_S4096x1024_S1024x3_S4096x3_1_0_0_1_n_n_wf : DotDims.WF S4096x1024 S1024x3 S4096x3 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .i32 = 32 ∨ (Rect.block (s := S4096x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x20000.size a
  hwx0_3 : ∀ i : grid0.Coords, EltTy.bits .f32 = 32 ∨ (Rect.unit (s := S1024x20000) (fun a => cc0_transform_3 i a * S1024x1024.size a) (fun a => (Pipeline.Clip.of (cc0_transform_3 i a) (S1024x1024.size a) (S1024x20000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x20000.size a)).extent (S1024x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .i32 = 32 ∨ (Rect.block (s := S4096x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1024.size a < S1024x20000.size a
  hwx1_3 : ∀ i : grid1.Coords, EltTy.bits .f32 = 32 ∨ (Rect.unit (s := S1024x20000) (fun a => cc1_transform_3 i a * S1024x1024.size a) (fun a => (Pipeline.Clip.of (cc1_transform_3 i a) (S1024x1024.size a) (S1024x20000.size a)).extent (S1024x1024.size a)) fun a => Pipeline.Clip.inb (Pipeline.Clip.ok_of (hstart1_3 i a))).WholeWords (EltTy.packing .f32)
  hwxs1_3 : ∀ i : grid1.Coords, EltTy.bits .f32 = 32 ∨ (Rect.unit (s := S1024x1024) (fun _ => 0) (fun a => (Pipeline.Clip.of (cc1_transform_3 i a) (S1024x1024.size a) (S1024x20000.size a)).extent (S1024x1024.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .i32 = 32 ∨ (Rect.block (s := S4096x1) S1024x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1024x1024.size a < S1024x10257.size a
  hwx2_3 : ∀ i : grid2.Coords, EltTy.bits .f32 = 32 ∨ (Rect.unit (s := S1024x10257) (fun a => cc2_transform_3 i a * S1024x1024.size a) (fun a => (Pipeline.Clip.of (cc2_transform_3 i a) (S1024x1024.size a) (S1024x10257.size a)).extent (S1024x1024.size a)) fun a => Pipeline.Clip.inb (Pipeline.Clip.ok_of (hstart2_3 i a))).WholeWords (EltTy.packing .f32)
  hwxs2_3 : ∀ i : grid2.Coords, EltTy.bits .f32 = 32 ∨ (Rect.unit (s := S1024x1024) (fun _ => 0) (fun a => (Pipeline.Clip.of (cc2_transform_3 i a) (S1024x1024.size a) (S1024x10257.size a)).extent (S1024x1024.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S4096x1.size a
  hwx2_4 : ∀ i : grid2.Coords, EltTy.bits .f32 = 32 ∨ (Rect.block (s := S4096x1) S1024x1.size (cc2_transform_4 i) (hinb2_4 i)).WholeWords (EltTy.packing .f32)

variable [Facts₀]

def dot_S4096x1024_S1024x3_S4096x3_1_0_0_1_n_n : DotDims S4096x1024 S1024x3 S4096x3 where
  lhsContracting := [1]
  rhsContracting := [0]
  lhsNonContracting := [0]
  rhsNonContracting := [1]
  lhsBatch := []
  rhsBatch := []
  wf := dot_S4096x1024_S1024x3_S4096x3_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v5) S1024x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v7) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v15) S1024x1024.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpec (Memref.whole main_v17) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpecClip (Memref.whole main_v25) S1024x1024.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpec (Memref.whole main_v27) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S3x1024 : Shape := ⟨2, ![3, 1024]⟩
abbrev S1024x50257 : Shape := ⟨2, ![1024, 50257]⟩
abbrev S1024x3 : Shape := ⟨2, ![1024, 3]⟩
abbrev S4096x3 : Shape := ⟨2, ![4096, 3]⟩
abbrev S_ : Shape := ⟨0, ![]⟩
abbrev S4096x1 : Shape := ⟨2, ![4096, 1]⟩
abbrev S1024x20000 : Shape := ⟨2, ![1024, 20000]⟩
abbrev S4096x20000 : Shape := ⟨2, ![4096, 20000]⟩
abbrev S4096x1x1 : Shape := ⟨3, ![4096, 1, 1]⟩
abbrev S1 : Shape := ⟨1, ![1]⟩
abbrev S1x1x1 : Shape := ⟨3, ![1, 1, 1]⟩
abbrev S1024x10257 : Shape := ⟨2, ![1024, 10257]⟩
abbrev S4096x10257 : Shape := ⟨2, ![4096, 10257]⟩

abbrev nBuf : Space → Nat
  | .hbm => 215
  | .vmem => 0
  | .smem => 0
  | _ => 0

abbrev hbmTy0_0 (i : Nat) : BufTy := match i % 128 with
  | 0 => ⟨S4096x1024, .f32⟩
  | 1 => ⟨S4096, .i32⟩
  | 2 => ⟨S3x1024, .f32⟩
  | 3 => ⟨S1024x50257, .f32⟩
  | 4 => ⟨S1024x3, .f32⟩
  | 5 => ⟨S4096x3, .f32⟩
  | 6 => ⟨S_, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S4096x3, .f32⟩
  | 13 => ⟨S4096x3, .f32⟩
  | 14 => ⟨S4096x3, .f32⟩
  | 15 => ⟨S_, .f32⟩
  | 16 => ⟨S4096, .f32⟩
  | 17 => ⟨S4096x1, .f32⟩
  | 18 => ⟨S4096x1, .f32⟩
  | 19 => ⟨S4096x3, .f32⟩
  | 20 => ⟨S4096x3, .f32⟩
  | 21 => ⟨S_, .f32⟩
  | 22 => ⟨S4096, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i1⟩
  | 29 => ⟨S4096, .i1⟩
  | 30 => ⟨S1024x20000, .f32⟩
  | 31 => ⟨S4096x20000, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x20000, .f32⟩
  | 39 => ⟨S4096x20000, .f32⟩
  | 40 => ⟨S4096x20000, .f32⟩
  | 41 => ⟨S_, .f32⟩
  | 42 => ⟨S4096, .f32⟩
  | 43 => ⟨S4096x1, .f32⟩
  | 44 => ⟨S4096x1, .f32⟩
  | 45 => ⟨S4096x20000, .f32⟩
  | 46 => ⟨S4096x20000, .f32⟩
  | 47 => ⟨S_, .i32⟩
  | 48 => ⟨S4096, .i32⟩
  | 49 => ⟨S4096, .i32⟩
  | 50 => ⟨S_, .i32⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096x1, .i32⟩
  | 59 => ⟨S_, .i32⟩
  | 60 => ⟨S4096x1, .i32⟩
  | 61 => ⟨S4096x1, .i1⟩
  | 62 => ⟨S_, .i32⟩
  | 63 => ⟨S4096x1, .i32⟩
  | 64 => ⟨S4096x1, .i32⟩
  | 65 => ⟨S4096x1, .i32⟩
  | 66 => ⟨S4096x1x1, .i32⟩
  | 67 => ⟨S1, .i32⟩
  | 68 => ⟨S_, .i32⟩
  | 69 => ⟨S4096x1x1, .i32⟩
  | 70 => ⟨S4096x1x1, .i1⟩
  | 71 => ⟨S1x1x1, .i32⟩
  | 72 => ⟨S4096x1x1, .i32⟩
  | 73 => ⟨S4096x1x1, .i1⟩
  | 74 => ⟨S4096x1x1, .i1⟩
  | 75 => ⟨S_, .i1⟩
  | 76 => ⟨S4096x1, .i1⟩
  | 77 => ⟨S4096x1, .f32⟩
  | 78 => ⟨S_, .f32⟩
  | 79 => ⟨S4096x1, .f32⟩
  | 80 => ⟨S4096x1, .f32⟩
  | 81 => ⟨S4096, .f32⟩
  | 82 => ⟨S4096x1, .f32⟩
  | 83 => ⟨S4096, .f32⟩
  | 84 => ⟨S4096, .f32⟩
  | 85 => ⟨S4096, .f32⟩
  | 86 => ⟨S4096, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i1⟩
  | 93 => ⟨S4096, .i1⟩
  | 94 => ⟨S1024x20000, .f32⟩
  | 95 => ⟨S4096x20000, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1, .f32⟩
  | 102 => ⟨S4096x20000, .f32⟩
  | 103 => ⟨S4096x20000, .f32⟩
  | 104 => ⟨S4096x20000, .f32⟩
  | 105 => ⟨S_, .f32⟩
  | 106 => ⟨S4096, .f32⟩
  | 107 => ⟨S4096x1, .f32⟩
  | 108 => ⟨S4096x1, .f32⟩
  | 109 => ⟨S4096x20000, .f32⟩
  | 110 => ⟨S4096x20000, .f32⟩
  | 111 => ⟨S_, .i32⟩
  | 112 => ⟨S4096, .i32⟩
  | 113 => ⟨S4096, .i32⟩
  | 114 => ⟨S_, .i32⟩
  | 115 => ⟨S_, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S4096x1, .i32⟩
  | 123 => ⟨S_, .i32⟩
  | 124 => ⟨S4096x1, .i32⟩
  | 125 => ⟨S4096x1, .i1⟩
  | 126 => ⟨S_, .i32⟩
  | 127 => ⟨S4096x1, .i32⟩
  | _ => ⟨S4096x1024, .f32⟩

abbrev hbmTy0_1 (i : Nat) : BufTy := match i % 128 with
  | 0 => ⟨S4096x1, .i32⟩
  | 1 => ⟨S4096x1, .i32⟩
  | 2 => ⟨S4096x1x1, .i32⟩
  | 3 => ⟨S1, .i32⟩
  | 4 => ⟨S_, .i32⟩
  | 5 => ⟨S4096x1x1, .i32⟩
  | 6 => ⟨S4096x1x1, .i1⟩
  | 7 => ⟨S1x1x1, .i32⟩
  | 8 => ⟨S4096x1x1, .i32⟩
  | 9 => ⟨S4096x1x1, .i1⟩
  | 10 => ⟨S4096x1x1, .i1⟩
  | 11 => ⟨S_, .i1⟩
  | 12 => ⟨S4096x1, .i1⟩
  | 13 => ⟨S4096x1, .f32⟩
  | 14 => ⟨S_, .f32⟩
  | 15 => ⟨S4096x1, .f32⟩
  | 16 => ⟨S4096x1, .f32⟩
  | 17 => ⟨S4096, .f32⟩
  | 18 => ⟨S4096x1, .f32⟩
  | 19 => ⟨S4096, .f32⟩
  | 20 => ⟨S4096, .f32⟩
  | 21 => ⟨S4096, .f32⟩
  | 22 => ⟨S4096, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i1⟩
  | 29 => ⟨S4096, .i1⟩
  | 30 => ⟨S1024x10257, .f32⟩
  | 31 => ⟨S4096x10257, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x10257, .f32⟩
  | 39 => ⟨S4096x10257, .f32⟩
  | 40 => ⟨S4096x10257, .f32⟩
  | 41 => ⟨S_, .f32⟩
  | 42 => ⟨S4096, .f32⟩
  | 43 => ⟨S4096x1, .f32⟩
  | 44 => ⟨S4096x1, .f32⟩
  | 45 => ⟨S4096x10257, .f32⟩
  | 46 => ⟨S4096x10257, .f32⟩
  | 47 => ⟨S_, .i32⟩
  | 48 => ⟨S4096, .i32⟩
  | 49 => ⟨S4096, .i32⟩
  | 50 => ⟨S_, .i32⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096x1, .i32⟩
  | 59 => ⟨S_, .i32⟩
  | 60 => ⟨S4096x1, .i32⟩
  | 61 => ⟨S4096x1, .i1⟩
  | 62 => ⟨S_, .i32⟩
  | 63 => ⟨S4096x1, .i32⟩
  | 64 => ⟨S4096x1, .i32⟩
  | 65 => ⟨S4096x1, .i32⟩
  | 66 => ⟨S4096x1x1, .i32⟩
  | 67 => ⟨S1, .i32⟩
  | 68 => ⟨S_, .i32⟩
  | 69 => ⟨S4096x1x1, .i32⟩
  | 70 => ⟨S4096x1x1, .i1⟩
  | 71 => ⟨S1x1x1, .i32⟩
  | 72 => ⟨S4096x1x1, .i32⟩
  | 73 => ⟨S4096x1x1, .i1⟩
  | 74 => ⟨S4096x1x1, .i1⟩
  | 75 => ⟨S_, .i1⟩
  | 76 => ⟨S4096x1, .i1⟩
  | 77 => ⟨S4096x1, .f32⟩
  | 78 => ⟨S_, .f32⟩
  | 79 => ⟨S4096x1, .f32⟩
  | 80 => ⟨S4096x1, .f32⟩
  | 81 => ⟨S4096, .f32⟩
  | 82 => ⟨S4096x1, .f32⟩
  | 83 => ⟨S4096, .f32⟩
  | 84 => ⟨S4096, .f32⟩
  | 85 => ⟨S4096, .f32⟩
  | 86 => ⟨S4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v11 : Ref sig .tc := ⟨.hbm, 46, rfl⟩
abbrev main_c_1 : Ref sig .tc := ⟨.hbm, 47, rfl⟩
abbrev main_v12 : Ref sig .tc := ⟨.hbm, 48, rfl⟩
abbrev main_v13 : Ref sig .tc := ⟨.hbm, 49, rfl⟩
abbrev main_c_2 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v14 : Ref sig .tc := ⟨.hbm, 57, rfl⟩
abbrev main_v15 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_4 : Ref sig .tc := ⟨.hbm, 87, rfl⟩
abbrev main_v23 : Ref sig .tc := ⟨.hbm, 88, rfl⟩
abbrev main_v24 : Ref sig .tc := ⟨.hbm, 89, rfl⟩
abbrev main_c_5 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_call5_cst : Ref sig .tc := ⟨.hbm, 96, rfl⟩
abbrev main_call5_v0 : Ref sig .tc := ⟨.hbm, 97, rfl⟩
abbrev main_call5_cst_0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_v5 : Ref sig .tc := ⟨.hbm, 103, rfl⟩
abbrev main_call5_v6 : Ref sig .tc := ⟨.hbm, 104, rfl⟩
abbrev main_call5_cst_1 : Ref sig .tc := ⟨.hbm, 105, rfl⟩
abbrev main_call5_v7 : Ref sig .tc := ⟨.hbm, 106, rfl⟩
abbrev main_call5_v8 : Ref sig .tc := ⟨.hbm, 107, rfl⟩
abbrev main_call5_v9 : Ref sig .tc := ⟨.hbm, 108, rfl⟩
abbrev main_call5_v10 : Ref sig .tc := ⟨.hbm, 109, rfl⟩
abbrev main_v30 : Ref sig .tc := ⟨.hbm, 110, rfl⟩
abbrev main_c_6 : Ref sig .tc := ⟨.hbm, 111, rfl⟩
abbrev main_v31 : Ref sig .tc := ⟨.hbm, 112, rfl⟩
abbrev main_v32 : Ref sig .tc := ⟨.hbm, 113, rfl⟩
abbrev main_c_7 : Ref sig .tc := ⟨.hbm, 114, rfl⟩
abbrev main_c_8 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_v33 : Ref sig .tc := ⟨.hbm, 121, rfl⟩
abbrev main_v34 : Ref sig .tc := ⟨.hbm, 122, rfl⟩
abbrev main_call7_c : Ref sig .tc := ⟨.hbm, 123, rfl⟩
abbrev main_call7_v0 : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_v5 : Ref sig .tc := ⟨.hbm, 130, rfl⟩
abbrev main_call7_c_1 : Ref sig .tc := ⟨.hbm, 131, rfl⟩
abbrev main_call7_c_2 : Ref sig .tc := ⟨.hbm, 132, rfl⟩
abbrev main_call7_v6 : Ref sig .tc := ⟨.hbm, 133, rfl⟩
abbrev main_call7_v7 : Ref sig .tc := ⟨.hbm, 134, rfl⟩
abbrev main_call7_v8 : Ref sig .tc := ⟨.hbm, 135, rfl⟩
abbrev main_call7_v9 : Ref sig .tc := ⟨.hbm, 136, rfl⟩
abbrev main_call7_v10 : Ref sig .tc := ⟨.hbm, 137, rfl⟩
abbrev main_call7_v11 : Ref sig .tc := ⟨.hbm, 138, rfl⟩
abbrev main_call7_c_3 : Ref sig .tc := ⟨.hbm, 139, rfl⟩
abbrev main_call7_v12 : Ref sig .tc := ⟨.hbm, 140, rfl⟩
abbrev main_call7_v13 : Ref sig .tc := ⟨.hbm, 141, rfl⟩
abbrev main_call7_cst : Ref sig .tc := ⟨.hbm, 142, rfl⟩
abbrev main_call7_v14 : Ref sig .tc := ⟨.hbm, 143, rfl⟩
abbrev main_v35 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_c_9 : Ref sig .tc := ⟨.hbm, 151, rfl⟩
abbrev main_v42 : Ref sig .tc := ⟨.hbm, 152, rfl⟩
abbrev main_v43 : Ref sig .tc := ⟨.hbm, 153, rfl⟩
abbrev main_c_10 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_call9_cst : Ref sig .tc := ⟨.hbm, 160, rfl⟩
abbrev main_call9_v0 : Ref sig .tc := ⟨.hbm, 161, rfl⟩
abbrev main_call9_cst_0 : Ref sig .tc := ⟨.hbm, 162, rfl⟩
abbrev main_call9_v1 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_call9_v5 : Ref sig .tc := ⟨.hbm, 167, rfl⟩
abbrev main_call9_v6 : Ref sig .tc := ⟨.hbm, 168, rfl⟩
abbrev main_call9_cst_1 : Ref sig .tc := ⟨.hbm, 169, rfl⟩
abbrev main_call9_v7 : Ref sig .tc := ⟨.hbm, 170, rfl⟩
abbrev main_call9_v8 : Ref sig .tc := ⟨.hbm, 171, rfl⟩
abbrev main_call9_v9 : Ref sig .tc := ⟨.hbm, 172, rfl⟩
abbrev main_call9_v10 : Ref sig .tc := ⟨.hbm, 173, rfl⟩
abbrev main_v49 : Ref sig .tc := ⟨.hbm, 174, rfl⟩
abbrev main_c_11 : Ref sig .tc := ⟨.hbm, 175, rfl⟩
abbrev main_v50 : Ref sig .tc := ⟨.hbm, 176, rfl⟩
abbrev main_v51 : Ref sig .tc := ⟨.hbm, 177, rfl⟩
abbrev main_c_12 : Ref sig .tc := ⟨.hbm, 178, rfl⟩
abbrev main_c_13 : Ref sig .tc := ⟨.hbm, 179, rfl⟩
abbrev main_call10_v0 : Ref sig .tc := ⟨.hbm, 180, rfl⟩
abbrev main_call10_v1 : Ref sig .tc := ⟨.hbm, 181, rfl⟩
abbrev main_call10_v2 : Ref sig .tc := ⟨.hbm, 182, rfl⟩
abbrev main_call10_v3 : Ref sig .tc := ⟨.hbm, 183, rfl⟩
abbrev main_call10_v4 : Ref sig .tc := ⟨.hbm, 184, rfl⟩
abbrev main_v52 : Ref sig .tc := ⟨.hbm, 185, rfl⟩
abbrev main_v53 : Ref sig .tc := ⟨.hbm, 186, rfl⟩
abbrev main_call11_c : Ref sig .tc := ⟨.hbm, 187, rfl⟩
abbrev main_call11_v0 : Ref sig .tc := ⟨.hbm, 188, rfl⟩
abbrev main_call11_v1 : Ref sig .tc := ⟨.hbm, 189, rfl⟩
abbrev main_call11_c_0 : Ref sig .tc := ⟨.hbm, 190, rfl⟩
abbrev main_call11_v2 : Ref sig .tc := ⟨.hbm, 191, rfl⟩
abbrev main_call11_v3 : Ref sig .tc := ⟨.hbm, 192, rfl⟩
abbrev main_call11_v4 : Ref sig .tc := ⟨.hbm, 193, rfl⟩
abbrev main_call11_v5 : Ref sig .tc := ⟨.hbm, 194, rfl⟩
abbrev main_call11_c_1 : Ref sig .tc := ⟨.hbm, 195, rfl⟩
abbrev main_call11_c_2 : Ref sig .tc := ⟨.hbm, 196, rfl⟩
abbrev main_call11_v6 : Ref sig .tc := ⟨.hbm, 197, rfl⟩
abbrev main_call11_v7 : Ref sig .tc := ⟨.hbm, 198, rfl⟩
abbrev main_call11_v8 : Ref sig .tc := ⟨.hbm, 199, rfl⟩
abbrev main_call11_v9 : Ref sig .tc := ⟨.hbm, 200, rfl⟩
abbrev main_call11_v10 : Ref sig .tc := ⟨.hbm, 201, rfl⟩
abbrev main_call11_v11 : Ref sig .tc := ⟨.hbm, 202, rfl⟩
abbrev main_call11_c_3 : Ref sig .tc := ⟨.hbm, 203, rfl⟩
abbrev main_call11_v12 : Ref sig .tc := ⟨.hbm, 204, rfl⟩
abbrev main_call11_v13 : Ref sig .tc := ⟨.hbm, 205, rfl⟩
abbrev main_call11_cst : Ref sig .tc := ⟨.hbm, 206, rfl⟩
abbrev main_call11_v14 : Ref sig .tc := ⟨.hbm, 207, rfl⟩
abbrev main_v54 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_v58 : Ref sig .tc := ⟨.hbm, 212, rfl⟩
abbrev main_v59 : Ref sig .tc := ⟨.hbm, 213, rfl⟩
abbrev main_v60 : Ref sig .tc := ⟨.hbm, 214, rfl⟩

abbrev nD : Nat := 1
abbrev τ : Topo := Topo.v7x

variable {F : FTy → Type} [FloatOps F]

class Facts₀ : Prop where
  transposes_S3x1024_S1024x3_1_0 : S3x1024.Transposes [1, 0] S1024x3
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  slices_S1024x50257_S1024x20000_0_0 : S1024x50257.Slices ![0, 0] S1024x20000
  reducesTo_S4096x20000_S4096_d1 : S4096x20000.ReducesTo [1] S4096
  bcast_S4096x1_S4096x20000_0_1 : S4096x1.BroadcastsInDim S4096x20000 (![0, 1] : Fin 2 → Fin S4096x20000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  slices_S4096x3_S4096x1_0_0 : S4096x3.Slices ![0, 0] S4096x1
  slices_S1024x50257_S1024x20000_0_20000 : S1024x50257.Slices ![0, 20000] S1024x20000
  slices_S4096x3_S4096x1_0_1 : S4096x3.Slices ![0, 1] S4096x1
  slices_S1024x50257_S1024x10257_0_40000 : S1024x50257.Slices ![0, 40000] S1024x10257
  reducesTo_S4096x10257_S4096_d1 : S4096x10257.ReducesTo [1] S4096
  bcast_S4096x1_S4096x10257_0_1 : S4096x1.BroadcastsInDim S4096x10257 (![0, 1] : Fin 2 → Fin S4096x10257.rank)
  slices_S4096x3_S4096x1_0_2 : S4096x3.Slices ![0, 2] S4096x1
  dot_S4096x1024_S1024x3_S4096x3_1_0_0_1_n_n_wf : DotDims.WF S4096x1024 S1024x3 S4096x3 [1] [0] [0] [1] [] []
  dot_S4096x1024_S1024x20000_S4096x20000_1_0_0_1_n_n_wf : DotDims.WF S4096x1024 S1024x20000 S4096x20000 [1] [0] [0] [1] [] []
  gather_S4096x20000_S4096x1x1_S4096x1_n_1_0_0_1_2_11_wf : GatherDims.WF S4096x20000 S4096x1x1 S4096x1 [] [1] [0] [1] [0] 2 ![1, 1]
  dot_S4096x1024_S1024x10257_S4096x10257_1_0_0_1_n_n_wf : DotDims.WF S4096x1024 S1024x10257 S4096x10257 [1] [0] [0] [1] [] []
  gather_S4096x10257_S4096x1x1_S4096x1_n_1_0_0_1_2_11_wf : GatherDims.WF S4096x10257 S4096x1x1 S4096x1 [] [1] [0] [1] [0] 2 ![1, 1]

variable [Facts₀]

def dot_S4096x1024_S1024x3_S4096x3_1_0_0_1_n_n : DotDims S4096x1024 S1024x3 S4096x3 where
  lhsContracting := [1]
  rhsContracting := [0]
  lhsNonContracting := [0]
  rhsNonContracting := [1]
  lhsBatch := []
  rhsBatch := []
  wf := dot_S4096x1024_S1024x3_S4096x3_1_0_0_1_n_n_wf
def dot_S4096x1024_S1024x20000_S4096x20000_1_0_0_1_n_n : DotDims S4096x1024 S1024x20000 S4096x20000 where
  lhsContracting := [1]
  rhsContracting := [0]
  lhsNonContracting := [0]
  rhsNonContracting := [1]
  lhsBatch := []
  rhsBatch := []
  wf := dot_S4096x1024_S1024x20000_S4096x20000_1_0_0_1_n_n_wf
def gather_S4096x20000_S4096x1x1_S4096x1_n_1_0_0_1_2_11 : GatherDims S4096x20000 S4096x1x1 S4096x1 where
  offsetDims := []
  collapsedSliceDims := [1]
  operandBatchingDims := [0]
  startIndicesBatchingDims := [0]
  startIndexMap := [1]
  indexVectorDim := 2
  sliceSizes := ![1, 1]
  wf := gather_S4096x20000_S4096x1x1_S4096x1_n_1_0_0_1_2_11_wf
def dot_S4096x1024_S1024x10257_S4096x10257_1_0_0_1_n_n : DotDims S4096x1024 S1024x10257 S4096x10257 where
  lhsContracting := [1]
  rhsContracting := [0]
  lhsNonContracting := [0]
  rhsNonContracting := [1]
  lhsBatch := []
  rhsBatch := []
  wf := dot_S4096x1024_S1024x10257_S4096x10257_1_0_0_1_n_n_wf
def gather_S4096x10257_S4096x1x1_S4096x1_n_1_0_0_1_2_11 : GatherDims S4096x10257 S4096x1x1 S4096x1 where
  offsetDims := []
  collapsedSliceDims := [1]
  operandBatchingDims := [0]
  startIndicesBatchingDims := [0]
  startIndexMap := [1]
  indexVectorDim := 2
  sliceSizes := ![1, 1]
  wf := gather_S4096x10257_S4096x1x1_S4096x1_n_1_0_0_1_2_11_wf

class Facts : Prop extends Facts₀ where

variable [Facts]
-- ==== Proof.K.Body0.lean ====
/-
  One grid point of the per-cluster kernel (this cluster: lo = 0, C = 20000 columns, 20 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 19) the point also writes the row
  tile of the result, select(lo ≤ label < lo + C, (0 − cll) − (t' − (m' + log l')), 0). The transition is stated over the
  program's own value terms, for any float instance; nothing here evaluates them.
-/
import proofs.«427347_j10273561772327_2_alg».proof.Proof.Gen.Kernel.Skeleton
import proofs.«427347_j10273561772327_2_alg».proof.Proof.Gen.Kernel.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the column coordinate -/

/-- The reset condition holds exactly at the first column tile. -/
theorem first_iff (i : grid0.Coords) :
    (Scalar.cmpi .ne (Scalar.extui (Scalar.cmpi .eq (BitVec.ofNat 32 (i 1).val) 0#32)) 0#32 = 1#1) ↔ (i 1).val = 0 := by
  have h : ∀ j : Fin 20, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid0.Coords) : k0_cond2 i = 1#1 ↔ (i 1).val = 19 := by
  have h : ∀ j : Fin 20, (Scalar.cmpi .ne (Scalar.extui (Scalar.cmpi .eq (BitVec.ofNat 32 j.val) 19#32)) 0#32 = 1#1) ↔ j.val = 19 := by decide
  exact h (i 1)

/-! ## The carried columns after a point -/

/-- The running maximum a point starts from: the fill value at the first column tile, else what it finds. -/
def mIn (i : grid0.Coords) (sm : Vec F S1024x1 .f32) : Vec F S1024x1 .f32 := if (i 1).val = 0 then k0_pay5 else sm
/-- The running denominator a point starts from: zero at the first column tile. -/
def lIn (i : grid0.Coords) (sl : Vec F S1024x1 .f32) : Vec F S1024x1 .f32 := if (i 1).val = 0 then k0_pay6 else sl
/-- The running target score a point starts from: zero at the first column tile. -/
def tIn (i : grid0.Coords) (st : Vec F S1024x1 .f32) : Vec F S1024x1 .f32 := if (i 1).val = 0 then k0_pay7 else st

/-- The running maximum after the point. -/
def mOut (i : grid0.Coords) (x w : Vec F S1024x1024 .f32) (sm : Vec F S1024x1 .f32) : Vec F S1024x1 .f32 :=
  k0_pay3 (k0_pay9 i x w) (mIn i sm)
/-- The running denominator after the point. -/
def lOut (i : grid0.Coords) (x w : Vec F S1024x1024 .f32) (sm sl : Vec F S1024x1 .f32) : Vec F S1024x1 .f32 :=
  k0_pay2 (k0_pay9 i x w) (mIn i sm) (mIn i sm) (lIn i sl)
/-- The running target score after the point. -/
def tOut (i : grid0.Coords) (x w : Vec F S1024x1024 .f32) (y : Vec F S1024x1 .i32) (st : Vec F S1024x1 .f32) : Vec F S1024x1 .f32 :=
  k0_pay11 i x w y (tIn i st)
/-- The row tile of the result written at the last column tile. -/
def rowOut (i : grid0.Coords) (x w : Vec F S1024x1024 .f32) (y : Vec F S1024x1 .i32) (cl sm sl st : Vec F S1024x1 .f32) : Vec F S1024x1 .f32 :=
  k0_pay4 (k0_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid0.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid0.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid0.Coords) (hlast : k0_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc0__cluster_kernel i M2 hM2 M3 hM3 M4 hM4 M5 hM5 M6 hM6 M7 hM7 M8 hM8 M9 hM9) K := by
  simp only [cc0__cluster_kernel_eq_skeleton]; unfold cc0__cluster_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid0.Coords) (hlast : k0_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc0__cluster_kernel i M2 hM2 M3 hM3 M4 hM4 M5 hM5 M6 hM6 M7 hM7 M8 hM8 M9 hM9) K := by
  simp only [cc0__cluster_kernel_eq_skeleton]; unfold cc0__cluster_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.Kernel.Body0
end
-- ==== Proof.K.Body1.lean ====
/-
  One grid point of the per-cluster kernel (this cluster: lo = 20000, C = 20000 columns, 20 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 19) the point also writes the row
  tile of the result, select(lo ≤ label < lo + C, (0 − cll) − (t' − (m' + log l')), 0). The transition is stated over the
  program's own value terms, for any float instance; nothing here evaluates them.
-/
import proofs.«427347_j10273561772327_2_alg».proof.Proof.Gen.Kernel.Skeleton
import proofs.«427347_j10273561772327_2_alg».proof.Proof.Gen.Kernel.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the column coordinate -/

/-- The reset condition holds exactly at the first column tile. -/
theorem first_iff (i : grid1.Coords) :
    (Scalar.cmpi .ne (Scalar.extui (Scalar.cmpi .eq (BitVec.ofNat 32 (i 1).val) 0#32)) 0#32 = 1#1) ↔ (i 1).val = 0 := by
  have h : ∀ j : Fin 20, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid1.Coords) : k1_cond2 i = 1#1 ↔ (i 1).val = 19 := by
  have h : ∀ j : Fin 20, (Scalar.cmpi .ne (Scalar.extui (Scalar.cmpi .eq (BitVec.ofNat 32 j.val) 19#32)) 0#32 = 1#1) ↔ j.val = 19 := by decide
  exact h (i 1)

/-! ## The carried columns after a point -/

/-- The running maximum a point starts from: the fill value at the first column tile, else what it finds. -/
def mIn (i : grid1.Coords) (sm : Vec F S1024x1 .f32) : Vec F S1024x1 .f32 := if (i 1).val = 0 then k1_pay5 else sm
/-- The running denominator a point starts from: zero at the first column tile. -/
def lIn (i : grid1.Coords) (sl : Vec F S1024x1 .f32) : Vec F S1024x1 .f32 := if (i 1).val = 0 then k1_pay6 else sl
/-- The running target score a point starts from: zero at the first column tile. -/
def tIn (i : grid1.Coords) (st : Vec F S1024x1 .f32) : Vec F S1024x1 .f32 := if (i 1).val = 0 then k1_pay7 else st

/-- The running maximum after the point. -/
def mOut (i : grid1.Coords) (x w : Vec F S1024x1024 .f32) (sm : Vec F S1024x1 .f32) : Vec F S1024x1 .f32 :=
  k1_pay3 (k1_pay9 i x w) (mIn i sm)
/-- The running denominator after the point. -/
def lOut (i : grid1.Coords) (x w : Vec F S1024x1024 .f32) (sm sl : Vec F S1024x1 .f32) : Vec F S1024x1 .f32 :=
  k1_pay2 (k1_pay9 i x w) (mIn i sm) (mIn i sm) (lIn i sl)
/-- The running target score after the point. -/
def tOut (i : grid1.Coords) (x w : Vec F S1024x1024 .f32) (y : Vec F S1024x1 .i32) (st : Vec F S1024x1 .f32) : Vec F S1024x1 .f32 :=
  k1_pay11 i x w y (tIn i st)
/-- The row tile of the result written at the last column tile. -/
def rowOut (i : grid1.Coords) (x w : Vec F S1024x1024 .f32) (y : Vec F S1024x1 .i32) (cl sm sl st : Vec F S1024x1 .f32) : Vec F S1024x1 .f32 :=
  k1_pay4 (k1_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid1.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid1.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid1.Coords) (hlast : k1_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc1__cluster_kernel i M2 hM2 M3 hM3 M4 hM4 M5 hM5 M6 hM6 M7 hM7 M8 hM8 M9 hM9) K := by
  simp only [cc1__cluster_kernel_eq_skeleton]; unfold cc1__cluster_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid1.Coords) (hlast : k1_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc1__cluster_kernel i M2 hM2 M3 hM3 M4 hM4 M5 hM5 M6 hM6 M7 hM7 M8 hM8 M9 hM9) K := by
  simp only [cc1__cluster_kernel_eq_skeleton]; unfold cc1__cluster_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.Kernel.Body1
end
-- ==== Proof.K.Body2.lean ====
/-
  One grid point of the per-cluster kernel (this cluster: lo = 40000, C = 10257 columns, 11 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 10) the point also writes the row
  tile of the result, select(lo ≤ label < lo + C, (0 − cll) − (t' − (m' + log l')), 0). The transition is stated over the
  program's own value terms, for any float instance; nothing here evaluates them.
-/
import proofs.«427347_j10273561772327_2_alg».proof.Proof.Gen.Kernel.Skeleton
import proofs.«427347_j10273561772327_2_alg».proof.Proof.Gen.Kernel.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the column coordinate -/

/-- The reset condition holds exactly at the first column tile. -/
theorem first_iff (i : grid2.Coords) :
    (Scalar.cmpi .ne (Scalar.extui (Scalar.cmpi .eq (BitVec.ofNat 32 (i 1).val) 0#32)) 0#32 = 1#1) ↔ (i 1).val = 0 := by
  have h : ∀ j : Fin 11, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid2.Coords) : k2_cond2 i = 1#1 ↔ (i 1).val = 10 := by
  have h : ∀ j : Fin 11, (Scalar.cmpi .ne (Scalar.extui (Scalar.cmpi .eq (BitVec.ofNat 32 j.val) 10#32)) 0#32 = 1#1) ↔ j.val = 10 := by decide
  exact h (i 1)

/-! ## The carried columns after a point -/

/-- The running maximum a point starts from: the fill value at the first column tile, else what it finds. -/
def mIn (i : grid2.Coords) (sm : Vec F S1024x1 .f32) : Vec F S1024x1 .f32 := if (i 1).val = 0 then k2_pay5 else sm
/-- The running denominator a point starts from: zero at the first column tile. -/
def lIn (i : grid2.Coords) (sl : Vec F S1024x1 .f32) : Vec F S1024x1 .f32 := if (i 1).val = 0 then k2_pay6 else sl
/-- The running target score a point starts from: zero at the first column tile. -/
def tIn (i : grid2.Coords) (st : Vec F S1024x1 .f32) : Vec F S1024x1 .f32 := if (i 1).val = 0 then k2_pay7 else st

/-- The running maximum after the point. -/
def mOut (i : grid2.Coords) (x w : Vec F S1024x1024 .f32) (sm : Vec F S1024x1 .f32) : Vec F S1024x1 .f32 :=
  k2_pay3 (k2_pay9 i x w) (mIn i sm)
/-- The running denominator after the point. -/
def lOut (i : grid2.Coords) (x w : Vec F S1024x1024 .f32) (sm sl : Vec F S1024x1 .f32) : Vec F S1024x1 .f32 :=
  k2_pay2 (k2_pay9 i x w) (mIn i sm) (mIn i sm) (lIn i sl)
/-- The running target score after the point. -/
def tOut (i : grid2.Coords) (x w : Vec F S1024x1024 .f32) (y : Vec F S1024x1 .i32) (st : Vec F S1024x1 .f32) : Vec F S1024x1 .f32 :=
  k2_pay11 i x w y (tIn i st)
/-- The row tile of the result written at the last column tile. -/
def rowOut (i : grid2.Coords) (x w : Vec F S1024x1024 .f32) (y : Vec F S1024x1 .i32) (cl sm sl st : Vec F S1024x1 .f32) : Vec F S1024x1 .f32 :=
  k2_pay4 (k2_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid2.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid2.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid2.Coords) (hlast : k2_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc2__cluster_kernel i M2 hM2 M3 hM3 M4 hM4 M5 hM5 M6 hM6 M7 hM7 M8 hM8 M9 hM9) K := by
  simp only [cc2__cluster_kernel_eq_skeleton]; unfold cc2__cluster_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid2.Coords) (hlast : k2_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc2__cluster_kernel i M2 hM2 M3 hM3 M4 hM4 M5 hM5 M6 hM6 M7 hM7 M8 hM8 M9 hM9) K := by
  simp only [cc2__cluster_kernel_eq_skeleton]; unfold cc2__cluster_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.Kernel.Body2
end
-- ==== Proof.K.RegB.lean ====
/-
  The three kernel regions of the word-level program as segments of a run whose proof data are RELATIONAL.
  Each region streams a log-sum-exp over the column tiles of its cluster: per row tile it carries a running maximum, a
  running denominator and a running target score in three scratch columns, and writes one row tile of its result at the
  last column tile. The weight window's last column tile overhangs the array, so its fetch leaves words in the staging
  tile that nothing names, and the matrix product reads the whole tile: what a region leaves in its result array is not
  named here. It does not have to be. The data below fix each window's array at the region's ENTRY, say nothing of what
  a point leaves in any staging tile (the relation that always holds), keep as invariant the scoped buffers no window
  stages (the three scratch columns among them, at some contents) and the generator register, and owe nothing. The body
  obligation is then: at any point, whatever the staging tiles and the scratch columns hold, the kernel's body runs to its
  return and hands every buffer back — which the per-point transitions give, at an inner point and at a last column tile.
  An input array is never written, so at a region's exit the four input arrays hold their entry contents and the result
  array holds SOME contents; the thread state after a region is therefore existential in those contents.
-/
import proofs.«427347_j10273561772327_2_alg».proof.Proof.Gen.Kernel.Regions
import proofs.«427347_j10273561772327_2_alg».proof.Proof.Gen.Kernel.Points
import proofs.«427347_j10273561772327_2_alg».proof.Proof.K.Body0
import proofs.«427347_j10273561772327_2_alg».proof.Proof.K.Body1
import proofs.«427347_j10273561772327_2_alg».proof.Proof.K.Body2
import Idealize.ShloMosaic.Lib.Pipeline.RegionsLoop
import Idealize.ShloMosaic.Lib.Tactic

set_option maxRecDepth 16384

noncomputable section

namespace Cert.Kernel.RegB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- A core's TensorCore buffers at some moment, reference by reference. -/
abbrev Vals : Type := (c : Dev nD) → (b : Ref sig .tc) → Buf (Elt F) ((c : Thread nD τ).loc b)

/-! ## A whole buffer held is its whole memref owned -/

theorem owns_of_pt (c : Dev nD) (b : Ref sig .tc) (f : b.ty.Contents (Elt F)) :
    ((((c : Thread nD τ).loc b) ↦{fullShare} f) : sProp 𝕄) ⊢ owns (c : Thread nD τ) (Memref.whole b) fullShare f :=
  Entails.of_eq (owns_whole (c : Thread nD τ) b fullShare f).symm

theorem pt_of_owns (c : Dev nD) (b : Ref sig .tc) (f : b.ty.Contents (Elt F)) :
    (owns (c : Thread nD τ) (Memref.whole b) fullShare f : sProp 𝕄) ⊢ (((c : Thread nD τ).loc b) ↦{fullShare} f) :=
  Entails.of_eq (owns_whole (c : Thread nD τ) b fullShare f)

/-! ## Region 0: the proof data and the body obligation -/

/-- Region 0's relational data on core `c`, entered with the buffers at `V`: each window's array as `V` has it; no
    constraint on what a point leaves in a staging tile; the invariant the scoped buffers no window stages and the
    generator register; full shares; nothing owed. -/
def rdat0 (V : Vals (F := F)) (c : Dev nD) : RDat τ (Elt F) Unit ℕ (UR sig nD τ) ℕ cfg0 c where
  A w := V c (Pipeline.arrRef spec0 w)
  after _ _ _ _ := True
  Φ _ := Pipeline.ΦA spec0 c
  q _ := fullShare
  owed _ := 0

/-- One point of region 0, whatever the five staging tiles and the three scratch columns hold: the body runs to its
    return and every buffer comes back, at some contents. -/
theorem sound_body0 (V : Vals (F := F)) (c : Dev nD) (t : Fin cfg0.N)
    (Y : (w : Fin cfg0.W) → (cfg0.win w).block.Idx → Elt F (cfg0.win w).elt) :
    iprop((rdat0 V c).Φ t.castSucc ∗ (rdat0 V c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdat0 V c).Φ t.succ ∗ (rdat0 V c).owesAt () t.succ
            ∗ (∃ X, ⌜(rdat0 V c).after 0 t (Y 0) X⌝ ∗ owns (c : Thread nD τ) (st0_0 t) fullShare X)
            ∗ (∃ X, ⌜(rdat0 V c).after 1 t (Y 1) X⌝ ∗ owns (c : Thread nD τ) (st0_1 t) fullShare X)
            ∗ (∃ X, ⌜(rdat0 V c).after 2 t (Y 2) X⌝ ∗ owns (c : Thread nD τ) (st0_2 t) fullShare X)
            ∗ (∃ X, ⌜(rdat0 V c).after 3 t (Y 3) X⌝ ∗ owns (c : Thread nD τ) (st0_3 t) fullShare X)
            ∗ (∃ X, ⌜(rdat0 V c).after 4 t (Y 4) X⌝ ∗ owns (c : Thread nD τ) (st0_4 t) fullShare X))) := by
  unfold bodyAt0
  rw [show (rdat0 V c).Φ t.castSucc = Pipeline.ΦA spec0 c from rfl, show (rdat0 V c).Φ t.succ = Pipeline.ΦA spec0 c from rfl,
    show (rdat0 V c).owesAt () t.succ = (rdat0 V c).owesAt () t.castSucc from rfl]
  unfold Pipeline.ΦA
  rw [scopedRest0_split]
  iintro ⟨⟨⟨⟨⟨%f7, H7⟩, ⟨%f8, H8⟩, ⟨%f9, H9⟩⟩, Hbut⟩, Hp⟩, Ho, H0, H1, H2, H3, H4⟩
  ihave H7 := (owns_of_pt c cc0_scratch0 f7) $$ H7
  ihave H8 := (owns_of_pt c cc0_scratch1 f8) $$ H8
  ihave H9 := (owns_of_pt c cc0_scratch2 f9) $$ H9
  by_cases hlast : k0_cond2 (grid0.coords t) = 1#1
  · iapply (Body0.run_last c Set.univ (grid0.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc0_scratch0 _) $$ H7
    ihave H8 := (pt_of_owns c cc0_scratch1 _) $$ H8
    ihave H9 := (pt_of_owns c cc0_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial
  · iapply (Body0.run_inner c Set.univ (grid0.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc0_scratch0 _) $$ H7
    ihave H8 := (pt_of_owns c cc0_scratch1 _) $$ H8
    ihave H9 := (pt_of_owns c cc0_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial

/-- The body obligation of region 0's relational data, at every point. -/
theorem body_obligation0 (V : Vals (F := F)) (c : Dev nD) :
    (rdat0 (F := F) V c).BodyObligation (defs₀ (F := F)) Variants.none () Set.univ := fun t Y _ => by
  rw [bigSep_W0, bigSep_W0]
  exact sound_body0 V c t Y

/-! ## Region 1: the proof data and the body obligation -/

/-- Region 1's relational data on core `c`, entered with the buffers at `V`: each window's array as `V` has it; no
    constraint on what a point leaves in a staging tile; the invariant the scoped buffers no window stages and the
    generator register; full shares; nothing owed. -/
def rdat1 (V : Vals (F := F)) (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

/-- One point of region 1, whatever the five staging tiles and the three scratch columns hold: the body runs to its
    return and every buffer comes back, at some contents. -/
theorem sound_body1 (V : Vals (F := F)) (c : Dev nD) (t : Fin cfg1.N)
    (Y : (w : Fin cfg1.W) → (cfg1.win w).block.Idx → Elt F (cfg1.win w).elt) :
    iprop((rdat1 V c).Φ t.castSucc ∗ (rdat1 V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop((rdat1 V c).Φ t.succ ∗ (rdat1 V c).owesAt () t.succ
            ∗ (∃ X, ⌜(rdat1 V c).after 0 t (Y 0) X⌝ ∗ owns (c : Thread nD τ) (st1_0 t) fullShare X)
            ∗ (∃ X, ⌜(rdat1 V c).after 1 t (Y 1) X⌝ ∗ owns (c : Thread nD τ) (st1_1 t) fullShare X)
            ∗ (∃ X, ⌜(rdat1 V c).after 2 t (Y 2) X⌝ ∗ owns (c : Thread nD τ) (st1_2 t) fullShare X)
            ∗ (∃ X, ⌜(rdat1 V c).after 3 t (Y 3) X⌝ ∗ owns (c : Thread nD τ) (st1_3 t) fullShare X)
            ∗ (∃ X, ⌜(rdat1 V c).after 4 t (Y 4) X⌝ ∗ owns (c : Thread nD τ) (st1_4 t) fullShare X))) := by
  unfold bodyAt1
  rw [show (rdat1 V c).Φ t.castSucc = Pipeline.ΦA spec1 c from rfl, show (rdat1 V c).Φ t.succ = Pipeline.ΦA spec1 c from rfl,
    show (rdat1 V c).owesAt () t.succ = (rdat1 V c).owesAt () t.castSucc from rfl]
  unfold Pipeline.ΦA
  rw [scopedRest1_split]
  iintro ⟨⟨⟨⟨⟨%f7, H7⟩, ⟨%f8, H8⟩, ⟨%f9, H9⟩⟩, Hbut⟩, Hp⟩, Ho, H0, H1, H2, H3, H4⟩
  ihave H7 := (owns_of_pt c cc1_scratch0 f7) $$ H7
  ihave H8 := (owns_of_pt c cc1_scratch1 f8) $$ H8
  ihave H9 := (owns_of_pt c cc1_scratch2 f9) $$ H9
  by_cases hlast : k1_cond2 (grid1.coords t) = 1#1
  · iapply (Body1.run_last c Set.univ (grid1.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc1_scratch0 _) $$ H7
    ihave H8 := (pt_of_owns c cc1_scratch1 _) $$ H8
    ihave H9 := (pt_of_owns c cc1_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial
  · iapply (Body1.run_inner c Set.univ (grid1.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc1_scratch0 _) $$ H7
    ihave H8 := (pt_of_owns c cc1_scratch1 _) $$ H8
    ihave H9 := (pt_of_owns c cc1_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial

/-- The body obligation of region 1's relational data, at every point. -/
theorem body_obligation1 (V : Vals (F := F)) (c : Dev nD) :
    (rdat1 (F := F) V c).BodyObligation (defs₀ (F := F)) Variants.none () Set.univ := fun t Y _ => by
  rw [bigSep_W1, bigSep_W1]
  exact sound_body1 V c t Y

/-! ## Region 2: the proof data and the body obligation -/

/-- Region 2's relational data on core `c`, entered with the buffers at `V`: each window's array as `V` has it; no
    constraint on what a point leaves in a staging tile; the invariant the scoped buffers no window stages and the
    generator register; full shares; nothing owed. -/
def rdat2 (V : Vals (F := F)) (c : Dev nD) : RDat τ (Elt F) Unit ℕ (UR sig nD τ) ℕ cfg2 c where
  A w := V c (Pipeline.arrRef spec2 w)
  after _ _ _ _ := True
  Φ _ := Pipeline.ΦA spec2 c
  q _ := fullShare
  owed _ := 0

/-- One point of region 2, whatever the five staging tiles and the three scratch columns hold: the body runs to its
    return and every buffer comes back, at some contents. -/
theorem sound_body2 (V : Vals (F := F)) (c : Dev nD) (t : Fin cfg2.N)
    (Y : (w : Fin cfg2.W) → (cfg2.win w).block.Idx → Elt F (cfg2.win w).elt) :
    iprop((rdat2 V c).Φ t.castSucc ∗ (rdat2 V c).owesAt () t.castSucc
        ∗ owns (c : Thread nD τ) (st2_0 t) fullShare (Y 0) ∗ owns (c : Thread nD τ) (st2_1 t) fullShare (Y 1)
        ∗ owns (c : Thread nD τ) (st2_2 t) fullShare (Y 2) ∗ owns (c : Thread nD τ) (st2_3 t) fullShare (Y 3)
        ∗ owns (c : Thread nD τ) (st2_4 t) fullShare (Y 4))
      ⊢ wp frame (wpE (defs₀ (F := F)) Variants.none c none) Set.univ (bodyAt2 t) (fun _ =>
          iprop((rdat2 V c).Φ t.succ ∗ (rdat2 V c).owesAt () t.succ
            ∗ (∃ X, ⌜(rdat2 V c).after 0 t (Y 0) X⌝ ∗ owns (c : Thread nD τ) (st2_0 t) fullShare X)
            ∗ (∃ X, ⌜(rdat2 V c).after 1 t (Y 1) X⌝ ∗ owns (c : Thread nD τ) (st2_1 t) fullShare X)
            ∗ (∃ X, ⌜(rdat2 V c).after 2 t (Y 2) X⌝ ∗ owns (c : Thread nD τ) (st2_2 t) fullShare X)
            ∗ (∃ X, ⌜(rdat2 V c).after 3 t (Y 3) X⌝ ∗ owns (c : Thread nD τ) (st2_3 t) fullShare X)
            ∗ (∃ X, ⌜(rdat2 V c).after 4 t (Y 4) X⌝ ∗ owns (c : Thread nD τ) (st2_4 t) fullShare X))) := by
  unfold bodyAt2
  rw [show (rdat2 V c).Φ t.castSucc = Pipeline.ΦA spec2 c from rfl, show (rdat2 V c).Φ t.succ = Pipeline.ΦA spec2 c from rfl,
    show (rdat2 V c).owesAt () t.succ = (rdat2 V c).owesAt () t.castSucc from rfl]
  unfold Pipeline.ΦA
  rw [scopedRest2_split]
  iintro ⟨⟨⟨⟨⟨%f7, H7⟩, ⟨%f8, H8⟩, ⟨%f9, H9⟩⟩, Hbut⟩, Hp⟩, Ho, H0, H1, H2, H3, H4⟩
  ihave H7 := (owns_of_pt c cc2_scratch0 f7) $$ H7
  ihave H8 := (owns_of_pt c cc2_scratch1 f8) $$ H8
  ihave H9 := (owns_of_pt c cc2_scratch2 f9) $$ H9
  by_cases hlast : k2_cond2 (grid2.coords t) = 1#1
  · iapply (Body2.run_last c Set.univ (grid2.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc2_scratch0 _) $$ H7
    ihave H8 := (pt_of_owns c cc2_scratch1 _) $$ H8
    ihave H9 := (pt_of_owns c cc2_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial
  · iapply (Body2.run_inner c Set.univ (grid2.coords t) hlast _ _ _ _ _ _ _ _ _ _ _ _ _ _ _ _ (Y 0) (Y 1) (Y 2) (Y 3) (Y 4) f7 f8 f9 _)
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [H9]; · iexact H9
    iintro ⟨H0, H1, H2, H3, H4, H7, H8, H9⟩
    ihave H7 := (pt_of_owns c cc2_scratch0 _) $$ H7
    ihave H8 := (pt_of_owns c cc2_scratch1 _) $$ H8
    ihave H9 := (pt_of_owns c cc2_scratch2 _) $$ H9
    isplitl [H7 H8 H9 Hbut Hp]
    · isplitl [H7 H8 H9 Hbut]
      · isplitl [H7 H8 H9]
        · isplitl [H7]; · iexists _; iexact H7
          isplitl [H8]; · iexists _; iexact H8
          iexists _; iexact H9
        iexact Hbut
      iexact Hp
    isplitl [Ho]; · iexact Ho
    isplitl [H0]; · iexists _; isplitr; swap; (· iexact H0); ipureintro; trivial
    isplitl [H1]; · iexists _; isplitr; swap; (· iexact H1); ipureintro; trivial
    isplitl [H2]; · iexists _; isplitr; swap; (· iexact H2); ipureintro; trivial
    isplitl [H3]; · iexists _; isplitr; swap; (· iexact H3); ipureintro; trivial
    iexists _; isplitr; swap; (· iexact H4); ipureintro; trivial

/-- The body obligation of region 2's relational data, at every point. -/
theorem body_obligation2 (V : Vals (F := F)) (c : Dev nD) :
    (rdat2 (F := F) V c).BodyObligation (defs₀ (F := F)) Variants.none () Set.univ := fun t Y _ => by
  rw [bigSep_W2, bigSep_W2]
  exact sound_body2 V c t Y

/-! ## An input array at a region's exit

For any windows, any grid and any number of points run: write-backs land in output arrays only, so whatever the points
left in the staging tiles, an input window's array still holds what it held at the entry. -/

/-- After the write-backs below any point, every window's array is held at some contents, and an input window's at its
    entry contents. -/
theorem arraysAt_inputs {cfg : Cfg sig Λ₀} {c : Dev nD} (rd : RDat τ (Elt F) Unit ℕ (UR sig nD τ) ℕ cfg c) (n : Nat) :
    (rd.arraysAt n : sProp 𝕄) ⊢ bigSep Finset.univ fun w : Fin cfg.W =>
      iprop(∃ G, ⌜(cfg.win w).isOut = false → G = rd.A w⌝
        ∗ (cfg.win w).arr.view.loc (c.tc : Thread nD τ) ↦[(cfg.win w).arr.view.set]{rd.share w} G) := by
  unfold RDat.arraysAt
  exact bigSep_mono fun w _ =>
    show iprop(∃ G, ⌜rd.ArrAt w n G⌝ ∗ (cfg.win w).arr.view.loc (c.tc : Thread nD τ) ↦[(cfg.win w).arr.view.set]{rd.share w} G)
        ⊢ (iprop(∃ G, ⌜(cfg.win w).isOut = false → G = rd.A w⌝
            ∗ (cfg.win w).arr.view.loc (c.tc : Thread nD τ) ↦[(cfg.win w).arr.view.set]{rd.share w} G) : sProp 𝕄) from by
      iintro ⟨%G, %h, H⟩
      iexists G
      isplitr
      · ipureintro; intro hin; rw [rd.ArrAt_in w hin] at h; exact h
      iexact H

/-! ## The run's thread state and the family of proof data -/

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- Contents for the regions' results chosen before the run, to name the later regions' entry contents at: the launch
    memory. No window array of a later region depends on the choice (`V7_indep`, `V11_indep`). -/
abbrev o₀ : Outs (F := F) := fun _ r c => m ((c : Thread nD τ).loc r)

/-- The buffers as regions 0, 1 and 2 are entered. -/
abbrev E0 : Vals (F := F) := fun c b => V3 m c b
abbrev E1 : Vals (F := F) := fun c b => V7 m (o₀ m) c b
abbrev E2 : Vals (F := F) := fun c b => V11 m (o₀ m) c b

/-- Every region's relational data, each at its entry contents. -/
def rdats : (p : Fin 3) → (c : Dev nD) → RDat τ (Elt F) Unit ℕ (UR sig nD τ) ℕ (Pipeline.pin (pcfgs (F := F)) adm p) c
  | ⟨0, _⟩ => fun c => rdat0 (E0 m) c
  | ⟨1, _⟩ => fun c => rdat1 (E1 m) c
  | ⟨2, _⟩ => fun c => rdat2 (E2 m) c

/-! ## Choosing what one region left in one buffer on one core -/

/-- `o` with the contents after item `J - 1` of reference `r` on core `c` set to `f`. -/
def setOut (o : Outs (F := F)) (J : ℕ) (c : Dev nD) (r : Ref sig .tc) (f : Buf (Elt F) ((c : Thread nD τ).loc r)) : Outs (F := F) :=
  fun J' r' c' => if h : J' = J ∧ r' = r ∧ c' = c then (by obtain ⟨_, rfl, rfl⟩ := h; exact f) else o J' r' c'

theorem setOut_self (o : Outs (F := F)) (J : ℕ) (c : Dev nD) (r : Ref sig .tc) (f : Buf (Elt F) ((c : Thread nD τ).loc r)) :
    setOut o J c r f J r c = f := by
  unfold setOut; rw [dif_pos ⟨rfl, rfl, rfl⟩]

theorem setOut_ne (o : Outs (F := F)) (J : ℕ) (c : Dev nD) (r : Ref sig .tc) (f : Buf (Elt F) ((c : Thread nD τ).loc r))
    (J' : ℕ) (r' : Ref sig .tc) (c' : Dev nD) (h : J' ≠ J) : setOut o J c r f J' r' c' = o J' r' c' := by
  unfold setOut; rw [dif_neg fun h' => h h'.1]

/-! ## Region 0: its arrays at the exit -/

theorem arrays_eq0 (V : Vals (F := F)) (c : Dev nD)
    (G : (w : Fin cfg0.W) → Buf (Elt F) ((cfg0.win w).arr.view.loc (c.tc : Thread nD τ))) :
    ((rdat0 V c).arrays G : sProp 𝕄)
      = bigSep Finset.univ fun w : Fin cfg0.W => (((c.tc : Thread nD τ).loc (Pipeline.arrRef spec0 w)) ↦{fullShare} G w : sProp 𝕄) := by
  unfold RDat.arrays
  exact bigSep_congr fun w _ => by rw [(arr_whole0 w).set_eq_univ, (rdat0 V c).share_full (fun _ => rfl) w]

set_option maxHeartbeats 1000000 in
/-- At the exit the four input arrays hold their entry contents (an input array is never written) and the result array
    holds some contents. -/
theorem open0 (V : Vals (F := F)) (c : Dev nD) :
    ((rdat0 V c).arraysAt cfg0.N : sProp 𝕄)
      ⊢ iprop(∃ G : (w : Fin cfg0.W) → Buf (Elt F) ((cfg0.win w).arr.view.loc (c.tc : Thread nD τ)),
          ⌜∀ w : Fin cfg0.W, w ≠ 4 → G w = V c (Pipeline.arrRef spec0 w)⌝ ∗ (rdat0 V c).arrays G) := by
  refine (arraysAt_inputs (rdat0 V c) cfg0.N).trans ?_
  rw [bigSep_W0]
  iintro ⟨⟨%F0, %h0, A0⟩, ⟨%F1, %h1, A1⟩, ⟨%F2, %h2, A2⟩, ⟨%F3, %h3, A3⟩, ⟨%F4, -, A4⟩⟩
  have e0 : F0 = (rdat0 V c).A 0 := h0 rfl
  have e1 : F1 = (rdat0 V c).A 1 := h1 rfl
  have e2 : F2 = (rdat0 V c).A 2 := h2 rfl
  have e3 : F3 = (rdat0 V c).A 3 := h3 rfl
  subst e0 e1 e2 e3
  iexists Function.update (rdat0 V c).A 4 F4
  isplitr
  · ipureintro; exact fun w hw => (Function.update_of_ne hw _ _).trans rfl
  unfold RDat.arrays
  rw [bigSep_W0]
  rw [Function.update_of_ne (show (0 : Fin cfg0.W) ≠ 4 by decide), Function.update_of_ne (show (1 : Fin cfg0.W) ≠ 4 by decide),
    Function.update_of_ne (show (2 : Fin cfg0.W) ≠ 4 by decide), Function.update_of_ne (show (3 : Fin cfg0.W) ≠ 4 by decide),
    Function.update_self]
  isplitl [A0]; · iexact A0
  isplitl [A1]; · iexact A1
  isplitl [A2]; · iexact A2
  isplitl [A3]; · iexact A3
  iexact A4

/-- The arrays at contents `G` and the other unscoped buffers at `W` are every unscoped buffer at any `W'` that has the
    arrays at `G` and agrees with `W` off them. -/
theorem join0 (V : Vals (F := F)) (c : Dev nD) (W W' : Valuation τ sig (Elt F))
    (G : (w : Fin cfg0.W) → Buf (Elt F) ((cfg0.win w).arr.view.loc (c.tc : Thread nD τ)))
    (hG : ∀ w : Fin cfg0.W, G w = W' (Pipeline.arrRef spec0 w))
    (hrest : ∀ b : Ref sig .tc, b ∉ Finset.univ.image (Pipeline.arrRef spec0) → W' b = W b) :
    iprop((rdat0 V c).arrays G ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split cfgs 0 winFacts0.arr_unscoped winFacts0.arr_inj c (fun b => W' b), arrays_eq0]
  refine sep_mono (Entails.of_eq (bigSep_congr fun w _ => by rw [hG]; rfl)) (Entails.of_eq ?_)
  unfold Pipeline.unscopedRest
  exact bigSep_congr fun b hb => by dsimp only; rw [hrest b (Finset.mem_sdiff.mp hb).2]

/-! ## Region 1: its arrays at the exit -/

theorem arrays_eq1 (V : Vals (F := F)) (c : Dev nD)
    (G : (w : Fin cfg1.W) → Buf (Elt F) ((cfg1.win w).arr.view.loc (c.tc : Thread nD τ))) :
    ((rdat1 V c).arrays G : sProp 𝕄)
      = bigSep Finset.univ fun w : Fin cfg1.W => (((c.tc : Thread nD τ).loc (Pipeline.arrRef spec1 w)) ↦{fullShare} G w : sProp 𝕄) := by
  unfold RDat.arrays
  exact bigSep_congr fun w _ => by rw [(arr_whole1 w).set_eq_univ, (rdat1 V c).share_full (fun _ => rfl) w]

set_option maxHeartbeats 1000000 in
/-- At the exit the four input arrays hold their entry contents (an input array is never written) and the result array
    holds some contents. -/
theorem open1 (V : Vals (F := F)) (c : Dev nD) :
    ((rdat1 V c).arraysAt cfg1.N : sProp 𝕄)
      ⊢ iprop(∃ G : (w : Fin cfg1.W) → Buf (Elt F) ((cfg1.win w).arr.view.loc (c.tc : Thread nD τ)),
          ⌜∀ w : Fin cfg1.W, w ≠ 4 → G w = V c (Pipeline.arrRef spec1 w)⌝ ∗ (rdat1 V c).arrays G) := by
  refine (arraysAt_inputs (rdat1 V c) cfg1.N).trans ?_
  rw [bigSep_W1]
  iintro ⟨⟨%F0, %h0, A0⟩, ⟨%F1, %h1, A1⟩, ⟨%F2, %h2, A2⟩, ⟨%F3, %h3, A3⟩, ⟨%F4, -, A4⟩⟩
  have e0 : F0 = (rdat1 V c).A 0 := h0 rfl
  have e1 : F1 = (rdat1 V c).A 1 := h1 rfl
  have e2 : F2 = (rdat1 V c).A 2 := h2 rfl
  have e3 : F3 = (rdat1 V c).A 3 := h3 rfl
  subst e0 e1 e2 e3
  iexists Function.update (rdat1 V c).A 4 F4
  isplitr
  · ipureintro; exact fun w hw => (Function.update_of_ne hw _ _).trans rfl
  unfold RDat.arrays
  rw [bigSep_W1]
  rw [Function.update_of_ne (show (0 : Fin cfg1.W) ≠ 4 by decide), Function.update_of_ne (show (1 : Fin cfg1.W) ≠ 4 by decide),
    Function.update_of_ne (show (2 : Fin cfg1.W) ≠ 4 by decide), Function.update_of_ne (show (3 : Fin cfg1.W) ≠ 4 by decide),
    Function.update_self]
  isplitl [A0]; · iexact A0
  isplitl [A1]; · iexact A1
  isplitl [A2]; · iexact A2
  isplitl [A3]; · iexact A3
  iexact A4

/-- The arrays at contents `G` and the other unscoped buffers at `W` are every unscoped buffer at any `W'` that has the
    arrays at `G` and agrees with `W` off them. -/
theorem join1 (V : Vals (F := F)) (c : Dev nD) (W W' : Valuation τ sig (Elt F))
    (G : (w : Fin cfg1.W) → Buf (Elt F) ((cfg1.win w).arr.view.loc (c.tc : Thread nD τ)))
    (hG : ∀ w : Fin cfg1.W, G w = W' (Pipeline.arrRef spec1 w))
    (hrest : ∀ b : Ref sig .tc, b ∉ Finset.univ.image (Pipeline.arrRef spec1) → W' b = W b) :
    iprop((rdat1 V c).arrays G ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split cfgs 1 winFacts1.arr_unscoped winFacts1.arr_inj c (fun b => W' b), arrays_eq1]
  refine sep_mono (Entails.of_eq (bigSep_congr fun w _ => by rw [hG]; rfl)) (Entails.of_eq ?_)
  unfold Pipeline.unscopedRest
  exact bigSep_congr fun b hb => by dsimp only; rw [hrest b (Finset.mem_sdiff.mp hb).2]

/-! ## Region 2: its arrays at the exit -/

theorem arrays_eq2 (V : Vals (F := F)) (c : Dev nD)
    (G : (w : Fin cfg2.W) → Buf (Elt F) ((cfg2.win w).arr.view.loc (c.tc : Thread nD τ))) :
    ((rdat2 V c).arrays G : sProp 𝕄)
      = bigSep Finset.univ fun w : Fin cfg2.W => (((c.tc : Thread nD τ).loc (Pipeline.arrRef spec2 w)) ↦{fullShare} G w : sProp 𝕄) := by
  unfold RDat.arrays
  exact bigSep_congr fun w _ => by rw [(arr_whole2 w).set_eq_univ, (rdat2 V c).share_full (fun _ => rfl) w]

set_option maxHeartbeats 1000000 in
/-- At the exit the four input arrays hold their entry contents (an input array is never written) and the result array
    holds some contents. -/
theorem open2 (V : Vals (F := F)) (c : Dev nD) :
    ((rdat2 V c).arraysAt cfg2.N : sProp 𝕄)
      ⊢ iprop(∃ G : (w : Fin cfg2.W) → Buf (Elt F) ((cfg2.win w).arr.view.loc (c.tc : Thread nD τ)),
          ⌜∀ w : Fin cfg2.W, w ≠ 4 → G w = V c (Pipeline.arrRef spec2 w)⌝ ∗ (rdat2 V c).arrays G) := by
  refine (arraysAt_inputs (rdat2 V c) cfg2.N).trans ?_
  rw [bigSep_W2]
  iintro ⟨⟨%F0, %h0, A0⟩, ⟨%F1, %h1, A1⟩, ⟨%F2, %h2, A2⟩, ⟨%F3, %h3, A3⟩, ⟨%F4, -, A4⟩⟩
  have e0 : F0 = (rdat2 V c).A 0 := h0 rfl
  have e1 : F1 = (rdat2 V c).A 1 := h1 rfl
  have e2 : F2 = (rdat2 V c).A 2 := h2 rfl
  have e3 : F3 = (rdat2 V c).A 3 := h3 rfl
  subst e0 e1 e2 e3
  iexists Function.update (rdat2 V c).A 4 F4
  isplitr
  · ipureintro; exact fun w hw => (Function.update_of_ne hw _ _).trans rfl
  unfold RDat.arrays
  rw [bigSep_W2]
  rw [Function.update_of_ne (show (0 : Fin cfg2.W) ≠ 4 by decide), Function.update_of_ne (show (1 : Fin cfg2.W) ≠ 4 by decide),
    Function.update_of_ne (show (2 : Fin cfg2.W) ≠ 4 by decide), Function.update_of_ne (show (3 : Fin cfg2.W) ≠ 4 by decide),
    Function.update_self]
  isplitl [A0]; · iexact A0
  isplitl [A1]; · iexact A1
  isplitl [A2]; · iexact A2
  isplitl [A3]; · iexact A3
  iexact A4

/-- The arrays at contents `G` and the other unscoped buffers at `W` are every unscoped buffer at any `W'` that has the
    arrays at `G` and agrees with `W` off them. -/
theorem join2 (V : Vals (F := F)) (c : Dev nD) (W W' : Valuation τ sig (Elt F))
    (G : (w : Fin cfg2.W) → Buf (Elt F) ((cfg2.win w).arr.view.loc (c.tc : Thread nD τ)))
    (hG : ∀ w : Fin cfg2.W, G w = W' (Pipeline.arrRef spec2 w))
    (hrest : ∀ b : Ref sig .tc, b ∉ Finset.univ.image (Pipeline.arrRef spec2) → W' b = W b) :
    iprop((rdat2 V c).arrays G ∗ Pipeline.unscopedRest (Ix := Unit) (Name := ℕ) (U := UR sig nD τ) (Lvl := ℕ) spec2 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split cfgs 2 winFacts2.arr_unscoped winFacts2.arr_inj c (fun b => W' b), arrays_eq2]
  refine sep_mono (Entails.of_eq (bigSep_congr fun w _ => by rw [hG]; rfl)) (Entails.of_eq ?_)
  unfold Pipeline.unscopedRest
  exact bigSep_congr fun b hb => by dsimp only; rw [hrest b (Finset.mem_sdiff.mp hb).2]

/-! ## A later region's arrays at its entry do not depend on what an earlier region left

No host stretch and no region reads an earlier region's result on the way to a later region's five arrays: the rows and
the labels come from the arguments, the weight slice and the cluster column are cut from an argument and from the cluster
head computed before region 0, and the result array has not been written yet. -/

section Indep

variable (o o' : Outs (F := F)) (c : Dev nD)

/-- A reference written by nothing between region 0's entry and region 1's is then as at region 0's entry. -/
theorem V6_eq_V3 (r : Ref sig .tc) (h2 : r ∉ hostOps1_1_W) (h3 : r ∉ hostOps1_W)
    (h4 : r ∉ ([main_v7] : List (Ref sig .tc))) : V6 m o c r = V3 m c r :=
  (V6_of m o c r h2).trans <| (V5_of m o c r h3).trans (V4_of m o c r h4)
theorem V7_eq_V3 (r : Ref sig .tc) (h1 : r ∉ hostOps1_2_W) (h2 : r ∉ hostOps1_1_W) (h3 : r ∉ hostOps1_W)
    (h4 : r ∉ ([main_v7] : List (Ref sig .tc))) : V7 m o c r = V3 m c r :=
  (V7_of m o c r h1).trans (V6_eq_V3 m o c r h2 h3 h4)
/-- Likewise between region 1's entry and region 2's. -/
theorem V10_eq_V7 (r : Ref sig .tc) (h2 : r ∉ hostOps2_1_W) (h3 : r ∉ hostOps2_W)
    (h4 : r ∉ ([main_v17] : List (Ref sig .tc))) : V10 m o c r = V7 m o c r :=
  (V10_of m o c r h2).trans <| (V9_of m o c r h3).trans (V8_of m o c r h4)
theorem V11_eq_V7 (r : Ref sig .tc) (h1 : r ∉ hostOps2_2_W) (h2 : r ∉ hostOps2_1_W) (h3 : r ∉ hostOps2_W)
    (h4 : r ∉ ([main_v17] : List (Ref sig .tc))) : V11 m o c r = V7 m o c r :=
  (V11_of m o c r h1).trans (V10_eq_V7 m o c r h2 h3 h4)

/-- The two slices a stretch cuts just before a region read one buffer each. -/
theorem slice1_col (W W' : Valuation τ sig (Elt F)) (h : W (Proc.devRef .tc main_v2) = W' (Proc.devRef .tc main_v2)) :
    StableHlo.after hostOps1_2 W (Proc.devRef .tc main_v16) = StableHlo.after hostOps1_2 W' (Proc.devRef .tc main_v16) := by
  after_results; rw [h]
theorem slice1_wt (W W' : Valuation τ sig (Elt F)) (h : W (Proc.devRef .tc main_arg3) = W' (Proc.devRef .tc main_arg3)) :
    StableHlo.after hostOps1_2 W (Proc.devRef .tc main_v15) = StableHlo.after hostOps1_2 W' (Proc.devRef .tc main_v15) := by
  after_results; rw [h]
theorem slice2_col (W W' : Valuation τ sig (Elt F)) (h : W (Proc.devRef .tc main_v2) = W' (Proc.devRef .tc main_v2)) :
    StableHlo.after hostOps2_2 W (Proc.devRef .tc main_v26) = StableHlo.after hostOps2_2 W' (Proc.devRef .tc main_v26) := by
  after_results; rw [h]
theorem slice2_wt (W W' : Valuation τ sig (Elt F)) (h : W (Proc.devRef .tc main_arg3) = W' (Proc.devRef .tc main_arg3)) :
    StableHlo.after hostOps2_2 W (Proc.devRef .tc main_v25) = StableHlo.after hostOps2_2 W' (Proc.devRef .tc main_v25) := by
  after_results; rw [h]

/-- Region 1's five arrays at its entry are the same whatever region 0 left. -/
theorem V7_indep : ∀ w : Fin 5, V7 m o c (Pipeline.arrRef spec1 w) = V7 m o' c (Pipeline.arrRef spec1 w) := fun
  | 0 => (V7_eq_V3 m o c main_arg0 (by decide) (by decide) (by decide) (by decide)).trans (V7_eq_V3 m o' c main_arg0 (by decide) (by decide) (by decide) (by decide)).symm
  | 1 => (V7_eq_V3 m o c main_v3 (by decide) (by decide) (by decide) (by decide)).trans (V7_eq_V3 m o' c main_v3 (by decide) (by decide) (by decide) (by decide)).symm
  | 2 => slice1_col (V6 m o c) (V6 m o' c) ((V6_eq_V3 m o c main_v2 (by decide) (by decide) (by decide)).trans (V6_eq_V3 m o' c main_v2 (by decide) (by decide) (by decide)).symm)
  | 3 => slice1_wt (V6 m o c) (V6 m o' c) ((V6_eq_V3 m o c main_arg3 (by decide) (by decide) (by decide)).trans (V6_eq_V3 m o' c main_arg3 (by decide) (by decide) (by decide)).symm)
  | 4 => (V7_eq_V3 m o c main_v17 (by decide) (by decide) (by decide) (by decide)).trans (V7_eq_V3 m o' c main_v17 (by decide) (by decide) (by decide) (by decide)).symm
  | ⟨_ + 5, h⟩ => absurd h (Nat.not_lt.2 (Nat.le_add_left _ _))

/-- A reference written by nothing between region 0's entry and region 2's is at region 2's entry as at region 0's. -/
theorem V10_eq_V3 (r : Ref sig .tc) (g2 : r ∉ hostOps2_1_W) (g3 : r ∉ hostOps2_W) (g4 : r ∉ ([main_v17] : List (Ref sig .tc)))
    (h1 : r ∉ hostOps1_2_W) (h2 : r ∉ hostOps1_1_W) (h3 : r ∉ hostOps1_W) (h4 : r ∉ ([main_v7] : List (Ref sig .tc))) :
    V10 m o c r = V3 m c r :=
  (V10_eq_V7 m o c r g2 g3 g4).trans (V7_eq_V3 m o c r h1 h2 h3 h4)
theorem V11_eq_V3 (r : Ref sig .tc) (g1 : r ∉ hostOps2_2_W) (g2 : r ∉ hostOps2_1_W) (g3 : r ∉ hostOps2_W) (g4 : r ∉ ([main_v17] : List (Ref sig .tc)))
    (h1 : r ∉ hostOps1_2_W) (h2 : r ∉ hostOps1_1_W) (h3 : r ∉ hostOps1_W) (h4 : r ∉ ([main_v7] : List (Ref sig .tc))) :
    V11 m o c r = V3 m c r :=
  (V11_eq_V7 m o c r g1 g2 g3 g4).trans (V7_eq_V3 m o c r h1 h2 h3 h4)

/-- Region 2's five arrays at its entry are the same whatever regions 0 and 1 left. -/
theorem V11_indep : ∀ w : Fin 5, V11 m o c (Pipeline.arrRef spec2 w) = V11 m o' c (Pipeline.arrRef spec2 w) := fun
  | 0 => (V11_eq_V3 m o c main_arg0 (by decide) (by decide) (by decide) (by decide) (by decide) (by decide) (by decide) (by decide)).trans (V11_eq_V3 m o' c main_arg0 (by decide) (by decide) (by decide) (by decide) (by decide) (by decide) (by decide) (by decide)).symm
  | 1 => (V11_eq_V3 m o c main_v3 (by decide) (by decide) (by decide) (by decide) (by decide) (by decide) (by decide) (by decide)).trans (V11_eq_V3 m o' c main_v3 (by decide) (by decide) (by decide) (by decide) (by decide) (by decide) (by decide) (by decide)).symm
  | 2 => slice2_col (V10 m o c) (V10 m o' c) ((V10_eq_V3 m o c main_v2 (by decide) (by decide) (by decide) (by decide) (by decide) (by decide) (by decide)).trans (V10_eq_V3 m o' c main_v2 (by decide) (by decide) (by decide) (by decide) (by decide) (by decide) (by decide)).symm)
  | 3 => slice2_wt (V10 m o c) (V10 m o' c) ((V10_eq_V3 m o c main_arg3 (by decide) (by decide) (by decide) (by decide) (by decide) (by decide) (by decide)).trans (V10_eq_V3 m o' c main_arg3 (by decide) (by decide) (by decide) (by decide) (by decide) (by decide) (by decide)).symm)
  | 4 => (V11_eq_V3 m o c main_v27 (by decide) (by decide) (by decide) (by decide) (by decide) (by decide) (by decide) (by decide)).trans (V11_eq_V3 m o' c main_v27 (by decide) (by decide) (by decide) (by decide) (by decide) (by decide) (by decide) (by decide)).symm
  | ⟨_ + 5, h⟩ => absurd h (Nat.not_lt.2 (Nat.le_add_left _ _))

/-- The buffers between items depend on the regions' results only through the results already left. -/
theorem V4_congr (h4 : o 4 main_v7 c = o' 4 main_v7 c) : V4 m o c = V4 m o' c := by
  show Function.update (V3 m c) _ (o 4 main_v7 c) = Function.update (V3 m c) _ (o' 4 main_v7 c); rw [h4]
theorem V7_congr (h4 : o 4 main_v7 c = o' 4 main_v7 c) : V7 m o c = V7 m o' c := by
  show StableHlo.after hostOps1_2 (StableHlo.after hostOps1_1 (StableHlo.after hostOps1 (V4 m o c)))
    = StableHlo.after hostOps1_2 (StableHlo.after hostOps1_1 (StableHlo.after hostOps1 (V4 m o' c)))
  rw [V4_congr m o o' c h4]
theorem V8_congr (h4 : o 4 main_v7 c = o' 4 main_v7 c) (h8 : o 8 main_v17 c = o' 8 main_v17 c) : V8 m o c = V8 m o' c := by
  show Function.update (V7 m o c) _ (o 8 main_v17 c) = Function.update (V7 m o' c) _ (o' 8 main_v17 c); rw [V7_congr m o o' c h4, h8]
theorem V11_congr (h4 : o 4 main_v7 c = o' 4 main_v7 c) (h8 : o 8 main_v17 c = o' 8 main_v17 c) : V11 m o c = V11 m o' c := by
  show StableHlo.after hostOps2_2 (StableHlo.after hostOps2_1 (StableHlo.after hostOps2 (V8 m o c)))
    = StableHlo.after hostOps2_2 (StableHlo.after hostOps2_1 (StableHlo.after hostOps2 (V8 m o' c)))
  rw [V8_congr m o o' c h4 h8]

end Indep

/-! ## Region 0: the buffers at its exit, at the result array's opened contents -/

section Exit0

variable (c : Dev nD)

/-- What the next boundary's valuation holds at region 0's result array, its contents chosen as `f`. -/
theorem exitOut0 (f : Buf (Elt F) ((c : Thread nD τ).loc main_v7)) :
    V4 m (setOut (o₀ m) 4 c main_v7 f) c (Proc.devRef .tc main_v7) = f :=
  (Function.update_self _ _ _).trans (setOut_self (o₀ m) 4 c main_v7 f)

/-- With the result array's contents `f` chosen as what region 0 left, each of its arrays is at the next boundary as opened. -/
theorem exitG0 (G : (w : Fin cfg0.W) → Buf (Elt F) ((cfg0.win w).arr.view.loc (c.tc : Thread nD τ)))
    (f : Buf (Elt F) ((c : Thread nD τ).loc main_v7)) (hf : G 4 = f)
    (hG : ∀ w : Fin cfg0.W, w ≠ 4 → G w = E0 m c (Pipeline.arrRef spec0 w)) :
    ∀ w : Fin cfg0.W, G w = V4 m (setOut (o₀ m) 4 c main_v7 f) c (Pipeline.arrRef spec0 w) := fun
  | 0 => (hG 0 (by decide)).trans (V4_of m (setOut (o₀ m) 4 c main_v7 f) c main_arg0 (by decide)).symm
  | 1 => (hG 1 (by decide)).trans (V4_of m (setOut (o₀ m) 4 c main_v7 f) c main_v3 (by decide)).symm
  | 2 => (hG 2 (by decide)).trans (V4_of m (setOut (o₀ m) 4 c main_v7 f) c main_v6 (by decide)).symm
  | 3 => (hG 3 (by decide)).trans (V4_of m (setOut (o₀ m) 4 c main_v7 f) c main_v5 (by decide)).symm
  | 4 => hf.trans (exitOut0 m c f).symm
  | ⟨_ + 5, h⟩ => absurd h (Nat.not_lt.2 (Nat.le_add_left _ _))

/-- and every other buffer is as at the region's entry. -/
theorem exitRest0 (f : Buf (Elt F) ((c : Thread nD τ).loc main_v7)) :
    ∀ b : Ref sig .tc, b ∉ Finset.univ.image (Pipeline.arrRef spec0) → V4 m (setOut (o₀ m) 4 c main_v7 f) c b = V3 m c b := fun b hb =>
  V4_of m (setOut (o₀ m) 4 c main_v7 f) c b (fun h => hb (by rw [List.mem_singleton] at h; subst h; exact Finset.mem_image.mpr ⟨4, Finset.mem_univ _, rfl⟩))

end Exit0

/-! ## Region 1: the buffers at its exit, at the result array's opened contents -/

section Exit1

variable (o : Outs (F := F)) (c : Dev nD)

/-- What the next boundary's valuation holds at region 1's result array, its contents chosen as `f`. -/
theorem exitOut1 (f : Buf (Elt F) ((c : Thread nD τ).loc main_v17)) :
    V8 m (setOut o 8 c main_v17 f) c (Proc.devRef .tc main_v17) = f :=
  (Function.update_self _ _ _).trans (setOut_self o 8 c main_v17 f)

/-- With the result array's contents `f` chosen as what region 1 left, each of its arrays is at the next boundary as opened. -/
theorem exitG1 (G : (w : Fin cfg1.W) → Buf (Elt F) ((cfg1.win w).arr.view.loc (c.tc : Thread nD τ)))
    (f : Buf (Elt F) ((c : Thread nD τ).loc main_v17)) (hf : G 4 = f)
    (hG : ∀ w : Fin cfg1.W, w ≠ 4 → G w = E1 m c (Pipeline.arrRef spec1 w)) :
    ∀ w : Fin cfg1.W, G w = V8 m (setOut o 8 c main_v17 f) c (Pipeline.arrRef spec1 w) := fun
  | 0 => (hG 0 (by decide)).trans <| (V7_indep m (o₀ m) (setOut o 8 c main_v17 f) c 0).trans (V8_of m (setOut o 8 c main_v17 f) c main_arg0 (by decide)).symm
  | 1 => (hG 1 (by decide)).trans <| (V7_indep m (o₀ m) (setOut o 8 c main_v17 f) c 1).trans (V8_of m (setOut o 8 c main_v17 f) c main_v3 (by decide)).symm
  | 2 => (hG 2 (by decide)).trans <| (V7_indep m (o₀ m) (setOut o 8 c main_v17 f) c 2).trans (V8_of m (setOut o 8 c main_v17 f) c main_v16 (by decide)).symm
  | 3 => (hG 3 (by decide)).trans <| (V7_indep m (o₀ m) (setOut o 8 c main_v17 f) c 3).trans (V8_of m (setOut o 8 c main_v17 f) c main_v15 (by decide)).symm
  | 4 => hf.trans (exitOut1 m o c f).symm
  | ⟨_ + 5, h⟩ => absurd h (Nat.not_lt.2 (Nat.le_add_left _ _))

/-- and every other buffer is as at the region's entry. -/
theorem exitRest1 (f : Buf (Elt F) ((c : Thread nD τ).loc main_v17)) :
    ∀ b : Ref sig .tc, b ∉ Finset.univ.image (Pipeline.arrRef spec1) → V8 m (setOut o 8 c main_v17 f) c b = V7 m o c b := fun b hb =>
  (V8_of m (setOut o 8 c main_v17 f) c b (fun h => hb (by rw [List.mem_singleton] at h; subst h; exact Finset.mem_image.mpr ⟨4, Finset.mem_univ _, rfl⟩))).trans
    (congrFun (V7_congr m (setOut o 8 c main_v17 f) o c (setOut_ne o 8 c main_v17 f 4 main_v7 c (by decide))) _)

end Exit1

/-! ## Region 2: the buffers at its exit, at the result array's opened contents -/

section Exit2

variable (o : Outs (F := F)) (c : Dev nD)

/-- What the next boundary's valuation holds at region 2's result array, its contents chosen as `f`. -/
theorem exitOut2 (f : Buf (Elt F) ((c : Thread nD τ).loc main_v27)) :
    V12 m (setOut o 12 c main_v27 f) c (Proc.devRef .tc main_v27) = f :=
  (Function.update_self _ _ _).trans (setOut_self o 12 c main_v27 f)

/-- With the result array's contents `f` chosen as what region 2 left, each of its arrays is at the next boundary as opened. -/
theorem exitG2 (G : (w : Fin cfg2.W) → Buf (Elt F) ((cfg2.win w).arr.view.loc (c.tc : Thread nD τ)))
    (f : Buf (Elt F) ((c : Thread nD τ).loc main_v27)) (hf : G 4 = f)
    (hG : ∀ w : Fin cfg2.W, w ≠ 4 → G w = E2 m c (Pipeline.arrRef spec2 w)) :
    ∀ w : Fin cfg2.W, G w = V12 m (setOut o 12 c main_v27 f) c (Pipeline.arrRef spec2 w) := fun
  | 0 => (hG 0 (by decide)).trans <| (V11_indep m (o₀ m) (setOut o 12 c main_v27 f) c 0).trans (V12_of m (setOut o 12 c main_v27 f) c main_arg0 (by decide)).symm
  | 1 => (hG 1 (by decide)).trans <| (V11_indep m (o₀ m) (setOut o 12 c main_v27 f) c 1).trans (V12_of m (setOut o 12 c main_v27 f) c main_v3 (by decide)).symm
  | 2 => (hG 2 (by decide)).trans <| (V11_indep m (o₀ m) (setOut o 12 c main_v27 f) c 2).trans (V12_of m (setOut o 12 c main_v27 f) c main_v26 (by decide)).symm
  | 3 => (hG 3 (by decide)).trans <| (V11_indep m (o₀ m) (setOut o 12 c main_v27 f) c 3).trans (V12_of m (setOut o 12 c main_v27 f) c main_v25 (by decide)).symm
  | 4 => hf.trans (exitOut2 m o c f).symm
  | ⟨_ + 5, h⟩ => absurd h (Nat.not_lt.2 (Nat.le_add_left _ _))

/-- and every other buffer is as at the region's entry. -/
theorem exitRest2 (f : Buf (Elt F) ((c : Thread nD τ).loc main_v27)) :
    ∀ b : Ref sig .tc, b ∉ Finset.univ.image (Pipeline.arrRef spec2) → V12 m (setOut o 12 c main_v27 f) c b = V11 m o c b := fun b hb =>
  (V12_of m (setOut o 12 c main_v27 f) c b (fun h => hb (by rw [List.mem_singleton] at h; subst h; exact Finset.mem_image.mpr ⟨4, Finset.mem_univ _, rfl⟩))).trans
    (congrFun (V11_congr m (setOut o 12 c main_v27 f) o c (setOut_ne o 12 c main_v27 f 4 main_v7 c (by decide)) (setOut_ne o 12 c main_v27 f 8 main_v17 c (by decide))) _)

end Exit2

/-! ## Region 0 as a segment -/

set_option backward.isDefEq.respectTransparency.types false in
/-- Region 0 over the thread state: entered from every unscoped buffer at the contents the host stretches before it computed,
    left with its result array at SOME contents and every other buffer as entered. Its arrays are split out of the unscoped
    buffers at the entry and put back at the exit; the generator register goes into the invariant and comes back; nothing
    is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E0 m) c
  hwaits := Pipeline.RDat.hwaits_of_owed_zero _ _ _ _ L lv 0 fun _ _ => rfl
  pre c := iprop(StableHlo.held (c : Thread nD τ) (Pipeline.ucRefs τ sig) (V3 m c) ∗ R c)
  post c := iprop(∃ o : Outs (F := F), StableHlo.held (c : Thread nD τ) (Pipeline.ucRefs τ sig) (V4 m o c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    iintro ⟨⟨Hub, Hp, HO⟩, -, -⟩
    have hsplit := Pipeline.RDat.arrays_of_unscopedBufs (p := 0) (pcfgs (F := F)) adm (rdats m) launch0.win launch0.arr_whole c
      ((rdats m 0 c).share_full fun _ => rfl) (fun b => V3 m c b) (fun _ => rfl)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    have hopen : ((rdats m 0 c).arraysAt (Pipeline.pin (pcfgs (F := F)) adm 0).N : sProp 𝕄)
        ⊢ iprop(∃ G : (w : Fin cfg0.W) → Buf (Elt F) ((cfg0.win w).arr.view.loc (c.tc : Thread nD τ)),
            ⌜∀ w : Fin cfg0.W, w ≠ 4 → G w = E0 m c (Pipeline.arrRef spec0 w)⌝ ∗ (rdat0 (E0 m) c).arrays G) := open0 (E0 m) c
    ihave Ha := hopen $$ Ha
    icases Ha with ⟨%G, %hG, Ha⟩
    have hjoin := join0 (E0 m) c (V3 m c) (V4 m (setOut (o₀ m) 4 c main_v7 (G 4)) c) G
      (exitG0 m c G (G 4) rfl hG) (exitRest0 m c (G 4))
    imodintro
    iexists setOut (o₀ m) 4 c main_v7 (G 4)
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 1 as a segment -/

set_option backward.isDefEq.respectTransparency.types false in
/-- Region 1 over the thread state: entered from every unscoped buffer at the contents the stretches before it computed from what the earlier regions left, whatever that was,
    left with its result array at SOME contents and every other buffer as entered. Its arrays are split out of the unscoped
    buffers at the entry and put back at the exit; the generator register goes into the invariant and comes back; nothing
    is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E1 m) c
  hwaits := Pipeline.RDat.hwaits_of_owed_zero _ _ _ _ L lv 1 fun _ _ => rfl
  pre c := iprop(∃ o : Outs (F := F), StableHlo.held (c : Thread nD τ) (Pipeline.ucRefs τ sig) (V7 m o c) ∗ R c)
  post c := iprop(∃ o : Outs (F := F), StableHlo.held (c : Thread nD τ) (Pipeline.ucRefs τ sig) (V8 m o c) ∗ R c)
  X c := iprop(∃ r, prngReg c r)
  Y c := iprop(∃ r, prngReg c r)
  Z c := iprop(∃ o : Outs (F := F), Pipeline.unscopedRest (Ix := Unit) (Name := ℕ) (U := UR sig nD τ) (Lvl := ℕ) spec1 c (fun b => V7 m o c b))
  hentry c := by
    rw [Pipeline.ownSems0_none]
    iintro ⟨⟨%o, Hub, Hp, HO⟩, -, -⟩
    have hsplit := Pipeline.RDat.arrays_of_unscopedBufs (p := 1) (pcfgs (F := F)) adm (rdats m) launch1.win launch1.arr_whole c
      ((rdats m 1 c).share_full fun _ => rfl) (fun b => V7 m o c b) (V7_indep m (o₀ m) o c)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, ⟨%o, Hrest⟩⟩
    have hopen : ((rdats m 1 c).arraysAt (Pipeline.pin (pcfgs (F := F)) adm 1).N : sProp 𝕄)
        ⊢ iprop(∃ G : (w : Fin cfg1.W) → Buf (Elt F) ((cfg1.win w).arr.view.loc (c.tc : Thread nD τ)),
            ⌜∀ w : Fin cfg1.W, w ≠ 4 → G w = E1 m c (Pipeline.arrRef spec1 w)⌝ ∗ (rdat1 (E1 m) c).arrays G) := open1 (E1 m) c
    ihave Ha := hopen $$ Ha
    icases Ha with ⟨%G, %hG, Ha⟩
    have hjoin := join1 (E1 m) c (V7 m o c) (V8 m (setOut o 8 c main_v17 (G 4)) c) G
      (exitG1 m o c G (G 4) rfl hG) (exitRest1 m o c (G 4))
    imodintro
    iexists setOut o 8 c main_v17 (G 4)
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## Region 2 as a segment -/

set_option backward.isDefEq.respectTransparency.types false in
/-- Region 2 over the thread state: entered from every unscoped buffer at the contents the stretches before it computed from what the earlier regions left, whatever that was,
    left with its result array at SOME contents and every other buffer as entered. Its arrays are split out of the unscoped
    buffers at the entry and put back at the exit; the generator register goes into the invariant and comes back; nothing
    is owed; the kernel has no semaphore of its own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (E2 m) c
  hwaits := Pipeline.RDat.hwaits_of_owed_zero _ _ _ _ L lv 2 fun _ _ => rfl
  pre c := iprop(∃ o : Outs (F := F), StableHlo.held (c : Thread nD τ) (Pipeline.ucRefs τ sig) (V11 m o c) ∗ R c)
  post c := iprop(∃ o : Outs (F := F), StableHlo.held (c : Thread nD τ) (Pipeline.ucRefs τ sig) (V12 m o c) ∗ R c)
  X c := iprop(∃ r, prngReg c r)
  Y c := iprop(∃ r, prngReg c r)
  Z c := iprop(∃ o : Outs (F := F), Pipeline.unscopedRest (Ix := Unit) (Name := ℕ) (U := UR sig nD τ) (Lvl := ℕ) spec2 c (fun b => V11 m o c b))
  hentry c := by
    rw [Pipeline.ownSems0_none]
    iintro ⟨⟨%o, Hub, Hp, HO⟩, -, -⟩
    have hsplit := Pipeline.RDat.arrays_of_unscopedBufs (p := 2) (pcfgs (F := F)) adm (rdats m) launch2.win launch2.arr_whole c
      ((rdats m 2 c).share_full fun _ => rfl) (fun b => V11 m o c b) (V11_indep m (o₀ m) o c)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists o; iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, ⟨%o, Hrest⟩⟩
    have hopen : ((rdats m 2 c).arraysAt (Pipeline.pin (pcfgs (F := F)) adm 2).N : sProp 𝕄)
        ⊢ iprop(∃ G : (w : Fin cfg2.W) → Buf (Elt F) ((cfg2.win w).arr.view.loc (c.tc : Thread nD τ)),
            ⌜∀ w : Fin cfg2.W, w ≠ 4 → G w = E2 m c (Pipeline.arrRef spec2 w)⌝ ∗ (rdat2 (E2 m) c).arrays G) := open2 (E2 m) c
    ihave Ha := hopen $$ Ha
    icases Ha with ⟨%G, %hG, Ha⟩
    have hjoin := join2 (E2 m) c (V11 m o c) (V12 m (setOut o 12 c main_v27 (G 4)) c) G
      (exitG2 m o c G (G 4) rfl hG) (exitRest2 m o c (G 4))
    imodintro
    iexists setOut o 12 c main_v27 (G 4)
    isplitl [Ha Hrest]
    · iapply hjoin; isplitl [Ha] <;> iassumption
    isplitl [HY]; · iexact HY
    unfold Pipeline.RDat.owesAt Pipeline.owesWithin
    icases HO with ⟨%W, -, HO⟩; iexists W; iexact HO

end Cert.Kernel.RegB

end
-- ==== Proof.KI.Body0.lean ====
/-
  One grid point of the per-cluster kernel (this cluster: lo = 0, C = 20000 columns, 20 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 19) the point also writes the row
  tile of the result, select(lo ≤ label < lo + C, (0 − cll) − (t' − (m' + log l')), 0). The transition is stated over the
  program's own value terms, for any float instance; nothing here evaluates them.
-/
import proofs.«427347_j10273561772327_2_alg».proof.Proof.Gen.KernelIdeal.Skeleton
import proofs.«427347_j10273561772327_2_alg».proof.Proof.Gen.KernelIdeal.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions on the column coordinate -/

/-- The reset condition holds exactly at the first column tile. -/
theorem first_iff (i : grid0.Coords) :
    (Scalar.cmpi .ne (Scalar.extui (Scalar.cmpi .eq (BitVec.ofNat 32 (i 1).val) 0#32)) 0#32 = 1#1) ↔ (i 1).val = 0 := by
  have h : ∀ j : Fin 20, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid0.Coords) : k0_cond2 i = 1#1 ↔ (i 1).val = 19 := by
  have h : ∀ j : Fin 20, (Scalar.cmpi .ne (Scalar.extui (Scalar.cmpi .eq (BitVec.ofNat 32 j.val) 19#32)) 0#32 = 1#1) ↔ j.val = 19 := by decide
  exact h (i 1)

/-! ## The carried columns after a point -/

/-- The running maximum a point starts from: the fill value at the first column tile, else what it finds. -/
def mIn (i : grid0.Coords) (sm : Vec F S1024x1 .f32) : Vec F S1024x1 .f32 := if (i 1).val = 0 then k0_pay5 else sm
/-- The running denominator a point starts from: zero at the first column tile. -/
def lIn (i : grid0.Coords) (sl : Vec F S1024x1 .f32) : Vec F S1024x1 .f32 := if (i 1).val = 0 then k0_pay6 else sl
/-- The running target score a point starts from: zero at the first column tile. -/
def tIn (i : grid0.Coords) (st : Vec F S1024x1 .f32) : Vec F S1024x1 .f32 := if (i 1).val = 0 then k0_pay7 else st

/-- The running maximum after the point. -/
def mOut (i : grid0.Coords) (x w : Vec F S1024x1024 .f32) (sm : Vec F S1024x1 .f32) : Vec F S1024x1 .f32 :=
  k0_pay3 (k0_pay9 i x w) (mIn i sm)
/-- The running denominator after the point. -/
def lOut (i : grid0.Coords) (x w : Vec F S1024x1024 .f32) (sm sl : Vec F S1024x1 .f32) : Vec F S1024x1 .f32 :=
  k0_pay2 (k0_pay9 i x w) (mIn i sm) (mIn i sm) (lIn i sl)
/-- The running target score after the point. -/
def tOut (i : grid0.Coords) (x w : Vec F S1024x1024 .f32) (y : Vec F S1024x1 .i32) (st : Vec F S1024x1 .f32) : Vec F S1024x1 .f32 :=
  k0_pay11 i x w y (tIn i st)
/-- The row tile of the result written at the last column tile. -/
def rowOut (i : grid0.Coords) (x w : Vec F S1024x1024 .f32) (y : Vec F S1024x1 .i32) (cl sm sl st : Vec F S1024x1 .f32) : Vec F S1024x1 .f32 :=
  k0_pay4 (k0_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid0.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid0.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid0.Coords) (hlast : k0_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc0__cluster_kernel i M2 hM2 M3 hM3 M4 hM4 M5 hM5 M6 hM6 M7 hM7 M8 hM8 M9 hM9) K := by
  simp only [cc0__cluster_kernel_eq_skeleton]; unfold cc0__cluster_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid0.Coords) (hlast : k0_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc0__cluster_kernel i M2 hM2 M3 hM3 M4 hM4 M5 hM5 M6 hM6 M7 hM7 M8 hM8 M9 hM9) K := by
  simp only [cc0__cluster_kernel_eq_skeleton]; unfold cc0__cluster_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.KernelIdeal.Body0
end
-- ==== Proof.Spec.lean ====
/-
  The function both programs compute, as mathematics over the extended reals (no program is imported here).

  Tokens n < 4096 with hidden vectors X n ∈ ℝ¹⁰²⁴ and labels y n; a cluster head Wc (3 × 1024) and an output matrix L
  (1024 × 50257) cut into three vocabulary clusters [0, 20000), [20000, 40000), [40000, 50257). With
      cll n     = log_softmax_j (Σ_k X n k · Wc j k)                      (three cluster log-probabilities),
      s_i n v   = Σ_k X n k · L k (lo_i + v)                              (scores inside cluster i),
  the negative log-likelihood of token n is, for the cluster i that holds its label,
      − cll n i − log_softmax_v (s_i n ·) (clip(y n − lo_i, 0, C_i − 1)),
  and 0 when no cluster holds it. log_softmax is taken as jax takes it — shift by the row maximum, subtract the log of the
  sum of the exponentials of the shifted row — and the clusters are tried in order, each overriding the earlier ones by a
  select on its own membership bit, so the function is total on every 32-bit label.
-/
import Idealize.ShloMosaic.PureOps.Ideal
import Idealize.ShloMosaic.PureOps.Vector
import Idealize.ShloMosaic.Lib.ValueIdx

noncomputable section

namespace Cert.Spec

open Idealize.ShloMosaic

/-- The inner product of row `n` of `X` with column `v` of `W`. -/
def score {C : ℕ} (X : Fin 4096 → Fin 1024 → EReal) (W : Fin 1024 → Fin C → EReal) (n : Fin 4096) (v : Fin C) : EReal :=
  ∑ k : Fin 1024, X n k * W k v

/-- The largest entry of a row (−∞ for an empty row). -/
def rowMax {C : ℕ} (s : Fin C → EReal) : EReal := Finset.univ.sup s

/-- The sum of the exponentials of a row shifted by its maximum. -/
def expSum {C : ℕ} (s : Fin C → EReal) : EReal := ∑ u : Fin C, Ideal.exp (s u - rowMax s)

/-- log-softmax of a row at one entry: the entry shifted by the row maximum, less the log of `expSum`. -/
def logSoftmax {C : ℕ} (s : Fin C → EReal) (v : Fin C) : EReal := (s v - rowMax s) - Ideal.log (expSum s)

/-- Membership of a label in [lo, hi), as the one bit both programs compute: (lo ≤ y) ∧ (y < hi), signed. -/
def memBit (lo hi yv : BitVec 32) : BitVec 1 := IntOp.andi (IntOp.cmpi .sge yv lo) (IntOp.cmpi .slt yv hi)

/-- The target column's word: y − lo clipped to [0, cm1] as signed words (cm1 = C − 1). -/
def tgtWord (lo cm1 yv : BitVec 32) : BitVec 32 := IntOp.minsi cm1 (IntOp.maxsi 0#32 (IntOp.subi yv lo))

/-- The target column as an index of the cluster (column 0 if the word were out of range, which the clip excludes). -/
def tgtIdx {C : ℕ} (hC : 0 < C) (lo cm1 yv : BitVec 32) : Fin C :=
  if h : (tgtWord lo cm1 yv).toNat < C then ⟨(tgtWord lo cm1 yv).toNat, h⟩ else ⟨0, hC⟩

/-- The three cluster log-probabilities of token `n`. -/
def clusterLL (X : Fin 4096 → Fin 1024 → EReal) (Wc : Fin 3 → Fin 1024 → EReal) (n : Fin 4096) (j : Fin 3) : EReal :=
  logSoftmax (fun j' : Fin 3 => ∑ k : Fin 1024, X n k * Wc j' k) j

/-- Columns lo ‥ lo + C − 1 of the output matrix. -/
def colSlice {C : ℕ} (lo : ℕ) (h : lo + C ≤ 50257) (L : Fin 1024 → Fin 50257 → EReal) : Fin 1024 → Fin C → EReal :=
  fun k v => L k ⟨lo + v.val, by have := v.isLt; omega⟩

/-- The value a cluster assigns to token `n`: minus its cluster log-probability, minus the log-softmax of the cluster's scores
    at the clipped target column. -/
def clusterVal {C : ℕ} (hC : 0 < C) (lo cm1 : BitVec 32) (X : Fin 4096 → Fin 1024 → EReal) (W : Fin 1024 → Fin C → EReal)
    (cl : Fin 4096 → EReal) (y : Fin 4096 → BitVec 32) (n : Fin 4096) : EReal :=
  (- cl n) - logSoftmax (score X W n) (tgtIdx hC lo cm1 (y n))

/-- The negative log-likelihood of token `n`. -/
def nll (X : Fin 4096 → Fin 1024 → EReal) (y : Fin 4096 → BitVec 32) (Wc : Fin 3 → Fin 1024 → EReal)
    (L : Fin 1024 → Fin 50257 → EReal) (n : Fin 4096) : EReal :=
  Scalar.select (memBit 40000#32 50257#32 (y n))
    (clusterVal (C := 10257) (by decide) 40000#32 10256#32 X (colSlice 40000 (by decide) L) (fun n => clusterLL X Wc n 2) y n)
    (Scalar.select (memBit 20000#32 40000#32 (y n))
      (clusterVal (C := 20000) (by decide) 20000#32 19999#32 X (colSlice 20000 (by decide) L) (fun n => clusterLL X Wc n 1) y n)
      (Scalar.select (memBit 0#32 20000#32 (y n))
        (clusterVal (C := 20000) (by decide) 0#32 19999#32 X (colSlice 0 (by decide) L) (fun n => clusterLL X Wc n 0) y n)
        0))

/-- The result array as ONE function of the four argument arrays (hidden vectors, labels, cluster head, output matrix),
    index by index over their literal shapes. -/
def result (A0 : (⟨2, ![4096, 1024]⟩ : Shape).Idx → EReal) (A1 : (⟨1, ![4096]⟩ : Shape).Idx → BitVec 32)
    (A2 : (⟨2, ![3, 1024]⟩ : Shape).Idx → EReal) (A3 : (⟨2, ![1024, 50257]⟩ : Shape).Idx → EReal) :
    (⟨1, ![4096]⟩ : Shape).Idx → EReal :=
  fun i => nll (fun n k => A0 (ValueIdx.ix2 n k)) (fun n => A1 (ValueIdx.ix1 n)) (fun j k => A2 (ValueIdx.ix2 j k))
    (fun k v => A3 (ValueIdx.ix2 k v)) (i 0)

end Cert.Spec

end
-- ==== Proof.Fold.lean ====
/-
  The kernel's per-row recurrence over column tiles, as mathematics over the extended reals (no program is imported here).

  A row of C real scores s is read in tiles of 1024 columns; tile j shows the entry s(1024·j + q) where that column exists and
  −∞ where it does not (the last tile is ragged). From (m, l, t) = (−∞, 0, 0) each tile moves
      m' = max(m, max_q S q),   l' = exp(m − m')·l + Σ_q exp(S q − m'),   t' = t + Σ_q [1024·j + q = tgt]·S q.
  After all the tiles, m is the row maximum, l the sum of exp(s − max), t the score at the target column: the streaming form of
  log-sum-exp. exp(−∞) = 0 is what makes the first step and the ragged columns contribute nothing; from the second step on
  every quantity is a real number and the step is exp(a)·exp(b) = exp(a + b) with distributivity.
-/
import proofs.«427347_j10273561772327_2_alg».proof.Proof.Spec

noncomputable section

namespace Cert.Fold

open Idealize.ShloMosaic Cert.Spec

/-- Entry q of column tile j of a row of C scores: the score where column 1024·j + q exists, −∞ where it does not. -/
def tileEntry {C : ℕ} (s : Fin C → EReal) (j : ℕ) (q : Fin 1024) : EReal :=
  if h : 1024 * j + q.val < C then s ⟨1024 * j + q.val, h⟩ else ⊥

/-- The running maximum after a tile. -/
def stepM (S : Fin 1024 → EReal) (m : EReal) : EReal := max m (Finset.univ.sup S)

/-- The running denominator after a tile. -/
def stepL (S : Fin 1024 → EReal) (m l : EReal) : EReal :=
  Ideal.exp (m - stepM S m) * l + ∑ q : Fin 1024, Ideal.exp (S q - stepM S m)

/-- The running target score after tile j: the tile's entry at the target column, if the target lies in this tile, is added. -/
def stepT (S : Fin 1024 → EReal) (j tgt : ℕ) (t : EReal) : EReal :=
  t + ∑ q : Fin 1024, if 1024 * j + q.val = tgt then S q else 0

/-- The three running quantities after the first `j` tiles. -/
def run {C : ℕ} (s : Fin C → EReal) (tgt : ℕ) : ℕ → EReal × EReal × EReal
  | 0 => (⊥, 0, 0)
  | j + 1 =>
    let p := run s tgt j
    (stepM (tileEntry s j) p.1, stepL (tileEntry s j) p.1 p.2.1, stepT (tileEntry s j) j tgt p.2.2)

/-! ### The row read past its end, and the three running quantities over the first n columns -/

/-- A row of C scores continued by −∞ beyond column C. -/
def ext {C : ℕ} (s : Fin C → EReal) (n : ℕ) : EReal := if h : n < C then s ⟨n, h⟩ else ⊥

theorem ext_val {C : ℕ} (s : Fin C → EReal) (v : Fin C) : ext s v.val = s v := by
  unfold ext; rw [dif_pos v.isLt]

theorem ext_of_le {C : ℕ} (s : Fin C → EReal) {n : ℕ} (h : C ≤ n) : ext s n = ⊥ := by
  unfold ext; rw [dif_neg (by omega)]

theorem tileEntry_eq_ext {C : ℕ} (s : Fin C → EReal) (j : ℕ) (q : Fin 1024) :
    tileEntry s j q = ext s (1024 * j + q.val) := rfl

/-- The largest of the first n entries of a sequence (−∞ for n = 0). -/
def pmax (f : ℕ → EReal) (n : ℕ) : EReal := (Finset.range n).sup f

/-- The sum of the exponentials of the first n entries shifted by their maximum. -/
def psum (f : ℕ → EReal) (n : ℕ) : EReal := ∑ k ∈ Finset.range n, Ideal.exp (f k - pmax f n)

/-- The entry at position tgt if it is among the first n, else 0, written as a sum of indicator terms. -/
def ptgt (f : ℕ → EReal) (tgt n : ℕ) : EReal := ∑ k ∈ Finset.range n, if k = tgt then f k else 0

theorem exp_nonneg (x : EReal) : 0 ≤ Ideal.exp x := by
  induction x using EReal.rec with
  | bot => exact le_refl _
  | coe r => exact EReal.coe_nonneg.mpr (Real.exp_pos r).le
  | top => exact le_top

/-- A real-valued finite sum, read in the extended reals. -/
theorem coe_finset_sum {ι : Type*} (A : Finset ι) (g : ι → ℝ) :
    ((∑ i ∈ A, g i : ℝ) : EReal) = ∑ i ∈ A, (g i : EReal) := by
  classical
  induction A using Finset.induction_on with
  | empty => simp
  | insert a A ha ih => rw [Finset.sum_insert ha, Finset.sum_insert ha, EReal.coe_add, ih]

/-- A finite nonnegative factor distributes over any finite sum of extended reals. -/
theorem mul_finset_sum {ι : Type*} (c : EReal) (h0 : 0 ≤ c) (ht : c ≠ ⊤) (A : Finset ι) (g : ι → EReal) :
    c * ∑ i ∈ A, g i = ∑ i ∈ A, c * g i := by
  classical
  induction A using Finset.induction_on with
  | empty => simp
  | insert a A ha ih =>
    rw [Finset.sum_insert ha, Finset.sum_insert ha, EReal.left_distrib_of_nonneg_of_ne_top h0 ht, ih]

/-- The maximum over Fin n of a function of the value is the maximum over range n. -/
theorem sup_fin_eq_range (n : ℕ) (F : ℕ → EReal) :
    (Finset.univ : Finset (Fin n)).sup (fun q => F q.val) = (Finset.range n).sup F := by
  apply le_antisymm
  · exact Finset.sup_le fun q _ => Finset.le_sup (f := F) (Finset.mem_range.mpr q.isLt)
  · exact Finset.sup_le fun k hk =>
      Finset.le_sup (f := fun q : Fin n => F q.val) (Finset.mem_univ ⟨k, Finset.mem_range.mp hk⟩)

theorem pmax_add (f : ℕ → EReal) (n m : ℕ) :
    pmax f (n + m) = max (pmax f n) ((Finset.range m).sup fun x => f (n + x)) := by
  unfold pmax
  rw [Finset.range_add_eq_union, Finset.sup_union, Finset.sup_map]
  rfl

/-- The maximum of a nonempty initial segment is a real number, when no entry is +∞ and the first is not −∞. -/
theorem pmax_real (f : ℕ → EReal) (hf : ∀ k, f k ≠ ⊤) (h0 : f 0 ≠ ⊥) (n : ℕ) (hn : 0 < n) :
    ∃ a : ℝ, pmax f n = (a : EReal) := by
  obtain ⟨k, _, e⟩ := Finset.exists_mem_eq_sup (Finset.range n) ⟨0, Finset.mem_range.mpr hn⟩ f
  have hle : f 0 ≤ f k := e ▸ Finset.le_sup (f := f) (Finset.mem_range.mpr hn)
  have hb : f k ≠ ⊥ := fun h => h0 (le_bot_iff.mp (h ▸ hle))
  exact ⟨(f k).toReal, by rw [pmax, e, EReal.coe_toReal (hf k) hb]⟩

/-- exp(x − b) = exp(a − b) · exp(x − a) for real a, b and x real or −∞. -/
theorem rescale_term (a b : ℝ) (x : EReal) (hx : x ≠ ⊤) :
    Ideal.exp (x - (b : EReal)) = Ideal.exp ((a : EReal) - (b : EReal)) * Ideal.exp (x - (a : EReal)) := by
  induction x using EReal.rec with
  | bot => rw [EReal.bot_sub, EReal.bot_sub, Ideal.exp_bot, mul_zero]
  | coe x =>
    rw [← EReal.coe_sub, ← EReal.coe_sub, ← EReal.coe_sub, Ideal.exp_coe, Ideal.exp_coe, Ideal.exp_coe, ← EReal.coe_mul,
      ← Real.exp_add, show a - b + (x - a) = x - b by ring]
  | top => exact absurd rfl hx

/-- Moving the shift of an initial segment's sum from its own maximum to a later one costs the factor exp(old − new). -/
theorem rescale (f : ℕ → EReal) (hf : ∀ k, f k ≠ ⊤) (h0 : f 0 ≠ ⊥) (n m : ℕ) :
    Ideal.exp (pmax f n - pmax f (n + m)) * psum f n = ∑ k ∈ Finset.range n, Ideal.exp (f k - pmax f (n + m)) := by
  rcases Nat.eq_zero_or_pos n with rfl | hn
  · simp [psum]
  · obtain ⟨a, ha⟩ := pmax_real f hf h0 n hn
    obtain ⟨b, hb⟩ := pmax_real f hf h0 (n + m) (by omega)
    have hc : Ideal.exp ((a : EReal) - (b : EReal)) ≠ ⊤ := by
      rw [← EReal.coe_sub, Ideal.exp_coe]; exact EReal.coe_ne_top _
    rw [psum, ha, hb, mul_finset_sum _ (exp_nonneg _) hc]
    exact Finset.sum_congr rfl fun k _ => (rescale_term a b (f k) (hf k)).symm

/-! ### One tile moves the three quantities from the first 1024·j columns to the first 1024·(j+1) -/

theorem stepM_tile {C : ℕ} (s : Fin C → EReal) (j : ℕ) :
    stepM (tileEntry s j) (pmax (ext s) (1024 * j)) = pmax (ext s) (1024 * (j + 1)) := by
  rw [Nat.mul_succ, pmax_add, stepM]
  exact congrArg _ (sup_fin_eq_range 1024 fun x => ext s (1024 * j + x))

theorem stepT_tile {C : ℕ} (s : Fin C → EReal) (tgt j : ℕ) :
    stepT (tileEntry s j) j tgt (ptgt (ext s) tgt (1024 * j)) = ptgt (ext s) tgt (1024 * (j + 1)) := by
  rw [Nat.mul_succ, ptgt, ptgt, Finset.sum_range_add, stepT]
  exact congrArg _ (Fin.sum_univ_eq_sum_range (fun x => if 1024 * j + x = tgt then ext s (1024 * j + x) else 0) 1024)

theorem stepL_tile {C : ℕ} (hC : 0 < C) (s : Fin C → EReal) (hs : ∀ v, ∃ r : ℝ, s v = (r : EReal)) (j : ℕ) :
    stepL (tileEntry s j) (pmax (ext s) (1024 * j)) (psum (ext s) (1024 * j)) = psum (ext s) (1024 * (j + 1)) := by
  have hf : ∀ k, ext s k ≠ ⊤ := by
    intro k; unfold ext; split
    · obtain ⟨r, hr⟩ := hs ⟨k, ‹_›⟩; rw [hr]; exact EReal.coe_ne_top r
    · exact bot_ne_top
  have h0 : ext s 0 ≠ ⊥ := by
    obtain ⟨r, hr⟩ := hs ⟨0, hC⟩
    rw [show (0 : ℕ) = (⟨0, hC⟩ : Fin C).val from rfl, ext_val, hr]; exact EReal.coe_ne_bot r
  rw [stepL, stepM_tile, Nat.mul_succ, rescale (ext s) hf h0, psum, Finset.sum_range_add]
  exact congrArg _ (Fin.sum_univ_eq_sum_range (fun x => Ideal.exp (ext s (1024 * j + x) - pmax (ext s) (1024 * j + 1024))) 1024)

/-- After j tiles the three quantities are those of the first 1024·j columns. -/
theorem run_eq {C : ℕ} (hC : 0 < C) (s : Fin C → EReal) (hs : ∀ v, ∃ r : ℝ, s v = (r : EReal)) (tgt j : ℕ) :
    run s tgt j = (pmax (ext s) (1024 * j), psum (ext s) (1024 * j), ptgt (ext s) tgt (1024 * j)) := by
  induction j with
  | zero => simp [run, pmax, psum, ptgt]
  | succ j ih =>
    show (stepM (tileEntry s j) (run s tgt j).1, stepL (tileEntry s j) (run s tgt j).1 (run s tgt j).2.1,
      stepT (tileEntry s j) j tgt (run s tgt j).2.2) = _
    rw [ih, stepM_tile, stepL_tile hC s hs, stepT_tile]

/-! ### Once every column has been read -/

theorem pmax_full {C : ℕ} (s : Fin C → EReal) (N : ℕ) (hN : C ≤ N) : pmax (ext s) N = rowMax s := by
  unfold pmax rowMax
  apply le_antisymm
  · refine Finset.sup_le fun k _ => ?_
    unfold ext; split
    · exact Finset.le_sup (f := s) (Finset.mem_univ _)
    · exact bot_le
  · refine Finset.sup_le fun v _ => ?_
    rw [← ext_val s v]
    exact Finset.le_sup (f := ext s) (Finset.mem_range.mpr (lt_of_lt_of_le v.isLt hN))

theorem psum_full {C : ℕ} (s : Fin C → EReal) (N : ℕ) (hN : C ≤ N) : psum (ext s) N = expSum s := by
  unfold psum expSum
  rw [pmax_full s N hN, ← Finset.sum_subset (Finset.range_subset_range.mpr hN) (fun k _ hk => by
      rw [ext_of_le s (not_lt.mp (fun h => hk (Finset.mem_range.mpr h))), EReal.bot_sub, Ideal.exp_bot]),
    ← Fin.sum_univ_eq_sum_range (fun k => Ideal.exp (ext s k - rowMax s)) C]
  exact Finset.sum_congr rfl fun u _ => by rw [ext_val]

theorem ptgt_full {C : ℕ} (s : Fin C → EReal) (tgt : Fin C) (N : ℕ) (hN : C ≤ N) : ptgt (ext s) tgt.val N = s tgt := by
  unfold ptgt
  rw [Finset.sum_ite_eq', if_pos (Finset.mem_range.mpr (lt_of_lt_of_le tgt.isLt hN)), ext_val]

/-- After all the tiles: the row maximum, the sum of exponentials of the shifted row, the target's score. -/
theorem run_final {C : ℕ} (s : Fin C → EReal) (hs : ∀ v, ∃ r : ℝ, s v = (r : EReal)) (tgt : Fin C) (NT : ℕ) (hNT : C ≤ 1024 * NT) :
    run s tgt.val NT = (rowMax s, expSum s, s tgt) := by
  rw [run_eq (Nat.lt_of_le_of_lt (Nat.zero_le _) tgt.isLt) s hs, pmax_full s _ hNT, psum_full s _ hNT, ptgt_full s tgt _ hNT]

/-- The kernel's arrangement of the final value is the reference's, on real numbers with a positive denominator. -/
theorem final_form (a M t E : ℝ) (hE : 0 < E) :
    ((0 : EReal) - (a : EReal)) - ((t : EReal) - ((M : EReal) + Ideal.log (E : EReal)))
      = (- (a : EReal)) - (((t : EReal) - (M : EReal)) - Ideal.log (E : EReal)) := by
  rw [Ideal.log_coe, if_neg (not_le.mpr hE), zero_sub, ← EReal.coe_add, ← EReal.coe_sub, ← EReal.coe_sub, ← EReal.coe_sub,
    ← EReal.coe_neg, ← EReal.coe_sub, ← EReal.coe_sub]
  exact congrArg _ (by ring)

/-- The row maximum of a nonempty real row is real, and the sum of exponentials of the shifted row is a positive real. -/
theorem rowMax_real {C : ℕ} (hC : 0 < C) (s : Fin C → EReal) (hs : ∀ v, ∃ r : ℝ, s v = (r : EReal)) :
    ∃ M : ℝ, rowMax s = (M : EReal) := by
  obtain ⟨v, _, e⟩ := Finset.exists_mem_eq_sup (Finset.univ : Finset (Fin C)) ⟨⟨0, hC⟩, Finset.mem_univ _⟩ s
  obtain ⟨r, hr⟩ := hs v
  exact ⟨r, by rw [rowMax, e, hr]⟩

theorem expSum_pos_real {C : ℕ} (hC : 0 < C) (s : Fin C → EReal) (hs : ∀ v, ∃ r : ℝ, s v = (r : EReal)) :
    ∃ E : ℝ, 0 < E ∧ expSum s = (E : EReal) := by
  obtain ⟨M, hM⟩ := rowMax_real hC s hs
  choose r hr using hs
  refine ⟨∑ u : Fin C, Real.exp (r u - M), Finset.sum_pos (fun u _ => Real.exp_pos _) ⟨⟨0, hC⟩, Finset.mem_univ _⟩, ?_⟩
  rw [expSum, hM, coe_finset_sum]
  exact Finset.sum_congr rfl fun u _ => by rw [hr u, ← EReal.coe_sub, Ideal.exp_coe]

/-- log-softmax of a real row is real. -/
theorem logSoftmax_real {C : ℕ} (hC : 0 < C) (s : Fin C → EReal) (hs : ∀ v, ∃ r : ℝ, s v = (r : EReal)) (v : Fin C) :
    ∃ r : ℝ, logSoftmax s v = (r : EReal) := by
  obtain ⟨M, hM⟩ := rowMax_real hC s hs
  obtain ⟨E, hE, hEe⟩ := expSum_pos_real hC s hs
  obtain ⟨x, hx⟩ := hs v
  exact ⟨x - M - Real.log E, by
    rw [logSoftmax, hM, hEe, hx, Ideal.log_coe, if_neg (not_le.mpr hE), ← EReal.coe_sub, ← EReal.coe_sub]⟩

end Cert.Fold

end
-- ==== Proof.KI.Pay0.lean ====
/-
  The value terms of one grid point of the first cluster's kernel (columns 0 ‥ 19999 of the output matrix, 20 column tiles of
  1024), read at an index over the extended reals.

  At grid point (r, j) the kernel holds a 1024 × 1024 tile x of hidden vectors and column tile j of the cluster's weights w.
  Entry (p, q) of the score tile is the inner product Σ_k x(p, k) · w(k, q) where column 1024·j + q exists (below 20000) and −∞
  where it does not; only the existing columns of w are read. From a row's entries S(p, ·) the three carried columns move as
      m'(p) = max(m(p), sup_q S(p, q)),
      l'(p) = exp(m(p) − m'(p)) · l(p) + Σ_q exp(S(p, q) − m'(p)),
      t'(p) = t(p) + Σ_q [1024·j + q = clip(y(p) − 0, 0, 19999)] · S(p, q),
  they start from (−∞, 0, 0), and the row tile of the result is, for a label y(p) with 0 ≤ y(p) < 20000,
      (0 − cl(p)) − (t(p) − (m(p) + log l(p))),
  and 0 for any other label. Each statement below is one of these equations for the kernel's own term.
-/
import proofs.«427347_j10273561772327_2_alg».proof.Proof.Fold
import proofs.«427347_j10273561772327_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay0

open Cert.KernelIdeal Cert.KernelIdeal.Gen
open Idealize.ShloMosaic Idealize.ShloMosaic.ValueIdx

/-! ## Layout at an index: a row's column vector -/

section Layout
variable {α : Type}

/-- A vector of `a` entries read as an `a × 1` column: entry `(i, 0)` is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column laid across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row `p` of the reduced vector, the source index with column `k` put back is `(p, k)`. -/
theorem lift_row (h : S1024x1024.Reduces [1] S1024) (p k : Fin 1024) : h.lift (ix1 p) k = ix2 p k := by
  funext c; apply Fin.ext
  match c with
  | ⟨0, _⟩ => rfl
  | ⟨1, _⟩ => rfl

end Layout

/-! ## The product tile at an index -/

theorem lhs_ax0 (j : S1024x1024.Idx) (k : dot_S1024x1024_S1024x1024_S1024x1024_1_0_0_1_n_n.contr.Idx) :
    (dot_S1024x1024_S1024x1024_S1024x1024_1_0_0_1_n_n.lhsIdx j k 0).val = (j 0).val := rfl
theorem lhs_ax1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val := rfl
theorem rhs_ax0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val := rfl
theorem rhs_ax1 (j : S1024x1024.Idx) (k : dot_S1024x1024_S1024x1024_S1024x1024_1_0_0_1_n_n.contr.Idx) :
    (dot_S1024x1024_S1024x1024_S1024x1024_1_0_0_1_n_n.rhsIdx j k 1).val = (j 1).val := rfl

/-- The product of two 1024 × 1024 tiles accumulated into zeros, at (p, q): the inner product of row p and column q. -/
theorem matmul_tile_apply {φ₁ φ₂ : FTy} (x : FVec Ideal S1024x1024 φ₁) (w : FVec Ideal S1024x1024 φ₂) (p q : Fin 1024) :
    matmul dot_S1024x1024_S1024x1024_S1024x1024_1_0_0_1_n_n none x w (constant (F := Ideal) S1024x1024 .f32 0x00000000#32) (ix2 p q)
      = ∑ k : Fin 1024, x (ix2 p k) * w (ix2 k q) := by
  show FloatOps.matmul dot_S1024x1024_S1024x1024_S1024x1024_1_0_0_1_n_n none x w (constant S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine Finset.sum_congr rfl fun c _ => ?_
  have c2 := contrEquiv1_symm_val dot_S1024x1024_S1024x1024_S1024x1024_1_0_0_1_n_n 1024 rfl rfl c
  have l2 : dot_S1024x1024_S1024x1024_S1024x1024_1_0_0_1_n_n.lhsIdx (ix2 p q)
      ((contrEquiv1 dot_S1024x1024_S1024x1024_S1024x1024_1_0_0_1_n_n 1024 rfl rfl).symm c) = ix2 p c := by
    funext ax; apply Fin.ext
    match ax with
    | ⟨0, _⟩ => exact lhs_ax0 _ _
    | ⟨1, _⟩ => exact (lhs_ax1 _ _).trans c2
  have r2 : dot_S1024x1024_S1024x1024_S1024x1024_1_0_0_1_n_n.rhsIdx (ix2 p q)
      ((contrEquiv1 dot_S1024x1024_S1024x1024_S1024x1024_1_0_0_1_n_n 1024 rfl rfl).symm c) = ix2 c q := by
    funext ax; apply Fin.ext
    match ax with
    | ⟨0, _⟩ => exact (rhs_ax0 _ _).trans c2
    | ⟨1, _⟩ => exact rhs_ax1 _ _
  rw [l2, r2]

/-! ## The starting values -/

/-- The fill value the ragged columns and the starting maximum carry is −∞. -/
theorem fill_eq : Named.named (F := Ideal) Cert.KernelIdeal.κ "neg_big" (φ := .f32) 0xFF333332#32 = (⊥ : EReal) :=
  IdealRules.named_const.ideal_named_scalar _ _ _ _ rfl

theorem pay5_apply (p : Fin 1024) : k0_pay5 (F := Ideal) (ix2 p (0 : Fin 1)) = (⊥ : EReal) := by
  unfold k0_pay5
  rw [shapeCast_self]
  exact fill_eq

theorem pay6_apply (p : Fin 1024) : k0_pay6 (F := Ideal) (ix2 p (0 : Fin 1)) = (0 : EReal) := by
  unfold k0_pay6
  rw [shapeCast_self]
  exact Ideal.ofBits_zero_f32

theorem pay7_apply (p : Fin 1024) : k0_pay7 (F := Ideal) (ix2 p (0 : Fin 1)) = (0 : EReal) := by
  unfold k0_pay7
  rw [shapeCast_self]
  exact Ideal.ofBits_zero_f32

/-! ## Column numbers as 32-bit words -/

/-- A natural number below 2³¹, read back signed from its 32-bit word, is itself. -/
theorem toInt_ofNat_small (n : ℕ) (hn : n < 2147483648) : (BitVec.ofNat 32 n).toInt = (n : Int) := by
  rw [BitVec.toInt_ofNat', Int.bmod_def]
  omega

/-- Signed comparison of the words of two naturals below 2³¹ is comparison of the naturals. -/
theorem slt_ofNat (n m : ℕ) (hn : n < 2147483648) (hm : m < 2147483648) :
    (BitVec.ofNat 32 n).slt (BitVec.ofNat 32 m) = decide (n < m) := by
  unfold BitVec.slt
  rw [toInt_ofNat_small n hn, toInt_ofNat_small m hm]
  simp only [Nat.cast_lt]

/-- A select on "column n lies below 20000". -/
theorem select_col_lt {α : Type} (n : ℕ) (hn : n < 2147483648) (a b : α) :
    Scalar.select (IntOp.cmpi .slt (BitVec.ofNat 32 n) 20000#32) a b = if n < 20000 then a else b := by
  show (if BitVec.ofBool ((BitVec.ofNat 32 n).slt (BitVec.ofNat 32 20000)) = 1#1 then a else b) = _
  rw [slt_ofNat n 20000 hn (by norm_num)]
  by_cases h : n < 20000 <;> simp [h]

/-- A select on "two words are equal". -/
theorem select_word_eq {α : Type} (u v : BitVec 32) (a b : α) :
    Scalar.select (IntOp.cmpi .eq u v) a b = if u = v then a else b := by
  show (if BitVec.ofBool (u == v) = 1#1 then a else b) = _
  by_cases h : u = v
  · subst h; simp
  · have hb : (u == v) = false := by simpa using h
    rw [hb, if_neg h, if_neg (by decide)]

/-- The column number of entry (p, q) of column tile j, as a word: 1024·j + q. -/
theorem pay8_apply (i : grid0.Coords) (p q : Fin 1024) :
    k0_pay8 i (ix2 p q) = BitVec.ofNat 32 (1024 * (i 1).val + q.val) := by
  unfold k0_pay8
  show IntOp.addi (IntOp.muli (BitVec.ofNat 32 (i 1).val) 1024#32) (BitVec.ofNat 32 (0 * 1024 + q.val)) = _
  unfold IntOp.addi IntOp.muli
  rw [Nat.zero_mul, Nat.zero_add, BitVec.ofNat_add, BitVec.ofNat_mul, BitVec.mul_comm]

theorem col_small (i : grid0.Coords) (q : Fin 1024) : 1024 * (i 1).val + q.val < 2147483648 := by
  have h1 : (i 1).val < 20 := (i 1).isLt
  have h2 := q.isLt
  omega

/-! ## The masked score tile -/

/-- Entry (p, q) of the score tile: the inner product of row p of x with column q of w where column 1024·j + q exists, −∞ where
    it does not. -/
theorem score_apply (i : grid0.Coords) (x w : Vec Ideal S1024x1024 .f32) (p q : Fin 1024) :
    k0_pay9 (F := Ideal) i x w (ix2 p q)
      = if 1024 * (i 1).val + q.val < 20000 then ∑ k : Fin 1024, x (ix2 p k) * w (ix2 k q) else (⊥ : EReal) := by
  unfold k0_pay9
  show Scalar.select (IntOp.cmpi .slt (k0_pay8 i (ix2 p q)) 20000#32)
      (matmul dot_S1024x1024_S1024x1024_S1024x1024_1_0_0_1_n_n none (truncf .bf16 x bitsLt_bf16_f32)
        (truncf .bf16 (shapeCast S1024x1024 w shapeCasts_S1024x1024_S1024x1024) bitsLt_bf16_f32)
        (constant (F := Ideal) S1024x1024 .f32 0x00000000#32) (ix2 p q))
      (Named.named (F := Ideal) κ "neg_big" (φ := .f32) 0xFF333332#32) = _
  rw [pay8_apply, select_col_lt _ (col_small i q), matmul_tile_apply, fill_eq, shapeCast_self]
  rfl

/-- The score tile reads of w only the columns that exist. -/
theorem score_tail (i : grid0.Coords) (x w w' : Vec Ideal S1024x1024 .f32)
    (h : ∀ (p k q : Fin 1024), 1024 * (i 1).val + q.val < 20000 → w (ix2 k q) = w' (ix2 k q)) :
    k0_pay9 (F := Ideal) i x w = k0_pay9 (F := Ideal) i x w' := by
  funext z
  obtain ⟨p, q, rfl⟩ : ∃ (p q : Fin 1024), z = ix2 p q := ⟨z 0, z 1, eq_ix2 z⟩
  rw [score_apply, score_apply]
  by_cases hq : 1024 * (i 1).val + q.val < 20000
  · rw [if_pos hq, if_pos hq]
    exact Finset.sum_congr rfl fun k _ => by rw [h p k q hq]
  · rw [if_neg hq, if_neg hq]

/-! ## Row reductions of a tile -/

/-- The f32 pattern a maximum starts from denotes −∞. -/
theorem ofBits_neg_inf : Ideal.ofBits .f32 0xFF800000#32 = (⊥ : EReal) := by simp [Ideal.ofBits, Ideal.ieee]

/-- A fold of max from −∞ over a finite set is the supremum over it. -/
theorem fold_max_bot {β : Type} (s : Finset β) (f : β → EReal) : s.fold max (⊥ : EReal) f = s.sup f := rfl

/-- The maximum over the columns of a tile, from −∞, at row p: the supremum of the row. -/
theorem rowmax_apply (V : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 V 0xFF800000#32 h hφ hacc (ix1 p)
      = Finset.univ.sup fun q : Fin 1024 => V (ix2 p q) := by
  refine (Ideal.multiReduction_maximumf_single V 0xFF800000#32 h hφ hacc (ix1 p)).trans ?_
  have e : (V ∘ h.lift (ix1 p)) = fun q : Fin 1024 => V (ix2 p q) := funext fun q => congrArg V (lift_row h p q)
  show (Finset.univ : Finset (Fin 1024)).fold max (Ideal.ofBits .f32 0xFF800000#32) (V ∘ h.lift (ix1 p)) = _
  rw [e, ofBits_neg_inf]
  exact fold_max_bot _ _

/-- The sum over the columns of a tile at row p. -/
theorem rowsum_apply (V : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 V 0x00000000#32 h hφ hacc (ix1 p) = ∑ q : Fin 1024, V (ix2 p q) := by
  refine (Ideal.multiReduction_add_single V 0x00000000#32 h hφ hacc (ix1 p)).trans ?_
  exact Finset.sum_congr rfl fun q _ => congrArg V (lift_row h p q)

/-! ## The three carried columns after a tile, and the row tile of the result -/

/-- The running maximum after a tile, at row p. -/
theorem pay1_apply (S : FVec Ideal S1024x1024 .f32) (m : Vec Ideal S1024x1 .f32) (p : Fin 1024) :
    k0_pay1 (F := Ideal) S m (ix2 p (0 : Fin 1)) = Cert.Fold.stepM (fun q => S (ix2 p q)) (m (ix2 p (0 : Fin 1))) := by
  have e : shapeCast S1024x1 (multiReduction (F := Ideal) .maximumf [1] S1024 S 0xFF800000#32 reduces_S1024x1024_S1024 (.inl rfl) rfl)
        shapeCasts_S1024_S1024x1 (ix2 p (0 : Fin 1)) = Finset.univ.sup fun q : Fin 1024 => S (ix2 p q) :=
    (shapeCast_a_a1_apply _ shapeCasts_S1024_S1024x1 p 0).trans (rowmax_apply S reduces_S1024x1024_S1024 (.inl rfl) rfl p)
  unfold k0_pay1 Cert.Fold.stepM
  rw [← e]
  generalize shapeCast S1024x1 (multiReduction (F := Ideal) .maximumf [1] S1024 S 0xFF800000#32 reduces_S1024x1024_S1024 (.inl rfl) rfl)
    shapeCasts_S1024_S1024x1 = R
  rfl

theorem max_apply (S : FVec Ideal S1024x1024 .f32) (m : Vec Ideal S1024x1 .f32) (p : Fin 1024) :
    k0_pay3 (F := Ideal) S m (ix2 p (0 : Fin 1)) = Cert.Fold.stepM (fun q => S (ix2 p q)) (m (ix2 p (0 : Fin 1))) := by
  unfold k0_pay3
  rw [shapeCast_self]
  exact pay1_apply S m p

/-- The running denominator after a tile, at row p. -/
theorem den_apply (S : FVec Ideal S1024x1024 .f32) (m l : Vec Ideal S1024x1 .f32) (p : Fin 1024) :
    k0_pay2 (F := Ideal) S m m l (ix2 p (0 : Fin 1))
      = Cert.Fold.stepL (fun q => S (ix2 p q)) (m (ix2 p (0 : Fin 1))) (l (ix2 p (0 : Fin 1))) := by
  have hP := pay1_apply S m p
  unfold k0_pay2 Cert.Fold.stepL
  rw [← hP]
  generalize k0_pay1 (F := Ideal) S m = P
  rw [shapeCast_self]
  have e : shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 (ix2 p (0 : Fin 1))
      = ∑ q : Fin 1024, Ideal.exp (S (ix2 p q) - P (ix2 p (0 : Fin 1))) := by
    refine (shapeCast_a_a1_apply _ shapeCasts_S1024_S1024x1 p 0).trans ?_
    refine (rowsum_apply _ reduces_S1024x1024_S1024 (.inl rfl) rfl p).trans ?_
    refine Finset.sum_congr rfl fun q _ => ?_
    show Ideal.exp (S (ix2 p q) - broadcastTo S1024x1024 P broadcasts_S1024x1_S1024x1024 (ix2 p q)) = _
    rw [broadcastTo_a1_ab_apply]
  rw [← e]
  generalize shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 = R
  rfl

/-- The running target score after a tile, at row p: the tile's entry at the target column, if it lies in this tile, is added. -/
theorem tgt_apply (i : grid0.Coords) (x w : Vec Ideal S1024x1024 .f32) (y : Vec Ideal S1024x1 .i32) (t : Vec Ideal S1024x1 .f32)
    (p : Fin 1024) :
    k0_pay11 (F := Ideal) i x w y t (ix2 p (0 : Fin 1))
      = t (ix2 p (0 : Fin 1)) + ∑ q : Fin 1024,
          if BitVec.ofNat 32 (1024 * (i 1).val + q.val) = Cert.Spec.tgtWord 0#32 19999#32 (y (ix2 p (0 : Fin 1)))
          then k0_pay9 (F := Ideal) i x w (ix2 p q) else 0 := by
  unfold k0_pay11 k0_pay10
  generalize k0_pay9 (F := Ideal) i x w = Sc
  rw [shapeCast_self, shapeCast_self]
  have e : shapeCast S1024x1 (multiReduction (F := Ideal) .add [1] S1024
        (select (cmpi .eq (k0_pay8 i)
            (broadcastTo S1024x1024
              (minsi (broadcast S1024x1 19999#32) (maxsi (broadcast S1024x1 0#32) (subi y (broadcast S1024x1 0#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 (ix2 p (0 : Fin 1))
      = ∑ q : Fin 1024,
          if BitVec.ofNat 32 (1024 * (i 1).val + q.val) = Cert.Spec.tgtWord 0#32 19999#32 (y (ix2 p (0 : Fin 1)))
          then Sc (ix2 p q) else 0 := by
    refine (shapeCast_a_a1_apply _ shapeCasts_S1024_S1024x1 p 0).trans ?_
    refine (rowsum_apply _ reduces_S1024x1024_S1024 (.inl rfl) rfl p).trans ?_
    refine Finset.sum_congr rfl fun q _ => ?_
    show Scalar.select (IntOp.cmpi .eq (k0_pay8 i (ix2 p q))
          (broadcastTo S1024x1024
            (minsi (broadcast S1024x1 19999#32) (maxsi (broadcast S1024x1 0#32) (subi y (broadcast S1024x1 0#32))))
            broadcasts_S1024x1_S1024x1024 (ix2 p q)))
        (Sc (ix2 p q)) (Ideal.ofBits .f32 0x00000000#32) = _
    rw [pay8_apply, broadcastTo_a1_ab_apply, select_word_eq, Ideal.ofBits_zero_f32]
    rfl
  rw [← e]
  generalize shapeCast S1024x1 (multiReduction (F := Ideal) .add [1] S1024
        (select (cmpi .eq (k0_pay8 i)
            (broadcastTo S1024x1024
              (minsi (broadcast S1024x1 19999#32) (maxsi (broadcast S1024x1 0#32) (subi y (broadcast S1024x1 0#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 = R
  rfl

/-- The row tile of the result, at row p: for a label inside the cluster, minus the cluster's log-probability minus the target's
    log-softmax in the kernel's arrangement; zero for a label outside. -/
theorem out_apply (y : Vec Ideal S1024x1 .i32) (m l t cl : Vec Ideal S1024x1 .f32) (p : Fin 1024) :
    k0_pay4 (F := Ideal) (k0_pay10 (F := Ideal) y) m l t cl (ix2 p (0 : Fin 1))
      = Scalar.select (Cert.Spec.memBit 0#32 20000#32 (y (ix2 p (0 : Fin 1))))
          (((0 : EReal) - cl (ix2 p (0 : Fin 1))) - (t (ix2 p (0 : Fin 1)) - (m (ix2 p (0 : Fin 1)) + Ideal.log (l (ix2 p (0 : Fin 1))))))
          0 := by
  unfold k0_pay4 k0_pay10
  rw [shapeCast_self, shapeCast_self]
  show Scalar.select (IntOp.andi (IntOp.cmpi .sge (y (ix2 p (0 : Fin 1))) 0#32) (IntOp.cmpi .slt (y (ix2 p (0 : Fin 1))) 20000#32))
      ((Ideal.ofBits .f32 0x00000000#32 - cl (ix2 p (0 : Fin 1))) - (t (ix2 p (0 : Fin 1)) - (m (ix2 p (0 : Fin 1)) + Ideal.log (l (ix2 p (0 : Fin 1))))))
      (Ideal.ofBits .f32 0x00000000#32) = _
  rw [Ideal.ofBits_zero_f32]
  rfl

end Cert.KernelIdeal.Pay0

end
-- ==== Proof.KI.Dat0.lean ====
/-
  The proof data of the per-cluster kernel at the ideal instance (this cluster: lo = 0, C = 20000 columns, 20 column tiles of 1024).

  The grid's points are t = 20·r + j (row tile r < 4, column tile j < 20). At point t the kernel holds the row tile of x, of the
  labels and of the cluster log-probability (fetched when j = 0, kept while j moves) and column tile j of the weight slice, whose last
  tile overhangs the array: the columns past the array's end hold words nothing names, and the body masks them, so the data below
  puts zeros there and the kernel's values do not depend on the choice. The three carried columns after n points are defined by
  recursion on n through the point's transition (at j = 0 the transition resets them first, so what a row starts from is immaterial);
  the result's staging tile is written at j = 19 only, from the carried columns of its row, and that is the one point of a row whose
  block is written back to the result array.
-/
import proofs.«427347_j10273561772327_2_alg».proof.Proof.KI.Body0
import proofs.«427347_j10273561772327_2_alg».proof.Proof.KI.Pay0
import proofs.«427347_j10273561772327_2_alg».proof.Proof.Gen.KernelIdeal.Points
import Idealize.ShloMosaic.Lib.Pipeline.Frame
import Idealize.ShloMosaic.Lib.Pipeline.FrameBody
import Idealize.ShloMosaic.Lib.ValueIdx

set_option maxRecDepth 16384

noncomputable section

namespace Cert.KernelIdeal.Dat0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)
open Cert.KernelIdeal.Pay0 (score_tail)

local notation "𝕄" => MT nD τ sig Unit (Elt Ideal) ℕ (UR sig nD τ) ℕ

-- the TensorCore's buffer contents when the region is entered: the parameter everything here is stated at
variable (V : (c : Dev nD) → (b : Ref sig .tc) → Buf (Elt Ideal) ((c : Thread nD τ).loc b))

/-! ## The blocks -/

/-- Window `w`'s block at point `t`, read off its array as the region finds it (the part inside the array). -/
def iblk (c : Dev nD) (w : Fin cfg0.W) (t : Fin cfg0.N) :
    ((cfg0.win w).xblock (cfg0.grid.coords t)).Idx → Elt Ideal (cfg0.win w).elt :=
  ((cfg0.win w).blk t).view.read (Elt Ideal) (V c (Pipeline.arrRef spec0 w))

/-- The row tile of x at point `t`. -/
def xT (c : Dev nD) (t : Fin cfg0.N) : Vec Ideal S1024x1024 .f32 := iblk V c 0 t
/-- The labels of the row tile. -/
def yT (c : Dev nD) (t : Fin cfg0.N) : Vec Ideal S1024x1 .i32 := iblk V c 1 t
/-- The cluster log-probability of the row tile. -/
def clT (c : Dev nD) (t : Fin cfg0.N) : Vec Ideal S1024x1 .f32 := iblk V c 2 t
/-- Column tile j of the weight slice, zeros on the columns past the array's end. -/
def wT (c : Dev nD) (t : Fin cfg0.N) : Vec Ideal S1024x1024 .f32 :=
  (cfg0.win 3).fill (cfg0.grid.coords t) (fun _ => (0 : EReal)) (iblk V c 3 t)

/-! ## The carried columns and the result's row tile -/

/-- The running maximum, denominator and target score after the first `n` points. -/
def carried (c : Dev nD) : ℕ → Vec Ideal S1024x1 .f32 × Vec Ideal S1024x1 .f32 × Vec Ideal S1024x1 .f32
  | 0 => (k0_pay5 (F := Ideal), k0_pay6 (F := Ideal), k0_pay7 (F := Ideal))
  | n + 1 =>
    if h : n < cfg0.N then
      (Body0.mOut (cfg0.grid.coords ⟨n, h⟩) (xT V c ⟨n, h⟩) (wT V c ⟨n, h⟩) (carried c n).1,
       Body0.lOut (cfg0.grid.coords ⟨n, h⟩) (xT V c ⟨n, h⟩) (wT V c ⟨n, h⟩) (carried c n).1 (carried c n).2.1,
       Body0.tOut (cfg0.grid.coords ⟨n, h⟩) (xT V c ⟨n, h⟩) (wT V c ⟨n, h⟩) (yT V c ⟨n, h⟩) (carried c n).2.2)
    else carried c n

/-- The row tile of the result the body writes at point `t` (it writes one at the last column tile of a row only). -/
def outTile (c : Dev nD) (t : Fin cfg0.N) : Vec Ideal S1024x1 .f32 :=
  Body0.rowOut (cfg0.grid.coords t) (xT V c t) (wT V c t) (yT V c t) (clT V c t)
    (carried V c t.val).1 (carried V c t.val).2.1 (carried V c t.val).2.2

/-! ## The proof data -/

/-- The arrays as the region finds them; after the body each input's buffer at its block (the weight tile's as `wT`), the
    result's at `outTile`; between points the three scratch columns at `carried` (at anything before the first point), beside the
    scoped buffers nothing here touches and the generator register; nothing owed; full shares. -/
def dat (c : Dev nD) : Dat τ (Elt Ideal) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => wT V c t
    | ⟨4, _⟩ => outTile V c t
  Φ t := iprop(∃ sm sl st : Vec Ideal S1024x1 .f32, ⌜t.val = 0 ∨ (sm, sl, st) = carried V c t.val⌝
      ∗ owns (c : Thread nD τ) (Memref.whole cc0_scratch0) fullShare sm
      ∗ owns (c : Thread nD τ) (Memref.whole cc0_scratch1) fullShare sl
      ∗ owns (c : Thread nD τ) (Memref.whole cc0_scratch2) fullShare st
      ∗ Pipeline.scopedRestBut (Ix := Unit) (Name := ℕ) (U := UR sig nD τ) (Lvl := ℕ) (Val := Elt Ideal) spec0 c [cc0_scratch0, cc0_scratch1, cc0_scratch2]
      ∗ ∃ r, prngReg c r)
  q _ := fullShare
  owed _ := 0

/-! ## What is owed of it -/

/-! ### The grid's coordinates -/

/-- The column tile of a point is its number modulo the number of column tiles. -/
theorem coords_snd : ∀ t : Fin cfg0.N, ((cfg0.grid.coords t) 1).val = t.val % 20 :=
  (by decide +kernel : ∀ t : Fin grid0.N, ((grid0.coords t) 1).val = t.val % 20)

/-! ### The proof data, projected -/

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = wT V c t := by dsimp only [dat]
theorem after_4 (c : Dev nD) (t : Fin cfg0.N) : (dat V c).after 4 t = outTile V c t := by dsimp only [dat]

theorem Φ_eq (c : Dev nD) (s : Fin (cfg0.N + 1)) : (dat V c).Φ s
    = iprop(∃ sm sl st : Vec Ideal S1024x1 .f32, ⌜s.val = 0 ∨ (sm, sl, st) = carried V c s.val⌝
      ∗ owns (c : Thread nD τ) (Memref.whole cc0_scratch0) fullShare sm
      ∗ owns (c : Thread nD τ) (Memref.whole cc0_scratch1) fullShare sl
      ∗ owns (c : Thread nD τ) (Memref.whole cc0_scratch2) fullShare st
      ∗ Pipeline.scopedRestBut (Ix := Unit) (Name := ℕ) (U := UR sig nD τ) (Lvl := ℕ) (Val := Elt Ideal) spec0 c [cc0_scratch0, cc0_scratch1, cc0_scratch2]
      ∗ ∃ r, prngReg c r) := by dsimp only [dat]

/-! ### What the body finds in the input windows' buffers -/

/-- An input whose blocks tile its array holds its block at every point, fetched there or kept from the row's first point. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The weight tile is fetched at every point: its block on the columns inside the array, what the buffer held on the others. -/
theorem before_3 (c : Dev nD) (t : Fin cfg0.N) (d) :
    (dat V c).before 3 t d = (cfg0.win 3).fill (cfg0.grid.coords t) d (iblk V c 3 t) := by
  unfold Dat.before; rw [if_pos (Gen.fetch0_3 t)]; rfl

theorem cut_after_3 (c : Dev nD) (t : Fin cfg0.N) :
    (cfg0.win 3).cut (cfg0.grid.coords t) ((dat V c).after 3 t) = iblk V c 3 t := by
  rw [after_3]; exact (cfg0.win 3).cut_fill _ _ _

/-! ### The columns past the array's end do not matter -/

-- the masked score tile reads the weight tile on the columns inside the array only: `score_tail`, with the value lemmas

/-- What the transfer of the weight tile moves at a point: every row, and the columns up to the array's end. -/
theorem moved_sizes : ∀ t : Fin cfg0.N, (cfg0.win 3).xsize (cfg0.grid.coords t) (0 : Fin 2) = 1024
    ∧ (1024 * ((cfg0.grid.coords t) 1).val + 1024 ≤ 20000 → (cfg0.win 3).xsize (cfg0.grid.coords t) (1 : Fin 2) = 1024)
    ∧ (20000 < 1024 * ((cfg0.grid.coords t) 1).val + 1024 → 1024 * ((cfg0.grid.coords t) 1).val + (cfg0.win 3).xsize (cfg0.grid.coords t) (1 : Fin 2) = 20000) :=
  (by decide +kernel : ∀ t : Fin grid0.N, win0_3.xsize (grid0.coords t) (0 : Fin 2) = 1024
    ∧ (1024 * ((grid0.coords t) 1).val + 1024 ≤ 20000 → win0_3.xsize (grid0.coords t) (1 : Fin 2) = 1024)
    ∧ (20000 < 1024 * ((grid0.coords t) 1).val + 1024 → 1024 * ((grid0.coords t) 1).val + win0_3.xsize (grid0.coords t) (1 : Fin 2) = 20000))

/-- A column of the tile that lies inside the array is one the transfer moves. -/
theorem moved_of_lt (t : Fin cfg0.N) (k q : Fin 1024) (h : 1024 * ((cfg0.grid.coords t) 1).val + q.val < 20000) :
    (cfg0.win 3).moved (cfg0.grid.coords t) (ix2 k q) = true := by
  rw [Window.moved_iff]
  obtain ⟨e0, e1, e2⟩ := moved_sizes t
  intro a
  match a with
  | ⟨0, _⟩ =>
    show k.val < (cfg0.win 3).xsize (cfg0.grid.coords t) (0 : Fin 2)
    rw [e0]; exact k.isLt
  | ⟨1, _⟩ =>
    show q.val < (cfg0.win 3).xsize (cfg0.grid.coords t) (1 : Fin 2)
    have hq := q.isLt
    omega

/-- Two fillings of the tile around one block agree on the columns inside the array. -/
theorem fill_inside {α : Type} (t : Fin cfg0.N) (d d' : (cfg0.win 3).block.Idx → α)
    (g : ((cfg0.win 3).xblock (cfg0.grid.coords t)).Idx → α) (k q : Fin 1024)
    (h : 1024 * ((cfg0.grid.coords t) 1).val + q.val < 20000) :
    (cfg0.win 3).fill (cfg0.grid.coords t) d g (ix2 k q) = (cfg0.win 3).fill (cfg0.grid.coords t) d' g (ix2 k q) := by
  have hm := moved_of_lt t k q h
  unfold Window.fill; rw [dif_pos hm, dif_pos hm]

/-- So the masked scores of the tile as fetched are those of the tile with zeros past the array's end. -/
theorem score_fetched (c : Dev nD) (t : Fin cfg0.N) (d : (cfg0.win 3).block.Idx → Elt Ideal (cfg0.win 3).elt) :
    k0_pay9 (F := Ideal) (cfg0.grid.coords t) (xT V c t) ((cfg0.win 3).fill (cfg0.grid.coords t) d (iblk V c 3 t))
      = k0_pay9 (F := Ideal) (cfg0.grid.coords t) (xT V c t) (wT V c t) :=
  score_tail _ _ _ _ fun p k q h => fill_inside t d _ _ k q h

/-- The three carried columns after a point see the weight tile through the masked scores only. -/
theorem outs_of_score (i : grid0.Coords) (x w w' : Vec Ideal S1024x1024 .f32)
    (h : k0_pay9 (F := Ideal) i x w = k0_pay9 (F := Ideal) i x w') :
    (∀ sm, Body0.mOut i x w sm = Body0.mOut i x w' sm) ∧ (∀ sm sl, Body0.lOut i x w sm sl = Body0.lOut i x w' sm sl)
      ∧ (∀ y st, Body0.tOut i x w y st = Body0.tOut i x w' y st) := by
  refine ⟨fun sm => ?_, fun sm sl => ?_, fun y st => ?_⟩
  · unfold Body0.mOut; rw [h]
  · unfold Body0.lOut; rw [h]
  · unfold Body0.tOut k0_pay11; rw [h]

/-- At the first column tile the three carried columns are reset before they are used: what the buffers held is immaterial. -/
theorem outs_first (i : grid0.Coords) (h0 : (i 1).val = 0) (x w : Vec Ideal S1024x1024 .f32) (y : Vec Ideal S1024x1 .i32)
    (sm sm' sl sl' st st' : Vec Ideal S1024x1 .f32) :
    Body0.mOut i x w sm = Body0.mOut i x w sm' ∧ Body0.lOut i x w sm sl = Body0.lOut i x w sm' sl'
      ∧ Body0.tOut i x w y st = Body0.tOut i x w y st' := by
  refine ⟨?_, ?_, ?_⟩
  · unfold Body0.mOut Body0.mIn; rw [if_pos h0, if_pos h0]
  · unfold Body0.lOut Body0.mIn Body0.lIn; rw [if_pos h0, if_pos h0, if_pos h0, if_pos h0]
  · unfold Body0.tOut Body0.tIn; rw [if_pos h0, if_pos h0]

/-! ### The carried columns, one point on -/

theorem carried_succ (c : Dev nD) (t : Fin cfg0.N) :
    carried V c (t.val + 1) =
      (Body0.mOut (cfg0.grid.coords t) (xT V c t) (wT V c t) (carried V c t.val).1,
       Body0.lOut (cfg0.grid.coords t) (xT V c t) (wT V c t) (carried V c t.val).1 (carried V c t.val).2.1,
       Body0.tOut (cfg0.grid.coords t) (xT V c t) (wT V c t) (yT V c t) (carried V c t.val).2.2) := by
  rw [carried, dif_pos t.isLt]

/-- From the columns the invariant names (anything at the very first point) the body computes the next point's. -/
theorem carried_step (c : Dev nD) (t : Fin cfg0.N) (d : (cfg0.win 3).block.Idx → Elt Ideal (cfg0.win 3).elt)
    (sm sl st : Vec Ideal S1024x1 .f32) (hcar : t.val = 0 ∨ (sm, sl, st) = carried V c t.val) :
    (Body0.mOut (cfg0.grid.coords t) (xT V c t) ((cfg0.win 3).fill (cfg0.grid.coords t) d (iblk V c 3 t)) sm,
     Body0.lOut (cfg0.grid.coords t) (xT V c t) ((cfg0.win 3).fill (cfg0.grid.coords t) d (iblk V c 3 t)) sm sl,
     Body0.tOut (cfg0.grid.coords t) (xT V c t) ((cfg0.win 3).fill (cfg0.grid.coords t) d (iblk V c 3 t)) (yT V c t) st)
      = carried V c (t.val + 1) := by
  obtain ⟨hm, hl, ht⟩ := outs_of_score _ _ _ _ (score_fetched V c t d)
  rw [carried_succ, hm, hl, ht]
  rcases hcar with h0 | h
  · have hj0 : ((cfg0.grid.coords t) 1).val = 0 := by rw [coords_snd, h0]
    obtain ⟨a, b, e⟩ := outs_first (cfg0.grid.coords t) hj0 (xT V c t) (wT V c t) (yT V c t)
      sm (carried V c t.val).1 sl (carried V c t.val).2.1 st (carried V c t.val).2.2
    rw [a, b, e]
  · rw [← h]

/-- At the last column tile of a row the body's result tile is the one the proof data names. -/
theorem rowOut_fetched (c : Dev nD) (t : Fin cfg0.N) (hl : t.val % 20 = 19) (d : (cfg0.win 3).block.Idx → Elt Ideal (cfg0.win 3).elt)
    (sm sl st : Vec Ideal S1024x1 .f32) (hcar : t.val = 0 ∨ (sm, sl, st) = carried V c t.val) :
    Body0.rowOut (cfg0.grid.coords t) (xT V c t) ((cfg0.win 3).fill (cfg0.grid.coords t) d (iblk V c 3 t)) (yT V c t) (clT V c t) sm sl st
      = outTile V c t := by
  obtain ⟨hm, hl', ht⟩ := outs_of_score _ _ _ _ (score_fetched V c t d)
  unfold outTile Body0.rowOut
  rw [hm, hl', ht]
  rcases hcar with h0 | h
  · rw [h0] at hl; exact absurd hl (by decide)
  · rw [← h]

/-! ### The body obligation -/

/-- The body obligation at every point (the weight window is loose: its buffer is stated on the columns inside the array). -/
theorem body_obligation (c : Dev nD) : BodyObligationLoose (dat V c) (defs₀ (F := Ideal)) Variants.none () Set.univ := by
  intro t
  rw [Gen.bigSep_W0, Gen.bigSep_W0]
  simp only []
  rw [show (dat V c).owesAt () t.succ = (dat V c).owesAt () t.castSucc from rfl, Φ_eq, Φ_eq]
  have hj : ((cfg0.grid.coords t) 1).val = t.val % 20 := coords_snd t
  by_cases hl : t.val % 20 = 19
  · -- the last column tile of a row: the body also writes the row tile of the result, which this point writes back
    have hc : k0_cond2 (cfg0.grid.coords t) = 1#1 := (Body0.last_iff _).mpr (hj.trans hl)
    have hidle : idle0 4 (grid0.coords t) = false := by
      show (!(k0_cond2 (grid0.coords t) == 1#1)) = false
      rw [hc]; rfl
    simp only [hidle]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body0.run_last (F := Ideal) c Set.univ (grid0.coords t) hc _ _ _ _ _ _ _ _ _ _ _ _ _ _ _ _
      (xT V c t) (yT V c t) (clT V c t) ((cfg0.win 3).fill (cfg0.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    rw [rowOut_fetched V c t hl d3 sm sl st hcar]
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    rw [after_4]; iexact H4
  · -- an inner point: the result's staging tile is left as found
    have hc : k0_cond2 (cfg0.grid.coords t) ≠ 1#1 := fun h => hl (hj.symm.trans ((Body0.last_iff _).mp h))
    have hidle : idle0 4 (grid0.coords t) = true := by
      show (!(k0_cond2 (grid0.coords t) == 1#1)) = true
      rw [Bool.not_eq_true', beq_eq_false_iff_ne]; exact hc
    have hfl : (win0 4).flush t = false := by
      rw [← Bool.not_eq_true]; exact fun h => hl ((Gen.flush0_4 t).mp h)
    simp only [hidle, hfl]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body0.run_inner (F := Ideal) c Set.univ (grid0.coords t) hc _ _ _ _ _ _ _ _ _ _ _ _ _ _ _ _
      (xT V c t) (yT V c t) (clT V c t) ((cfg0.win 3).fill (cfg0.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    iexists d4; iexact H4

/-! ### The input arrays -/

theorem isOut_in : ∀ w : Fin cfg0.W, w ≠ 4 → (cfg0.win w).isOut = false := by
  intro w hw; fin_cases w <;> first | rfl | exact absurd rfl hw

/-- An input array is never written. -/
theorem arrAt_in (c : Dev nD) (w : Fin cfg0.W) (hw : w ≠ 4) : (dat V c).arrAt w cfg0.N = V c (Pipeline.arrRef spec0 w) :=
  (dat V c).arrAt_in w (isOut_in w hw) _

/-! ### The result array after the region -/

/-- The last column tile of row tile r: the point of the row that writes the result's block back. -/
def lastPt (r : Fin 4) : Fin cfg0.N := ⟨20 * r.val + 19, by have := r.isLt; show 20 * r.val + 19 < 80; omega⟩

/-- The result window's block at a point is its row tile's, and a point that writes back is the last of its row. -/
theorem out_index : ∀ t : Fin cfg0.N, ∃ r : Fin 4, (cfg0.win 4).index t (0 : Fin 2) = r.val ∧ (cfg0.win 4).index t (1 : Fin 2) = 0
      ∧ (t.val % 20 = 19 → t.val = 20 * r.val + 19) :=
  (by decide +kernel : ∀ t : Fin grid0.N, ∃ r : Fin 4, win0_4.index t (0 : Fin 2) = r.val ∧ win0_4.index t (1 : Fin 2) = 0
      ∧ (t.val % 20 = 19 → t.val = 20 * r.val + 19))

/-- The result array the region leaves: row 1024·r + p holds entry p of the tile written at the last column tile of row tile r. -/
def resultArr (c : Dev nD) : S4096x1.Idx → Elt Ideal .f32 := fun i =>
  outTile V c (lastPt ⟨(i 0).val / 1024, by have := ValueIdx.idx2_lt0 (n0 := 4096) (n1 := 1) i; omega⟩)
    (ix2 (⟨(i 0).val % 1024, Nat.mod_lt _ (by decide)⟩ : Fin 1024) (0 : Fin 1))

theorem resultArr_apply (c : Dev nD) (i : S4096x1.Idx) (r : Fin 4) (p : Fin 1024) (hi : (i 0).val = 1024 * r.val + p.val) :
    resultArr V c i = outTile V c (lastPt r) (ix2 p (0 : Fin 1)) := by
  have hp := p.isLt
  have e1 : (i 0).val / 1024 = r.val := by omega
  have e2 : (i 0).val % 1024 = p.val := by omega
  unfold resultArr
  simp only [e1, e2, Fin.eta]

/-- An index of the result array lies in a point's block iff its row is among the block's 1024 rows. -/
theorem mem_out_blk (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v7).slice (win0_4.rect t)).set ↔ _
  rw [View.set_slice_whole, Rect.mem_set_unit]
  exact Iff.rfl

/-- What a point that writes back writes is its block of that array. -/
theorem flushed_eq (c : Dev nD) (t : Fin cfg0.N) (hf : (cfg0.win 4).flush t = true) :
    (dat V c).flushed 4 t = ((cfg0.win 4).blk t).view.read (Elt Ideal) (resultArr V c) := by
  have hl : t.val % 20 = 19 := (Gen.flush0_4 t).mp hf
  obtain ⟨r, e0, e1, et⟩ := out_index t
  have ht := et hl
  show (cfg0.win 4).cut (grid0.coords t) ((dat V c).after 4 t) = _
  rw [after_4]
  funext y
  have hy0 : (y 0).val < 1024 := (y 0).isLt
  have hy1 : (y 1).val < 1 := (y 1).isLt
  show outTile V c t y = resultArr V c (((cfg0.win 4).blk t).view.emb y)
  have hemb : ((((cfg0.win 4).blk t).view.emb y) 0).val = 1024 * r.val + (y 0).val := by
    show win0_4.index t (0 : Fin 2) * 1024 + 1 * (y 0).val = _
    rw [e0]; omega
  rw [resultArr_apply V c _ r ⟨(y 0).val, hy0⟩ hemb]
  have e : lastPt r = t := Fin.ext ht.symm
  rw [e]
  congr 1
  funext a
  match a with
  | ⟨0, _⟩ => rfl
  | ⟨1, _⟩ => exact Fin.ext (by show (y 1).val = 0; omega)

/-- The result array after the region: row 1024·r + p holds entry p of the row tile written at the last column tile of row tile r. -/
theorem arrAt_out_apply (c : Dev nD) (r : Fin 4) (p : Fin 1024) :
    (dat V c).arrAt 4 cfg0.N (ix2 (⟨1024 * r.val + p.val, by omega⟩ : Fin 4096) (0 : Fin 1))
      = outTile V c ⟨20 * r.val + 19, by have := r.isLt; show 20 * r.val + 19 < 80; omega⟩ (ix2 p (0 : Fin 1)) := by
  have hr := r.isLt
  have hp := p.isLt
  have hf : (cfg0.win 4).flush (lastPt r) = true := (Gen.flush0_4 _).mpr (by show (20 * r.val + 19) % 20 = 19; omega)
  have hmem : (ix2 (⟨1024 * r.val + p.val, by omega⟩ : Fin 4096) (0 : Fin 1) : S4096x1.Idx) ∈ ((cfg0.win 4).blk (lastPt r)).view.set := by
    obtain ⟨s, e0, e1, et⟩ := out_index (lastPt r)
    have hv : (lastPt r).val = 20 * r.val + 19 := rfl
    have ht := et (by show (20 * r.val + 19) % 20 = 19; omega)
    rw [mem_out_blk]
    intro a
    match a with
    | ⟨0, _⟩ =>
      show win0_4.index (lastPt r) (0 : Fin 2) * 1024 ≤ 1024 * r.val + p.val ∧ 1024 * r.val + p.val < win0_4.index (lastPt r) (0 : Fin 2) * 1024 + 1024
      rw [e0]; omega
    | ⟨1, _⟩ =>
      show win0_4.index (lastPt r) (1 : Fin 2) * 1 ≤ 0 ∧ 0 < win0_4.index (lastPt r) (1 : Fin 2) * 1 + 1
      rw [e1]; omega
  rw [(dat V c).arrAt_apply_of_mem 4 (resultArr V c) (fun t hf => flushed_eq V c t hf) cfg0.N (lastPt r) _ (lastPt r).isLt hf hmem]
  exact resultArr_apply V c _ r p rfl

end Cert.KernelIdeal.Dat0

end
-- ==== Proof.KI.Body1.lean ====
/-
  One grid point of the per-cluster kernel (this cluster: lo = 20000, C = 20000 columns, 20 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 19) the point also writes the row
  tile of the result, select(lo ≤ label < lo + C, (0 − cll) − (t' − (m' + log l')), 0). The transition is stated over the
  program's own value terms, for any float instance; nothing here evaluates them.
-/
import proofs.«427347_j10273561772327_2_alg».proof.Proof.Gen.KernelIdeal.Skeleton
import proofs.«427347_j10273561772327_2_alg».proof.Proof.Gen.KernelIdeal.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions on the column coordinate -/

/-- The reset condition holds exactly at the first column tile. -/
theorem first_iff (i : grid1.Coords) :
    (Scalar.cmpi .ne (Scalar.extui (Scalar.cmpi .eq (BitVec.ofNat 32 (i 1).val) 0#32)) 0#32 = 1#1) ↔ (i 1).val = 0 := by
  have h : ∀ j : Fin 20, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid1.Coords) : k1_cond2 i = 1#1 ↔ (i 1).val = 19 := by
  have h : ∀ j : Fin 20, (Scalar.cmpi .ne (Scalar.extui (Scalar.cmpi .eq (BitVec.ofNat 32 j.val) 19#32)) 0#32 = 1#1) ↔ j.val = 19 := by decide
  exact h (i 1)

/-! ## The carried columns after a point -/

/-- The running maximum a point starts from: the fill value at the first column tile, else what it finds. -/
def mIn (i : grid1.Coords) (sm : Vec F S1024x1 .f32) : Vec F S1024x1 .f32 := if (i 1).val = 0 then k1_pay5 else sm
/-- The running denominator a point starts from: zero at the first column tile. -/
def lIn (i : grid1.Coords) (sl : Vec F S1024x1 .f32) : Vec F S1024x1 .f32 := if (i 1).val = 0 then k1_pay6 else sl
/-- The running target score a point starts from: zero at the first column tile. -/
def tIn (i : grid1.Coords) (st : Vec F S1024x1 .f32) : Vec F S1024x1 .f32 := if (i 1).val = 0 then k1_pay7 else st

/-- The running maximum after the point. -/
def mOut (i : grid1.Coords) (x w : Vec F S1024x1024 .f32) (sm : Vec F S1024x1 .f32) : Vec F S1024x1 .f32 :=
  k1_pay3 (k1_pay9 i x w) (mIn i sm)
/-- The running denominator after the point. -/
def lOut (i : grid1.Coords) (x w : Vec F S1024x1024 .f32) (sm sl : Vec F S1024x1 .f32) : Vec F S1024x1 .f32 :=
  k1_pay2 (k1_pay9 i x w) (mIn i sm) (mIn i sm) (lIn i sl)
/-- The running target score after the point. -/
def tOut (i : grid1.Coords) (x w : Vec F S1024x1024 .f32) (y : Vec F S1024x1 .i32) (st : Vec F S1024x1 .f32) : Vec F S1024x1 .f32 :=
  k1_pay11 i x w y (tIn i st)
/-- The row tile of the result written at the last column tile. -/
def rowOut (i : grid1.Coords) (x w : Vec F S1024x1024 .f32) (y : Vec F S1024x1 .i32) (cl sm sl st : Vec F S1024x1 .f32) : Vec F S1024x1 .f32 :=
  k1_pay4 (k1_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid1.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid1.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid1.Coords) (hlast : k1_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc1__cluster_kernel i M2 hM2 M3 hM3 M4 hM4 M5 hM5 M6 hM6 M7 hM7 M8 hM8 M9 hM9) K := by
  simp only [cc1__cluster_kernel_eq_skeleton]; unfold cc1__cluster_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid1.Coords) (hlast : k1_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc1__cluster_kernel i M2 hM2 M3 hM3 M4 hM4 M5 hM5 M6 hM6 M7 hM7 M8 hM8 M9 hM9) K := by
  simp only [cc1__cluster_kernel_eq_skeleton]; unfold cc1__cluster_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.KernelIdeal.Body1
end
-- ==== Proof.KI.Pay1.lean ====
/-
  The value terms of one grid point of the second cluster's kernel (columns 20000 ‥ 39999 of the output matrix, 20 column tiles of
  1024), read at an index over the extended reals.

  At grid point (r, j) the kernel holds a 1024 × 1024 tile x of hidden vectors and column tile j of the cluster's weights w.
  Entry (p, q) of the score tile is the inner product Σ_k x(p, k) · w(k, q) where column 1024·j + q exists (below 20000) and −∞
  where it does not; only the existing columns of w are read. From a row's entries S(p, ·) the three carried columns move as
      m'(p) = max(m(p), sup_q S(p, q)),
      l'(p) = exp(m(p) − m'(p)) · l(p) + Σ_q exp(S(p, q) − m'(p)),
      t'(p) = t(p) + Σ_q [1024·j + q = clip(y(p) − 20000, 0, 19999)] · S(p, q),
  they start from (−∞, 0, 0), and the row tile of the result is, for a label y(p) with 20000 ≤ y(p) < 40000,
      (0 − cl(p)) − (t(p) − (m(p) + log l(p))),
  and 0 for any other label. Each statement below is one of these equations for the kernel's own term.
-/
import proofs.«427347_j10273561772327_2_alg».proof.Proof.Fold
import proofs.«427347_j10273561772327_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay1

open Cert.KernelIdeal Cert.KernelIdeal.Gen
open Idealize.ShloMosaic Idealize.ShloMosaic.ValueIdx

/-! ## Layout at an index: a row's column vector -/

section Layout
variable {α : Type}

/-- A vector of `a` entries read as an `a × 1` column: entry `(i, 0)` is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column laid across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row `p` of the reduced vector, the source index with column `k` put back is `(p, k)`. -/
theorem lift_row (h : S1024x1024.Reduces [1] S1024) (p k : Fin 1024) : h.lift (ix1 p) k = ix2 p k := by
  funext c; apply Fin.ext
  match c with
  | ⟨0, _⟩ => rfl
  | ⟨1, _⟩ => rfl

end Layout

/-! ## The product tile at an index -/

theorem lhs_ax0 (j : S1024x1024.Idx) (k : dot_S1024x1024_S1024x1024_S1024x1024_1_0_0_1_n_n.contr.Idx) :
    (dot_S1024x1024_S1024x1024_S1024x1024_1_0_0_1_n_n.lhsIdx j k 0).val = (j 0).val := rfl
theorem lhs_ax1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val := rfl
theorem rhs_ax0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val := rfl
theorem rhs_ax1 (j : S1024x1024.Idx) (k : dot_S1024x1024_S1024x1024_S1024x1024_1_0_0_1_n_n.contr.Idx) :
    (dot_S1024x1024_S1024x1024_S1024x1024_1_0_0_1_n_n.rhsIdx j k 1).val = (j 1).val := rfl

/-- The product of two 1024 × 1024 tiles accumulated into zeros, at (p, q): the inner product of row p and column q. -/
theorem matmul_tile_apply {φ₁ φ₂ : FTy} (x : FVec Ideal S1024x1024 φ₁) (w : FVec Ideal S1024x1024 φ₂) (p q : Fin 1024) :
    matmul dot_S1024x1024_S1024x1024_S1024x1024_1_0_0_1_n_n none x w (constant (F := Ideal) S1024x1024 .f32 0x00000000#32) (ix2 p q)
      = ∑ k : Fin 1024, x (ix2 p k) * w (ix2 k q) := by
  show FloatOps.matmul dot_S1024x1024_S1024x1024_S1024x1024_1_0_0_1_n_n none x w (constant S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine Finset.sum_congr rfl fun c _ => ?_
  have c2 := contrEquiv1_symm_val dot_S1024x1024_S1024x1024_S1024x1024_1_0_0_1_n_n 1024 rfl rfl c
  have l2 : dot_S1024x1024_S1024x1024_S1024x1024_1_0_0_1_n_n.lhsIdx (ix2 p q)
      ((contrEquiv1 dot_S1024x1024_S1024x1024_S1024x1024_1_0_0_1_n_n 1024 rfl rfl).symm c) = ix2 p c := by
    funext ax; apply Fin.ext
    match ax with
    | ⟨0, _⟩ => exact lhs_ax0 _ _
    | ⟨1, _⟩ => exact (lhs_ax1 _ _).trans c2
  have r2 : dot_S1024x1024_S1024x1024_S1024x1024_1_0_0_1_n_n.rhsIdx (ix2 p q)
      ((contrEquiv1 dot_S1024x1024_S1024x1024_S1024x1024_1_0_0_1_n_n 1024 rfl rfl).symm c) = ix2 c q := by
    funext ax; apply Fin.ext
    match ax with
    | ⟨0, _⟩ => exact (rhs_ax0 _ _).trans c2
    | ⟨1, _⟩ => exact rhs_ax1 _ _
  rw [l2, r2]

/-! ## The starting values -/

/-- The fill value the ragged columns and the starting maximum carry is −∞. -/
theorem fill_eq : Named.named (F := Ideal) Cert.KernelIdeal.κ "neg_big" (φ := .f32) 0xFF333332#32 = (⊥ : EReal) :=
  IdealRules.named_const.ideal_named_scalar _ _ _ _ rfl

theorem pay5_apply (p : Fin 1024) : k1_pay5 (F := Ideal) (ix2 p (0 : Fin 1)) = (⊥ : EReal) := by
  unfold k1_pay5
  rw [shapeCast_self]
  exact fill_eq

theorem pay6_apply (p : Fin 1024) : k1_pay6 (F := Ideal) (ix2 p (0 : Fin 1)) = (0 : EReal) := by
  unfold k1_pay6
  rw [shapeCast_self]
  exact Ideal.ofBits_zero_f32

theorem pay7_apply (p : Fin 1024) : k1_pay7 (F := Ideal) (ix2 p (0 : Fin 1)) = (0 : EReal) := by
  unfold k1_pay7
  rw [shapeCast_self]
  exact Ideal.ofBits_zero_f32

/-! ## Column numbers as 32-bit words -/

/-- A natural number below 2³¹, read back signed from its 32-bit word, is itself. -/
theorem toInt_ofNat_small (n : ℕ) (hn : n < 2147483648) : (BitVec.ofNat 32 n).toInt = (n : Int) := by
  rw [BitVec.toInt_ofNat', Int.bmod_def]
  omega

/-- Signed comparison of the words of two naturals below 2³¹ is comparison of the naturals. -/
theorem slt_ofNat (n m : ℕ) (hn : n < 2147483648) (hm : m < 2147483648) :
    (BitVec.ofNat 32 n).slt (BitVec.ofNat 32 m) = decide (n < m) := by
  unfold BitVec.slt
  rw [toInt_ofNat_small n hn, toInt_ofNat_small m hm]
  simp only [Nat.cast_lt]

/-- A select on "column n lies below 20000". -/
theorem select_col_lt {α : Type} (n : ℕ) (hn : n < 2147483648) (a b : α) :
    Scalar.select (IntOp.cmpi .slt (BitVec.ofNat 32 n) 20000#32) a b = if n < 20000 then a else b := by
  show (if BitVec.ofBool ((BitVec.ofNat 32 n).slt (BitVec.ofNat 32 20000)) = 1#1 then a else b) = _
  rw [slt_ofNat n 20000 hn (by norm_num)]
  by_cases h : n < 20000 <;> simp [h]

/-- A select on "two words are equal". -/
theorem select_word_eq {α : Type} (u v : BitVec 32) (a b : α) :
    Scalar.select (IntOp.cmpi .eq u v) a b = if u = v then a else b := by
  show (if BitVec.ofBool (u == v) = 1#1 then a else b) = _
  by_cases h : u = v
  · subst h; simp
  · have hb : (u == v) = false := by simpa using h
    rw [hb, if_neg h, if_neg (by decide)]

/-- The column number of entry (p, q) of column tile j, as a word: 1024·j + q. -/
theorem pay8_apply (i : grid1.Coords) (p q : Fin 1024) :
    k1_pay8 i (ix2 p q) = BitVec.ofNat 32 (1024 * (i 1).val + q.val) := by
  unfold k1_pay8
  show IntOp.addi (IntOp.muli (BitVec.ofNat 32 (i 1).val) 1024#32) (BitVec.ofNat 32 (0 * 1024 + q.val)) = _
  unfold IntOp.addi IntOp.muli
  rw [Nat.zero_mul, Nat.zero_add, BitVec.ofNat_add, BitVec.ofNat_mul, BitVec.mul_comm]

theorem col_small (i : grid1.Coords) (q : Fin 1024) : 1024 * (i 1).val + q.val < 2147483648 := by
  have h1 : (i 1).val < 20 := (i 1).isLt
  have h2 := q.isLt
  omega

/-! ## The masked score tile -/

/-- Entry (p, q) of the score tile: the inner product of row p of x with column q of w where column 1024·j + q exists, −∞ where
    it does not. -/
theorem score_apply (i : grid1.Coords) (x w : Vec Ideal S1024x1024 .f32) (p q : Fin 1024) :
    k1_pay9 (F := Ideal) i x w (ix2 p q)
      = if 1024 * (i 1).val + q.val < 20000 then ∑ k : Fin 1024, x (ix2 p k) * w (ix2 k q) else (⊥ : EReal) := by
  unfold k1_pay9
  show Scalar.select (IntOp.cmpi .slt (k1_pay8 i (ix2 p q)) 20000#32)
      (matmul dot_S1024x1024_S1024x1024_S1024x1024_1_0_0_1_n_n none (truncf .bf16 x bitsLt_bf16_f32)
        (truncf .bf16 (shapeCast S1024x1024 w shapeCasts_S1024x1024_S1024x1024) bitsLt_bf16_f32)
        (constant (F := Ideal) S1024x1024 .f32 0x00000000#32) (ix2 p q))
      (Named.named (F := Ideal) κ "neg_big" (φ := .f32) 0xFF333332#32) = _
  rw [pay8_apply, select_col_lt _ (col_small i q), matmul_tile_apply, fill_eq, shapeCast_self]
  rfl

/-- The score tile reads of w only the columns that exist. -/
theorem score_tail (i : grid1.Coords) (x w w' : Vec Ideal S1024x1024 .f32)
    (h : ∀ (p k q : Fin 1024), 1024 * (i 1).val + q.val < 20000 → w (ix2 k q) = w' (ix2 k q)) :
    k1_pay9 (F := Ideal) i x w = k1_pay9 (F := Ideal) i x w' := by
  funext z
  obtain ⟨p, q, rfl⟩ : ∃ (p q : Fin 1024), z = ix2 p q := ⟨z 0, z 1, eq_ix2 z⟩
  rw [score_apply, score_apply]
  by_cases hq : 1024 * (i 1).val + q.val < 20000
  · rw [if_pos hq, if_pos hq]
    exact Finset.sum_congr rfl fun k _ => by rw [h p k q hq]
  · rw [if_neg hq, if_neg hq]

/-! ## Row reductions of a tile -/

/-- The f32 pattern a maximum starts from denotes −∞. -/
theorem ofBits_neg_inf : Ideal.ofBits .f32 0xFF800000#32 = (⊥ : EReal) := by simp [Ideal.ofBits, Ideal.ieee]

/-- A fold of max from −∞ over a finite set is the supremum over it. -/
theorem fold_max_bot {β : Type} (s : Finset β) (f : β → EReal) : s.fold max (⊥ : EReal) f = s.sup f := rfl

/-- The maximum over the columns of a tile, from −∞, at row p: the supremum of the row. -/
theorem rowmax_apply (V : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 V 0xFF800000#32 h hφ hacc (ix1 p)
      = Finset.univ.sup fun q : Fin 1024 => V (ix2 p q) := by
  refine (Ideal.multiReduction_maximumf_single V 0xFF800000#32 h hφ hacc (ix1 p)).trans ?_
  have e : (V ∘ h.lift (ix1 p)) = fun q : Fin 1024 => V (ix2 p q) := funext fun q => congrArg V (lift_row h p q)
  show (Finset.univ : Finset (Fin 1024)).fold max (Ideal.ofBits .f32 0xFF800000#32) (V ∘ h.lift (ix1 p)) = _
  rw [e, ofBits_neg_inf]
  exact fold_max_bot _ _

/-- The sum over the columns of a tile at row p. -/
theorem rowsum_apply (V : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 V 0x00000000#32 h hφ hacc (ix1 p) = ∑ q : Fin 1024, V (ix2 p q) := by
  refine (Ideal.multiReduction_add_single V 0x00000000#32 h hφ hacc (ix1 p)).trans ?_
  exact Finset.sum_congr rfl fun q _ => congrArg V (lift_row h p q)

/-! ## The three carried columns after a tile, and the row tile of the result -/

/-- The running maximum after a tile, at row p. -/
theorem pay1_apply (S : FVec Ideal S1024x1024 .f32) (m : Vec Ideal S1024x1 .f32) (p : Fin 1024) :
    k1_pay1 (F := Ideal) S m (ix2 p (0 : Fin 1)) = Cert.Fold.stepM (fun q => S (ix2 p q)) (m (ix2 p (0 : Fin 1))) := by
  have e : shapeCast S1024x1 (multiReduction (F := Ideal) .maximumf [1] S1024 S 0xFF800000#32 reduces_S1024x1024_S1024 (.inl rfl) rfl)
        shapeCasts_S1024_S1024x1 (ix2 p (0 : Fin 1)) = Finset.univ.sup fun q : Fin 1024 => S (ix2 p q) :=
    (shapeCast_a_a1_apply _ shapeCasts_S1024_S1024x1 p 0).trans (rowmax_apply S reduces_S1024x1024_S1024 (.inl rfl) rfl p)
  unfold k1_pay1 Cert.Fold.stepM
  rw [← e]
  generalize shapeCast S1024x1 (multiReduction (F := Ideal) .maximumf [1] S1024 S 0xFF800000#32 reduces_S1024x1024_S1024 (.inl rfl) rfl)
    shapeCasts_S1024_S1024x1 = R
  rfl

theorem max_apply (S : FVec Ideal S1024x1024 .f32) (m : Vec Ideal S1024x1 .f32) (p : Fin 1024) :
    k1_pay3 (F := Ideal) S m (ix2 p (0 : Fin 1)) = Cert.Fold.stepM (fun q => S (ix2 p q)) (m (ix2 p (0 : Fin 1))) := by
  unfold k1_pay3
  rw [shapeCast_self]
  exact pay1_apply S m p

/-- The running denominator after a tile, at row p. -/
theorem den_apply (S : FVec Ideal S1024x1024 .f32) (m l : Vec Ideal S1024x1 .f32) (p : Fin 1024) :
    k1_pay2 (F := Ideal) S m m l (ix2 p (0 : Fin 1))
      = Cert.Fold.stepL (fun q => S (ix2 p q)) (m (ix2 p (0 : Fin 1))) (l (ix2 p (0 : Fin 1))) := by
  have hP := pay1_apply S m p
  unfold k1_pay2 Cert.Fold.stepL
  rw [← hP]
  generalize k1_pay1 (F := Ideal) S m = P
  rw [shapeCast_self]
  have e : shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 (ix2 p (0 : Fin 1))
      = ∑ q : Fin 1024, Ideal.exp (S (ix2 p q) - P (ix2 p (0 : Fin 1))) := by
    refine (shapeCast_a_a1_apply _ shapeCasts_S1024_S1024x1 p 0).trans ?_
    refine (rowsum_apply _ reduces_S1024x1024_S1024 (.inl rfl) rfl p).trans ?_
    refine Finset.sum_congr rfl fun q _ => ?_
    show Ideal.exp (S (ix2 p q) - broadcastTo S1024x1024 P broadcasts_S1024x1_S1024x1024 (ix2 p q)) = _
    rw [broadcastTo_a1_ab_apply]
  rw [← e]
  generalize shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 = R
  rfl

/-- The running target score after a tile, at row p: the tile's entry at the target column, if it lies in this tile, is added. -/
theorem tgt_apply (i : grid1.Coords) (x w : Vec Ideal S1024x1024 .f32) (y : Vec Ideal S1024x1 .i32) (t : Vec Ideal S1024x1 .f32)
    (p : Fin 1024) :
    k1_pay11 (F := Ideal) i x w y t (ix2 p (0 : Fin 1))
      = t (ix2 p (0 : Fin 1)) + ∑ q : Fin 1024,
          if BitVec.ofNat 32 (1024 * (i 1).val + q.val) = Cert.Spec.tgtWord 20000#32 19999#32 (y (ix2 p (0 : Fin 1)))
          then k1_pay9 (F := Ideal) i x w (ix2 p q) else 0 := by
  unfold k1_pay11 k1_pay10
  generalize k1_pay9 (F := Ideal) i x w = Sc
  rw [shapeCast_self, shapeCast_self]
  have e : shapeCast S1024x1 (multiReduction (F := Ideal) .add [1] S1024
        (select (cmpi .eq (k1_pay8 i)
            (broadcastTo S1024x1024
              (minsi (broadcast S1024x1 19999#32) (maxsi (broadcast S1024x1 0#32) (subi y (broadcast S1024x1 20000#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 (ix2 p (0 : Fin 1))
      = ∑ q : Fin 1024,
          if BitVec.ofNat 32 (1024 * (i 1).val + q.val) = Cert.Spec.tgtWord 20000#32 19999#32 (y (ix2 p (0 : Fin 1)))
          then Sc (ix2 p q) else 0 := by
    refine (shapeCast_a_a1_apply _ shapeCasts_S1024_S1024x1 p 0).trans ?_
    refine (rowsum_apply _ reduces_S1024x1024_S1024 (.inl rfl) rfl p).trans ?_
    refine Finset.sum_congr rfl fun q _ => ?_
    show Scalar.select (IntOp.cmpi .eq (k1_pay8 i (ix2 p q))
          (broadcastTo S1024x1024
            (minsi (broadcast S1024x1 19999#32) (maxsi (broadcast S1024x1 0#32) (subi y (broadcast S1024x1 20000#32))))
            broadcasts_S1024x1_S1024x1024 (ix2 p q)))
        (Sc (ix2 p q)) (Ideal.ofBits .f32 0x00000000#32) = _
    rw [pay8_apply, broadcastTo_a1_ab_apply, select_word_eq, Ideal.ofBits_zero_f32]
    rfl
  rw [← e]
  generalize shapeCast S1024x1 (multiReduction (F := Ideal) .add [1] S1024
        (select (cmpi .eq (k1_pay8 i)
            (broadcastTo S1024x1024
              (minsi (broadcast S1024x1 19999#32) (maxsi (broadcast S1024x1 0#32) (subi y (broadcast S1024x1 20000#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 = R
  rfl

/-- The row tile of the result, at row p: for a label inside the cluster, minus the cluster's log-probability minus the target's
    log-softmax in the kernel's arrangement; zero for a label outside. -/
theorem out_apply (y : Vec Ideal S1024x1 .i32) (m l t cl : Vec Ideal S1024x1 .f32) (p : Fin 1024) :
    k1_pay4 (F := Ideal) (k1_pay10 (F := Ideal) y) m l t cl (ix2 p (0 : Fin 1))
      = Scalar.select (Cert.Spec.memBit 20000#32 40000#32 (y (ix2 p (0 : Fin 1))))
          (((0 : EReal) - cl (ix2 p (0 : Fin 1))) - (t (ix2 p (0 : Fin 1)) - (m (ix2 p (0 : Fin 1)) + Ideal.log (l (ix2 p (0 : Fin 1))))))
          0 := by
  unfold k1_pay4 k1_pay10
  rw [shapeCast_self, shapeCast_self]
  show Scalar.select (IntOp.andi (IntOp.cmpi .sge (y (ix2 p (0 : Fin 1))) 20000#32) (IntOp.cmpi .slt (y (ix2 p (0 : Fin 1))) 40000#32))
      ((Ideal.ofBits .f32 0x00000000#32 - cl (ix2 p (0 : Fin 1))) - (t (ix2 p (0 : Fin 1)) - (m (ix2 p (0 : Fin 1)) + Ideal.log (l (ix2 p (0 : Fin 1))))))
      (Ideal.ofBits .f32 0x00000000#32) = _
  rw [Ideal.ofBits_zero_f32]
  rfl

end Cert.KernelIdeal.Pay1

end
-- ==== Proof.KI.Dat1.lean ====
/-
  The proof data of the per-cluster kernel at the ideal instance (this cluster: lo = 20000, C = 20000 columns, 20 column tiles of 1024).

  The grid's points are t = 20·r + j (row tile r < 4, column tile j < 20). At point t the kernel holds the row tile of x, of the
  labels and of the cluster log-probability (fetched when j = 0, kept while j moves) and column tile j of the weight slice, whose last
  tile overhangs the array: the columns past the array's end hold words nothing names, and the body masks them, so the data below
  puts zeros there and the kernel's values do not depend on the choice. The three carried columns after n points are defined by
  recursion on n through the point's transition (at j = 0 the transition resets them first, so what a row starts from is immaterial);
  the result's staging tile is written at j = 19 only, from the carried columns of its row, and that is the one point of a row whose
  block is written back to the result array.
-/
import proofs.«427347_j10273561772327_2_alg».proof.Proof.KI.Body1
import proofs.«427347_j10273561772327_2_alg».proof.Proof.KI.Pay1
import proofs.«427347_j10273561772327_2_alg».proof.Proof.Gen.KernelIdeal.Points
import Idealize.ShloMosaic.Lib.Pipeline.Frame
import Idealize.ShloMosaic.Lib.Pipeline.FrameBody
import Idealize.ShloMosaic.Lib.ValueIdx

set_option maxRecDepth 16384

noncomputable section

namespace Cert.KernelIdeal.Dat1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)
open Cert.KernelIdeal.Pay1 (score_tail)

local notation "𝕄" => MT nD τ sig Unit (Elt Ideal) ℕ (UR sig nD τ) ℕ

-- the TensorCore's buffer contents when the region is entered: the parameter everything here is stated at
variable (V : (c : Dev nD) → (b : Ref sig .tc) → Buf (Elt Ideal) ((c : Thread nD τ).loc b))

/-! ## The blocks -/

/-- Window `w`'s block at point `t`, read off its array as the region finds it (the part inside the array). -/
def iblk (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

/-- The row tile of x at point `t`. -/
def xT (c : Dev nD) (t : Fin cfg1.N) : Vec Ideal S1024x1024 .f32 := iblk V c 0 t
/-- The labels of the row tile. -/
def yT (c : Dev nD) (t : Fin cfg1.N) : Vec Ideal S1024x1 .i32 := iblk V c 1 t
/-- The cluster log-probability of the row tile. -/
def clT (c : Dev nD) (t : Fin cfg1.N) : Vec Ideal S1024x1 .f32 := iblk V c 2 t
/-- Column tile j of the weight slice, zeros on the columns past the array's end. -/
def wT (c : Dev nD) (t : Fin cfg1.N) : Vec Ideal S1024x1024 .f32 :=
  (cfg1.win 3).fill (cfg1.grid.coords t) (fun _ => (0 : EReal)) (iblk V c 3 t)

/-! ## The carried columns and the result's row tile -/

/-- The running maximum, denominator and target score after the first `n` points. -/
def carried (c : Dev nD) : ℕ → Vec Ideal S1024x1 .f32 × Vec Ideal S1024x1 .f32 × Vec Ideal S1024x1 .f32
  | 0 => (k1_pay5 (F := Ideal), k1_pay6 (F := Ideal), k1_pay7 (F := Ideal))
  | n + 1 =>
    if h : n < cfg1.N then
      (Body1.mOut (cfg1.grid.coords ⟨n, h⟩) (xT V c ⟨n, h⟩) (wT V c ⟨n, h⟩) (carried c n).1,
       Body1.lOut (cfg1.grid.coords ⟨n, h⟩) (xT V c ⟨n, h⟩) (wT V c ⟨n, h⟩) (carried c n).1 (carried c n).2.1,
       Body1.tOut (cfg1.grid.coords ⟨n, h⟩) (xT V c ⟨n, h⟩) (wT V c ⟨n, h⟩) (yT V c ⟨n, h⟩) (carried c n).2.2)
    else carried c n

/-- The row tile of the result the body writes at point `t` (it writes one at the last column tile of a row only). -/
def outTile (c : Dev nD) (t : Fin cfg1.N) : Vec Ideal S1024x1 .f32 :=
  Body1.rowOut (cfg1.grid.coords t) (xT V c t) (wT V c t) (yT V c t) (clT V c t)
    (carried V c t.val).1 (carried V c t.val).2.1 (carried V c t.val).2.2

/-! ## The proof data -/

/-- The arrays as the region finds them; after the body each input's buffer at its block (the weight tile's as `wT`), the
    result's at `outTile`; between points the three scratch columns at `carried` (at anything before the first point), beside the
    scoped buffers nothing here touches and the generator register; nothing owed; full shares. -/
def dat (c : Dev nD) : Dat τ (Elt Ideal) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => wT V c t
    | ⟨4, _⟩ => outTile V c t
  Φ t := iprop(∃ sm sl st : Vec Ideal S1024x1 .f32, ⌜t.val = 0 ∨ (sm, sl, st) = carried V c t.val⌝
      ∗ owns (c : Thread nD τ) (Memref.whole cc1_scratch0) fullShare sm
      ∗ owns (c : Thread nD τ) (Memref.whole cc1_scratch1) fullShare sl
      ∗ owns (c : Thread nD τ) (Memref.whole cc1_scratch2) fullShare st
      ∗ Pipeline.scopedRestBut (Ix := Unit) (Name := ℕ) (U := UR sig nD τ) (Lvl := ℕ) (Val := Elt Ideal) spec1 c [cc1_scratch0, cc1_scratch1, cc1_scratch2]
      ∗ ∃ r, prngReg c r)
  q _ := fullShare
  owed _ := 0

/-! ## What is owed of it -/

/-! ### The grid's coordinates -/

/-- The column tile of a point is its number modulo the number of column tiles. -/
theorem coords_snd : ∀ t : Fin cfg1.N, ((cfg1.grid.coords t) 1).val = t.val % 20 :=
  (by decide +kernel : ∀ t : Fin grid1.N, ((grid1.coords t) 1).val = t.val % 20)

/-! ### The proof data, projected -/

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = wT V c t := by dsimp only [dat]
theorem after_4 (c : Dev nD) (t : Fin cfg1.N) : (dat V c).after 4 t = outTile V c t := by dsimp only [dat]

theorem Φ_eq (c : Dev nD) (s : Fin (cfg1.N + 1)) : (dat V c).Φ s
    = iprop(∃ sm sl st : Vec Ideal S1024x1 .f32, ⌜s.val = 0 ∨ (sm, sl, st) = carried V c s.val⌝
      ∗ owns (c : Thread nD τ) (Memref.whole cc1_scratch0) fullShare sm
      ∗ owns (c : Thread nD τ) (Memref.whole cc1_scratch1) fullShare sl
      ∗ owns (c : Thread nD τ) (Memref.whole cc1_scratch2) fullShare st
      ∗ Pipeline.scopedRestBut (Ix := Unit) (Name := ℕ) (U := UR sig nD τ) (Lvl := ℕ) (Val := Elt Ideal) spec1 c [cc1_scratch0, cc1_scratch1, cc1_scratch2]
      ∗ ∃ r, prngReg c r) := by dsimp only [dat]

/-! ### What the body finds in the input windows' buffers -/

/-- An input whose blocks tile its array holds its block at every point, fetched there or kept from the row's first point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The weight tile is fetched at every point: its block on the columns inside the array, what the buffer held on the others. -/
theorem before_3 (c : Dev nD) (t : Fin cfg1.N) (d) :
    (dat V c).before 3 t d = (cfg1.win 3).fill (cfg1.grid.coords t) d (iblk V c 3 t) := by
  unfold Dat.before; rw [if_pos (Gen.fetch1_3 t)]; rfl

theorem cut_after_3 (c : Dev nD) (t : Fin cfg1.N) :
    (cfg1.win 3).cut (cfg1.grid.coords t) ((dat V c).after 3 t) = iblk V c 3 t := by
  rw [after_3]; exact (cfg1.win 3).cut_fill _ _ _

/-! ### The columns past the array's end do not matter -/

-- the masked score tile reads the weight tile on the columns inside the array only: `score_tail`, with the value lemmas

/-- What the transfer of the weight tile moves at a point: every row, and the columns up to the array's end. -/
theorem moved_sizes : ∀ t : Fin cfg1.N, (cfg1.win 3).xsize (cfg1.grid.coords t) (0 : Fin 2) = 1024
    ∧ (1024 * ((cfg1.grid.coords t) 1).val + 1024 ≤ 20000 → (cfg1.win 3).xsize (cfg1.grid.coords t) (1 : Fin 2) = 1024)
    ∧ (20000 < 1024 * ((cfg1.grid.coords t) 1).val + 1024 → 1024 * ((cfg1.grid.coords t) 1).val + (cfg1.win 3).xsize (cfg1.grid.coords t) (1 : Fin 2) = 20000) :=
  (by decide +kernel : ∀ t : Fin grid1.N, win1_3.xsize (grid1.coords t) (0 : Fin 2) = 1024
    ∧ (1024 * ((grid1.coords t) 1).val + 1024 ≤ 20000 → win1_3.xsize (grid1.coords t) (1 : Fin 2) = 1024)
    ∧ (20000 < 1024 * ((grid1.coords t) 1).val + 1024 → 1024 * ((grid1.coords t) 1).val + win1_3.xsize (grid1.coords t) (1 : Fin 2) = 20000))

/-- A column of the tile that lies inside the array is one the transfer moves. -/
theorem moved_of_lt (t : Fin cfg1.N) (k q : Fin 1024) (h : 1024 * ((cfg1.grid.coords t) 1).val + q.val < 20000) :
    (cfg1.win 3).moved (cfg1.grid.coords t) (ix2 k q) = true := by
  rw [Window.moved_iff]
  obtain ⟨e0, e1, e2⟩ := moved_sizes t
  intro a
  match a with
  | ⟨0, _⟩ =>
    show k.val < (cfg1.win 3).xsize (cfg1.grid.coords t) (0 : Fin 2)
    rw [e0]; exact k.isLt
  | ⟨1, _⟩ =>
    show q.val < (cfg1.win 3).xsize (cfg1.grid.coords t) (1 : Fin 2)
    have hq := q.isLt
    omega

/-- Two fillings of the tile around one block agree on the columns inside the array. -/
theorem fill_inside {α : Type} (t : Fin cfg1.N) (d d' : (cfg1.win 3).block.Idx → α)
    (g : ((cfg1.win 3).xblock (cfg1.grid.coords t)).Idx → α) (k q : Fin 1024)
    (h : 1024 * ((cfg1.grid.coords t) 1).val + q.val < 20000) :
    (cfg1.win 3).fill (cfg1.grid.coords t) d g (ix2 k q) = (cfg1.win 3).fill (cfg1.grid.coords t) d' g (ix2 k q) := by
  have hm := moved_of_lt t k q h
  unfold Window.fill; rw [dif_pos hm, dif_pos hm]

/-- So the masked scores of the tile as fetched are those of the tile with zeros past the array's end. -/
theorem score_fetched (c : Dev nD) (t : Fin cfg1.N) (d : (cfg1.win 3).block.Idx → Elt Ideal (cfg1.win 3).elt) :
    k1_pay9 (F := Ideal) (cfg1.grid.coords t) (xT V c t) ((cfg1.win 3).fill (cfg1.grid.coords t) d (iblk V c 3 t))
      = k1_pay9 (F := Ideal) (cfg1.grid.coords t) (xT V c t) (wT V c t) :=
  score_tail _ _ _ _ fun p k q h => fill_inside t d _ _ k q h

/-- The three carried columns after a point see the weight tile through the masked scores only. -/
theorem outs_of_score (i : grid1.Coords) (x w w' : Vec Ideal S1024x1024 .f32)
    (h : k1_pay9 (F := Ideal) i x w = k1_pay9 (F := Ideal) i x w') :
    (∀ sm, Body1.mOut i x w sm = Body1.mOut i x w' sm) ∧ (∀ sm sl, Body1.lOut i x w sm sl = Body1.lOut i x w' sm sl)
      ∧ (∀ y st, Body1.tOut i x w y st = Body1.tOut i x w' y st) := by
  refine ⟨fun sm => ?_, fun sm sl => ?_, fun y st => ?_⟩
  · unfold Body1.mOut; rw [h]
  · unfold Body1.lOut; rw [h]
  · unfold Body1.tOut k1_pay11; rw [h]

/-- At the first column tile the three carried columns are reset before they are used: what the buffers held is immaterial. -/
theorem outs_first (i : grid1.Coords) (h0 : (i 1).val = 0) (x w : Vec Ideal S1024x1024 .f32) (y : Vec Ideal S1024x1 .i32)
    (sm sm' sl sl' st st' : Vec Ideal S1024x1 .f32) :
    Body1.mOut i x w sm = Body1.mOut i x w sm' ∧ Body1.lOut i x w sm sl = Body1.lOut i x w sm' sl'
      ∧ Body1.tOut i x w y st = Body1.tOut i x w y st' := by
  refine ⟨?_, ?_, ?_⟩
  · unfold Body1.mOut Body1.mIn; rw [if_pos h0, if_pos h0]
  · unfold Body1.lOut Body1.mIn Body1.lIn; rw [if_pos h0, if_pos h0, if_pos h0, if_pos h0]
  · unfold Body1.tOut Body1.tIn; rw [if_pos h0, if_pos h0]

/-! ### The carried columns, one point on -/

theorem carried_succ (c : Dev nD) (t : Fin cfg1.N) :
    carried V c (t.val + 1) =
      (Body1.mOut (cfg1.grid.coords t) (xT V c t) (wT V c t) (carried V c t.val).1,
       Body1.lOut (cfg1.grid.coords t) (xT V c t) (wT V c t) (carried V c t.val).1 (carried V c t.val).2.1,
       Body1.tOut (cfg1.grid.coords t) (xT V c t) (wT V c t) (yT V c t) (carried V c t.val).2.2) := by
  rw [carried, dif_pos t.isLt]

/-- From the columns the invariant names (anything at the very first point) the body computes the next point's. -/
theorem carried_step (c : Dev nD) (t : Fin cfg1.N) (d : (cfg1.win 3).block.Idx → Elt Ideal (cfg1.win 3).elt)
    (sm sl st : Vec Ideal S1024x1 .f32) (hcar : t.val = 0 ∨ (sm, sl, st) = carried V c t.val) :
    (Body1.mOut (cfg1.grid.coords t) (xT V c t) ((cfg1.win 3).fill (cfg1.grid.coords t) d (iblk V c 3 t)) sm,
     Body1.lOut (cfg1.grid.coords t) (xT V c t) ((cfg1.win 3).fill (cfg1.grid.coords t) d (iblk V c 3 t)) sm sl,
     Body1.tOut (cfg1.grid.coords t) (xT V c t) ((cfg1.win 3).fill (cfg1.grid.coords t) d (iblk V c 3 t)) (yT V c t) st)
      = carried V c (t.val + 1) := by
  obtain ⟨hm, hl, ht⟩ := outs_of_score _ _ _ _ (score_fetched V c t d)
  rw [carried_succ, hm, hl, ht]
  rcases hcar with h0 | h
  · have hj0 : ((cfg1.grid.coords t) 1).val = 0 := by rw [coords_snd, h0]
    obtain ⟨a, b, e⟩ := outs_first (cfg1.grid.coords t) hj0 (xT V c t) (wT V c t) (yT V c t)
      sm (carried V c t.val).1 sl (carried V c t.val).2.1 st (carried V c t.val).2.2
    rw [a, b, e]
  · rw [← h]

/-- At the last column tile of a row the body's result tile is the one the proof data names. -/
theorem rowOut_fetched (c : Dev nD) (t : Fin cfg1.N) (hl : t.val % 20 = 19) (d : (cfg1.win 3).block.Idx → Elt Ideal (cfg1.win 3).elt)
    (sm sl st : Vec Ideal S1024x1 .f32) (hcar : t.val = 0 ∨ (sm, sl, st) = carried V c t.val) :
    Body1.rowOut (cfg1.grid.coords t) (xT V c t) ((cfg1.win 3).fill (cfg1.grid.coords t) d (iblk V c 3 t)) (yT V c t) (clT V c t) sm sl st
      = outTile V c t := by
  obtain ⟨hm, hl', ht⟩ := outs_of_score _ _ _ _ (score_fetched V c t d)
  unfold outTile Body1.rowOut
  rw [hm, hl', ht]
  rcases hcar with h0 | h
  · rw [h0] at hl; exact absurd hl (by decide)
  · rw [← h]

/-! ### The body obligation -/

/-- The body obligation at every point (the weight window is loose: its buffer is stated on the columns inside the array). -/
theorem body_obligation (c : Dev nD) : BodyObligationLoose (dat V c) (defs₀ (F := Ideal)) Variants.none () Set.univ := by
  intro t
  rw [Gen.bigSep_W1, Gen.bigSep_W1]
  simp only []
  rw [show (dat V c).owesAt () t.succ = (dat V c).owesAt () t.castSucc from rfl, Φ_eq, Φ_eq]
  have hj : ((cfg1.grid.coords t) 1).val = t.val % 20 := coords_snd t
  by_cases hl : t.val % 20 = 19
  · -- the last column tile of a row: the body also writes the row tile of the result, which this point writes back
    have hc : k1_cond2 (cfg1.grid.coords t) = 1#1 := (Body1.last_iff _).mpr (hj.trans hl)
    have hidle : idle1 4 (grid1.coords t) = false := by
      show (!(k1_cond2 (grid1.coords t) == 1#1)) = false
      rw [hc]; rfl
    simp only [hidle]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body1.run_last (F := Ideal) c Set.univ (grid1.coords t) hc _ _ _ _ _ _ _ _ _ _ _ _ _ _ _ _
      (xT V c t) (yT V c t) (clT V c t) ((cfg1.win 3).fill (cfg1.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    rw [rowOut_fetched V c t hl d3 sm sl st hcar]
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    rw [after_4]; iexact H4
  · -- an inner point: the result's staging tile is left as found
    have hc : k1_cond2 (cfg1.grid.coords t) ≠ 1#1 := fun h => hl (hj.symm.trans ((Body1.last_iff _).mp h))
    have hidle : idle1 4 (grid1.coords t) = true := by
      show (!(k1_cond2 (grid1.coords t) == 1#1)) = true
      rw [Bool.not_eq_true', beq_eq_false_iff_ne]; exact hc
    have hfl : (win1 4).flush t = false := by
      rw [← Bool.not_eq_true]; exact fun h => hl ((Gen.flush1_4 t).mp h)
    simp only [hidle, hfl]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body1.run_inner (F := Ideal) c Set.univ (grid1.coords t) hc _ _ _ _ _ _ _ _ _ _ _ _ _ _ _ _
      (xT V c t) (yT V c t) (clT V c t) ((cfg1.win 3).fill (cfg1.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    iexists d4; iexact H4

/-! ### The input arrays -/

theorem isOut_in : ∀ w : Fin cfg1.W, w ≠ 4 → (cfg1.win w).isOut = false := by
  intro w hw; fin_cases w <;> first | rfl | exact absurd rfl hw

/-- An input array is never written. -/
theorem arrAt_in (c : Dev nD) (w : Fin cfg1.W) (hw : w ≠ 4) : (dat V c).arrAt w cfg1.N = V c (Pipeline.arrRef spec1 w) :=
  (dat V c).arrAt_in w (isOut_in w hw) _

/-! ### The result array after the region -/

/-- The last column tile of row tile r: the point of the row that writes the result's block back. -/
def lastPt (r : Fin 4) : Fin cfg1.N := ⟨20 * r.val + 19, by have := r.isLt; show 20 * r.val + 19 < 80; omega⟩

/-- The result window's block at a point is its row tile's, and a point that writes back is the last of its row. -/
theorem out_index : ∀ t : Fin cfg1.N, ∃ r : Fin 4, (cfg1.win 4).index t (0 : Fin 2) = r.val ∧ (cfg1.win 4).index t (1 : Fin 2) = 0
      ∧ (t.val % 20 = 19 → t.val = 20 * r.val + 19) :=
  (by decide +kernel : ∀ t : Fin grid1.N, ∃ r : Fin 4, win1_4.index t (0 : Fin 2) = r.val ∧ win1_4.index t (1 : Fin 2) = 0
      ∧ (t.val % 20 = 19 → t.val = 20 * r.val + 19))

/-- The result array the region leaves: row 1024·r + p holds entry p of the tile written at the last column tile of row tile r. -/
def resultArr (c : Dev nD) : S4096x1.Idx → Elt Ideal .f32 := fun i =>
  outTile V c (lastPt ⟨(i 0).val / 1024, by have := ValueIdx.idx2_lt0 (n0 := 4096) (n1 := 1) i; omega⟩)
    (ix2 (⟨(i 0).val % 1024, Nat.mod_lt _ (by decide)⟩ : Fin 1024) (0 : Fin 1))

theorem resultArr_apply (c : Dev nD) (i : S4096x1.Idx) (r : Fin 4) (p : Fin 1024) (hi : (i 0).val = 1024 * r.val + p.val) :
    resultArr V c i = outTile V c (lastPt r) (ix2 p (0 : Fin 1)) := by
  have hp := p.isLt
  have e1 : (i 0).val / 1024 = r.val := by omega
  have e2 : (i 0).val % 1024 = p.val := by omega
  unfold resultArr
  simp only [e1, e2, Fin.eta]

/-- An index of the result array lies in a point's block iff its row is among the block's 1024 rows. -/
theorem mem_out_blk (t : Fin cfg1.N) (i : S4096x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v17).slice (win1_4.rect t)).set ↔ _
  rw [View.set_slice_whole, Rect.mem_set_unit]
  exact Iff.rfl

/-- What a point that writes back writes is its block of that array. -/
theorem flushed_eq (c : Dev nD) (t : Fin cfg1.N) (hf : (cfg1.win 4).flush t = true) :
    (dat V c).flushed 4 t = ((cfg1.win 4).blk t).view.read (Elt Ideal) (resultArr V c) := by
  have hl : t.val % 20 = 19 := (Gen.flush1_4 t).mp hf
  obtain ⟨r, e0, e1, et⟩ := out_index t
  have ht := et hl
  show (cfg1.win 4).cut (grid1.coords t) ((dat V c).after 4 t) = _
  rw [after_4]
  funext y
  have hy0 : (y 0).val < 1024 := (y 0).isLt
  have hy1 : (y 1).val < 1 := (y 1).isLt
  show outTile V c t y = resultArr V c (((cfg1.win 4).blk t).view.emb y)
  have hemb : ((((cfg1.win 4).blk t).view.emb y) 0).val = 1024 * r.val + (y 0).val := by
    show win1_4.index t (0 : Fin 2) * 1024 + 1 * (y 0).val = _
    rw [e0]; omega
  rw [resultArr_apply V c _ r ⟨(y 0).val, hy0⟩ hemb]
  have e : lastPt r = t := Fin.ext ht.symm
  rw [e]
  congr 1
  funext a
  match a with
  | ⟨0, _⟩ => rfl
  | ⟨1, _⟩ => exact Fin.ext (by show (y 1).val = 0; omega)

/-- The result array after the region: row 1024·r + p holds entry p of the row tile written at the last column tile of row tile r. -/
theorem arrAt_out_apply (c : Dev nD) (r : Fin 4) (p : Fin 1024) :
    (dat V c).arrAt 4 cfg1.N (ix2 (⟨1024 * r.val + p.val, by omega⟩ : Fin 4096) (0 : Fin 1))
      = outTile V c ⟨20 * r.val + 19, by have := r.isLt; show 20 * r.val + 19 < 80; omega⟩ (ix2 p (0 : Fin 1)) := by
  have hr := r.isLt
  have hp := p.isLt
  have hf : (cfg1.win 4).flush (lastPt r) = true := (Gen.flush1_4 _).mpr (by show (20 * r.val + 19) % 20 = 19; omega)
  have hmem : (ix2 (⟨1024 * r.val + p.val, by omega⟩ : Fin 4096) (0 : Fin 1) : S4096x1.Idx) ∈ ((cfg1.win 4).blk (lastPt r)).view.set := by
    obtain ⟨s, e0, e1, et⟩ := out_index (lastPt r)
    have hv : (lastPt r).val = 20 * r.val + 19 := rfl
    have ht := et (by show (20 * r.val + 19) % 20 = 19; omega)
    rw [mem_out_blk]
    intro a
    match a with
    | ⟨0, _⟩ =>
      show win1_4.index (lastPt r) (0 : Fin 2) * 1024 ≤ 1024 * r.val + p.val ∧ 1024 * r.val + p.val < win1_4.index (lastPt r) (0 : Fin 2) * 1024 + 1024
      rw [e0]; omega
    | ⟨1, _⟩ =>
      show win1_4.index (lastPt r) (1 : Fin 2) * 1 ≤ 0 ∧ 0 < win1_4.index (lastPt r) (1 : Fin 2) * 1 + 1
      rw [e1]; omega
  rw [(dat V c).arrAt_apply_of_mem 4 (resultArr V c) (fun t hf => flushed_eq V c t hf) cfg1.N (lastPt r) _ (lastPt r).isLt hf hmem]
  exact resultArr_apply V c _ r p rfl

end Cert.KernelIdeal.Dat1

end
-- ==== Proof.KI.Body2.lean ====
/-
  One grid point of the per-cluster kernel (this cluster: lo = 40000, C = 10257 columns, 11 column tiles of 1024), as a
  transition of its three carried columns. A point (r, j) holds a row tile of x (1024 rows), the labels and the cluster
  log-probability of those rows, and column tile j of the cluster's weight slice. With S the masked score tile
  (x·w on the columns below C, the fill value on the others), the running maximum m, the running denominator l and
  the running target score t become
      m' = max(m, rowmax S),   l' = exp(m − m')·l + Σ_col exp(S − m'),   t' = t + Σ_col [col = clip(label − lo)]·S,
  where at j = 0 the three are first reset to (fill, 0, 0). At the last column tile (j = 10) the point also writes the row
  tile of the result, select(lo ≤ label < lo + C, (0 − cll) − (t' − (m' + log l')), 0). The transition is stated over the
  program's own value terms, for any float instance; nothing here evaluates them.
-/
import proofs.«427347_j10273561772327_2_alg».proof.Proof.Gen.KernelIdeal.Skeleton
import proofs.«427347_j10273561772327_2_alg».proof.Proof.Gen.KernelIdeal.Launch
import Idealize.ShloMosaic.Lib.Pipeline.Kit
import Idealize.ShloMosaic.Lib.Tactic
import Idealize.ShloMosaic.Lib.Pipeline.FrameBody
import Idealize.ShloMosaic.Lib.Pipeline.Value

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions on the column coordinate -/

/-- The reset condition holds exactly at the first column tile. -/
theorem first_iff (i : grid2.Coords) :
    (Scalar.cmpi .ne (Scalar.extui (Scalar.cmpi .eq (BitVec.ofNat 32 (i 1).val) 0#32)) 0#32 = 1#1) ↔ (i 1).val = 0 := by
  have h : ∀ j : Fin 11, (Scalar.cmpi .ne (Scalar.extui (Scalar.cmpi .eq (BitVec.ofNat 32 j.val) 0#32)) 0#32 = 1#1) ↔ j.val = 0 := by decide
  exact h (i 1)

/-- The write-out condition holds exactly at the last column tile. -/
theorem last_iff (i : grid2.Coords) : k2_cond2 i = 1#1 ↔ (i 1).val = 10 := by
  have h : ∀ j : Fin 11, (Scalar.cmpi .ne (Scalar.extui (Scalar.cmpi .eq (BitVec.ofNat 32 j.val) 10#32)) 0#32 = 1#1) ↔ j.val = 10 := by decide
  exact h (i 1)

/-! ## The carried columns after a point -/

/-- The running maximum a point starts from: the fill value at the first column tile, else what it finds. -/
def mIn (i : grid2.Coords) (sm : Vec F S1024x1 .f32) : Vec F S1024x1 .f32 := if (i 1).val = 0 then k2_pay5 else sm
/-- The running denominator a point starts from: zero at the first column tile. -/
def lIn (i : grid2.Coords) (sl : Vec F S1024x1 .f32) : Vec F S1024x1 .f32 := if (i 1).val = 0 then k2_pay6 else sl
/-- The running target score a point starts from: zero at the first column tile. -/
def tIn (i : grid2.Coords) (st : Vec F S1024x1 .f32) : Vec F S1024x1 .f32 := if (i 1).val = 0 then k2_pay7 else st

/-- The running maximum after the point. -/
def mOut (i : grid2.Coords) (x w : Vec F S1024x1024 .f32) (sm : Vec F S1024x1 .f32) : Vec F S1024x1 .f32 :=
  k2_pay3 (k2_pay9 i x w) (mIn i sm)
/-- The running denominator after the point. -/
def lOut (i : grid2.Coords) (x w : Vec F S1024x1024 .f32) (sm sl : Vec F S1024x1 .f32) : Vec F S1024x1 .f32 :=
  k2_pay2 (k2_pay9 i x w) (mIn i sm) (mIn i sm) (lIn i sl)
/-- The running target score after the point. -/
def tOut (i : grid2.Coords) (x w : Vec F S1024x1024 .f32) (y : Vec F S1024x1 .i32) (st : Vec F S1024x1 .f32) : Vec F S1024x1 .f32 :=
  k2_pay11 i x w y (tIn i st)
/-- The row tile of the result written at the last column tile. -/
def rowOut (i : grid2.Coords) (x w : Vec F S1024x1024 .f32) (y : Vec F S1024x1 .i32) (cl sm sl st : Vec F S1024x1 .f32) : Vec F S1024x1 .f32 :=
  k2_pay4 (k2_pay10 y) (mOut i x w sm) (lOut i x w sm sl) (tOut i x w y st) cl

/-! ## The point as a transition -/

theorem zero2 : (![0, 0] : Fin 2 → Nat) = fun _ => 0 := by funext a; fin_cases a <;> rfl

theorem cover1 (p : Vec F S1024x1 .f32) (z : S1024x1.Idx) :
    ∃ pc ∈ ([⟨Rect.unit (s := S1024x1) ![0, 0] S1024x1.size inb_S1024x1_S1024x1_0_0, p⟩] : List (View.Piece (Elt F) S1024x1 .f32)), z ∈ pc.1.set :=
  View.cover_of_tiled [⟨Rect.unit (s := S1024x1) ![0, 0] S1024x1.size inb_S1024x1_S1024x1_0_0, p⟩] S1024x1.size (by rfl) z

/-- A carried column read back after the conditional reset: the reset value at the first column tile, else what the buffer held. -/
theorem read_after_reset (i : grid2.Coords) (M : Memref sig .tc .vmem S1024x1 .f32) (f : M.view.ty.Contents (Elt F)) (p : Vec F S1024x1 .f32) :
    View.readAt (Elt F) M.view (Rect.unit (s := S1024x1) ![0, 0] ![1024, 1] inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := by
  rw [View.readAt_eq_ld]
  have hld : ∀ X : Vec F S1024x1 .f32, View.ld X (Rect.unit (s := S1024x1) ![0, 0] ![1024, 1] inb_S1024x1_S1024x1_0_0) = X :=
    fun X => View.ld_unit_zero (S := S1024x1) zero2 inb_S1024x1_S1024x1_0_0 X
  rw [hld]
  by_cases h0 : (i 1).val = 0
  · rw [dif_pos ((first_iff i).mpr h0), if_pos h0, View.read_writes_eq_canon _ _ _ (cover1 _)]
    exact View.canon_unit_zero (S := S1024x1) zero2 inb_S1024x1_S1024x1_0_0 p
  · rw [dif_neg (mt (first_iff i).mp h0), if_neg h0]

/-- The same through the rectangle spelt with the shape's own sizes. -/
theorem read_after_reset' (i : grid2.Coords) (M : Memref sig .tc .vmem S1024x1 .f32) (f : M.view.ty.Contents (Elt F)) (p : Vec F S1024x1 .f32) :
    View.readAt (Elt F) M.view (Rect.unit (s := S1024x1) ![0, 0] S1024x1.size inb_S1024x1_S1024x1_0_0).toLoadRect
        (if hc : Scalar.cmpi CmpIPredicate.ne (Scalar.extui (Scalar.cmpi CmpIPredicate.eq (BitVec.ofNat 32 (i 1).val) 0#32)) 0#32 = 1#1 then
          M.view.writes (Elt F) f [⟨Rect.unit (s := S1024x1) ![0, 0] S1024x1.size inb_S1024x1_S1024x1_0_0, p⟩]
        else f)
      = if (i 1).val = 0 then p else View.read (Elt F) M.view f := read_after_reset i M f p

/-- A whole-column read is the column (any element type). -/
theorem read_whole_col {e : EltTy} (M : Memref sig .tc .vmem S1024x1 e) (f : M.view.ty.Contents (Elt F)) :
    View.readAt (Elt F) M.view (Rect.unit (s := S1024x1) ![0, 0] S1024x1.size inb_S1024x1_S1024x1_0_0).toLoadRect f = View.read (Elt F) M.view f := by
  rw [View.readAt_eq_ld]; exact View.ld_unit_zero (S := S1024x1) zero2 inb_S1024x1_S1024x1_0_0 _

/-- The same through the rectangle spelt with literal sizes. -/
theorem read_whole_col' {e : EltTy} (M : Memref sig .tc .vmem S1024x1 e) (f : M.view.ty.Contents (Elt F)) :
    View.readAt (Elt F) M.view (Rect.unit (s := S1024x1) ![0, 0] ![1024, 1] inb_S1024x1_S1024x1_0_0).toLoadRect f = View.read (Elt F) M.view f :=
  read_whole_col M f

/-- A whole-column load of what one whole-column store has just left is the stored column. -/
theorem read_back_col (M : Memref sig .tc .vmem S1024x1 .f32) (p : Vec F S1024x1 .f32) :
    M.view.readCov [(⟨Rect.unit (s := S1024x1) ![0, 0] ![1024, 1] inb_S1024x1_S1024x1_0_0, p⟩ : View.Piece (Elt F) S1024x1 .f32)]
      (Rect.unit (s := S1024x1) ![0, 0] ![1024, 1] inb_S1024x1_S1024x1_0_0).toLoadRect = p :=
  View.readCov_unit_zero (S := S1024x1) M.view zero2 inb_S1024x1_S1024x1_0_0 p

/-- A whole-tile read is the tile. -/
theorem read_whole_sq (M : Memref sig .tc .vmem S1024x1024 .f32) (f : M.view.ty.Contents (Elt F)) :
    View.readAt (Elt F) M.view (Rect.unit (s := S1024x1024) ![0, 0] S1024x1024.size inb_S1024x1024_S1024x1024_0_0).toLoadRect f = View.read (Elt F) M.view f := by
  rw [View.readAt_eq_ld]; exact View.ld_unit_zero (S := S1024x1024) zero2 inb_S1024x1024_S1024x1024_0_0 _

set_option maxHeartbeats 2000000 in
/-- A point that is not the last column tile: the inputs and the result's staging tile are left as found, the three carried
    columns move on. -/
theorem run_inner (c : Dev nD) (E : Set ℕ) (i : grid2.Coords) (hlast : k2_cond2 i ≠ 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare o
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc2__cluster_kernel i M2 hM2 M3 hM3 M4 hM4 M5 hM5 M6 hM6 M7 hM7 M8 hM8 M9 hM9) K := by
  simp only [cc2__cluster_kernel_eq_skeleton]; unfold cc2__cluster_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

set_option maxHeartbeats 2000000 in
/-- The last column tile: as an inner point, and the result's staging tile receives the row tile of the result. -/
theorem run_last (c : Dev nD) (E : Set ℕ) (i : grid2.Coords) (hlast : k2_cond2 i = 1#1)
    (M2 : Memref sig .tc .vmem S1024x1024 .f32) (hM2 : M2.IsWhole) (M3 : Memref sig .tc .vmem S1024x1 .i32) (hM3 : M3.IsWhole)
    (M4 : Memref sig .tc .vmem S1024x1 .f32) (hM4 : M4.IsWhole) (M5 : Memref sig .tc .vmem S1024x1024 .f32) (hM5 : M5.IsWhole)
    (M6 : Memref sig .tc .vmem S1024x1 .f32) (hM6 : M6.IsWhole) (M7 : Memref sig .tc .vmem S1024x1 .f32) (hM7 : M7.IsWhole)
    (M8 : Memref sig .tc .vmem S1024x1 .f32) (hM8 : M8.IsWhole) (M9 : Memref sig .tc .vmem S1024x1 .f32) (hM9 : M9.IsWhole)
    (x : Vec F S1024x1024 .f32) (y : Vec F S1024x1 .i32) (cl : Vec F S1024x1 .f32) (w : Vec F S1024x1024 .f32) (o : Vec F S1024x1 .f32)
    (sm sl st : Vec F S1024x1 .f32) (K : PUnit → sProp 𝕄) :
    iprop(owns (c : Thread nD τ) M2 fullShare x ∗ owns (c : Thread nD τ) M3 fullShare y ∗ owns (c : Thread nD τ) M4 fullShare cl
        ∗ owns (c : Thread nD τ) M5 fullShare w ∗ owns (c : Thread nD τ) M6 fullShare o
        ∗ owns (c : Thread nD τ) M7 fullShare sm ∗ owns (c : Thread nD τ) M8 fullShare sl ∗ owns (c : Thread nD τ) M9 fullShare st
        ∗ (iprop(owns (c : Thread nD τ) M2 fullShare x ∗ owns (c : Thread nD τ) M3 fullShare y ∗ owns (c : Thread nD τ) M4 fullShare cl
            ∗ owns (c : Thread nD τ) M5 fullShare w ∗ owns (c : Thread nD τ) M6 fullShare (rowOut i x w y cl sm sl st)
            ∗ owns (c : Thread nD τ) M7 fullShare (mOut i x w sm)
            ∗ owns (c : Thread nD τ) M8 fullShare (lOut i x w sm sl)
            ∗ owns (c : Thread nD τ) M9 fullShare (tOut i x w y st)) -∗ K ⟨⟩))
      ⊢ wp frame (wpE (defs₀ (F := F)) Variants.none c none) E (cc2__cluster_kernel i M2 hM2 M3 hM3 M4 hM4 M5 hM5 M6 hM6 M7 hM7 M8 hM8 M9 hM9) K := by
  simp only [cc2__cluster_kernel_eq_skeleton]; unfold cc2__cluster_kernel_skel
  simp only [k2_part1_eq_skeleton]; unfold k2_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro
    rw [View.read_writes_eq_canon _ _ _ (cover1 _), View.canon_unit_zero zero2]
    unfold rowOut mOut lOut tOut mIn lIn tIn
    sl_unfold_run_names
    rw [read_back_col, read_back_col, read_back_col, read_after_reset, read_after_reset, read_after_reset',
      read_whole_col, read_whole_col', read_whole_sq, read_whole_sq]
  isplitl [H7]
  · iexists _; isplitr; swap; · iexact H7
    ipureintro
    sl_unfold_run_names
    rw [View.read_writes_eq_canon _ _ _ (cover1 _), View.canon_unit_zero zero2]
    unfold mOut mIn
    rw [read_after_reset, read_whole_sq, read_whole_sq]
  isplitl [H8]
  · iexists _; isplitr; swap; · iexact H8
    ipureintro
    sl_unfold_run_names
    rw [View.read_writes_eq_canon _ _ _ (cover1 _), View.canon_unit_zero zero2]
    unfold lOut mIn lIn
    rw [read_after_reset, read_after_reset, read_whole_sq, read_whole_sq]
  iexists _; isplitr; swap; · iexact H9
  ipureintro
  sl_unfold_run_names
  rw [View.read_writes_eq_canon _ _ _ (cover1 _), View.canon_unit_zero zero2]
  unfold tOut tIn
  rw [read_after_reset', read_whole_col, read_whole_sq, read_whole_sq]

end Cert.KernelIdeal.Body2
end
-- ==== Proof.KI.Pay2.lean ====
/-
  The value terms of one grid point of the third cluster's kernel (columns 40000 ‥ 50256 of the output matrix, 11 column tiles of
  1024), read at an index over the extended reals.

  At grid point (r, j) the kernel holds a 1024 × 1024 tile x of hidden vectors and column tile j of the cluster's weights w.
  Entry (p, q) of the score tile is the inner product Σ_k x(p, k) · w(k, q) where column 1024·j + q exists (below 10257) and −∞
  where it does not; only the existing columns of w are read. From a row's entries S(p, ·) the three carried columns move as
      m'(p) = max(m(p), sup_q S(p, q)),
      l'(p) = exp(m(p) − m'(p)) · l(p) + Σ_q exp(S(p, q) − m'(p)),
      t'(p) = t(p) + Σ_q [1024·j + q = clip(y(p) − 40000, 0, 10256)] · S(p, q),
  they start from (−∞, 0, 0), and the row tile of the result is, for a label y(p) with 40000 ≤ y(p) < 50257,
      (0 − cl(p)) − (t(p) − (m(p) + log l(p))),
  and 0 for any other label. Each statement below is one of these equations for the kernel's own term.
-/
import proofs.«427347_j10273561772327_2_alg».proof.Proof.Fold
import proofs.«427347_j10273561772327_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Pay2

open Cert.KernelIdeal Cert.KernelIdeal.Gen
open Idealize.ShloMosaic Idealize.ShloMosaic.ValueIdx

/-! ## Layout at an index: a row's column vector -/

section Layout
variable {α : Type}

/-- A vector of `a` entries read as an `a × 1` column: entry `(i, 0)` is entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column laid across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over row `p` of the reduced vector, the source index with column `k` put back is `(p, k)`. -/
theorem lift_row (h : S1024x1024.Reduces [1] S1024) (p k : Fin 1024) : h.lift (ix1 p) k = ix2 p k := by
  funext c; apply Fin.ext
  match c with
  | ⟨0, _⟩ => rfl
  | ⟨1, _⟩ => rfl

end Layout

/-! ## The product tile at an index -/

theorem lhs_ax0 (j : S1024x1024.Idx) (k : dot_S1024x1024_S1024x1024_S1024x1024_1_0_0_1_n_n.contr.Idx) :
    (dot_S1024x1024_S1024x1024_S1024x1024_1_0_0_1_n_n.lhsIdx j k 0).val = (j 0).val := rfl
theorem lhs_ax1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val := rfl
theorem rhs_ax0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val := rfl
theorem rhs_ax1 (j : S1024x1024.Idx) (k : dot_S1024x1024_S1024x1024_S1024x1024_1_0_0_1_n_n.contr.Idx) :
    (dot_S1024x1024_S1024x1024_S1024x1024_1_0_0_1_n_n.rhsIdx j k 1).val = (j 1).val := rfl

/-- The product of two 1024 × 1024 tiles accumulated into zeros, at (p, q): the inner product of row p and column q. -/
theorem matmul_tile_apply {φ₁ φ₂ : FTy} (x : FVec Ideal S1024x1024 φ₁) (w : FVec Ideal S1024x1024 φ₂) (p q : Fin 1024) :
    matmul dot_S1024x1024_S1024x1024_S1024x1024_1_0_0_1_n_n none x w (constant (F := Ideal) S1024x1024 .f32 0x00000000#32) (ix2 p q)
      = ∑ k : Fin 1024, x (ix2 p k) * w (ix2 k q) := by
  show FloatOps.matmul dot_S1024x1024_S1024x1024_S1024x1024_1_0_0_1_n_n none x w (constant S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine Finset.sum_congr rfl fun c _ => ?_
  have c2 := contrEquiv1_symm_val dot_S1024x1024_S1024x1024_S1024x1024_1_0_0_1_n_n 1024 rfl rfl c
  have l2 : dot_S1024x1024_S1024x1024_S1024x1024_1_0_0_1_n_n.lhsIdx (ix2 p q)
      ((contrEquiv1 dot_S1024x1024_S1024x1024_S1024x1024_1_0_0_1_n_n 1024 rfl rfl).symm c) = ix2 p c := by
    funext ax; apply Fin.ext
    match ax with
    | ⟨0, _⟩ => exact lhs_ax0 _ _
    | ⟨1, _⟩ => exact (lhs_ax1 _ _).trans c2
  have r2 : dot_S1024x1024_S1024x1024_S1024x1024_1_0_0_1_n_n.rhsIdx (ix2 p q)
      ((contrEquiv1 dot_S1024x1024_S1024x1024_S1024x1024_1_0_0_1_n_n 1024 rfl rfl).symm c) = ix2 c q := by
    funext ax; apply Fin.ext
    match ax with
    | ⟨0, _⟩ => exact (rhs_ax0 _ _).trans c2
    | ⟨1, _⟩ => exact rhs_ax1 _ _
  rw [l2, r2]

/-! ## The starting values -/

/-- The fill value the ragged columns and the starting maximum carry is −∞. -/
theorem fill_eq : Named.named (F := Ideal) Cert.KernelIdeal.κ "neg_big" (φ := .f32) 0xFF333332#32 = (⊥ : EReal) :=
  IdealRules.named_const.ideal_named_scalar _ _ _ _ rfl

theorem pay5_apply (p : Fin 1024) : k2_pay5 (F := Ideal) (ix2 p (0 : Fin 1)) = (⊥ : EReal) := by
  unfold k2_pay5
  rw [shapeCast_self]
  exact fill_eq

theorem pay6_apply (p : Fin 1024) : k2_pay6 (F := Ideal) (ix2 p (0 : Fin 1)) = (0 : EReal) := by
  unfold k2_pay6
  rw [shapeCast_self]
  exact Ideal.ofBits_zero_f32

theorem pay7_apply (p : Fin 1024) : k2_pay7 (F := Ideal) (ix2 p (0 : Fin 1)) = (0 : EReal) := by
  unfold k2_pay7
  rw [shapeCast_self]
  exact Ideal.ofBits_zero_f32

/-! ## Column numbers as 32-bit words -/

/-- A natural number below 2³¹, read back signed from its 32-bit word, is itself. -/
theorem toInt_ofNat_small (n : ℕ) (hn : n < 2147483648) : (BitVec.ofNat 32 n).toInt = (n : Int) := by
  rw [BitVec.toInt_ofNat', Int.bmod_def]
  omega

/-- Signed comparison of the words of two naturals below 2³¹ is comparison of the naturals. -/
theorem slt_ofNat (n m : ℕ) (hn : n < 2147483648) (hm : m < 2147483648) :
    (BitVec.ofNat 32 n).slt (BitVec.ofNat 32 m) = decide (n < m) := by
  unfold BitVec.slt
  rw [toInt_ofNat_small n hn, toInt_ofNat_small m hm]
  simp only [Nat.cast_lt]

/-- A select on "column n lies below 10257". -/
theorem select_col_lt {α : Type} (n : ℕ) (hn : n < 2147483648) (a b : α) :
    Scalar.select (IntOp.cmpi .slt (BitVec.ofNat 32 n) 10257#32) a b = if n < 10257 then a else b := by
  show (if BitVec.ofBool ((BitVec.ofNat 32 n).slt (BitVec.ofNat 32 10257)) = 1#1 then a else b) = _
  rw [slt_ofNat n 10257 hn (by norm_num)]
  by_cases h : n < 10257 <;> simp [h]

/-- A select on "two words are equal". -/
theorem select_word_eq {α : Type} (u v : BitVec 32) (a b : α) :
    Scalar.select (IntOp.cmpi .eq u v) a b = if u = v then a else b := by
  show (if BitVec.ofBool (u == v) = 1#1 then a else b) = _
  by_cases h : u = v
  · subst h; simp
  · have hb : (u == v) = false := by simpa using h
    rw [hb, if_neg h, if_neg (by decide)]

/-- The column number of entry (p, q) of column tile j, as a word: 1024·j + q. -/
theorem pay8_apply (i : grid2.Coords) (p q : Fin 1024) :
    k2_pay8 i (ix2 p q) = BitVec.ofNat 32 (1024 * (i 1).val + q.val) := by
  unfold k2_pay8
  show IntOp.addi (IntOp.muli (BitVec.ofNat 32 (i 1).val) 1024#32) (BitVec.ofNat 32 (0 * 1024 + q.val)) = _
  unfold IntOp.addi IntOp.muli
  rw [Nat.zero_mul, Nat.zero_add, BitVec.ofNat_add, BitVec.ofNat_mul, BitVec.mul_comm]

theorem col_small (i : grid2.Coords) (q : Fin 1024) : 1024 * (i 1).val + q.val < 2147483648 := by
  have h1 : (i 1).val < 11 := (i 1).isLt
  have h2 := q.isLt
  omega

/-! ## The masked score tile -/

/-- Entry (p, q) of the score tile: the inner product of row p of x with column q of w where column 1024·j + q exists, −∞ where
    it does not. -/
theorem score_apply (i : grid2.Coords) (x w : Vec Ideal S1024x1024 .f32) (p q : Fin 1024) :
    k2_pay9 (F := Ideal) i x w (ix2 p q)
      = if 1024 * (i 1).val + q.val < 10257 then ∑ k : Fin 1024, x (ix2 p k) * w (ix2 k q) else (⊥ : EReal) := by
  unfold k2_pay9
  show Scalar.select (IntOp.cmpi .slt (k2_pay8 i (ix2 p q)) 10257#32)
      (matmul dot_S1024x1024_S1024x1024_S1024x1024_1_0_0_1_n_n none (truncf .bf16 x bitsLt_bf16_f32)
        (truncf .bf16 (shapeCast S1024x1024 w shapeCasts_S1024x1024_S1024x1024) bitsLt_bf16_f32)
        (constant (F := Ideal) S1024x1024 .f32 0x00000000#32) (ix2 p q))
      (Named.named (F := Ideal) κ "neg_big" (φ := .f32) 0xFF333332#32) = _
  rw [pay8_apply, select_col_lt _ (col_small i q), matmul_tile_apply, fill_eq, shapeCast_self]
  rfl

/-- The score tile reads of w only the columns that exist. -/
theorem score_tail (i : grid2.Coords) (x w w' : Vec Ideal S1024x1024 .f32)
    (h : ∀ (p k q : Fin 1024), 1024 * (i 1).val + q.val < 10257 → w (ix2 k q) = w' (ix2 k q)) :
    k2_pay9 (F := Ideal) i x w = k2_pay9 (F := Ideal) i x w' := by
  funext z
  obtain ⟨p, q, rfl⟩ : ∃ (p q : Fin 1024), z = ix2 p q := ⟨z 0, z 1, eq_ix2 z⟩
  rw [score_apply, score_apply]
  by_cases hq : 1024 * (i 1).val + q.val < 10257
  · rw [if_pos hq, if_pos hq]
    exact Finset.sum_congr rfl fun k _ => by rw [h p k q hq]
  · rw [if_neg hq, if_neg hq]

/-! ## Row reductions of a tile -/

/-- The f32 pattern a maximum starts from denotes −∞. -/
theorem ofBits_neg_inf : Ideal.ofBits .f32 0xFF800000#32 = (⊥ : EReal) := by simp [Ideal.ofBits, Ideal.ieee]

/-- A fold of max from −∞ over a finite set is the supremum over it. -/
theorem fold_max_bot {β : Type} (s : Finset β) (f : β → EReal) : s.fold max (⊥ : EReal) f = s.sup f := rfl

/-- The maximum over the columns of a tile, from −∞, at row p: the supremum of the row. -/
theorem rowmax_apply (V : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 V 0xFF800000#32 h hφ hacc (ix1 p)
      = Finset.univ.sup fun q : Fin 1024 => V (ix2 p q) := by
  refine (Ideal.multiReduction_maximumf_single V 0xFF800000#32 h hφ hacc (ix1 p)).trans ?_
  have e : (V ∘ h.lift (ix1 p)) = fun q : Fin 1024 => V (ix2 p q) := funext fun q => congrArg V (lift_row h p q)
  show (Finset.univ : Finset (Fin 1024)).fold max (Ideal.ofBits .f32 0xFF800000#32) (V ∘ h.lift (ix1 p)) = _
  rw [e, ofBits_neg_inf]
  exact fold_max_bot _ _

/-- The sum over the columns of a tile at row p. -/
theorem rowsum_apply (V : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 V 0x00000000#32 h hφ hacc (ix1 p) = ∑ q : Fin 1024, V (ix2 p q) := by
  refine (Ideal.multiReduction_add_single V 0x00000000#32 h hφ hacc (ix1 p)).trans ?_
  exact Finset.sum_congr rfl fun q _ => congrArg V (lift_row h p q)

/-! ## The three carried columns after a tile, and the row tile of the result -/

/-- The running maximum after a tile, at row p. -/
theorem pay1_apply (S : FVec Ideal S1024x1024 .f32) (m : Vec Ideal S1024x1 .f32) (p : Fin 1024) :
    k2_pay1 (F := Ideal) S m (ix2 p (0 : Fin 1)) = Cert.Fold.stepM (fun q => S (ix2 p q)) (m (ix2 p (0 : Fin 1))) := by
  have e : shapeCast S1024x1 (multiReduction (F := Ideal) .maximumf [1] S1024 S 0xFF800000#32 reduces_S1024x1024_S1024 (.inl rfl) rfl)
        shapeCasts_S1024_S1024x1 (ix2 p (0 : Fin 1)) = Finset.univ.sup fun q : Fin 1024 => S (ix2 p q) :=
    (shapeCast_a_a1_apply _ shapeCasts_S1024_S1024x1 p 0).trans (rowmax_apply S reduces_S1024x1024_S1024 (.inl rfl) rfl p)
  unfold k2_pay1 Cert.Fold.stepM
  rw [← e]
  generalize shapeCast S1024x1 (multiReduction (F := Ideal) .maximumf [1] S1024 S 0xFF800000#32 reduces_S1024x1024_S1024 (.inl rfl) rfl)
    shapeCasts_S1024_S1024x1 = R
  rfl

theorem max_apply (S : FVec Ideal S1024x1024 .f32) (m : Vec Ideal S1024x1 .f32) (p : Fin 1024) :
    k2_pay3 (F := Ideal) S m (ix2 p (0 : Fin 1)) = Cert.Fold.stepM (fun q => S (ix2 p q)) (m (ix2 p (0 : Fin 1))) := by
  unfold k2_pay3
  rw [shapeCast_self]
  exact pay1_apply S m p

/-- The running denominator after a tile, at row p. -/
theorem den_apply (S : FVec Ideal S1024x1024 .f32) (m l : Vec Ideal S1024x1 .f32) (p : Fin 1024) :
    k2_pay2 (F := Ideal) S m m l (ix2 p (0 : Fin 1))
      = Cert.Fold.stepL (fun q => S (ix2 p q)) (m (ix2 p (0 : Fin 1))) (l (ix2 p (0 : Fin 1))) := by
  have hP := pay1_apply S m p
  unfold k2_pay2 Cert.Fold.stepL
  rw [← hP]
  generalize k2_pay1 (F := Ideal) S m = P
  rw [shapeCast_self]
  have e : shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 (ix2 p (0 : Fin 1))
      = ∑ q : Fin 1024, Ideal.exp (S (ix2 p q) - P (ix2 p (0 : Fin 1))) := by
    refine (shapeCast_a_a1_apply _ shapeCasts_S1024_S1024x1 p 0).trans ?_
    refine (rowsum_apply _ reduces_S1024x1024_S1024 (.inl rfl) rfl p).trans ?_
    refine Finset.sum_congr rfl fun q _ => ?_
    show Ideal.exp (S (ix2 p q) - broadcastTo S1024x1024 P broadcasts_S1024x1_S1024x1024 (ix2 p q)) = _
    rw [broadcastTo_a1_ab_apply]
  rw [← e]
  generalize shapeCast S1024x1 (multiReduction (F := Ideal) .add [1] S1024
        (exp (subf S (broadcastTo S1024x1024 P broadcasts_S1024x1_S1024x1024)))
        0x00000000#32 reduces_S1024x1024_S1024 (.inl rfl) rfl) shapeCasts_S1024_S1024x1 = R
  rfl

/-- The running target score after a tile, at row p: the tile's entry at the target column, if it lies in this tile, is added. -/
theorem tgt_apply (i : grid2.Coords) (x w : Vec Ideal S1024x1024 .f32) (y : Vec Ideal S1024x1 .i32) (t : Vec Ideal S1024x1 .f32)
    (p : Fin 1024) :
    k2_pay11 (F := Ideal) i x w y t (ix2 p (0 : Fin 1))
      = t (ix2 p (0 : Fin 1)) + ∑ q : Fin 1024,
          if BitVec.ofNat 32 (1024 * (i 1).val + q.val) = Cert.Spec.tgtWord 40000#32 10256#32 (y (ix2 p (0 : Fin 1)))
          then k2_pay9 (F := Ideal) i x w (ix2 p q) else 0 := by
  unfold k2_pay11 k2_pay10
  generalize k2_pay9 (F := Ideal) i x w = Sc
  rw [shapeCast_self, shapeCast_self]
  have e : shapeCast S1024x1 (multiReduction (F := Ideal) .add [1] S1024
        (select (cmpi .eq (k2_pay8 i)
            (broadcastTo S1024x1024
              (minsi (broadcast S1024x1 10256#32) (maxsi (broadcast S1024x1 0#32) (subi y (broadcast S1024x1 40000#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 (ix2 p (0 : Fin 1))
      = ∑ q : Fin 1024,
          if BitVec.ofNat 32 (1024 * (i 1).val + q.val) = Cert.Spec.tgtWord 40000#32 10256#32 (y (ix2 p (0 : Fin 1)))
          then Sc (ix2 p q) else 0 := by
    refine (shapeCast_a_a1_apply _ shapeCasts_S1024_S1024x1 p 0).trans ?_
    refine (rowsum_apply _ reduces_S1024x1024_S1024 (.inl rfl) rfl p).trans ?_
    refine Finset.sum_congr rfl fun q _ => ?_
    show Scalar.select (IntOp.cmpi .eq (k2_pay8 i (ix2 p q))
          (broadcastTo S1024x1024
            (minsi (broadcast S1024x1 10256#32) (maxsi (broadcast S1024x1 0#32) (subi y (broadcast S1024x1 40000#32))))
            broadcasts_S1024x1_S1024x1024 (ix2 p q)))
        (Sc (ix2 p q)) (Ideal.ofBits .f32 0x00000000#32) = _
    rw [pay8_apply, broadcastTo_a1_ab_apply, select_word_eq, Ideal.ofBits_zero_f32]
    rfl
  rw [← e]
  generalize shapeCast S1024x1 (multiReduction (F := Ideal) .add [1] S1024
        (select (cmpi .eq (k2_pay8 i)
            (broadcastTo S1024x1024
              (minsi (broadcast S1024x1 10256#32) (maxsi (broadcast S1024x1 0#32) (subi y (broadcast S1024x1 40000#32))))
              broadcasts_S1024x1_S1024x1024))
          Sc (broadcast S1024x1024 (Scalar.ofBits (F := Ideal) .f32 0x00000000#32)))
        0x00000000#32 reduces_S1024x1024_S1024 (.inl rfl) rfl) shapeCasts_S1024_S1024x1 = R
  rfl

/-- The row tile of the result, at row p: for a label inside the cluster, minus the cluster's log-probability minus the target's
    log-softmax in the kernel's arrangement; zero for a label outside. -/
theorem out_apply (y : Vec Ideal S1024x1 .i32) (m l t cl : Vec Ideal S1024x1 .f32) (p : Fin 1024) :
    k2_pay4 (F := Ideal) (k2_pay10 (F := Ideal) y) m l t cl (ix2 p (0 : Fin 1))
      = Scalar.select (Cert.Spec.memBit 40000#32 50257#32 (y (ix2 p (0 : Fin 1))))
          (((0 : EReal) - cl (ix2 p (0 : Fin 1))) - (t (ix2 p (0 : Fin 1)) - (m (ix2 p (0 : Fin 1)) + Ideal.log (l (ix2 p (0 : Fin 1))))))
          0 := by
  unfold k2_pay4 k2_pay10
  rw [shapeCast_self, shapeCast_self]
  show Scalar.select (IntOp.andi (IntOp.cmpi .sge (y (ix2 p (0 : Fin 1))) 40000#32) (IntOp.cmpi .slt (y (ix2 p (0 : Fin 1))) 50257#32))
      ((Ideal.ofBits .f32 0x00000000#32 - cl (ix2 p (0 : Fin 1))) - (t (ix2 p (0 : Fin 1)) - (m (ix2 p (0 : Fin 1)) + Ideal.log (l (ix2 p (0 : Fin 1))))))
      (Ideal.ofBits .f32 0x00000000#32) = _
  rw [Ideal.ofBits_zero_f32]
  rfl

end Cert.KernelIdeal.Pay2

end
-- ==== Proof.KI.Dat2.lean ====
/-
  The proof data of the per-cluster kernel at the ideal instance (this cluster: lo = 40000, C = 10257 columns, 11 column tiles of 1024).

  The grid's points are t = 11·r + j (row tile r < 4, column tile j < 11). At point t the kernel holds the row tile of x, of the
  labels and of the cluster log-probability (fetched when j = 0, kept while j moves) and column tile j of the weight slice, whose last
  tile overhangs the array: the columns past the array's end hold words nothing names, and the body masks them, so the data below
  puts zeros there and the kernel's values do not depend on the choice. The three carried columns after n points are defined by
  recursion on n through the point's transition (at j = 0 the transition resets them first, so what a row starts from is immaterial);
  the result's staging tile is written at j = 10 only, from the carried columns of its row, and that is the one point of a row whose
  block is written back to the result array.
-/
import proofs.«427347_j10273561772327_2_alg».proof.Proof.KI.Body2
import proofs.«427347_j10273561772327_2_alg».proof.Proof.KI.Pay2
import proofs.«427347_j10273561772327_2_alg».proof.Proof.Gen.KernelIdeal.Points
import Idealize.ShloMosaic.Lib.Pipeline.Frame
import Idealize.ShloMosaic.Lib.Pipeline.FrameBody
import Idealize.ShloMosaic.Lib.ValueIdx

set_option maxRecDepth 16384

noncomputable section

namespace Cert.KernelIdeal.Dat2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2)
open Cert.KernelIdeal.Pay2 (score_tail)

local notation "𝕄" => MT nD τ sig Unit (Elt Ideal) ℕ (UR sig nD τ) ℕ

-- the TensorCore's buffer contents when the region is entered: the parameter everything here is stated at
variable (V : (c : Dev nD) → (b : Ref sig .tc) → Buf (Elt Ideal) ((c : Thread nD τ).loc b))

/-! ## The blocks -/

/-- Window `w`'s block at point `t`, read off its array as the region finds it (the part inside the array). -/
def iblk (c : Dev nD) (w : Fin cfg2.W) (t : Fin cfg2.N) :
    ((cfg2.win w).xblock (cfg2.grid.coords t)).Idx → Elt Ideal (cfg2.win w).elt :=
  ((cfg2.win w).blk t).view.read (Elt Ideal) (V c (Pipeline.arrRef spec2 w))

/-- The row tile of x at point `t`. -/
def xT (c : Dev nD) (t : Fin cfg2.N) : Vec Ideal S1024x1024 .f32 := iblk V c 0 t
/-- The labels of the row tile. -/
def yT (c : Dev nD) (t : Fin cfg2.N) : Vec Ideal S1024x1 .i32 := iblk V c 1 t
/-- The cluster log-probability of the row tile. -/
def clT (c : Dev nD) (t : Fin cfg2.N) : Vec Ideal S1024x1 .f32 := iblk V c 2 t
/-- Column tile j of the weight slice, zeros on the columns past the array's end. -/
def wT (c : Dev nD) (t : Fin cfg2.N) : Vec Ideal S1024x1024 .f32 :=
  (cfg2.win 3).fill (cfg2.grid.coords t) (fun _ => (0 : EReal)) (iblk V c 3 t)

/-! ## The carried columns and the result's row tile -/

/-- The running maximum, denominator and target score after the first `n` points. -/
def carried (c : Dev nD) : ℕ → Vec Ideal S1024x1 .f32 × Vec Ideal S1024x1 .f32 × Vec Ideal S1024x1 .f32
  | 0 => (k2_pay5 (F := Ideal), k2_pay6 (F := Ideal), k2_pay7 (F := Ideal))
  | n + 1 =>
    if h : n < cfg2.N then
      (Body2.mOut (cfg2.grid.coords ⟨n, h⟩) (xT V c ⟨n, h⟩) (wT V c ⟨n, h⟩) (carried c n).1,
       Body2.lOut (cfg2.grid.coords ⟨n, h⟩) (xT V c ⟨n, h⟩) (wT V c ⟨n, h⟩) (carried c n).1 (carried c n).2.1,
       Body2.tOut (cfg2.grid.coords ⟨n, h⟩) (xT V c ⟨n, h⟩) (wT V c ⟨n, h⟩) (yT V c ⟨n, h⟩) (carried c n).2.2)
    else carried c n

/-- The row tile of the result the body writes at point `t` (it writes one at the last column tile of a row only). -/
def outTile (c : Dev nD) (t : Fin cfg2.N) : Vec Ideal S1024x1 .f32 :=
  Body2.rowOut (cfg2.grid.coords t) (xT V c t) (wT V c t) (yT V c t) (clT V c t)
    (carried V c t.val).1 (carried V c t.val).2.1 (carried V c t.val).2.2

/-! ## The proof data -/

/-- The arrays as the region finds them; after the body each input's buffer at its block (the weight tile's as `wT`), the
    result's at `outTile`; between points the three scratch columns at `carried` (at anything before the first point), beside the
    scoped buffers nothing here touches and the generator register; nothing owed; full shares. -/
def dat (c : Dev nD) : Dat τ (Elt Ideal) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => wT V c t
    | ⟨4, _⟩ => outTile V c t
  Φ t := iprop(∃ sm sl st : Vec Ideal S1024x1 .f32, ⌜t.val = 0 ∨ (sm, sl, st) = carried V c t.val⌝
      ∗ owns (c : Thread nD τ) (Memref.whole cc2_scratch0) fullShare sm
      ∗ owns (c : Thread nD τ) (Memref.whole cc2_scratch1) fullShare sl
      ∗ owns (c : Thread nD τ) (Memref.whole cc2_scratch2) fullShare st
      ∗ Pipeline.scopedRestBut (Ix := Unit) (Name := ℕ) (U := UR sig nD τ) (Lvl := ℕ) (Val := Elt Ideal) spec2 c [cc2_scratch0, cc2_scratch1, cc2_scratch2]
      ∗ ∃ r, prngReg c r)
  q _ := fullShare
  owed _ := 0

/-! ## What is owed of it -/

/-! ### The grid's coordinates -/

/-- The column tile of a point is its number modulo the number of column tiles. -/
theorem coords_snd : ∀ t : Fin cfg2.N, ((cfg2.grid.coords t) 1).val = t.val % 11 :=
  (by decide +kernel : ∀ t : Fin grid2.N, ((grid2.coords t) 1).val = t.val % 11)

/-! ### The proof data, projected -/

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = wT V c t := by dsimp only [dat]
theorem after_4 (c : Dev nD) (t : Fin cfg2.N) : (dat V c).after 4 t = outTile V c t := by dsimp only [dat]

theorem Φ_eq (c : Dev nD) (s : Fin (cfg2.N + 1)) : (dat V c).Φ s
    = iprop(∃ sm sl st : Vec Ideal S1024x1 .f32, ⌜s.val = 0 ∨ (sm, sl, st) = carried V c s.val⌝
      ∗ owns (c : Thread nD τ) (Memref.whole cc2_scratch0) fullShare sm
      ∗ owns (c : Thread nD τ) (Memref.whole cc2_scratch1) fullShare sl
      ∗ owns (c : Thread nD τ) (Memref.whole cc2_scratch2) fullShare st
      ∗ Pipeline.scopedRestBut (Ix := Unit) (Name := ℕ) (U := UR sig nD τ) (Lvl := ℕ) (Val := Elt Ideal) spec2 c [cc2_scratch0, cc2_scratch1, cc2_scratch2]
      ∗ ∃ r, prngReg c r) := by dsimp only [dat]

/-! ### What the body finds in the input windows' buffers -/

/-- An input whose blocks tile its array holds its block at every point, fetched there or kept from the row's first point. -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The weight tile is fetched at every point: its block on the columns inside the array, what the buffer held on the others. -/
theorem before_3 (c : Dev nD) (t : Fin cfg2.N) (d) :
    (dat V c).before 3 t d = (cfg2.win 3).fill (cfg2.grid.coords t) d (iblk V c 3 t) := by
  unfold Dat.before; rw [if_pos (Gen.fetch2_3 t)]; rfl

theorem cut_after_3 (c : Dev nD) (t : Fin cfg2.N) :
    (cfg2.win 3).cut (cfg2.grid.coords t) ((dat V c).after 3 t) = iblk V c 3 t := by
  rw [after_3]; exact (cfg2.win 3).cut_fill _ _ _

/-! ### The columns past the array's end do not matter -/

-- the masked score tile reads the weight tile on the columns inside the array only: `score_tail`, with the value lemmas

/-- What the transfer of the weight tile moves at a point: every row, and the columns up to the array's end. -/
theorem moved_sizes : ∀ t : Fin cfg2.N, (cfg2.win 3).xsize (cfg2.grid.coords t) (0 : Fin 2) = 1024
    ∧ (1024 * ((cfg2.grid.coords t) 1).val + 1024 ≤ 10257 → (cfg2.win 3).xsize (cfg2.grid.coords t) (1 : Fin 2) = 1024)
    ∧ (10257 < 1024 * ((cfg2.grid.coords t) 1).val + 1024 → 1024 * ((cfg2.grid.coords t) 1).val + (cfg2.win 3).xsize (cfg2.grid.coords t) (1 : Fin 2) = 10257) :=
  (by decide +kernel : ∀ t : Fin grid2.N, win2_3.xsize (grid2.coords t) (0 : Fin 2) = 1024
    ∧ (1024 * ((grid2.coords t) 1).val + 1024 ≤ 10257 → win2_3.xsize (grid2.coords t) (1 : Fin 2) = 1024)
    ∧ (10257 < 1024 * ((grid2.coords t) 1).val + 1024 → 1024 * ((grid2.coords t) 1).val + win2_3.xsize (grid2.coords t) (1 : Fin 2) = 10257))

/-- A column of the tile that lies inside the array is one the transfer moves. -/
theorem moved_of_lt (t : Fin cfg2.N) (k q : Fin 1024) (h : 1024 * ((cfg2.grid.coords t) 1).val + q.val < 10257) :
    (cfg2.win 3).moved (cfg2.grid.coords t) (ix2 k q) = true := by
  rw [Window.moved_iff]
  obtain ⟨e0, e1, e2⟩ := moved_sizes t
  intro a
  match a with
  | ⟨0, _⟩ =>
    show k.val < (cfg2.win 3).xsize (cfg2.grid.coords t) (0 : Fin 2)
    rw [e0]; exact k.isLt
  | ⟨1, _⟩ =>
    show q.val < (cfg2.win 3).xsize (cfg2.grid.coords t) (1 : Fin 2)
    have hq := q.isLt
    omega

/-- Two fillings of the tile around one block agree on the columns inside the array. -/
theorem fill_inside {α : Type} (t : Fin cfg2.N) (d d' : (cfg2.win 3).block.Idx → α)
    (g : ((cfg2.win 3).xblock (cfg2.grid.coords t)).Idx → α) (k q : Fin 1024)
    (h : 1024 * ((cfg2.grid.coords t) 1).val + q.val < 10257) :
    (cfg2.win 3).fill (cfg2.grid.coords t) d g (ix2 k q) = (cfg2.win 3).fill (cfg2.grid.coords t) d' g (ix2 k q) := by
  have hm := moved_of_lt t k q h
  unfold Window.fill; rw [dif_pos hm, dif_pos hm]

/-- So the masked scores of the tile as fetched are those of the tile with zeros past the array's end. -/
theorem score_fetched (c : Dev nD) (t : Fin cfg2.N) (d : (cfg2.win 3).block.Idx → Elt Ideal (cfg2.win 3).elt) :
    k2_pay9 (F := Ideal) (cfg2.grid.coords t) (xT V c t) ((cfg2.win 3).fill (cfg2.grid.coords t) d (iblk V c 3 t))
      = k2_pay9 (F := Ideal) (cfg2.grid.coords t) (xT V c t) (wT V c t) :=
  score_tail _ _ _ _ fun p k q h => fill_inside t d _ _ k q h

/-- The three carried columns after a point see the weight tile through the masked scores only. -/
theorem outs_of_score (i : grid2.Coords) (x w w' : Vec Ideal S1024x1024 .f32)
    (h : k2_pay9 (F := Ideal) i x w = k2_pay9 (F := Ideal) i x w') :
    (∀ sm, Body2.mOut i x w sm = Body2.mOut i x w' sm) ∧ (∀ sm sl, Body2.lOut i x w sm sl = Body2.lOut i x w' sm sl)
      ∧ (∀ y st, Body2.tOut i x w y st = Body2.tOut i x w' y st) := by
  refine ⟨fun sm => ?_, fun sm sl => ?_, fun y st => ?_⟩
  · unfold Body2.mOut; rw [h]
  · unfold Body2.lOut; rw [h]
  · unfold Body2.tOut k2_pay11; rw [h]

/-- At the first column tile the three carried columns are reset before they are used: what the buffers held is immaterial. -/
theorem outs_first (i : grid2.Coords) (h0 : (i 1).val = 0) (x w : Vec Ideal S1024x1024 .f32) (y : Vec Ideal S1024x1 .i32)
    (sm sm' sl sl' st st' : Vec Ideal S1024x1 .f32) :
    Body2.mOut i x w sm = Body2.mOut i x w sm' ∧ Body2.lOut i x w sm sl = Body2.lOut i x w sm' sl'
      ∧ Body2.tOut i x w y st = Body2.tOut i x w y st' := by
  refine ⟨?_, ?_, ?_⟩
  · unfold Body2.mOut Body2.mIn; rw [if_pos h0, if_pos h0]
  · unfold Body2.lOut Body2.mIn Body2.lIn; rw [if_pos h0, if_pos h0, if_pos h0, if_pos h0]
  · unfold Body2.tOut Body2.tIn; rw [if_pos h0, if_pos h0]

/-! ### The carried columns, one point on -/

theorem carried_succ (c : Dev nD) (t : Fin cfg2.N) :
    carried V c (t.val + 1) =
      (Body2.mOut (cfg2.grid.coords t) (xT V c t) (wT V c t) (carried V c t.val).1,
       Body2.lOut (cfg2.grid.coords t) (xT V c t) (wT V c t) (carried V c t.val).1 (carried V c t.val).2.1,
       Body2.tOut (cfg2.grid.coords t) (xT V c t) (wT V c t) (yT V c t) (carried V c t.val).2.2) := by
  rw [carried, dif_pos t.isLt]

/-- From the columns the invariant names (anything at the very first point) the body computes the next point's. -/
theorem carried_step (c : Dev nD) (t : Fin cfg2.N) (d : (cfg2.win 3).block.Idx → Elt Ideal (cfg2.win 3).elt)
    (sm sl st : Vec Ideal S1024x1 .f32) (hcar : t.val = 0 ∨ (sm, sl, st) = carried V c t.val) :
    (Body2.mOut (cfg2.grid.coords t) (xT V c t) ((cfg2.win 3).fill (cfg2.grid.coords t) d (iblk V c 3 t)) sm,
     Body2.lOut (cfg2.grid.coords t) (xT V c t) ((cfg2.win 3).fill (cfg2.grid.coords t) d (iblk V c 3 t)) sm sl,
     Body2.tOut (cfg2.grid.coords t) (xT V c t) ((cfg2.win 3).fill (cfg2.grid.coords t) d (iblk V c 3 t)) (yT V c t) st)
      = carried V c (t.val + 1) := by
  obtain ⟨hm, hl, ht⟩ := outs_of_score _ _ _ _ (score_fetched V c t d)
  rw [carried_succ, hm, hl, ht]
  rcases hcar with h0 | h
  · have hj0 : ((cfg2.grid.coords t) 1).val = 0 := by rw [coords_snd, h0]
    obtain ⟨a, b, e⟩ := outs_first (cfg2.grid.coords t) hj0 (xT V c t) (wT V c t) (yT V c t)
      sm (carried V c t.val).1 sl (carried V c t.val).2.1 st (carried V c t.val).2.2
    rw [a, b, e]
  · rw [← h]

/-- At the last column tile of a row the body's result tile is the one the proof data names. -/
theorem rowOut_fetched (c : Dev nD) (t : Fin cfg2.N) (hl : t.val % 11 = 10) (d : (cfg2.win 3).block.Idx → Elt Ideal (cfg2.win 3).elt)
    (sm sl st : Vec Ideal S1024x1 .f32) (hcar : t.val = 0 ∨ (sm, sl, st) = carried V c t.val) :
    Body2.rowOut (cfg2.grid.coords t) (xT V c t) ((cfg2.win 3).fill (cfg2.grid.coords t) d (iblk V c 3 t)) (yT V c t) (clT V c t) sm sl st
      = outTile V c t := by
  obtain ⟨hm, hl', ht⟩ := outs_of_score _ _ _ _ (score_fetched V c t d)
  unfold outTile Body2.rowOut
  rw [hm, hl', ht]
  rcases hcar with h0 | h
  · rw [h0] at hl; exact absurd hl (by decide)
  · rw [← h]

/-! ### The body obligation -/

/-- The body obligation at every point (the weight window is loose: its buffer is stated on the columns inside the array). -/
theorem body_obligation (c : Dev nD) : BodyObligationLoose (dat V c) (defs₀ (F := Ideal)) Variants.none () Set.univ := by
  intro t
  rw [Gen.bigSep_W2, Gen.bigSep_W2]
  simp only []
  rw [show (dat V c).owesAt () t.succ = (dat V c).owesAt () t.castSucc from rfl, Φ_eq, Φ_eq]
  have hj : ((cfg2.grid.coords t) 1).val = t.val % 11 := coords_snd t
  by_cases hl : t.val % 11 = 10
  · -- the last column tile of a row: the body also writes the row tile of the result, which this point writes back
    have hc : k2_cond2 (cfg2.grid.coords t) = 1#1 := (Body2.last_iff _).mpr (hj.trans hl)
    have hidle : idle2 4 (grid2.coords t) = false := by
      show (!(k2_cond2 (grid2.coords t) == 1#1)) = false
      rw [hc]; rfl
    simp only [hidle]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body2.run_last (F := Ideal) c Set.univ (grid2.coords t) hc _ _ _ _ _ _ _ _ _ _ _ _ _ _ _ _
      (xT V c t) (yT V c t) (clT V c t) ((cfg2.win 3).fill (cfg2.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    rw [rowOut_fetched V c t hl d3 sm sl st hcar]
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    rw [after_4]; iexact H4
  · -- an inner point: the result's staging tile is left as found
    have hc : k2_cond2 (cfg2.grid.coords t) ≠ 1#1 := fun h => hl (hj.symm.trans ((Body2.last_iff _).mp h))
    have hidle : idle2 4 (grid2.coords t) = true := by
      show (!(k2_cond2 (grid2.coords t) == 1#1)) = true
      rw [Bool.not_eq_true', beq_eq_false_iff_ne]; exact hc
    have hfl : (win2 4).flush t = false := by
      rw [← Bool.not_eq_true]; exact fun h => hl ((Gen.flush2_4 t).mp h)
    simp only [hidle, hfl]
    iintro ⟨⟨%sm, %sl, %st, %hcar, Hm, Hl, Ht, Hrest, Hprng⟩, Ho, ⟨%d0, H0⟩, ⟨%d1, H1⟩, ⟨%d2, H2⟩, ⟨%d3, H3⟩, ⟨%d4, H4⟩⟩
    rw [before_0 V c t d0, before_1 V c t d1, before_2 V c t d2, before_3 V c t d3]
    iapply (Body2.run_inner (F := Ideal) c Set.univ (grid2.coords t) hc _ _ _ _ _ _ _ _ _ _ _ _ _ _ _ _
      (xT V c t) (yT V c t) (clT V c t) ((cfg2.win 3).fill (cfg2.grid.coords t) d3 (iblk V c 3 t)) ((dat V c).before 4 t d4) sm sl st _)
    isplitl [H0]; · iexact H0
    isplitl [H1]; · iexact H1
    isplitl [H2]; · iexact H2
    isplitl [H3]; · iexact H3
    isplitl [H4]; · iexact H4
    isplitl [Hm]; · iexact Hm
    isplitl [Hl]; · iexact Hl
    isplitl [Ht]; · iexact Ht
    iintro ⟨H0, H1, H2, H3, H4, Hm, Hl, Ht⟩
    isplitl [Hm Hl Ht Hrest Hprng]
    · iexists _; iexists _; iexists _
      isplitr; · ipureintro; exact Or.inr (carried_step V c t d3 sm sl st hcar)
      isplitl [Hm]; · iexact Hm
      isplitl [Hl]; · iexact Hl
      isplitl [Ht]; · iexact Ht
      isplitl [Hrest]; · iexact Hrest
      iexact Hprng
    isplitl [Ho]; · iexact Ho
    isplitl [H0]; · rw [after_0]; iexact H0
    isplitl [H1]; · rw [after_1]; iexact H1
    isplitl [H2]; · rw [after_2]; iexact H2
    isplitl [H3]
    · iexists d3; rw [cut_after_3]; iexact H3
    iexists d4; iexact H4

/-! ### The input arrays -/

theorem isOut_in : ∀ w : Fin cfg2.W, w ≠ 4 → (cfg2.win w).isOut = false := by
  intro w hw; fin_cases w <;> first | rfl | exact absurd rfl hw

/-- An input array is never written. -/
theorem arrAt_in (c : Dev nD) (w : Fin cfg2.W) (hw : w ≠ 4) : (dat V c).arrAt w cfg2.N = V c (Pipeline.arrRef spec2 w) :=
  (dat V c).arrAt_in w (isOut_in w hw) _

/-! ### The result array after the region -/

/-- The last column tile of row tile r: the point of the row that writes the result's block back. -/
def lastPt (r : Fin 4) : Fin cfg2.N := ⟨11 * r.val + 10, by have := r.isLt; show 11 * r.val + 10 < 44; omega⟩

/-- The result window's block at a point is its row tile's, and a point that writes back is the last of its row. -/
theorem out_index : ∀ t : Fin cfg2.N, ∃ r : Fin 4, (cfg2.win 4).index t (0 : Fin 2) = r.val ∧ (cfg2.win 4).index t (1 : Fin 2) = 0
      ∧ (t.val % 11 = 10 → t.val = 11 * r.val + 10) :=
  (by decide +kernel : ∀ t : Fin grid2.N, ∃ r : Fin 4, win2_4.index t (0 : Fin 2) = r.val ∧ win2_4.index t (1 : Fin 2) = 0
      ∧ (t.val % 11 = 10 → t.val = 11 * r.val + 10))

/-- The result array the region leaves: row 1024·r + p holds entry p of the tile written at the last column tile of row tile r. -/
def resultArr (c : Dev nD) : S4096x1.Idx → Elt Ideal .f32 := fun i =>
  outTile V c (lastPt ⟨(i 0).val / 1024, by have := ValueIdx.idx2_lt0 (n0 := 4096) (n1 := 1) i; omega⟩)
    (ix2 (⟨(i 0).val % 1024, Nat.mod_lt _ (by decide)⟩ : Fin 1024) (0 : Fin 1))

theorem resultArr_apply (c : Dev nD) (i : S4096x1.Idx) (r : Fin 4) (p : Fin 1024) (hi : (i 0).val = 1024 * r.val + p.val) :
    resultArr V c i = outTile V c (lastPt r) (ix2 p (0 : Fin 1)) := by
  have hp := p.isLt
  have e1 : (i 0).val / 1024 = r.val := by omega
  have e2 : (i 0).val % 1024 = p.val := by omega
  unfold resultArr
  simp only [e1, e2, Fin.eta]

/-- An index of the result array lies in a point's block iff its row is among the block's 1024 rows. -/
theorem mem_out_blk (t : Fin cfg2.N) (i : S4096x1.Idx) :
    i ∈ ((cfg2.win 4).blk t).view.set ↔ ∀ a : Fin 2, win2_4.index t a * S1024x1.size a ≤ (i a).val
      ∧ (i a).val < win2_4.index t a * S1024x1.size a + S1024x1.size a := by
  show i ∈ ((View.whole main_v27).slice (win2_4.rect t)).set ↔ _
  rw [View.set_slice_whole, Rect.mem_set_unit]
  exact Iff.rfl

/-- What a point that writes back writes is its block of that array. -/
theorem flushed_eq (c : Dev nD) (t : Fin cfg2.N) (hf : (cfg2.win 4).flush t = true) :
    (dat V c).flushed 4 t = ((cfg2.win 4).blk t).view.read (Elt Ideal) (resultArr V c) := by
  have hl : t.val % 11 = 10 := (Gen.flush2_4 t).mp hf
  obtain ⟨r, e0, e1, et⟩ := out_index t
  have ht := et hl
  show (cfg2.win 4).cut (grid2.coords t) ((dat V c).after 4 t) = _
  rw [after_4]
  funext y
  have hy0 : (y 0).val < 1024 := (y 0).isLt
  have hy1 : (y 1).val < 1 := (y 1).isLt
  show outTile V c t y = resultArr V c (((cfg2.win 4).blk t).view.emb y)
  have hemb : ((((cfg2.win 4).blk t).view.emb y) 0).val = 1024 * r.val + (y 0).val := by
    show win2_4.index t (0 : Fin 2) * 1024 + 1 * (y 0).val = _
    rw [e0]; omega
  rw [resultArr_apply V c _ r ⟨(y 0).val, hy0⟩ hemb]
  have e : lastPt r = t := Fin.ext ht.symm
  rw [e]
  congr 1
  funext a
  match a with
  | ⟨0, _⟩ => rfl
  | ⟨1, _⟩ => exact Fin.ext (by show (y 1).val = 0; omega)

/-- The result array after the region: row 1024·r + p holds entry p of the row tile written at the last column tile of row tile r. -/
theorem arrAt_out_apply (c : Dev nD) (r : Fin 4) (p : Fin 1024) :
    (dat V c).arrAt 4 cfg2.N (ix2 (⟨1024 * r.val + p.val, by omega⟩ : Fin 4096) (0 : Fin 1))
      = outTile V c ⟨11 * r.val + 10, by have := r.isLt; show 11 * r.val + 10 < 44; omega⟩ (ix2 p (0 : Fin 1)) := by
  have hr := r.isLt
  have hp := p.isLt
  have hf : (cfg2.win 4).flush (lastPt r) = true := (Gen.flush2_4 _).mpr (by show (11 * r.val + 10) % 11 = 10; omega)
  have hmem : (ix2 (⟨1024 * r.val + p.val, by omega⟩ : Fin 4096) (0 : Fin 1) : S4096x1.Idx) ∈ ((cfg2.win 4).blk (lastPt r)).view.set := by
    obtain ⟨s, e0, e1, et⟩ := out_index (lastPt r)
    have hv : (lastPt r).val = 11 * r.val + 10 := rfl
    have ht := et (by show (11 * r.val + 10) % 11 = 10; omega)
    rw [mem_out_blk]
    intro a
    match a with
    | ⟨0, _⟩ =>
      show win2_4.index (lastPt r) (0 : Fin 2) * 1024 ≤ 1024 * r.val + p.val ∧ 1024 * r.val + p.val < win2_4.index (lastPt r) (0 : Fin 2) * 1024 + 1024
      rw [e0]; omega
    | ⟨1, _⟩ =>
      show win2_4.index (lastPt r) (1 : Fin 2) * 1 ≤ 0 ∧ 0 < win2_4.index (lastPt r) (1 : Fin 2) * 1 + 1
      rw [e1]; omega
  rw [(dat V c).arrAt_apply_of_mem 4 (resultArr V c) (fun t hf => flushed_eq V c t hf) cfg2.N (lastPt r) _ (lastPt r).isLt hf hmem]
  exact resultArr_apply V c _ r p rfl

end Cert.KernelIdeal.Dat2

end
-- ==== Proof.KI.Regs.lean ====
/-
  The buffer contents each of the three per-cluster kernels is entered from, and what each leaves.

  The program is a chain: host operations, the first kernel, host operations, the second kernel, host operations, the third kernel, host
  operations. A kernel's result column is a function of the contents it is entered from; those contents are the fold of the host operations
  over the launch memory with the earlier kernels' result columns put in place. So the three are defined in order: the first kernel's entry
  contents from the launch memory alone, its result column from them, the second kernel's entry contents from that column, and so on. The
  result of the whole run is the last host select read off the fold with all three columns in place.
-/
import proofs.«427347_j10273561772327_2_alg».proof.Proof.Gen.KernelIdeal.Regions
import proofs.«427347_j10273561772327_2_alg».proof.Proof.KI.Dat0
import proofs.«427347_j10273561772327_2_alg».proof.Proof.KI.Dat1
import proofs.«427347_j10273561772327_2_alg».proof.Proof.KI.Dat2

set_option maxRecDepth 16384

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

local notation "𝕄" => MT nD τ sig Unit (Elt Ideal) ℕ (UR sig nD τ) ℕ

variable (m : (ℓ : Loc nD τ sig) → Buf (Elt Ideal) ℓ)

/-! ## The buffer contents each kernel is entered from, and what each leaves -/

/-- Before any kernel has run nothing is known of what the kernels leave: every buffer at its launch contents. -/
def outsBase : Gen.Outs (F := Ideal) := fun _ r c => m ((c : Thread nD τ).loc r)

/-- The contents the first kernel is entered from: the launch memory after the host stretches before it (the cluster head's
    log-softmax, the first slice of the weights, the first column of the head). -/
def VE0 : (c : Dev nD) → (b : Ref sig .tc) → Buf (Elt Ideal) ((c : Thread nD τ).loc b) := fun c b => Gen.V3 m c b

/-- What the first kernel leaves in its result column. -/
def out0 (c : Dev nD) : Buf (Elt Ideal) ((c : Thread nD τ).loc main_v7) := (Dat0.dat (VE0 m) c).arrAt 4 cfg0.N

/-- The kernels' results known after the first kernel. -/
def outsA : Gen.Outs (F := Ideal) :=
  Function.update (outsBase m) 4 (Function.update (outsBase m 4) main_v7 (out0 m))

/-- The contents the second kernel is entered from. -/
def VE1 : (c : Dev nD) → (b : Ref sig .tc) → Buf (Elt Ideal) ((c : Thread nD τ).loc b) := fun c b => Gen.V7 m (outsA m) c b

/-- What the second kernel leaves in its result column. -/
def out1 (c : Dev nD) : Buf (Elt Ideal) ((c : Thread nD τ).loc main_v17) := (Dat1.dat (VE1 m) c).arrAt 4 cfg1.N

/-- The kernels' results known after the second kernel. -/
def outsB : Gen.Outs (F := Ideal) :=
  Function.update (outsA m) 8 (Function.update (outsBase m 8) main_v17 (out1 m))

/-- The contents the third kernel is entered from. -/
def VE2 : (c : Dev nD) → (b : Ref sig .tc) → Buf (Elt Ideal) ((c : Thread nD τ).loc b) := fun c b => Gen.V11 m (outsB m) c b

/-- What the third kernel leaves in its result column. -/
def out2 (c : Dev nD) : Buf (Elt Ideal) ((c : Thread nD τ).loc main_v27) := (Dat2.dat (VE2 m) c).arrAt 4 cfg2.N

/-- What the three kernels leave: each one's result column after its last grid point, read at the contents it was entered from. -/
def outsI : Gen.Outs (F := Ideal) :=
  Function.update (outsB m) 12 (Function.update (outsBase m 12) main_v27 (out2 m))

theorem outs_v7 (c : Dev nD) : outsI m 4 main_v7 c = (Dat0.dat (VE0 m) c).arrAt 4 cfg0.N := by
  unfold outsI outsB outsA
  rw [Function.update_of_ne (by decide : (4 : ℕ) ≠ 12), Function.update_of_ne (by decide : (4 : ℕ) ≠ 8), Function.update_self, Function.update_self]
  rfl

theorem outs_v17 (c : Dev nD) : outsI m 8 main_v17 c = (Dat1.dat (VE1 m) c).arrAt 4 cfg1.N := by
  unfold outsI outsB
  rw [Function.update_of_ne (by decide : (8 : ℕ) ≠ 12), Function.update_self, Function.update_self]
  rfl

theorem outs_v27 (c : Dev nD) : outsI m 12 main_v27 c = (Dat2.dat (VE2 m) c).arrAt 4 cfg2.N := by
  unfold outsI
  rw [Function.update_self, Function.update_self]
  rfl

/-- The second kernel is entered from the host stretches' fold over what the first left. -/
theorem VE1_eq (c : Dev nD) : VE1 m c = fun b : Ref sig .tc => Gen.V7 m (outsI m) c b := by
  have h : outsA m 4 main_v7 c = outsI m 4 main_v7 c := by
    unfold outsI outsB
    rw [Function.update_of_ne (by decide : (4 : ℕ) ≠ 12), Function.update_of_ne (by decide : (4 : ℕ) ≠ 8)]
  unfold VE1
  show (fun b : Ref sig .tc => StableHlo.after hostOps1_2 (StableHlo.after hostOps1_1 (StableHlo.after hostOps1 (Function.update (Gen.V3 m c) main_v7 (outsA m 4 main_v7 c)))) b) = _
  rw [h]

/-- The third kernel is entered from the host stretches' fold over what the first two left. -/
theorem VE2_eq (c : Dev nD) : VE2 m c = fun b : Ref sig .tc => Gen.V11 m (outsI m) c b := by
  have h4 : outsB m 4 main_v7 c = outsI m 4 main_v7 c := by
    unfold outsI
    rw [Function.update_of_ne (by decide : (4 : ℕ) ≠ 12)]
  have h8 : outsB m 8 main_v17 c = outsI m 8 main_v17 c := by
    unfold outsI
    rw [Function.update_of_ne (by decide : (8 : ℕ) ≠ 12)]
  unfold VE2
  show (fun b : Ref sig .tc => StableHlo.after hostOps2_2 (StableHlo.after hostOps2_1 (StableHlo.after hostOps2 (Function.update
      (StableHlo.after hostOps1_2 (StableHlo.after hostOps1_1 (StableHlo.after hostOps1 (Function.update (Gen.V3 m c) main_v7 (outsB m 4 main_v7 c)))))
      main_v17 (outsB m 8 main_v17 c)))) b) = _
  rw [h4, h8]

/-- The result buffer at the end of the run: the last select over the three kernels' columns. -/
def resultV (c : Dev nD) : Buf (Elt Ideal) ((c : Thread nD τ).loc main_v34) := Gen.V14 m (outsI m) c main_v34

end Cert.KernelIdeal.Launch

end
-- ==== Proof.KI.Tail.lean ====
/-
  The last host stretches of the idealized kernel program read at an index, and the contents of the kernels' label and weight windows in
  terms of the arguments.

  After each kernel the host reshapes its result column [4096, 1] to a vector, computes the membership bit of every label in the
  cluster's range — (lo ≤ y) ∧ (y < hi), signed — and selects, index by index, the kernel's value where the bit is set and the value so
  far elsewhere; the value so far starts at zero. So entry n of the result is the third kernel's entry n if label n lies in the third
  range, else the second's if it lies in the second range, else the first's if it lies in the first, else zero. Every kernel reads the
  labels reshaped to a column and one slice of columns of the output matrix; the hidden vectors it reads are the first argument itself.
-/
import proofs.«427347_j10273561772327_2_alg».proof.Proof.KI.Regs
import proofs.«427347_j10273561772327_2_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.KernelIdeal.Tail

open Cert.KernelIdeal Cert.KernelIdeal.Gen
open Idealize.ShloMosaic Idealize.ShloMosaic.TcCoe Idealize.ShloMosaic.StableHlo
open Idealize.ShloMosaic.ValueIdx

/-! ## Each host stretch at the buffers read later, from any contents -/

section Stretch

variable (W : Valuation τ sig (Elt Ideal))

/-- The labels as a column. -/
theorem s0_2_v3 : (StableHlo.after hostOps0_2 W (Proc.devRef .tc main_v3) : S4096x1.Idx → BitVec 32)
    = shapeCast S4096x1 (W (Proc.devRef .tc main_arg1) : S4096.Idx → BitVec 32) shapeCasts_S4096_S4096x1 := by
  after_results
  try rfl

/-- The first slice of the output matrix. -/
theorem s0_2_v5 : (StableHlo.after hostOps0_2 W (Proc.devRef .tc main_v5) : S1024x20000.Idx → EReal)
    = extractStridedSlice S1024x20000 ![0, 0] (W (Proc.devRef .tc main_arg3) : S1024x50257.Idx → EReal) slices_S1024x50257_S1024x20000_0_0 := by
  after_results
  try rfl

/-- The value before any cluster: zero everywhere. -/
theorem s0_2_v4 : (StableHlo.after hostOps0_2 W (Proc.devRef .tc main_v4) : S4096.Idx → EReal)
    = broadcastInDim S4096 ![] bcast_S_S4096 (constant (F := Ideal) S_ .f32 0x00000000#32) := by
  after_results
  try rfl

/-- The second slice of the output matrix. -/
theorem s1_2_v15 : (StableHlo.after hostOps1_2 W (Proc.devRef .tc main_v15) : S1024x20000.Idx → EReal)
    = extractStridedSlice S1024x20000 ![0, 20000] (W (Proc.devRef .tc main_arg3) : S1024x50257.Idx → EReal) slices_S1024x50257_S1024x20000_0_20000 := by
  after_results
  try rfl

/-- The third slice of the output matrix. -/
theorem s2_2_v25 : (StableHlo.after hostOps2_2 W (Proc.devRef .tc main_v25) : S1024x10257.Idx → EReal)
    = extractStridedSlice S1024x10257 ![0, 40000] (W (Proc.devRef .tc main_arg3) : S1024x50257.Idx → EReal) slices_S1024x50257_S1024x10257_0_40000 := by
  after_results
  try rfl

/-- After the first kernel: its column as a vector, -/
theorem s1_v8 : (StableHlo.after hostOps1 W (Proc.devRef .tc main_v8) : S4096.Idx → EReal)
    = shapeCast S4096 (W (Proc.devRef .tc main_v7) : S4096x1.Idx → EReal) shapeCasts_S4096x1_S4096 := by
  after_results
  try rfl

/-- and the labels' membership in the first range. -/
theorem s1_v13 : (StableHlo.after hostOps1 W (Proc.devRef .tc main_v13) : S4096.Idx → BitVec 1)
    = andi (cmpi .sge (W (Proc.devRef .tc main_arg1) : S4096.Idx → BitVec 32) (broadcastInDim S4096 ![] bcast_S_S4096 (constantI S_ 32 0#32)))
        (cmpi .slt (W (Proc.devRef .tc main_arg1) : S4096.Idx → BitVec 32) (broadcastInDim S4096 ![] bcast_S_S4096 (constantI S_ 32 20000#32))) := by
  after_results
  try rfl

/-- The select after the first kernel. -/
theorem s1_1_v14 : (StableHlo.after hostOps1_1 W (Proc.devRef .tc main_v14) : S4096.Idx → EReal)
    = select (W (Proc.devRef .tc main_v13) : S4096.Idx → BitVec 1) (W (Proc.devRef .tc main_v8) : S4096.Idx → EReal) (W (Proc.devRef .tc main_v4) : S4096.Idx → EReal) := by
  after_results
  try rfl

/-- After the second kernel: its column as a vector, -/
theorem s2_v18 : (StableHlo.after hostOps2 W (Proc.devRef .tc main_v18) : S4096.Idx → EReal)
    = shapeCast S4096 (W (Proc.devRef .tc main_v17) : S4096x1.Idx → EReal) shapeCasts_S4096x1_S4096 := by
  after_results
  try rfl

/-- and the labels' membership in the second range. -/
theorem s2_v23 : (StableHlo.after hostOps2 W (Proc.devRef .tc main_v23) : S4096.Idx → BitVec 1)
    = andi (cmpi .sge (W (Proc.devRef .tc main_arg1) : S4096.Idx → BitVec 32) (broadcastInDim S4096 ![] bcast_S_S4096 (constantI S_ 32 20000#32)))
        (cmpi .slt (W (Proc.devRef .tc main_arg1) : S4096.Idx → BitVec 32) (broadcastInDim S4096 ![] bcast_S_S4096 (constantI S_ 32 40000#32))) := by
  after_results
  try rfl

/-- The select after the second kernel. -/
theorem s2_1_v24 : (StableHlo.after hostOps2_1 W (Proc.devRef .tc main_v24) : S4096.Idx → EReal)
    = select (W (Proc.devRef .tc main_v23) : S4096.Idx → BitVec 1) (W (Proc.devRef .tc main_v18) : S4096.Idx → EReal) (W (Proc.devRef .tc main_v14) : S4096.Idx → EReal) := by
  after_results
  try rfl

/-- After the third kernel: its column as a vector, -/
theorem s3_v28 : (StableHlo.after hostOps3 W (Proc.devRef .tc main_v28) : S4096.Idx → EReal)
    = shapeCast S4096 (W (Proc.devRef .tc main_v27) : S4096x1.Idx → EReal) shapeCasts_S4096x1_S4096 := by
  after_results
  try rfl

/-- and the labels' membership in the third range. -/
theorem s3_v33 : (StableHlo.after hostOps3 W (Proc.devRef .tc main_v33) : S4096.Idx → BitVec 1)
    = andi (cmpi .sge (W (Proc.devRef .tc main_arg1) : S4096.Idx → BitVec 32) (broadcastInDim S4096 ![] bcast_S_S4096 (constantI S_ 32 40000#32)))
        (cmpi .slt (W (Proc.devRef .tc main_arg1) : S4096.Idx → BitVec 32) (broadcastInDim S4096 ![] bcast_S_S4096 (constantI S_ 32 50257#32))) := by
  after_results
  try rfl

/-- The select after the third kernel: the result. -/
theorem s3_1_v34 : (StableHlo.after hostOps3_1 W (Proc.devRef .tc main_v34) : S4096.Idx → EReal)
    = select (W (Proc.devRef .tc main_v33) : S4096.Idx → BitVec 1) (W (Proc.devRef .tc main_v28) : S4096.Idx → EReal) (W (Proc.devRef .tc main_v24) : S4096.Idx → EReal) := by
  after_results
  try rfl

end Stretch

/-! ## The contents between items at the buffers the tail reads -/

section Chain

variable (m : (ℓ : Loc nD τ sig) → Buf (Elt Ideal) ℓ) (outs : Gen.Outs (F := Ideal)) (c : Dev nD)

/-- A buffer the host stretches before the first kernel do not write holds its launch contents there. -/
theorem V3_launch (r : Ref sig .tc) (h0 : r ∉ hostOps0_W) (h1 : r ∉ hostOps0_1_W) (h2 : r ∉ hostOps0_2_W) :
    Gen.V3 m c r = m ((c : Thread nD τ).loc r) :=
  (Gen.V3_of m c r h2).trans <| (Gen.V2_of m c r h1).trans <| (Gen.V1_of m c r h0).trans rfl

/-- A buffer neither the first kernel nor the host stretches after it write is unchanged up to the second kernel's entry. -/
theorem V7_V3 (r : Ref sig .tc) (h : r ∉ ([main_v7] : List (Ref sig .tc))) (h0 : r ∉ hostOps1_W) (h1 : r ∉ hostOps1_1_W) (h2 : r ∉ hostOps1_2_W) :
    Gen.V7 m outs c r = Gen.V3 m c r :=
  (Gen.V7_of m outs c r h2).trans <| (Gen.V6_of m outs c r h1).trans <| (Gen.V5_of m outs c r h0).trans (Gen.V4_of m outs c r h)

/-- The same from the second kernel's entry to the third's. -/
theorem V11_V7 (r : Ref sig .tc) (h : r ∉ ([main_v17] : List (Ref sig .tc))) (h0 : r ∉ hostOps2_W) (h1 : r ∉ hostOps2_1_W) (h2 : r ∉ hostOps2_2_W) :
    Gen.V11 m outs c r = Gen.V7 m outs c r :=
  (Gen.V11_of m outs c r h2).trans <| (Gen.V10_of m outs c r h1).trans <| (Gen.V9_of m outs c r h0).trans (Gen.V8_of m outs c r h)

/-- The labels are the second argument at every item. -/
theorem V4_arg1 : Gen.V4 m outs c main_arg1 = m ((c : Thread nD τ).loc main_arg1) :=
  (Gen.V4_of m outs c main_arg1 (by decide)).trans (V3_launch m c main_arg1 (by decide) (by decide) (by decide))
theorem V8_arg1 : Gen.V8 m outs c main_arg1 = m ((c : Thread nD τ).loc main_arg1) :=
  (Gen.V8_of m outs c main_arg1 (by decide)).trans <| (V7_V3 m outs c main_arg1 (by decide) (by decide) (by decide) (by decide)).trans
    (V3_launch m c main_arg1 (by decide) (by decide) (by decide))
theorem V12_arg1 : Gen.V12 m outs c main_arg1 = m ((c : Thread nD τ).loc main_arg1) :=
  (Gen.V12_of m outs c main_arg1 (by decide)).trans <| (V11_V7 m outs c main_arg1 (by decide) (by decide) (by decide) (by decide)).trans <|
    (V7_V3 m outs c main_arg1 (by decide) (by decide) (by decide) (by decide)).trans (V3_launch m c main_arg1 (by decide) (by decide) (by decide))

/-- Each kernel's result column right after it. -/
theorem V4_v7 : Gen.V4 m outs c main_v7 = outs 4 main_v7 c := by
  show Function.update (Gen.V3 m c) main_v7 (outs 4 main_v7 c) main_v7 = _
  rw [Function.update_self]
theorem V8_v17 : Gen.V8 m outs c main_v17 = outs 8 main_v17 c := by
  show Function.update (Gen.V7 m outs c) main_v17 (outs 8 main_v17 c) main_v17 = _
  rw [Function.update_self]
theorem V12_v27 : Gen.V12 m outs c main_v27 = outs 12 main_v27 c := by
  show Function.update (Gen.V11 m outs c) main_v27 (outs 12 main_v27 c) main_v27 = _
  rw [Function.update_self]

/-- The result: the three selects, innermost first, over the kernels' columns. -/
theorem V14_v34 : (Gen.V14 m outs c main_v34 : S4096.Idx → EReal)
    = select (Gen.V13 m outs c main_v33 : S4096.Idx → BitVec 1) (Gen.V13 m outs c main_v28 : S4096.Idx → EReal) (Gen.V13 m outs c main_v24 : S4096.Idx → EReal) :=
  s3_1_v34 (Gen.V13 m outs c)
theorem V13_v33 : (Gen.V13 m outs c main_v33 : S4096.Idx → BitVec 1)
    = andi (cmpi .sge (Gen.V12 m outs c main_arg1 : S4096.Idx → BitVec 32) (broadcastInDim S4096 ![] bcast_S_S4096 (constantI S_ 32 40000#32)))
        (cmpi .slt (Gen.V12 m outs c main_arg1 : S4096.Idx → BitVec 32) (broadcastInDim S4096 ![] bcast_S_S4096 (constantI S_ 32 50257#32))) :=
  s3_v33 (Gen.V12 m outs c)
theorem V13_v28 : (Gen.V13 m outs c main_v28 : S4096.Idx → EReal)
    = shapeCast S4096 (Gen.V12 m outs c main_v27 : S4096x1.Idx → EReal) shapeCasts_S4096x1_S4096 :=
  s3_v28 (Gen.V12 m outs c)
theorem V13_v24 : Gen.V13 m outs c main_v24 = Gen.V10 m outs c main_v24 :=
  (Gen.V13_of m outs c main_v24 (by decide)).trans <| (Gen.V12_of m outs c main_v24 (by decide)).trans (Gen.V11_of m outs c main_v24 (by decide))
theorem V10_v24 : (Gen.V10 m outs c main_v24 : S4096.Idx → EReal)
    = select (Gen.V9 m outs c main_v23 : S4096.Idx → BitVec 1) (Gen.V9 m outs c main_v18 : S4096.Idx → EReal) (Gen.V9 m outs c main_v14 : S4096.Idx → EReal) :=
  s2_1_v24 (Gen.V9 m outs c)
theorem V9_v23 : (Gen.V9 m outs c main_v23 : S4096.Idx → BitVec 1)
    = andi (cmpi .sge (Gen.V8 m outs c main_arg1 : S4096.Idx → BitVec 32) (broadcastInDim S4096 ![] bcast_S_S4096 (constantI S_ 32 20000#32)))
        (cmpi .slt (Gen.V8 m outs c main_arg1 : S4096.Idx → BitVec 32) (broadcastInDim S4096 ![] bcast_S_S4096 (constantI S_ 32 40000#32))) :=
  s2_v23 (Gen.V8 m outs c)
theorem V9_v18 : (Gen.V9 m outs c main_v18 : S4096.Idx → EReal)
    = shapeCast S4096 (Gen.V8 m outs c main_v17 : S4096x1.Idx → EReal) shapeCasts_S4096x1_S4096 :=
  s2_v18 (Gen.V8 m outs c)
theorem V9_v14 : Gen.V9 m outs c main_v14 = Gen.V6 m outs c main_v14 :=
  (Gen.V9_of m outs c main_v14 (by decide)).trans <| (Gen.V8_of m outs c main_v14 (by decide)).trans (Gen.V7_of m outs c main_v14 (by decide))
theorem V6_v14 : (Gen.V6 m outs c main_v14 : S4096.Idx → EReal)
    = select (Gen.V5 m outs c main_v13 : S4096.Idx → BitVec 1) (Gen.V5 m outs c main_v8 : S4096.Idx → EReal) (Gen.V5 m outs c main_v4 : S4096.Idx → EReal) :=
  s1_1_v14 (Gen.V5 m outs c)
theorem V5_v13 : (Gen.V5 m outs c main_v13 : S4096.Idx → BitVec 1)
    = andi (cmpi .sge (Gen.V4 m outs c main_arg1 : S4096.Idx → BitVec 32) (broadcastInDim S4096 ![] bcast_S_S4096 (constantI S_ 32 0#32)))
        (cmpi .slt (Gen.V4 m outs c main_arg1 : S4096.Idx → BitVec 32) (broadcastInDim S4096 ![] bcast_S_S4096 (constantI S_ 32 20000#32))) :=
  s1_v13 (Gen.V4 m outs c)
theorem V5_v8 : (Gen.V5 m outs c main_v8 : S4096.Idx → EReal)
    = shapeCast S4096 (Gen.V4 m outs c main_v7 : S4096x1.Idx → EReal) shapeCasts_S4096x1_S4096 :=
  s1_v8 (Gen.V4 m outs c)
theorem V5_v4 : (Gen.V5 m outs c main_v4 : S4096.Idx → EReal) = broadcastInDim S4096 ![] bcast_S_S4096 (constant (F := Ideal) S_ .f32 0x00000000#32) :=
  (Gen.V5_of m outs c main_v4 (by decide)).trans <| (Gen.V4_of m outs c main_v4 (by decide)).trans (s0_2_v4 (Gen.V2 m c))

end Chain

/-! ## The result at an index -/

/-- A column [4096, 1] reshaped to a vector reads the column's row. -/
theorem reshape_col (v : S4096x1.Idx → EReal) (n : Fin 4096) :
    shapeCast S4096 v shapeCasts_S4096x1_S4096 (ix1 n) = v (ix2 n (0 : Fin 1)) :=
  shapeCast_apply v _ (ix1 n) (ix2 n (0 : Fin 1)) (by
    rw [Shape.rowMajor_val_two, Shape.rowMajor_val_one]
    show n.val * 1 + 0 = n.val
    omega)

section Result

variable (m : (ℓ : Loc nD τ sig) → Buf (Elt Ideal) ℓ) (c : Dev nD)

/-- Entry n of the result: the third kernel's entry n if label n lies in [40000, 50257), else the second's if it lies in [20000, 40000), else
    the first's if it lies in [0, 20000), else zero. -/
theorem resultV_apply' (n : Fin 4096) :
    (Launch.resultV m c : S4096.Idx → EReal) (ix1 n)
      = Scalar.select (α := EReal) (Cert.Spec.memBit 40000#32 50257#32 ((m ((c : Thread nD τ).loc main_arg1) : S4096.Idx → BitVec 32) (ix1 n)))
          ((Launch.out2 m c : S4096x1.Idx → EReal) (ix2 n (0 : Fin 1)))
          (Scalar.select (α := EReal) (Cert.Spec.memBit 20000#32 40000#32 ((m ((c : Thread nD τ).loc main_arg1) : S4096.Idx → BitVec 32) (ix1 n)))
            ((Launch.out1 m c : S4096x1.Idx → EReal) (ix2 n (0 : Fin 1)))
            (Scalar.select (α := EReal) (Cert.Spec.memBit 0#32 20000#32 ((m ((c : Thread nD τ).loc main_arg1) : S4096.Idx → BitVec 32) (ix1 n)))
              ((Launch.out0 m c : S4096x1.Idx → EReal) (ix2 n (0 : Fin 1))) 0)) := by
  unfold Launch.resultV
  rw [V14_v34, V13_v33, V13_v28, V12_v27, V13_v24, V10_v24, V9_v23, V9_v18, V8_v17, V9_v14, V6_v14, V5_v13, V5_v8, V4_v7, V5_v4,
    V12_arg1, V8_arg1, V4_arg1, Launch.outs_v27, Launch.outs_v17, Launch.outs_v7]
  show Scalar.select (Cert.Spec.memBit 40000#32 50257#32 ((m ((c : Thread nD τ).loc main_arg1) : S4096.Idx → BitVec 32) (ix1 n)))
      (shapeCast S4096 (Launch.out2 m c : S4096x1.Idx → EReal) shapeCasts_S4096x1_S4096 (ix1 n))
      (Scalar.select (Cert.Spec.memBit 20000#32 40000#32 ((m ((c : Thread nD τ).loc main_arg1) : S4096.Idx → BitVec 32) (ix1 n)))
        (shapeCast S4096 (Launch.out1 m c : S4096x1.Idx → EReal) shapeCasts_S4096x1_S4096 (ix1 n))
        (Scalar.select (Cert.Spec.memBit 0#32 20000#32 ((m ((c : Thread nD τ).loc main_arg1) : S4096.Idx → BitVec 32) (ix1 n)))
          (shapeCast S4096 (Launch.out0 m c : S4096x1.Idx → EReal) shapeCasts_S4096x1_S4096 (ix1 n))
          (Ideal.ofBits .f32 0x00000000#32))) = _
  rw [reshape_col, reshape_col, reshape_col, Ideal.ofBits_zero_f32]

end Result

/-! ## What the kernels' windows hold at entry, in terms of the arguments -/

section Entry

variable (m : (ℓ : Loc nD τ sig) → Buf (Elt Ideal) ℓ) (c : Dev nD)

/-- Every kernel reads the hidden vectors from the first argument itself. -/
theorem entry_x0' : Launch.VE0 m c main_arg0 = m ((c : Thread nD τ).loc main_arg0) :=
  V3_launch m c main_arg0 (by decide) (by decide) (by decide)
theorem entry_x1' : Launch.VE1 m c main_arg0 = m ((c : Thread nD τ).loc main_arg0) :=
  (V7_V3 m (Launch.outsA m) c main_arg0 (by decide) (by decide) (by decide) (by decide)).trans (V3_launch m c main_arg0 (by decide) (by decide) (by decide))
theorem entry_x2' : Launch.VE2 m c main_arg0 = m ((c : Thread nD τ).loc main_arg0) :=
  (V11_V7 m (Launch.outsB m) c main_arg0 (by decide) (by decide) (by decide) (by decide)).trans <|
    (V7_V3 m (Launch.outsB m) c main_arg0 (by decide) (by decide) (by decide) (by decide)).trans (V3_launch m c main_arg0 (by decide) (by decide) (by decide))

/-- The labels' column before the first kernel: row n holds label n. -/
theorem V3_v3_apply (n : Fin 4096) :
    (Gen.V3 m c main_v3 : S4096x1.Idx → BitVec 32) (ix2 n (0 : Fin 1)) = (m ((c : Thread nD τ).loc main_arg1) : S4096.Idx → BitVec 32) (ix1 n) := by
  have h : (Gen.V3 m c main_v3 : S4096x1.Idx → BitVec 32)
      = shapeCast S4096x1 (m ((c : Thread nD τ).loc main_arg1) : S4096.Idx → BitVec 32) shapeCasts_S4096_S4096x1 :=
    (s0_2_v3 (Gen.V2 m c)).trans (congrArg (fun x : S4096.Idx → BitVec 32 => shapeCast S4096x1 x shapeCasts_S4096_S4096x1)
      ((Gen.V2_of m c main_arg1 (by decide)).trans ((Gen.V1_of m c main_arg1 (by decide)).trans rfl)))
  rw [h]
  exact shapeCast_apply _ _ (ix2 n (0 : Fin 1)) (ix1 n) (by
    rw [Shape.rowMajor_val_two, Shape.rowMajor_val_one]
    show n.val = n.val * 1 + 0
    omega)

/-- Every kernel reads the labels as that column: it is written once, before the first kernel. -/
theorem entry_y0' (n : Fin 4096) :
    (Launch.VE0 m c main_v3 : S4096x1.Idx → BitVec 32) (ix2 n (0 : Fin 1)) = (m ((c : Thread nD τ).loc main_arg1) : S4096.Idx → BitVec 32) (ix1 n) :=
  V3_v3_apply m c n
theorem entry_y1' (n : Fin 4096) :
    (Launch.VE1 m c main_v3 : S4096x1.Idx → BitVec 32) (ix2 n (0 : Fin 1)) = (m ((c : Thread nD τ).loc main_arg1) : S4096.Idx → BitVec 32) (ix1 n) := by
  have h : Launch.VE1 m c main_v3 = Gen.V3 m c main_v3 := V7_V3 m (Launch.outsA m) c main_v3 (by decide) (by decide) (by decide) (by decide)
  rw [h]; exact V3_v3_apply m c n
theorem entry_y2' (n : Fin 4096) :
    (Launch.VE2 m c main_v3 : S4096x1.Idx → BitVec 32) (ix2 n (0 : Fin 1)) = (m ((c : Thread nD τ).loc main_arg1) : S4096.Idx → BitVec 32) (ix1 n) := by
  have h : Launch.VE2 m c main_v3 = Gen.V3 m c main_v3 :=
    (V11_V7 m (Launch.outsB m) c main_v3 (by decide) (by decide) (by decide) (by decide)).trans (V7_V3 m (Launch.outsB m) c main_v3 (by decide) (by decide) (by decide) (by decide))
  rw [h]; exact V3_v3_apply m c n

/-- The first kernel's weight window holds columns 0 ‥ 19999 of the output matrix. -/
theorem entry_w0' (k : Fin 1024) (v : Fin 20000) :
    (Launch.VE0 m c main_v5 : S1024x20000.Idx → EReal) (ix2 k v)
      = (m ((c : Thread nD τ).loc main_arg3) : S1024x50257.Idx → EReal) (ix2 k (⟨0 + v.val, by have := v.isLt; omega⟩ : Fin 50257)) := by
  have h : (Launch.VE0 m c main_v5 : S1024x20000.Idx → EReal)
      = extractStridedSlice S1024x20000 ![0, 0] (m ((c : Thread nD τ).loc main_arg3) : S1024x50257.Idx → EReal) slices_S1024x50257_S1024x20000_0_0 :=
    (s0_2_v5 (Gen.V2 m c)).trans (congrArg (fun x : S1024x50257.Idx → EReal => extractStridedSlice S1024x20000 ![0, 0] x slices_S1024x50257_S1024x20000_0_0)
      ((Gen.V2_of m c main_arg3 (by decide)).trans ((Gen.V1_of m c main_arg3 (by decide)).trans rfl)))
  rw [h]
  exact extractStridedSlice_apply _ _ _ (ix2 k v) (ix2 k (⟨0 + v.val, by have := v.isLt; omega⟩ : Fin 50257)) fun a =>
    match a with
    | ⟨0, _⟩ => by show k.val = 0 + k.val; omega
    | ⟨1, _⟩ => by show 0 + v.val = 0 + v.val; rfl

/-- The second kernel's weight window holds columns 20000 ‥ 39999. -/
theorem entry_w1' (k : Fin 1024) (v : Fin 20000) :
    (Launch.VE1 m c main_v15 : S1024x20000.Idx → EReal) (ix2 k v)
      = (m ((c : Thread nD τ).loc main_arg3) : S1024x50257.Idx → EReal) (ix2 k (⟨20000 + v.val, by have := v.isLt; omega⟩ : Fin 50257)) := by
  have h : (Launch.VE1 m c main_v15 : S1024x20000.Idx → EReal)
      = extractStridedSlice S1024x20000 ![0, 20000] (m ((c : Thread nD τ).loc main_arg3) : S1024x50257.Idx → EReal) slices_S1024x50257_S1024x20000_0_20000 :=
    (s1_2_v15 (Gen.V6 m (Launch.outsA m) c)).trans (congrArg (fun x : S1024x50257.Idx → EReal => extractStridedSlice S1024x20000 ![0, 20000] x slices_S1024x50257_S1024x20000_0_20000)
      ((Gen.V6_of m (Launch.outsA m) c main_arg3 (by decide)).trans <| (Gen.V5_of m (Launch.outsA m) c main_arg3 (by decide)).trans <|
        (Gen.V4_of m (Launch.outsA m) c main_arg3 (by decide)).trans (V3_launch m c main_arg3 (by decide) (by decide) (by decide))))
  rw [h]
  exact extractStridedSlice_apply _ _ _ (ix2 k v) (ix2 k (⟨20000 + v.val, by have := v.isLt; omega⟩ : Fin 50257)) fun a =>
    match a with
    | ⟨0, _⟩ => by show k.val = 0 + k.val; omega
    | ⟨1, _⟩ => by show 20000 + v.val = 20000 + v.val; rfl

/-- The third kernel's weight window holds columns 40000 ‥ 50256. -/
theorem entry_w2' (k : Fin 1024) (v : Fin 10257) :
    (Launch.VE2 m c main_v25 : S1024x10257.Idx → EReal) (ix2 k v)
      = (m ((c : Thread nD τ).loc main_arg3) : S1024x50257.Idx → EReal) (ix2 k (⟨40000 + v.val, by have := v.isLt; omega⟩ : Fin 50257)) := by
  have h : (Launch.VE2 m c main_v25 : S1024x10257.Idx → EReal)
      = extractStridedSlice S1024x10257 ![0, 40000] (m ((c : Thread nD τ).loc main_arg3) : S1024x50257.Idx → EReal) slices_S1024x50257_S1024x10257_0_40000 :=
    (s2_2_v25 (Gen.V10 m (Launch.outsB m) c)).trans (congrArg (fun x : S1024x50257.Idx → EReal => extractStridedSlice S1024x10257 ![0, 40000] x slices_S1024x50257_S1024x10257_0_40000)
      ((Gen.V10_of m (Launch.outsB m) c main_arg3 (by decide)).trans <| (Gen.V9_of m (Launch.outsB m) c main_arg3 (by decide)).trans <|
        (Gen.V8_of m (Launch.outsB m) c main_arg3 (by decide)).trans <| (V7_V3 m (Launch.outsB m) c main_arg3 (by decide) (by decide) (by decide) (by decide)).trans
          (V3_launch m c main_arg3 (by decide) (by decide) (by decide))))
  rw [h]
  exact extractStridedSlice_apply _ _ _ (ix2 k v) (ix2 k (⟨40000 + v.val, by have := v.isLt; omega⟩ : Fin 50257)) fun a =>
    match a with
    | ⟨0, _⟩ => by show k.val = 0 + k.val; omega
    | ⟨1, _⟩ => by show 40000 + v.val = 40000 + v.val; rfl

end Entry

/-! ## The statements as the value proof cites them -/

section Cited

variable (m : (ℓ : Loc nD τ sig) → Buf (Elt Ideal) ℓ)

theorem entry_x0 (c : Dev nD) : (Launch.VE0 m c main_arg0 : S4096x1024.Idx → EReal) = m ((c : Thread nD τ).loc main_arg0) := entry_x0' m c
theorem entry_x1 (c : Dev nD) : (Launch.VE1 m c main_arg0 : S4096x1024.Idx → EReal) = m ((c : Thread nD τ).loc main_arg0) := entry_x1' m c
theorem entry_x2 (c : Dev nD) : (Launch.VE2 m c main_arg0 : S4096x1024.Idx → EReal) = m ((c : Thread nD τ).loc main_arg0) := entry_x2' m c
theorem entry_y0 (c : Dev nD) (n : Fin 4096) : (Launch.VE0 m c main_v3 : S4096x1.Idx → BitVec 32) (ix2 n (0 : Fin 1)) = (m ((c : Thread nD τ).loc main_arg1) : S4096.Idx → BitVec 32) (ix1 n) := entry_y0' m c n
theorem entry_y1 (c : Dev nD) (n : Fin 4096) : (Launch.VE1 m c main_v3 : S4096x1.Idx → BitVec 32) (ix2 n (0 : Fin 1)) = (m ((c : Thread nD τ).loc main_arg1) : S4096.Idx → BitVec 32) (ix1 n) := entry_y1' m c n
theorem entry_y2 (c : Dev nD) (n : Fin 4096) : (Launch.VE2 m c main_v3 : S4096x1.Idx → BitVec 32) (ix2 n (0 : Fin 1)) = (m ((c : Thread nD τ).loc main_arg1) : S4096.Idx → BitVec 32) (ix1 n) := entry_y2' m c n
theorem entry_w0 (c : Dev nD) (k : Fin 1024) (v : Fin 20000) : (Launch.VE0 m c main_v5 : S1024x20000.Idx → EReal) (ix2 k v)
    = Cert.Spec.colSlice (C := 20000) 0 (by decide) (fun k v => (m ((c : Thread nD τ).loc main_arg3) : S1024x50257.Idx → EReal) (ix2 k v)) k v := entry_w0' m c k v
theorem entry_w1 (c : Dev nD) (k : Fin 1024) (v : Fin 20000) : (Launch.VE1 m c main_v15 : S1024x20000.Idx → EReal) (ix2 k v)
    = Cert.Spec.colSlice (C := 20000) 20000 (by decide) (fun k v => (m ((c : Thread nD τ).loc main_arg3) : S1024x50257.Idx → EReal) (ix2 k v)) k v := entry_w1' m c k v
theorem entry_w2 (c : Dev nD) (k : Fin 1024) (v : Fin 10257) : (Launch.VE2 m c main_v25 : S1024x10257.Idx → EReal) (ix2 k v)
    = Cert.Spec.colSlice (C := 10257) 40000 (by decide) (fun k v => (m ((c : Thread nD τ).loc main_arg3) : S1024x50257.Idx → EReal) (ix2 k v)) k v := entry_w2' m c k v
theorem resultV_apply (c : Dev nD) (n : Fin 4096) :
    (Launch.resultV m c : S4096.Idx → EReal) (ix1 n)
      = Scalar.select (Cert.Spec.memBit 40000#32 50257#32 ((m ((c : Thread nD τ).loc main_arg1) : S4096.Idx → BitVec 32) (ix1 n)))
          ((Launch.out2 m c : S4096x1.Idx → EReal) (ix2 n (0 : Fin 1)))
          (Scalar.select (Cert.Spec.memBit 20000#32 40000#32 ((m ((c : Thread nD τ).loc main_arg1) : S4096.Idx → BitVec 32) (ix1 n)))
            ((Launch.out1 m c : S4096x1.Idx → EReal) (ix2 n (0 : Fin 1)))
            (Scalar.select (Cert.Spec.memBit 0#32 20000#32 ((m ((c : Thread nD τ).loc main_arg1) : S4096.Idx → BitVec 32) (ix1 n)))
              ((Launch.out0 m c : S4096x1.Idx → EReal) (ix2 n (0 : Fin 1))) (0 : EReal))) := resultV_apply' m c n

end Cited

end Cert.KernelIdeal.Tail

end
-- ==== Proof.RefWords.lean ====
/-
  The clipped target column as a number: the clip of a signed word into [0, cm1] (cm1 below 2³¹) is, read unsigned, at most
  cm1; so the specification's target index is the clipped word's value itself.
-/
import proofs.«427347_j10273561772327_2_alg».proof.Proof.Spec
import Idealize.ShloMosaic.Lib.WordArith

noncomputable section

namespace Cert.RefWords

open Idealize.ShloMosaic

/-- The clipped word, read unsigned, is at most the upper bound. -/
theorem tgtWord_le (lo cm1 yv : BitVec 32) (h : cm1.toNat < 2 ^ 31) : (Cert.Spec.tgtWord lo cm1 yv).toNat ≤ cm1.toNat := by
  unfold Cert.Spec.tgtWord
  have hm : (IntOp.maxsi 0#32 (IntOp.subi yv lo)).toNat < 2 ^ 31 := by
    have := WordArith.two_mul_toNat_maxsi_zero_lt (IntOp.subi yv lo)
    rw [Scalar.maxsi] at this
    omega
  rw [WordArith.toNat_minsi_of_lt _ _ h hm]
  exact Nat.min_le_left _ _

/-- So it is below the cluster's size C = cm1 + 1 … -/
theorem tgtWord_lt {C : ℕ} (lo cm1 yv : BitVec 32) (h : cm1.toNat < 2 ^ 31) (hc : cm1.toNat + 1 = C) :
    (Cert.Spec.tgtWord lo cm1 yv).toNat < C := by
  have := tgtWord_le lo cm1 yv h; omega

/-- … and the specification's target index is that word's value. -/
theorem tgtIdx_eq {C : ℕ} (hC : 0 < C) (lo cm1 yv : BitVec 32) (h : cm1.toNat < 2 ^ 31) (hc : cm1.toNat + 1 = C) :
    Cert.Spec.tgtIdx hC lo cm1 yv = ⟨(Cert.Spec.tgtWord lo cm1 yv).toNat, tgtWord_lt lo cm1 yv h hc⟩ := by
  unfold Cert.Spec.tgtIdx
  rw [dif_pos (tgtWord_lt lo cm1 yv h hc)]

end Cert.RefWords

end
-- ==== Proof.KI.Val0.lean ====
/-
  The value of the row tile the per-cluster kernel writes (this cluster: lo = 0, C = 20000 columns, 20 column tiles of 1024).

  Row p of row tile r is token n = 1024·r + p. Over the 20 column tiles of its row the kernel's three carried columns, read at
  row p, run exactly the streaming log-sum-exp recurrence on the token's C scores s(v) = Σ_k X n k · W k v with the target
  column tgt = clip(label − lo): tile j shows s(1024·j + q) where that column exists and −∞ elsewhere. After the last tile they
  are (max s, Σ exp(s − max s), s tgt), and the written entry select(member, (0 − cl) − (t − (m + log l)), 0) is the cluster's
  value −cl − log_softmax(s)(tgt), every quantity being a real number.
-/
import proofs.«427347_j10273561772327_2_alg».proof.Proof.KI.Dat0
import proofs.«427347_j10273561772327_2_alg».proof.Proof.KI.Pay0
import proofs.«427347_j10273561772327_2_alg».proof.Proof.Fold
import proofs.«427347_j10273561772327_2_alg».proof.Proof.RefWords

set_option maxRecDepth 16384

noncomputable section

namespace Cert.KernelIdeal.Val0

open Cert.KernelIdeal Cert.KernelIdeal.Gen
open Idealize.ShloMosaic Idealize.ShloMosaic.TcCoe Idealize.ShloMosaic.Tactic
open Idealize.ShloMosaic.Pipeline (Dat Cfg Window cellOf)
open Idealize.ShloMosaic.ValueIdx (ix2)

variable (V : (c : Dev nD) → (b : Ref sig .tc) → Buf (Elt Ideal) ((c : Thread nD τ).loc b))

/-! ## The arrays the region reads, by coordinates -/

/-- The hidden vectors: row n, feature k. -/
def arrX (c : Dev nD) : Fin 4096 → Fin 1024 → EReal := fun n k => (V c main_arg0 : S4096x1024.Idx → EReal) (ix2 n k)
/-- The cluster's weight slice: feature k, column v. -/
def arrW (c : Dev nD) : Fin 1024 → Fin 20000 → EReal := fun k v => (V c main_v5 : S1024x20000.Idx → EReal) (ix2 k v)
/-- The cluster log-probability of token n. -/
def arrCl (c : Dev nD) : Fin 4096 → EReal := fun n => (V c main_v6 : S4096x1.Idx → EReal) (ix2 n (0 : Fin 1))
/-- The label of token n. -/
def arrY (c : Dev nD) : Fin 4096 → BitVec 32 := fun n => (V c main_v3 : S4096x1.Idx → BitVec 32) (ix2 n (0 : Fin 1))

/-! ## The grid's points and the blocks they hold -/

/-- The coordinates of grid point t: the row tile t / 20 and the column tile t % 20. -/
theorem coords_facts : ∀ t : Fin cfg0.N, ((cfg0.grid.coords t) 0).val = t.val / 20 ∧ ((cfg0.grid.coords t) 1).val = t.val % 20 :=
  (by decide +kernel : ∀ t : Fin grid0.N, ((grid0.coords t) 0).val = t.val / 20 ∧ ((grid0.coords t) 1).val = t.val % 20)

/-- The printed index maps over the grid: the three row windows sit at block row t / 20, the weight window at block column
    t % 20, and the weight window's transfer moves the columns of its tile that exist in the slice. -/
theorem idx_facts : ∀ t : Fin cfg0.N,
    win0_0.index t (0 : Fin 2) = t.val / 20 ∧ win0_0.index t (1 : Fin 2) = 0
    ∧ win0_1.index t (0 : Fin 2) = t.val / 20 ∧ win0_1.index t (1 : Fin 2) = 0
    ∧ win0_2.index t (0 : Fin 2) = t.val / 20 ∧ win0_2.index t (1 : Fin 2) = 0
    ∧ win0_3.index t (0 : Fin 2) = 0 ∧ win0_3.index t (1 : Fin 2) = t.val % 20
    ∧ win0_3.xsize (grid0.coords t) (0 : Fin 2) = 1024
    ∧ win0_3.xsize (grid0.coords t) (1 : Fin 2) = min 1024 (20000 - 1024 * (t.val % 20)) :=
  (by decide +kernel : ∀ t : Fin grid0.N, _)

/-- The row tile of x at point t is rows 1024·(t / 20) + p of x. -/
theorem xT_apply (c : Dev nD) (t : Fin cfg0.N) (p k : Fin 1024) (n : Fin 4096) (hn : n.val = 1024 * (t.val / 20) + p.val) :
    Dat0.xT V c t (ix2 p k) = arrX V c n k := by
  obtain ⟨e0, e1, -⟩ := idx_facts t
  show (V c main_arg0 : S4096x1024.Idx → EReal) (((cfg0.win 0).blk t).view.emb (ix2 p k)) = (V c main_arg0 : S4096x1024.Idx → EReal) (ix2 n k)
  congr 1
  funext a; apply Fin.ext
  match a with
  | ⟨0, _⟩ => show win0_0.index t (0 : Fin 2) * 1024 + 1 * p.val = n.val; omega
  | ⟨1, _⟩ => show win0_0.index t (1 : Fin 2) * 1024 + 1 * k.val = k.val; omega

/-- The labels of the row tile. -/
theorem yT_apply (c : Dev nD) (t : Fin cfg0.N) (p : Fin 1024) (n : Fin 4096) (hn : n.val = 1024 * (t.val / 20) + p.val) :
    Dat0.yT V c t (ix2 p (0 : Fin 1)) = arrY V c n := by
  obtain ⟨-, -, e0, e1, -⟩ := idx_facts t
  show (V c main_v3 : S4096x1.Idx → BitVec 32) (((cfg0.win 1).blk t).view.emb (ix2 p (0 : Fin 1))) = (V c main_v3 : S4096x1.Idx → BitVec 32) (ix2 n (0 : Fin 1))
  congr 1
  funext a; apply Fin.ext
  match a with
  | ⟨0, _⟩ => show win0_1.index t (0 : Fin 2) * 1024 + 1 * p.val = n.val; omega
  | ⟨1, _⟩ => show win0_1.index t (1 : Fin 2) * 1 + 1 * 0 = 0; omega

/-- The cluster log-probability of the row tile. -/
theorem clT_apply (c : Dev nD) (t : Fin cfg0.N) (p : Fin 1024) (n : Fin 4096) (hn : n.val = 1024 * (t.val / 20) + p.val) :
    Dat0.clT V c t (ix2 p (0 : Fin 1)) = arrCl V c n := by
  obtain ⟨-, -, -, -, e0, e1, -⟩ := idx_facts t
  show (V c main_v6 : S4096x1.Idx → EReal) (((cfg0.win 2).blk t).view.emb (ix2 p (0 : Fin 1))) = (V c main_v6 : S4096x1.Idx → EReal) (ix2 n (0 : Fin 1))
  congr 1
  funext a; apply Fin.ext
  match a with
  | ⟨0, _⟩ => show win0_2.index t (0 : Fin 2) * 1024 + 1 * p.val = n.val; omega
  | ⟨1, _⟩ => show win0_2.index t (1 : Fin 2) * 1 + 1 * 0 = 0; omega

/-- Column tile t % 20 of the weight slice: the slice's entry wherever the column exists. -/
theorem wT_apply (c : Dev nD) (t : Fin cfg0.N) (k q : Fin 1024) (v : Fin 20000) (hv : v.val = 1024 * (t.val % 20) + q.val) :
    Dat0.wT V c t (ix2 k q) = arrW V c k v := by
  obtain ⟨-, -, -, -, -, -, e0, e1, x0, x1⟩ := idx_facts t
  have hvl := v.isLt
  have hm : (cfg0.win 3).moved (cfg0.grid.coords t) (ix2 k q) = true := by
    rw [Window.moved_iff]
    intro a
    match a with
    | ⟨0, _⟩ => show k.val < win0_3.xsize (grid0.coords t) (0 : Fin 2); rw [x0]; exact k.isLt
    | ⟨1, _⟩ => show q.val < win0_3.xsize (grid0.coords t) (1 : Fin 2); rw [x1]; have := q.isLt; omega
  unfold Dat0.wT Window.fill
  rw [dif_pos hm]
  show (V c main_v5 : S1024x20000.Idx → EReal) (((cfg0.win 3).blk t).view.emb _) = (V c main_v5 : S1024x20000.Idx → EReal) (ix2 k v)
  congr 1
  funext a; apply Fin.ext
  match a with
  | ⟨0, _⟩ => show win0_3.index t (0 : Fin 2) * 1024 + 1 * k.val = k.val; omega
  | ⟨1, _⟩ => show win0_3.index t (1 : Fin 2) * 1024 + 1 * q.val = v.val; omega

/-! ## The target column -/

/-- A word of the tile's column numbering equals the target word exactly when the column is the word's value. -/
theorem word_eq_iff (n : ℕ) (hn : n < 2 ^ 32) (w : BitVec 32) : BitVec.ofNat 32 n = w ↔ n = w.toNat := by
  constructor
  · intro h; rw [← h, BitVec.toNat_ofNat, Nat.mod_eq_of_lt hn]
  · intro h; rw [h, BitVec.ofNat_toNat, BitVec.setWidth_eq]

/-- The target column of a label, as a column of the cluster, is the clipped word's value (the clip keeps it below C). -/
theorem tgtIdx_val (yv : BitVec 32) :
    (Cert.Spec.tgtIdx (C := 20000) (by decide) 0#32 19999#32 yv).val = (Cert.Spec.tgtWord 0#32 19999#32 yv).toNat := by
  rw [Cert.RefWords.tgtIdx_eq (by decide) 0#32 19999#32 yv (by decide) (by decide)]

/-! ## One point moves the carried columns by one step of the recurrence -/

open Cert.Spec Cert.Fold

/-- Token n's scores against the cluster's columns are real numbers when the arrays' entries are. -/
theorem score_real (c : Dev nD) (n : Fin 4096)
    (hX : ∀ n k, ∃ a : ℝ, (V c main_arg0 : S4096x1024.Idx → EReal) (ix2 n k) = (a : EReal))
    (hW : ∀ k v, ∃ a : ℝ, (V c main_v5 : S1024x20000.Idx → EReal) (ix2 k v) = (a : EReal)) (v : Fin 20000) :
    ∃ a : ℝ, score (arrX V c) (arrW V c) n v = (a : EReal) := by
  choose x hx using hX
  choose w hw using hW
  refine ⟨∑ k : Fin 1024, x n k * w k v, ?_⟩
  rw [coe_finset_sum]
  unfold score arrX arrW
  exact Finset.sum_congr rfl fun k _ => by rw [hx, hw, EReal.coe_mul]

/-- The masked score tile at point t, read along row p, is tile t % 20 of token n's scores. -/
theorem tile_eq (c : Dev nD) (t : Fin cfg0.N) (p : Fin 1024) (n : Fin 4096) (hn : n.val = 1024 * (t.val / 20) + p.val) :
    (fun q : Fin 1024 => k0_pay9 (F := Ideal) (cfg0.grid.coords t) (Dat0.xT V c t) (Dat0.wT V c t) (ix2 p q))
      = tileEntry (score (arrX V c) (arrW V c) n) (t.val % 20) := by
  funext q
  rw [Pay0.score_apply, (coords_facts t).2]
  unfold tileEntry
  by_cases h : 1024 * (t.val % 20) + q.val < 20000
  · rw [if_pos h, dif_pos h]
    unfold score
    exact Finset.sum_congr rfl fun k _ => by rw [xT_apply V c t p k n hn, wT_apply V c t k q ⟨1024 * (t.val % 20) + q.val, h⟩ rfl]
  · rw [if_neg h, dif_neg h]

/-- The carried columns after point t, from those before it. -/
theorem carried_succ (c : Dev nD) (t : Fin cfg0.N) :
    Dat0.carried V c (t.val + 1)
      = (Body0.mOut (cfg0.grid.coords t) (Dat0.xT V c t) (Dat0.wT V c t) (Dat0.carried V c t.val).1,
         Body0.lOut (cfg0.grid.coords t) (Dat0.xT V c t) (Dat0.wT V c t) (Dat0.carried V c t.val).1 (Dat0.carried V c t.val).2.1,
         Body0.tOut (cfg0.grid.coords t) (Dat0.xT V c t) (Dat0.wT V c t) (Dat0.yT V c t) (Dat0.carried V c t.val).2.2) := by
  conv_lhs => rw [Dat0.carried]
  rw [dif_pos t.isLt]

/-- What a point starts from, read at row p: the reset values at the first column tile, else what it finds. -/
theorem mIn_apply (i : grid0.Coords) (sm : Vec Ideal S1024x1 .f32) (p : Fin 1024) :
    Body0.mIn i sm (ix2 p (0 : Fin 1)) = if (i 1).val = 0 then (⊥ : EReal) else sm (ix2 p (0 : Fin 1)) := by
  unfold Body0.mIn; split
  · exact Pay0.pay5_apply p
  · rfl
theorem lIn_apply (i : grid0.Coords) (sl : Vec Ideal S1024x1 .f32) (p : Fin 1024) :
    Body0.lIn i sl (ix2 p (0 : Fin 1)) = if (i 1).val = 0 then (0 : EReal) else sl (ix2 p (0 : Fin 1)) := by
  unfold Body0.lIn; split
  · exact Pay0.pay6_apply p
  · rfl
theorem tIn_apply (i : grid0.Coords) (st : Vec Ideal S1024x1 .f32) (p : Fin 1024) :
    Body0.tIn i st (ix2 p (0 : Fin 1)) = if (i 1).val = 0 then (0 : EReal) else st (ix2 p (0 : Fin 1)) := by
  unfold Body0.tIn; split
  · exact Pay0.pay7_apply p
  · rfl

/-- One point is one step of the streaming recurrence on token n's scores, at row p of the carried columns. -/
theorem step (c : Dev nD) (t : Fin cfg0.N) (p : Fin 1024) (n : Fin 4096) (hn : n.val = 1024 * (t.val / 20) + p.val) :
    (Dat0.carried V c (t.val + 1)).1 (ix2 p (0 : Fin 1))
        = stepM (tileEntry (score (arrX V c) (arrW V c) n) (t.val % 20))
            (Body0.mIn (cfg0.grid.coords t) (Dat0.carried V c t.val).1 (ix2 p (0 : Fin 1)))
    ∧ (Dat0.carried V c (t.val + 1)).2.1 (ix2 p (0 : Fin 1))
        = stepL (tileEntry (score (arrX V c) (arrW V c) n) (t.val % 20))
            (Body0.mIn (cfg0.grid.coords t) (Dat0.carried V c t.val).1 (ix2 p (0 : Fin 1)))
            (Body0.lIn (cfg0.grid.coords t) (Dat0.carried V c t.val).2.1 (ix2 p (0 : Fin 1)))
    ∧ (Dat0.carried V c (t.val + 1)).2.2 (ix2 p (0 : Fin 1))
        = stepT (tileEntry (score (arrX V c) (arrW V c) n) (t.val % 20)) (t.val % 20)
            (tgtWord 0#32 19999#32 (arrY V c n)).toNat
            (Body0.tIn (cfg0.grid.coords t) (Dat0.carried V c t.val).2.2 (ix2 p (0 : Fin 1))) := by
  rw [carried_succ]
  refine ⟨?_, ?_, ?_⟩
  · show Body0.mOut _ _ _ _ (ix2 p (0 : Fin 1)) = _
    unfold Body0.mOut
    rw [Pay0.max_apply, tile_eq V c t p n hn]
  · show Body0.lOut _ _ _ _ _ (ix2 p (0 : Fin 1)) = _
    unfold Body0.lOut
    rw [Pay0.den_apply, tile_eq V c t p n hn]
  · show Body0.tOut _ _ _ _ _ (ix2 p (0 : Fin 1)) = _
    unfold Body0.tOut
    rw [Pay0.tgt_apply, yT_apply V c t p n hn, (coords_facts t).2]
    unfold stepT
    congr 1
    refine Finset.sum_congr rfl fun q _ => ?_
    rw [← congrFun (tile_eq V c t p n hn) q]
    refine if_congr (word_eq_iff _ ?_ _) rfl rfl
    have := q.isLt; have := t.isLt; have : cfg0.N = 80 := N_0; omega

/-! ## A row of points runs the whole recurrence -/

/-- At the first column tile of a row a point starts from the recurrence's initial values, whatever it finds. -/
theorem ins_first (t : Fin cfg0.N) (h0 : t.val % 20 = 0) (sm sl st : Vec Ideal S1024x1 .f32) (p : Fin 1024) :
    (Body0.mIn (cfg0.grid.coords t) sm (ix2 p (0 : Fin 1)), Body0.lIn (cfg0.grid.coords t) sl (ix2 p (0 : Fin 1)),
      Body0.tIn (cfg0.grid.coords t) st (ix2 p (0 : Fin 1))) = ((⊥ : EReal), (0 : EReal), (0 : EReal)) := by
  have hi : ((cfg0.grid.coords t) 1).val = 0 := (coords_facts t).2.trans h0
  rw [mIn_apply, lIn_apply, tIn_apply, if_pos hi, if_pos hi, if_pos hi]

/-- At a later column tile it starts from what it finds. -/
theorem ins_later (t : Fin cfg0.N) (h0 : t.val % 20 ≠ 0) (sm sl st : Vec Ideal S1024x1 .f32) (p : Fin 1024) :
    (Body0.mIn (cfg0.grid.coords t) sm (ix2 p (0 : Fin 1)), Body0.lIn (cfg0.grid.coords t) sl (ix2 p (0 : Fin 1)),
      Body0.tIn (cfg0.grid.coords t) st (ix2 p (0 : Fin 1))) = (sm (ix2 p (0 : Fin 1)), sl (ix2 p (0 : Fin 1)), st (ix2 p (0 : Fin 1))) := by
  have hi : ¬((cfg0.grid.coords t) 1).val = 0 := fun h => h0 ((coords_facts t).2.symm.trans h)
  rw [mIn_apply, lIn_apply, tIn_apply, if_neg hi, if_neg hi, if_neg hi]

/-- A point that starts from the recurrence after t % 20 tiles leaves it after t % 20 + 1 tiles. -/
theorem row_step (c : Dev nD) (t : Fin cfg0.N) (p : Fin 1024) (n : Fin 4096) (hn : n.val = 1024 * (t.val / 20) + p.val)
    (hin : (Body0.mIn (cfg0.grid.coords t) (Dat0.carried V c t.val).1 (ix2 p (0 : Fin 1)),
        Body0.lIn (cfg0.grid.coords t) (Dat0.carried V c t.val).2.1 (ix2 p (0 : Fin 1)),
        Body0.tIn (cfg0.grid.coords t) (Dat0.carried V c t.val).2.2 (ix2 p (0 : Fin 1)))
      = run (score (arrX V c) (arrW V c) n) (tgtWord 0#32 19999#32 (arrY V c n)).toNat (t.val % 20)) :
    ((Dat0.carried V c (t.val + 1)).1 (ix2 p (0 : Fin 1)), (Dat0.carried V c (t.val + 1)).2.1 (ix2 p (0 : Fin 1)),
        (Dat0.carried V c (t.val + 1)).2.2 (ix2 p (0 : Fin 1)))
      = run (score (arrX V c) (arrW V c) n) (tgtWord 0#32 19999#32 (arrY V c n)).toNat (t.val % 20 + 1) := by
  obtain ⟨h1, h2, h3⟩ := step V c t p n hn
  rw [h1, h2, h3]
  have e1 := congrArg Prod.fst hin
  have e2 := congrArg (fun x => x.2.1) hin
  have e3 := congrArg (fun x => x.2.2) hin
  dsimp only at e1 e2 e3
  rw [e1, e2, e3]
  rfl

/-- After point t the carried columns, read at row p, are the recurrence after t % 20 + 1 tiles of token n's scores. -/
theorem carried_run (c : Dev nD) (p : Fin 1024) (n : Fin 4096) :
    ∀ (k : ℕ) (h : k < cfg0.N), n.val = 1024 * (k / 20) + p.val →
      ((Dat0.carried V c (k + 1)).1 (ix2 p (0 : Fin 1)), (Dat0.carried V c (k + 1)).2.1 (ix2 p (0 : Fin 1)),
          (Dat0.carried V c (k + 1)).2.2 (ix2 p (0 : Fin 1)))
        = run (score (arrX V c) (arrW V c) n) (tgtWord 0#32 19999#32 (arrY V c n)).toNat (k % 20 + 1) := by
  intro k
  induction k with
  | zero =>
    intro h hn
    exact row_step V c ⟨0, h⟩ p n hn (ins_first ⟨0, h⟩ rfl _ _ _ p)
  | succ k ih =>
    intro h hn
    by_cases h0 : (k + 1) % 20 = 0
    · refine row_step V c ⟨k + 1, h⟩ p n hn ?_
      rw [ins_first ⟨k + 1, h⟩ h0]
      show _ = run _ _ ((k + 1) % 20)
      rw [h0]; rfl
    · refine row_step V c ⟨k + 1, h⟩ p n hn ?_
      rw [ins_later ⟨k + 1, h⟩ h0]
      show _ = run _ _ ((k + 1) % 20)
      rw [show (k + 1) % 20 = k % 20 + 1 by omega]
      exact ih (by omega) (by omega)

/-! ## The written row tile -/

/-- Entry p of the row tile written at the last column tile of row tile r is the cluster's value at token n = 1024·r + p
    under the cluster's membership bit, when the entries of x, of the weight slice and of the cluster log-probability are real. -/
theorem outTile_apply' (c : Dev nD) (r : Fin 4) (p : Fin 1024) (n : Fin 4096) (hn : n.val = 1024 * r.val + p.val)
    (hX : ∀ n k, ∃ a : ℝ, (V c main_arg0 : S4096x1024.Idx → EReal) (ix2 n k) = (a : EReal))
    (hW : ∀ k v, ∃ a : ℝ, (V c main_v5 : S1024x20000.Idx → EReal) (ix2 k v) = (a : EReal))
    (hcl : ∀ n, ∃ a : ℝ, (V c main_v6 : S4096x1.Idx → EReal) (ix2 n (0 : Fin 1)) = (a : EReal)) :
    Dat0.outTile V c ⟨20 * r.val + 19, by have := r.isLt; show 20 * r.val + 19 < 80; omega⟩ (ix2 p (0 : Fin 1))
      = Scalar.select (memBit 0#32 20000#32 (arrY V c n))
          (clusterVal (C := 20000) (by decide) 0#32 19999#32 (arrX V c) (arrW V c) (arrCl V c) (arrY V c) n) 0 := by
  have hr := r.isLt
  have ht : 20 * r.val + 19 < cfg0.N := by show 20 * r.val + 19 < 80; omega
  have hnt : n.val = 1024 * ((20 * r.val + 19) / 20) + p.val := by omega
  have hs := score_real V c n hX hW
  have hfin := run_final (score (arrX V c) (arrW V c) n) hs (tgtIdx (C := 20000) (by decide) 0#32 19999#32 (arrY V c n)) 20 (by decide)
  rw [tgtIdx_val] at hfin
  have hrun := carried_run V c p n (20 * r.val + 19) ht hnt
  rw [show (20 * r.val + 19) % 20 + 1 = 20 by omega, hfin] at hrun
  have hsucc := carried_succ V c ⟨20 * r.val + 19, ht⟩
  change Dat0.carried V c (20 * r.val + 19 + 1) = _ at hsucc
  rw [hsucc] at hrun
  have hm := congrArg Prod.fst hrun
  have hl := congrArg (fun x => x.2.1) hrun
  have htt := congrArg (fun x => x.2.2) hrun
  dsimp only at hm hl htt
  unfold Dat0.outTile Body0.rowOut
  rw [Pay0.out_apply, hm, hl, htt, yT_apply V c ⟨20 * r.val + 19, ht⟩ p n hnt, clT_apply V c ⟨20 * r.val + 19, ht⟩ p n hnt]
  obtain ⟨M, hM⟩ := rowMax_real (by decide) _ hs
  obtain ⟨E, hE, hEe⟩ := expSum_pos_real (by decide) _ hs
  obtain ⟨tt, htt'⟩ := hs (tgtIdx (C := 20000) (by decide) 0#32 19999#32 (arrY V c n))
  obtain ⟨a, ha⟩ := hcl n
  have ha' : arrCl V c n = (a : EReal) := ha
  unfold clusterVal logSoftmax
  rw [hM, hEe, htt', ha', final_form a M tt E hE]

/-- The same with the token written out as 1024·r + p. -/
theorem outTile_apply (c : Dev nD) (r : Fin 4) (p : Fin 1024)
    (hX : ∀ n k, ∃ a : ℝ, (V c main_arg0 : S4096x1024.Idx → EReal) (ix2 n k) = (a : EReal))
    (hW : ∀ k v, ∃ a : ℝ, (V c main_v5 : S1024x20000.Idx → EReal) (ix2 k v) = (a : EReal))
    (hcl : ∀ n, ∃ a : ℝ, (V c main_v6 : S4096x1.Idx → EReal) (ix2 n (0 : Fin 1)) = (a : EReal)) :
    Dat0.outTile V c ⟨20 * r.val + 19, by have := r.isLt; show 20 * r.val + 19 < 80; omega⟩ (ix2 p (0 : Fin 1))
      = Scalar.select (memBit 0#32 20000#32 (arrY V c ⟨1024 * r.val + p.val, by have := r.isLt; have := p.isLt; omega⟩))
          (clusterVal (C := 20000) (by decide) 0#32 19999#32 (arrX V c) (arrW V c) (arrCl V c) (arrY V c)
            ⟨1024 * r.val + p.val, by have := r.isLt; have := p.isLt; omega⟩) 0 :=
  outTile_apply' V c r p _ rfl hX hW hcl

end Cert.KernelIdeal.Val0
end
-- ==== Proof.KI.Val1.lean ====
/-
  The value of the row tile the per-cluster kernel writes (this cluster: lo = 20000, C = 20000 columns, 20 column tiles of 1024).

  Row p of row tile r is token n = 1024·r + p. Over the 20 column tiles of its row the kernel's three carried columns, read at
  row p, run exactly the streaming log-sum-exp recurrence on the token's C scores s(v) = Σ_k X n k · W k v with the target
  column tgt = clip(label − lo): tile j shows s(1024·j + q) where that column exists and −∞ elsewhere. After the last tile they
  are (max s, Σ exp(s − max s), s tgt), and the written entry select(member, (0 − cl) − (t − (m + log l)), 0) is the cluster's
  value −cl − log_softmax(s)(tgt), every quantity being a real number.
-/
import proofs.«427347_j10273561772327_2_alg».proof.Proof.KI.Dat1
import proofs.«427347_j10273561772327_2_alg».proof.Proof.KI.Pay1
import proofs.«427347_j10273561772327_2_alg».proof.Proof.Fold
import proofs.«427347_j10273561772327_2_alg».proof.Proof.RefWords

set_option maxRecDepth 16384

noncomputable section

namespace Cert.KernelIdeal.Val1

open Cert.KernelIdeal Cert.KernelIdeal.Gen
open Idealize.ShloMosaic Idealize.ShloMosaic.TcCoe Idealize.ShloMosaic.Tactic
open Idealize.ShloMosaic.Pipeline (Dat Cfg Window cellOf)
open Idealize.ShloMosaic.ValueIdx (ix2)

variable (V : (c : Dev nD) → (b : Ref sig .tc) → Buf (Elt Ideal) ((c : Thread nD τ).loc b))

/-! ## The arrays the region reads, by coordinates -/

/-- The hidden vectors: row n, feature k. -/
def arrX (c : Dev nD) : Fin 4096 → Fin 1024 → EReal := fun n k => (V c main_arg0 : S4096x1024.Idx → EReal) (ix2 n k)
/-- The cluster's weight slice: feature k, column v. -/
def arrW (c : Dev nD) : Fin 1024 → Fin 20000 → EReal := fun k v => (V c main_v15 : S1024x20000.Idx → EReal) (ix2 k v)
/-- The cluster log-probability of token n. -/
def arrCl (c : Dev nD) : Fin 4096 → EReal := fun n => (V c main_v16 : S4096x1.Idx → EReal) (ix2 n (0 : Fin 1))
/-- The label of token n. -/
def arrY (c : Dev nD) : Fin 4096 → BitVec 32 := fun n => (V c main_v3 : S4096x1.Idx → BitVec 32) (ix2 n (0 : Fin 1))

/-! ## The grid's points and the blocks they hold -/

/-- The coordinates of grid point t: the row tile t / 20 and the column tile t % 20. -/
theorem coords_facts : ∀ t : Fin cfg1.N, ((cfg1.grid.coords t) 0).val = t.val / 20 ∧ ((cfg1.grid.coords t) 1).val = t.val % 20 :=
  (by decide +kernel : ∀ t : Fin grid1.N, ((grid1.coords t) 0).val = t.val / 20 ∧ ((grid1.coords t) 1).val = t.val % 20)

/-- The printed index maps over the grid: the three row windows sit at block row t / 20, the weight window at block column
    t % 20, and the weight window's transfer moves the columns of its tile that exist in the slice. -/
theorem idx_facts : ∀ t : Fin cfg1.N,
    win1_0.index t (0 : Fin 2) = t.val / 20 ∧ win1_0.index t (1 : Fin 2) = 0
    ∧ win1_1.index t (0 : Fin 2) = t.val / 20 ∧ win1_1.index t (1 : Fin 2) = 0
    ∧ win1_2.index t (0 : Fin 2) = t.val / 20 ∧ win1_2.index t (1 : Fin 2) = 0
    ∧ win1_3.index t (0 : Fin 2) = 0 ∧ win1_3.index t (1 : Fin 2) = t.val % 20
    ∧ win1_3.xsize (grid1.coords t) (0 : Fin 2) = 1024
    ∧ win1_3.xsize (grid1.coords t) (1 : Fin 2) = min 1024 (20000 - 1024 * (t.val % 20)) :=
  (by decide +kernel : ∀ t : Fin grid1.N, _)

/-- The row tile of x at point t is rows 1024·(t / 20) + p of x. -/
theorem xT_apply (c : Dev nD) (t : Fin cfg1.N) (p k : Fin 1024) (n : Fin 4096) (hn : n.val = 1024 * (t.val / 20) + p.val) :
    Dat1.xT V c t (ix2 p k) = arrX V c n k := by
  obtain ⟨e0, e1, -⟩ := idx_facts t
  show (V c main_arg0 : S4096x1024.Idx → EReal) (((cfg1.win 0).blk t).view.emb (ix2 p k)) = (V c main_arg0 : S4096x1024.Idx → EReal) (ix2 n k)
  congr 1
  funext a; apply Fin.ext
  match a with
  | ⟨0, _⟩ => show win1_0.index t (0 : Fin 2) * 1024 + 1 * p.val = n.val; omega
  | ⟨1, _⟩ => show win1_0.index t (1 : Fin 2) * 1024 + 1 * k.val = k.val; omega

/-- The labels of the row tile. -/
theorem yT_apply (c : Dev nD) (t : Fin cfg1.N) (p : Fin 1024) (n : Fin 4096) (hn : n.val = 1024 * (t.val / 20) + p.val) :
    Dat1.yT V c t (ix2 p (0 : Fin 1)) = arrY V c n := by
  obtain ⟨-, -, e0, e1, -⟩ := idx_facts t
  show (V c main_v3 : S4096x1.Idx → BitVec 32) (((cfg1.win 1).blk t).view.emb (ix2 p (0 : Fin 1))) = (V c main_v3 : S4096x1.Idx → BitVec 32) (ix2 n (0 : Fin 1))
  congr 1
  funext a; apply Fin.ext
  match a with
  | ⟨0, _⟩ => show win1_1.index t (0 : Fin 2) * 1024 + 1 * p.val = n.val; omega
  | ⟨1, _⟩ => show win1_1.index t (1 : Fin 2) * 1 + 1 * 0 = 0; omega

/-- The cluster log-probability of the row tile. -/
theorem clT_apply (c : Dev nD) (t : Fin cfg1.N) (p : Fin 1024) (n : Fin 4096) (hn : n.val = 1024 * (t.val / 20) + p.val) :
    Dat1.clT V c t (ix2 p (0 : Fin 1)) = arrCl V c n := by
  obtain ⟨-, -, -, -, e0, e1, -⟩ := idx_facts t
  show (V c main_v16 : S4096x1.Idx → EReal) (((cfg1.win 2).blk t).view.emb (ix2 p (0 : Fin 1))) = (V c main_v16 : S4096x1.Idx → EReal) (ix2 n (0 : Fin 1))
  congr 1
  funext a; apply Fin.ext
  match a with
  | ⟨0, _⟩ => show win1_2.index t (0 : Fin 2) * 1024 + 1 * p.val = n.val; omega
  | ⟨1, _⟩ => show win1_2.index t (1 : Fin 2) * 1 + 1 * 0 = 0; omega

/-- Column tile t % 20 of the weight slice: the slice's entry wherever the column exists. -/
theorem wT_apply (c : Dev nD) (t : Fin cfg1.N) (k q : Fin 1024) (v : Fin 20000) (hv : v.val = 1024 * (t.val % 20) + q.val) :
    Dat1.wT V c t (ix2 k q) = arrW V c k v := by
  obtain ⟨-, -, -, -, -, -, e0, e1, x0, x1⟩ := idx_facts t
  have hvl := v.isLt
  have hm : (cfg1.win 3).moved (cfg1.grid.coords t) (ix2 k q) = true := by
    rw [Window.moved_iff]
    intro a
    match a with
    | ⟨0, _⟩ => show k.val < win1_3.xsize (grid1.coords t) (0 : Fin 2); rw [x0]; exact k.isLt
    | ⟨1, _⟩ => show q.val < win1_3.xsize (grid1.coords t) (1 : Fin 2); rw [x1]; have := q.isLt; omega
  unfold Dat1.wT Window.fill
  rw [dif_pos hm]
  show (V c main_v15 : S1024x20000.Idx → EReal) (((cfg1.win 3).blk t).view.emb _) = (V c main_v15 : S1024x20000.Idx → EReal) (ix2 k v)
  congr 1
  funext a; apply Fin.ext
  match a with
  | ⟨0, _⟩ => show win1_3.index t (0 : Fin 2) * 1024 + 1 * k.val = k.val; omega
  | ⟨1, _⟩ => show win1_3.index t (1 : Fin 2) * 1024 + 1 * q.val = v.val; omega

/-! ## The target column -/

/-- A word of the tile's column numbering equals the target word exactly when the column is the word's value. -/
theorem word_eq_iff (n : ℕ) (hn : n < 2 ^ 32) (w : BitVec 32) : BitVec.ofNat 32 n = w ↔ n = w.toNat := by
  constructor
  · intro h; rw [← h, BitVec.toNat_ofNat, Nat.mod_eq_of_lt hn]
  · intro h; rw [h, BitVec.ofNat_toNat, BitVec.setWidth_eq]

/-- The target column of a label, as a column of the cluster, is the clipped word's value (the clip keeps it below C). -/
theorem tgtIdx_val (yv : BitVec 32) :
    (Cert.Spec.tgtIdx (C := 20000) (by decide) 20000#32 19999#32 yv).val = (Cert.Spec.tgtWord 20000#32 19999#32 yv).toNat := by
  rw [Cert.RefWords.tgtIdx_eq (by decide) 20000#32 19999#32 yv (by decide) (by decide)]

/-! ## One point moves the carried columns by one step of the recurrence -/

open Cert.Spec Cert.Fold

/-- Token n's scores against the cluster's columns are real numbers when the arrays' entries are. -/
theorem score_real (c : Dev nD) (n : Fin 4096)
    (hX : ∀ n k, ∃ a : ℝ, (V c main_arg0 : S4096x1024.Idx → EReal) (ix2 n k) = (a : EReal))
    (hW : ∀ k v, ∃ a : ℝ, (V c main_v15 : S1024x20000.Idx → EReal) (ix2 k v) = (a : EReal)) (v : Fin 20000) :
    ∃ a : ℝ, score (arrX V c) (arrW V c) n v = (a : EReal) := by
  choose x hx using hX
  choose w hw using hW
  refine ⟨∑ k : Fin 1024, x n k * w k v, ?_⟩
  rw [coe_finset_sum]
  unfold score arrX arrW
  exact Finset.sum_congr rfl fun k _ => by rw [hx, hw, EReal.coe_mul]

/-- The masked score tile at point t, read along row p, is tile t % 20 of token n's scores. -/
theorem tile_eq (c : Dev nD) (t : Fin cfg1.N) (p : Fin 1024) (n : Fin 4096) (hn : n.val = 1024 * (t.val / 20) + p.val) :
    (fun q : Fin 1024 => k1_pay9 (F := Ideal) (cfg1.grid.coords t) (Dat1.xT V c t) (Dat1.wT V c t) (ix2 p q))
      = tileEntry (score (arrX V c) (arrW V c) n) (t.val % 20) := by
  funext q
  rw [Pay1.score_apply, (coords_facts t).2]
  unfold tileEntry
  by_cases h : 1024 * (t.val % 20) + q.val < 20000
  · rw [if_pos h, dif_pos h]
    unfold score
    exact Finset.sum_congr rfl fun k _ => by rw [xT_apply V c t p k n hn, wT_apply V c t k q ⟨1024 * (t.val % 20) + q.val, h⟩ rfl]
  · rw [if_neg h, dif_neg h]

/-- The carried columns after point t, from those before it. -/
theorem carried_succ (c : Dev nD) (t : Fin cfg1.N) :
    Dat1.carried V c (t.val + 1)
      = (Body1.mOut (cfg1.grid.coords t) (Dat1.xT V c t) (Dat1.wT V c t) (Dat1.carried V c t.val).1,
         Body1.lOut (cfg1.grid.coords t) (Dat1.xT V c t) (Dat1.wT V c t) (Dat1.carried V c t.val).1 (Dat1.carried V c t.val).2.1,
         Body1.tOut (cfg1.grid.coords t) (Dat1.xT V c t) (Dat1.wT V c t) (Dat1.yT V c t) (Dat1.carried V c t.val).2.2) := by
  conv_lhs => rw [Dat1.carried]
  rw [dif_pos t.isLt]

/-- What a point starts from, read at row p: the reset values at the first column tile, else what it finds. -/
theorem mIn_apply (i : grid1.Coords) (sm : Vec Ideal S1024x1 .f32) (p : Fin 1024) :
    Body1.mIn i sm (ix2 p (0 : Fin 1)) = if (i 1).val = 0 then (⊥ : EReal) else sm (ix2 p (0 : Fin 1)) := by
  unfold Body1.mIn; split
  · exact Pay1.pay5_apply p
  · rfl
theorem lIn_apply (i : grid1.Coords) (sl : Vec Ideal S1024x1 .f32) (p : Fin 1024) :
    Body1.lIn i sl (ix2 p (0 : Fin 1)) = if (i 1).val = 0 then (0 : EReal) else sl (ix2 p (0 : Fin 1)) := by
  unfold Body1.lIn; split
  · exact Pay1.pay6_apply p
  · rfl
theorem tIn_apply (i : grid1.Coords) (st : Vec Ideal S1024x1 .f32) (p : Fin 1024) :
    Body1.tIn i st (ix2 p (0 : Fin 1)) = if (i 1).val = 0 then (0 : EReal) else st (ix2 p (0 : Fin 1)) := by
  unfold Body1.tIn; split
  · exact Pay1.pay7_apply p
  · rfl

/-- One point is one step of the streaming recurrence on token n's scores, at row p of the carried columns. -/
theorem step (c : Dev nD) (t : Fin cfg1.N) (p : Fin 1024) (n : Fin 4096) (hn : n.val = 1024 * (t.val / 20) + p.val) :
    (Dat1.carried V c (t.val + 1)).1 (ix2 p (0 : Fin 1))
        = stepM (tileEntry (score (arrX V c) (arrW V c) n) (t.val % 20))
            (Body1.mIn (cfg1.grid.coords t) (Dat1.carried V c t.val).1 (ix2 p (0 : Fin 1)))
    ∧ (Dat1.carried V c (t.val + 1)).2.1 (ix2 p (0 : Fin 1))
        = stepL (tileEntry (score (arrX V c) (arrW V c) n) (t.val % 20))
            (Body1.mIn (cfg1.grid.coords t) (Dat1.carried V c t.val).1 (ix2 p (0 : Fin 1)))
            (Body1.lIn (cfg1.grid.coords t) (Dat1.carried V c t.val).2.1 (ix2 p (0 : Fin 1)))
    ∧ (Dat1.carried V c (t.val + 1)).2.2 (ix2 p (0 : Fin 1))
        = stepT (tileEntry (score (arrX V c) (arrW V c) n) (t.val % 20)) (t.val % 20)
            (tgtWord 20000#32 19999#32 (arrY V c n)).toNat
            (Body1.tIn (cfg1.grid.coords t) (Dat1.carried V c t.val).2.2 (ix2 p (0 : Fin 1))) := by
  rw [carried_succ]
  refine ⟨?_, ?_, ?_⟩
  · show Body1.mOut _ _ _ _ (ix2 p (0 : Fin 1)) = _
    unfold Body1.mOut
    rw [Pay1.max_apply, tile_eq V c t p n hn]
  · show Body1.lOut _ _ _ _ _ (ix2 p (0 : Fin 1)) = _
    unfold Body1.lOut
    rw [Pay1.den_apply, tile_eq V c t p n hn]
  · show Body1.tOut _ _ _ _ _ (ix2 p (0 : Fin 1)) = _
    unfold Body1.tOut
    rw [Pay1.tgt_apply, yT_apply V c t p n hn, (coords_facts t).2]
    unfold stepT
    congr 1
    refine Finset.sum_congr rfl fun q _ => ?_
    rw [← congrFun (tile_eq V c t p n hn) q]
    refine if_congr (word_eq_iff _ ?_ _) rfl rfl
    have := q.isLt; have := t.isLt; have : cfg1.N = 80 := N_1; omega

/-! ## A row of points runs the whole recurrence -/

/-- At the first column tile of a row a point starts from the recurrence's initial values, whatever it finds. -/
theorem ins_first (t : Fin cfg1.N) (h0 : t.val % 20 = 0) (sm sl st : Vec Ideal S1024x1 .f32) (p : Fin 1024) :
    (Body1.mIn (cfg1.grid.coords t) sm (ix2 p (0 : Fin 1)), Body1.lIn (cfg1.grid.coords t) sl (ix2 p (0 : Fin 1)),
      Body1.tIn (cfg1.grid.coords t) st (ix2 p (0 : Fin 1))) = ((⊥ : EReal), (0 : EReal), (0 : EReal)) := by
  have hi : ((cfg1.grid.coords t) 1).val = 0 := (coords_facts t).2.trans h0
  rw [mIn_apply, lIn_apply, tIn_apply, if_pos hi, if_pos hi, if_pos hi]

/-- At a later column tile it starts from what it finds. -/
theorem ins_later (t : Fin cfg1.N) (h0 : t.val % 20 ≠ 0) (sm sl st : Vec Ideal S1024x1 .f32) (p : Fin 1024) :
    (Body1.mIn (cfg1.grid.coords t) sm (ix2 p (0 : Fin 1)), Body1.lIn (cfg1.grid.coords t) sl (ix2 p (0 : Fin 1)),
      Body1.tIn (cfg1.grid.coords t) st (ix2 p (0 : Fin 1))) = (sm (ix2 p (0 : Fin 1)), sl (ix2 p (0 : Fin 1)), st (ix2 p (0 : Fin 1))) := by
  have hi : ¬((cfg1.grid.coords t) 1).val = 0 := fun h => h0 ((coords_facts t).2.symm.trans h)
  rw [mIn_apply, lIn_apply, tIn_apply, if_neg hi, if_neg hi, if_neg hi]

/-- A point that starts from the recurrence after t % 20 tiles leaves it after t % 20 + 1 tiles. -/
theorem row_step (c : Dev nD) (t : Fin cfg1.N) (p : Fin 1024) (n : Fin 4096) (hn : n.val = 1024 * (t.val / 20) + p.val)
    (hin : (Body1.mIn (cfg1.grid.coords t) (Dat1.carried V c t.val).1 (ix2 p (0 : Fin 1)),
        Body1.lIn (cfg1.grid.coords t) (Dat1.carried V c t.val).2.1 (ix2 p (0 : Fin 1)),
        Body1.tIn (cfg1.grid.coords t) (Dat1.carried V c t.val).2.2 (ix2 p (0 : Fin 1)))
      = run (score (arrX V c) (arrW V c) n) (tgtWord 20000#32 19999#32 (arrY V c n)).toNat (t.val % 20)) :
    ((Dat1.carried V c (t.val + 1)).1 (ix2 p (0 : Fin 1)), (Dat1.carried V c (t.val + 1)).2.1 (ix2 p (0 : Fin 1)),
        (Dat1.carried V c (t.val + 1)).2.2 (ix2 p (0 : Fin 1)))
      = run (score (arrX V c) (arrW V c) n) (tgtWord 20000#32 19999#32 (arrY V c n)).toNat (t.val % 20 + 1) := by
  obtain ⟨h1, h2, h3⟩ := step V c t p n hn
  rw [h1, h2, h3]
  have e1 := congrArg Prod.fst hin
  have e2 := congrArg (fun x => x.2.1) hin
  have e3 := congrArg (fun x => x.2.2) hin
  dsimp only at e1 e2 e3
  rw [e1, e2, e3]
  rfl

/-- After point t the carried columns, read at row p, are the recurrence after t % 20 + 1 tiles of token n's scores. -/
theorem carried_run (c : Dev nD) (p : Fin 1024) (n : Fin 4096) :
    ∀ (k : ℕ) (h : k < cfg1.N), n.val = 1024 * (k / 20) + p.val →
      ((Dat1.carried V c (k + 1)).1 (ix2 p (0 : Fin 1)), (Dat1.carried V c (k + 1)).2.1 (ix2 p (0 : Fin 1)),
          (Dat1.carried V c (k + 1)).2.2 (ix2 p (0 : Fin 1)))
        = run (score (arrX V c) (arrW V c) n) (tgtWord 20000#32 19999#32 (arrY V c n)).toNat (k % 20 + 1) := by
  intro k
  induction k with
  | zero =>
    intro h hn
    exact row_step V c ⟨0, h⟩ p n hn (ins_first ⟨0, h⟩ rfl _ _ _ p)
  | succ k ih =>
    intro h hn
    by_cases h0 : (k + 1) % 20 = 0
    · refine row_step V c ⟨k + 1, h⟩ p n hn ?_
      rw [ins_first ⟨k + 1, h⟩ h0]
      show _ = run _ _ ((k + 1) % 20)
      rw [h0]; rfl
    · refine row_step V c ⟨k + 1, h⟩ p n hn ?_
      rw [ins_later ⟨k + 1, h⟩ h0]
      show _ = run _ _ ((k + 1) % 20)
      rw [show (k + 1) % 20 = k % 20 + 1 by omega]
      exact ih (by omega) (by omega)

/-! ## The written row tile -/

/-- Entry p of the row tile written at the last column tile of row tile r is the cluster's value at token n = 1024·r + p
    under the cluster's membership bit, when the entries of x, of the weight slice and of the cluster log-probability are real. -/
theorem outTile_apply' (c : Dev nD) (r : Fin 4) (p : Fin 1024) (n : Fin 4096) (hn : n.val = 1024 * r.val + p.val)
    (hX : ∀ n k, ∃ a : ℝ, (V c main_arg0 : S4096x1024.Idx → EReal) (ix2 n k) = (a : EReal))
    (hW : ∀ k v, ∃ a : ℝ, (V c main_v15 : S1024x20000.Idx → EReal) (ix2 k v) = (a : EReal))
    (hcl : ∀ n, ∃ a : ℝ, (V c main_v16 : S4096x1.Idx → EReal) (ix2 n (0 : Fin 1)) = (a : EReal)) :
    Dat1.outTile V c ⟨20 * r.val + 19, by have := r.isLt; show 20 * r.val + 19 < 80; omega⟩ (ix2 p (0 : Fin 1))
      = Scalar.select (memBit 20000#32 40000#32 (arrY V c n))
          (clusterVal (C := 20000) (by decide) 20000#32 19999#32 (arrX V c) (arrW V c) (arrCl V c) (arrY V c) n) 0 := by
  have hr := r.isLt
  have ht : 20 * r.val + 19 < cfg1.N := by show 20 * r.val + 19 < 80; omega
  have hnt : n.val = 1024 * ((20 * r.val + 19) / 20) + p.val := by omega
  have hs := score_real V c n hX hW
  have hfin := run_final (score (arrX V c) (arrW V c) n) hs (tgtIdx (C := 20000) (by decide) 20000#32 19999#32 (arrY V c n)) 20 (by decide)
  rw [tgtIdx_val] at hfin
  have hrun := carried_run V c p n (20 * r.val + 19) ht hnt
  rw [show (20 * r.val + 19) % 20 + 1 = 20 by omega, hfin] at hrun
  have hsucc := carried_succ V c ⟨20 * r.val + 19, ht⟩
  change Dat1.carried V c (20 * r.val + 19 + 1) = _ at hsucc
  rw [hsucc] at hrun
  have hm := congrArg Prod.fst hrun
  have hl := congrArg (fun x => x.2.1) hrun
  have htt := congrArg (fun x => x.2.2) hrun
  dsimp only at hm hl htt
  unfold Dat1.outTile Body1.rowOut
  rw [Pay1.out_apply, hm, hl, htt, yT_apply V c ⟨20 * r.val + 19, ht⟩ p n hnt, clT_apply V c ⟨20 * r.val + 19, ht⟩ p n hnt]
  obtain ⟨M, hM⟩ := rowMax_real (by decide) _ hs
  obtain ⟨E, hE, hEe⟩ := expSum_pos_real (by decide) _ hs
  obtain ⟨tt, htt'⟩ := hs (tgtIdx (C := 20000) (by decide) 20000#32 19999#32 (arrY V c n))
  obtain ⟨a, ha⟩ := hcl n
  have ha' : arrCl V c n = (a : EReal) := ha
  unfold clusterVal logSoftmax
  rw [hM, hEe, htt', ha', final_form a M tt E hE]

/-- The same with the token written out as 1024·r + p. -/
theorem outTile_apply (c : Dev nD) (r : Fin 4) (p : Fin 1024)
    (hX : ∀ n k, ∃ a : ℝ, (V c main_arg0 : S4096x1024.Idx → EReal) (ix2 n k) = (a : EReal))
    (hW : ∀ k v, ∃ a : ℝ, (V c main_v15 : S1024x20000.Idx → EReal) (ix2 k v) = (a : EReal))
    (hcl : ∀ n, ∃ a : ℝ, (V c main_v16 : S4096x1.Idx → EReal) (ix2 n (0 : Fin 1)) = (a : EReal)) :
    Dat1.outTile V c ⟨20 * r.val + 19, by have := r.isLt; show 20 * r.val + 19 < 80; omega⟩ (ix2 p (0 : Fin 1))
      = Scalar.select (memBit 20000#32 40000#32 (arrY V c ⟨1024 * r.val + p.val, by have := r.isLt; have := p.isLt; omega⟩))
          (clusterVal (C := 20000) (by decide) 20000#32 19999#32 (arrX V c) (arrW V c) (arrCl V c) (arrY V c)
            ⟨1024 * r.val + p.val, by have := r.isLt; have := p.isLt; omega⟩) 0 :=
  outTile_apply' V c r p _ rfl hX hW hcl

end Cert.KernelIdeal.Val1
end
-- ==== Proof.KI.Val2.lean ====
/-
  The value of the row tile the per-cluster kernel writes (this cluster: lo = 40000, C = 10257 columns, 11 column tiles of 1024).

  Row p of row tile r is token n = 1024·r + p. Over the 11 column tiles of its row the kernel's three carried columns, read at
  row p, run exactly the streaming log-sum-exp recurrence on the token's C scores s(v) = Σ_k X n k · W k v with the target
  column tgt = clip(label − lo): tile j shows s(1024·j + q) where that column exists and −∞ elsewhere. After the last tile they
  are (max s, Σ exp(s − max s), s tgt), and the written entry select(member, (0 − cl) − (t − (m + log l)), 0) is the cluster's
  value −cl − log_softmax(s)(tgt), every quantity being a real number.
-/
import proofs.«427347_j10273561772327_2_alg».proof.Proof.KI.Dat2
import proofs.«427347_j10273561772327_2_alg».proof.Proof.KI.Pay2
import proofs.«427347_j10273561772327_2_alg».proof.Proof.Fold
import proofs.«427347_j10273561772327_2_alg».proof.Proof.RefWords

set_option maxRecDepth 16384

noncomputable section

namespace Cert.KernelIdeal.Val2

open Cert.KernelIdeal Cert.KernelIdeal.Gen
open Idealize.ShloMosaic Idealize.ShloMosaic.TcCoe Idealize.ShloMosaic.Tactic
open Idealize.ShloMosaic.Pipeline (Dat Cfg Window cellOf)
open Idealize.ShloMosaic.ValueIdx (ix2)

variable (V : (c : Dev nD) → (b : Ref sig .tc) → Buf (Elt Ideal) ((c : Thread nD τ).loc b))

/-! ## The arrays the region reads, by coordinates -/

/-- The hidden vectors: row n, feature k. -/
def arrX (c : Dev nD) : Fin 4096 → Fin 1024 → EReal := fun n k => (V c main_arg0 : S4096x1024.Idx → EReal) (ix2 n k)
/-- The cluster's weight slice: feature k, column v. -/
def arrW (c : Dev nD) : Fin 1024 → Fin 10257 → EReal := fun k v => (V c main_v25 : S1024x10257.Idx → EReal) (ix2 k v)
/-- The cluster log-probability of token n. -/
def arrCl (c : Dev nD) : Fin 4096 → EReal := fun n => (V c main_v26 : S4096x1.Idx → EReal) (ix2 n (0 : Fin 1))
/-- The label of token n. -/
def arrY (c : Dev nD) : Fin 4096 → BitVec 32 := fun n => (V c main_v3 : S4096x1.Idx → BitVec 32) (ix2 n (0 : Fin 1))

/-! ## The grid's points and the blocks they hold -/

/-- The coordinates of grid point t: the row tile t / 11 and the column tile t % 11. -/
theorem coords_facts : ∀ t : Fin cfg2.N, ((cfg2.grid.coords t) 0).val = t.val / 11 ∧ ((cfg2.grid.coords t) 1).val = t.val % 11 :=
  (by decide +kernel : ∀ t : Fin grid2.N, ((grid2.coords t) 0).val = t.val / 11 ∧ ((grid2.coords t) 1).val = t.val % 11)

/-- The printed index maps over the grid: the three row windows sit at block row t / 11, the weight window at block column
    t % 11, and the weight window's transfer moves the columns of its tile that exist in the slice. -/
theorem idx_facts : ∀ t : Fin cfg2.N,
    win2_0.index t (0 : Fin 2) = t.val / 11 ∧ win2_0.index t (1 : Fin 2) = 0
    ∧ win2_1.index t (0 : Fin 2) = t.val / 11 ∧ win2_1.index t (1 : Fin 2) = 0
    ∧ win2_2.index t (0 : Fin 2) = t.val / 11 ∧ win2_2.index t (1 : Fin 2) = 0
    ∧ win2_3.index t (0 : Fin 2) = 0 ∧ win2_3.index t (1 : Fin 2) = t.val % 11
    ∧ win2_3.xsize (grid2.coords t) (0 : Fin 2) = 1024
    ∧ win2_3.xsize (grid2.coords t) (1 : Fin 2) = min 1024 (10257 - 1024 * (t.val % 11)) :=
  (by decide +kernel : ∀ t : Fin grid2.N, _)

/-- The row tile of x at point t is rows 1024·(t / 11) + p of x. -/
theorem xT_apply (c : Dev nD) (t : Fin cfg2.N) (p k : Fin 1024) (n : Fin 4096) (hn : n.val = 1024 * (t.val / 11) + p.val) :
    Dat2.xT V c t (ix2 p k) = arrX V c n k := by
  obtain ⟨e0, e1, -⟩ := idx_facts t
  show (V c main_arg0 : S4096x1024.Idx → EReal) (((cfg2.win 0).blk t).view.emb (ix2 p k)) = (V c main_arg0 : S4096x1024.Idx → EReal) (ix2 n k)
  congr 1
  funext a; apply Fin.ext
  match a with
  | ⟨0, _⟩ => show win2_0.index t (0 : Fin 2) * 1024 + 1 * p.val = n.val; omega
  | ⟨1, _⟩ => show win2_0.index t (1 : Fin 2) * 1024 + 1 * k.val = k.val; omega

/-- The labels of the row tile. -/
theorem yT_apply (c : Dev nD) (t : Fin cfg2.N) (p : Fin 1024) (n : Fin 4096) (hn : n.val = 1024 * (t.val / 11) + p.val) :
    Dat2.yT V c t (ix2 p (0 : Fin 1)) = arrY V c n := by
  obtain ⟨-, -, e0, e1, -⟩ := idx_facts t
  show (V c main_v3 : S4096x1.Idx → BitVec 32) (((cfg2.win 1).blk t).view.emb (ix2 p (0 : Fin 1))) = (V c main_v3 : S4096x1.Idx → BitVec 32) (ix2 n (0 : Fin 1))
  congr 1
  funext a; apply Fin.ext
  match a with
  | ⟨0, _⟩ => show win2_1.index t (0 : Fin 2) * 1024 + 1 * p.val = n.val; omega
  | ⟨1, _⟩ => show win2_1.index t (1 : Fin 2) * 1 + 1 * 0 = 0; omega

/-- The cluster log-probability of the row tile. -/
theorem clT_apply (c : Dev nD) (t : Fin cfg2.N) (p : Fin 1024) (n : Fin 4096) (hn : n.val = 1024 * (t.val / 11) + p.val) :
    Dat2.clT V c t (ix2 p (0 : Fin 1)) = arrCl V c n := by
  obtain ⟨-, -, -, -, e0, e1, -⟩ := idx_facts t
  show (V c main_v26 : S4096x1.Idx → EReal) (((cfg2.win 2).blk t).view.emb (ix2 p (0 : Fin 1))) = (V c main_v26 : S4096x1.Idx → EReal) (ix2 n (0 : Fin 1))
  congr 1
  funext a; apply Fin.ext
  match a with
  | ⟨0, _⟩ => show win2_2.index t (0 : Fin 2) * 1024 + 1 * p.val = n.val; omega
  | ⟨1, _⟩ => show win2_2.index t (1 : Fin 2) * 1 + 1 * 0 = 0; omega

/-- Column tile t % 11 of the weight slice: the slice's entry wherever the column exists. -/
theorem wT_apply (c : Dev nD) (t : Fin cfg2.N) (k q : Fin 1024) (v : Fin 10257) (hv : v.val = 1024 * (t.val % 11) + q.val) :
    Dat2.wT V c t (ix2 k q) = arrW V c k v := by
  obtain ⟨-, -, -, -, -, -, e0, e1, x0, x1⟩ := idx_facts t
  have hvl := v.isLt
  have hm : (cfg2.win 3).moved (cfg2.grid.coords t) (ix2 k q) = true := by
    rw [Window.moved_iff]
    intro a
    match a with
    | ⟨0, _⟩ => show k.val < win2_3.xsize (grid2.coords t) (0 : Fin 2); rw [x0]; exact k.isLt
    | ⟨1, _⟩ => show q.val < win2_3.xsize (grid2.coords t) (1 : Fin 2); rw [x1]; have := q.isLt; omega
  unfold Dat2.wT Window.fill
  rw [dif_pos hm]
  show (V c main_v25 : S1024x10257.Idx → EReal) (((cfg2.win 3).blk t).view.emb _) = (V c main_v25 : S1024x10257.Idx → EReal) (ix2 k v)
  congr 1
  funext a; apply Fin.ext
  match a with
  | ⟨0, _⟩ => show win2_3.index t (0 : Fin 2) * 1024 + 1 * k.val = k.val; omega
  | ⟨1, _⟩ => show win2_3.index t (1 : Fin 2) * 1024 + 1 * q.val = v.val; omega

/-! ## The target column -/

/-- A word of the tile's column numbering equals the target word exactly when the column is the word's value. -/
theorem word_eq_iff (n : ℕ) (hn : n < 2 ^ 32) (w : BitVec 32) : BitVec.ofNat 32 n = w ↔ n = w.toNat := by
  constructor
  · intro h; rw [← h, BitVec.toNat_ofNat, Nat.mod_eq_of_lt hn]
  · intro h; rw [h, BitVec.ofNat_toNat, BitVec.setWidth_eq]

/-- The target column of a label, as a column of the cluster, is the clipped word's value (the clip keeps it below C). -/
theorem tgtIdx_val (yv : BitVec 32) :
    (Cert.Spec.tgtIdx (C := 10257) (by decide) 40000#32 10256#32 yv).val = (Cert.Spec.tgtWord 40000#32 10256#32 yv).toNat := by
  rw [Cert.RefWords.tgtIdx_eq (by decide) 40000#32 10256#32 yv (by decide) (by decide)]

/-! ## One point moves the carried columns by one step of the recurrence -/

open Cert.Spec Cert.Fold

/-- Token n's scores against the cluster's columns are real numbers when the arrays' entries are. -/
theorem score_real (c : Dev nD) (n : Fin 4096)
    (hX : ∀ n k, ∃ a : ℝ, (V c main_arg0 : S4096x1024.Idx → EReal) (ix2 n k) = (a : EReal))
    (hW : ∀ k v, ∃ a : ℝ, (V c main_v25 : S1024x10257.Idx → EReal) (ix2 k v) = (a : EReal)) (v : Fin 10257) :
    ∃ a : ℝ, score (arrX V c) (arrW V c) n v = (a : EReal) := by
  choose x hx using hX
  choose w hw using hW
  refine ⟨∑ k : Fin 1024, x n k * w k v, ?_⟩
  rw [coe_finset_sum]
  unfold score arrX arrW
  exact Finset.sum_congr rfl fun k _ => by rw [hx, hw, EReal.coe_mul]

/-- The masked score tile at point t, read along row p, is tile t % 11 of token n's scores. -/
theorem tile_eq (c : Dev nD) (t : Fin cfg2.N) (p : Fin 1024) (n : Fin 4096) (hn : n.val = 1024 * (t.val / 11) + p.val) :
    (fun q : Fin 1024 => k2_pay9 (F := Ideal) (cfg2.grid.coords t) (Dat2.xT V c t) (Dat2.wT V c t) (ix2 p q))
      = tileEntry (score (arrX V c) (arrW V c) n) (t.val % 11) := by
  funext q
  rw [Pay2.score_apply, (coords_facts t).2]
  unfold tileEntry
  by_cases h : 1024 * (t.val % 11) + q.val < 10257
  · rw [if_pos h, dif_pos h]
    unfold score
    exact Finset.sum_congr rfl fun k _ => by rw [xT_apply V c t p k n hn, wT_apply V c t k q ⟨1024 * (t.val % 11) + q.val, h⟩ rfl]
  · rw [if_neg h, dif_neg h]

/-- The carried columns after point t, from those before it. -/
theorem carried_succ (c : Dev nD) (t : Fin cfg2.N) :
    Dat2.carried V c (t.val + 1)
      = (Body2.mOut (cfg2.grid.coords t) (Dat2.xT V c t) (Dat2.wT V c t) (Dat2.carried V c t.val).1,
         Body2.lOut (cfg2.grid.coords t) (Dat2.xT V c t) (Dat2.wT V c t) (Dat2.carried V c t.val).1 (Dat2.carried V c t.val).2.1,
         Body2.tOut (cfg2.grid.coords t) (Dat2.xT V c t) (Dat2.wT V c t) (Dat2.yT V c t) (Dat2.carried V c t.val).2.2) := by
  conv_lhs => rw [Dat2.carried]
  rw [dif_pos t.isLt]

/-- What a point starts from, read at row p: the reset values at the first column tile, else what it finds. -/
theorem mIn_apply (i : grid2.Coords) (sm : Vec Ideal S1024x1 .f32) (p : Fin 1024) :
    Body2.mIn i sm (ix2 p (0 : Fin 1)) = if (i 1).val = 0 then (⊥ : EReal) else sm (ix2 p (0 : Fin 1)) := by
  unfold Body2.mIn; split
  · exact Pay2.pay5_apply p
  · rfl
theorem lIn_apply (i : grid2.Coords) (sl : Vec Ideal S1024x1 .f32) (p : Fin 1024) :
    Body2.lIn i sl (ix2 p (0 : Fin 1)) = if (i 1).val = 0 then (0 : EReal) else sl (ix2 p (0 : Fin 1)) := by
  unfold Body2.lIn; split
  · exact Pay2.pay6_apply p
  · rfl
theorem tIn_apply (i : grid2.Coords) (st : Vec Ideal S1024x1 .f32) (p : Fin 1024) :
    Body2.tIn i st (ix2 p (0 : Fin 1)) = if (i 1).val = 0 then (0 : EReal) else st (ix2 p (0 : Fin 1)) := by
  unfold Body2.tIn; split
  · exact Pay2.pay7_apply p
  · rfl

/-- One point is one step of the streaming recurrence on token n's scores, at row p of the carried columns. -/
theorem step (c : Dev nD) (t : Fin cfg2.N) (p : Fin 1024) (n : Fin 4096) (hn : n.val = 1024 * (t.val / 11) + p.val) :
    (Dat2.carried V c (t.val + 1)).1 (ix2 p (0 : Fin 1))
        = stepM (tileEntry (score (arrX V c) (arrW V c) n) (t.val % 11))
            (Body2.mIn (cfg2.grid.coords t) (Dat2.carried V c t.val).1 (ix2 p (0 : Fin 1)))
    ∧ (Dat2.carried V c (t.val + 1)).2.1 (ix2 p (0 : Fin 1))
        = stepL (tileEntry (score (arrX V c) (arrW V c) n) (t.val % 11))
            (Body2.mIn (cfg2.grid.coords t) (Dat2.carried V c t.val).1 (ix2 p (0 : Fin 1)))
            (Body2.lIn (cfg2.grid.coords t) (Dat2.carried V c t.val).2.1 (ix2 p (0 : Fin 1)))
    ∧ (Dat2.carried V c (t.val + 1)).2.2 (ix2 p (0 : Fin 1))
        = stepT (tileEntry (score (arrX V c) (arrW V c) n) (t.val % 11)) (t.val % 11)
            (tgtWord 40000#32 10256#32 (arrY V c n)).toNat
            (Body2.tIn (cfg2.grid.coords t) (Dat2.carried V c t.val).2.2 (ix2 p (0 : Fin 1))) := by
  rw [carried_succ]
  refine ⟨?_, ?_, ?_⟩
  · show Body2.mOut _ _ _ _ (ix2 p (0 : Fin 1)) = _
    unfold Body2.mOut
    rw [Pay2.max_apply, tile_eq V c t p n hn]
  · show Body2.lOut _ _ _ _ _ (ix2 p (0 : Fin 1)) = _
    unfold Body2.lOut
    rw [Pay2.den_apply, tile_eq V c t p n hn]
  · show Body2.tOut _ _ _ _ _ (ix2 p (0 : Fin 1)) = _
    unfold Body2.tOut
    rw [Pay2.tgt_apply, yT_apply V c t p n hn, (coords_facts t).2]
    unfold stepT
    congr 1
    refine Finset.sum_congr rfl fun q _ => ?_
    rw [← congrFun (tile_eq V c t p n hn) q]
    refine if_congr (word_eq_iff _ ?_ _) rfl rfl
    have := q.isLt; have := t.isLt; have : cfg2.N = 44 := N_2; omega

/-! ## A row of points runs the whole recurrence -/

/-- At the first column tile of a row a point starts from the recurrence's initial values, whatever it finds. -/
theorem ins_first (t : Fin cfg2.N) (h0 : t.val % 11 = 0) (sm sl st : Vec Ideal S1024x1 .f32) (p : Fin 1024) :
    (Body2.mIn (cfg2.grid.coords t) sm (ix2 p (0 : Fin 1)), Body2.lIn (cfg2.grid.coords t) sl (ix2 p (0 : Fin 1)),
      Body2.tIn (cfg2.grid.coords t) st (ix2 p (0 : Fin 1))) = ((⊥ : EReal), (0 : EReal), (0 : EReal)) := by
  have hi : ((cfg2.grid.coords t) 1).val = 0 := (coords_facts t).2.trans h0
  rw [mIn_apply, lIn_apply, tIn_apply, if_pos hi, if_pos hi, if_pos hi]

/-- At a later column tile it starts from what it finds. -/
theorem ins_later (t : Fin cfg2.N) (h0 : t.val % 11 ≠ 0) (sm sl st : Vec Ideal S1024x1 .f32) (p : Fin 1024) :
    (Body2.mIn (cfg2.grid.coords t) sm (ix2 p (0 : Fin 1)), Body2.lIn (cfg2.grid.coords t) sl (ix2 p (0 : Fin 1)),
      Body2.tIn (cfg2.grid.coords t) st (ix2 p (0 : Fin 1))) = (sm (ix2 p (0 : Fin 1)), sl (ix2 p (0 : Fin 1)), st (ix2 p (0 : Fin 1))) := by
  have hi : ¬((cfg2.grid.coords t) 1).val = 0 := fun h => h0 ((coords_facts t).2.symm.trans h)
  rw [mIn_apply, lIn_apply, tIn_apply, if_neg hi, if_neg hi, if_neg hi]

/-- A point that starts from the recurrence after t % 11 tiles leaves it after t % 11 + 1 tiles. -/
theorem row_step (c : Dev nD) (t : Fin cfg2.N) (p : Fin 1024) (n : Fin 4096) (hn : n.val = 1024 * (t.val / 11) + p.val)
    (hin : (Body2.mIn (cfg2.grid.coords t) (Dat2.carried V c t.val).1 (ix2 p (0 : Fin 1)),
        Body2.lIn (cfg2.grid.coords t) (Dat2.carried V c t.val).2.1 (ix2 p (0 : Fin 1)),
        Body2.tIn (cfg2.grid.coords t) (Dat2.carried V c t.val).2.2 (ix2 p (0 : Fin 1)))
      = run (score (arrX V c) (arrW V c) n) (tgtWord 40000#32 10256#32 (arrY V c n)).toNat (t.val % 11)) :
    ((Dat2.carried V c (t.val + 1)).1 (ix2 p (0 : Fin 1)), (Dat2.carried V c (t.val + 1)).2.1 (ix2 p (0 : Fin 1)),
        (Dat2.carried V c (t.val + 1)).2.2 (ix2 p (0 : Fin 1)))
      = run (score (arrX V c) (arrW V c) n) (tgtWord 40000#32 10256#32 (arrY V c n)).toNat (t.val % 11 + 1) := by
  obtain ⟨h1, h2, h3⟩ := step V c t p n hn
  rw [h1, h2, h3]
  have e1 := congrArg Prod.fst hin
  have e2 := congrArg (fun x => x.2.1) hin
  have e3 := congrArg (fun x => x.2.2) hin
  dsimp only at e1 e2 e3
  rw [e1, e2, e3]
  rfl

/-- After point t the carried columns, read at row p, are the recurrence after t % 11 + 1 tiles of token n's scores. -/
theorem carried_run (c : Dev nD) (p : Fin 1024) (n : Fin 4096) :
    ∀ (k : ℕ) (h : k < cfg2.N), n.val = 1024 * (k / 11) + p.val →
      ((Dat2.carried V c (k + 1)).1 (ix2 p (0 : Fin 1)), (Dat2.carried V c (k + 1)).2.1 (ix2 p (0 : Fin 1)),
          (Dat2.carried V c (k + 1)).2.2 (ix2 p (0 : Fin 1)))
        = run (score (arrX V c) (arrW V c) n) (tgtWord 40000#32 10256#32 (arrY V c n)).toNat (k % 11 + 1) := by
  intro k
  induction k with
  | zero =>
    intro h hn
    exact row_step V c ⟨0, h⟩ p n hn (ins_first ⟨0, h⟩ rfl _ _ _ p)
  | succ k ih =>
    intro h hn
    by_cases h0 : (k + 1) % 11 = 0
    · refine row_step V c ⟨k + 1, h⟩ p n hn ?_
      rw [ins_first ⟨k + 1, h⟩ h0]
      show _ = run _ _ ((k + 1) % 11)
      rw [h0]; rfl
    · refine row_step V c ⟨k + 1, h⟩ p n hn ?_
      rw [ins_later ⟨k + 1, h⟩ h0]
      show _ = run _ _ ((k + 1) % 11)
      rw [show (k + 1) % 11 = k % 11 + 1 by omega]
      exact ih (by omega) (by omega)

/-! ## The written row tile -/

/-- Entry p of the row tile written at the last column tile of row tile r is the cluster's value at token n = 1024·r + p
    under the cluster's membership bit, when the entries of x, of the weight slice and of the cluster log-probability are real. -/
theorem outTile_apply' (c : Dev nD) (r : Fin 4) (p : Fin 1024) (n : Fin 4096) (hn : n.val = 1024 * r.val + p.val)
    (hX : ∀ n k, ∃ a : ℝ, (V c main_arg0 : S4096x1024.Idx → EReal) (ix2 n k) = (a : EReal))
    (hW : ∀ k v, ∃ a : ℝ, (V c main_v25 : S1024x10257.Idx → EReal) (ix2 k v) = (a : EReal))
    (hcl : ∀ n, ∃ a : ℝ, (V c main_v26 : S4096x1.Idx → EReal) (ix2 n (0 : Fin 1)) = (a : EReal)) :
    Dat2.outTile V c ⟨11 * r.val + 10, by have := r.isLt; show 11 * r.val + 10 < 44; omega⟩ (ix2 p (0 : Fin 1))
      = Scalar.select (memBit 40000#32 50257#32 (arrY V c n))
          (clusterVal (C := 10257) (by decide) 40000#32 10256#32 (arrX V c) (arrW V c) (arrCl V c) (arrY V c) n) 0 := by
  have hr := r.isLt
  have ht : 11 * r.val + 10 < cfg2.N := by show 11 * r.val + 10 < 44; omega
  have hnt : n.val = 1024 * ((11 * r.val + 10) / 11) + p.val := by omega
  have hs := score_real V c n hX hW
  have hfin := run_final (score (arrX V c) (arrW V c) n) hs (tgtIdx (C := 10257) (by decide) 40000#32 10256#32 (arrY V c n)) 11 (by decide)
  rw [tgtIdx_val] at hfin
  have hrun := carried_run V c p n (11 * r.val + 10) ht hnt
  rw [show (11 * r.val + 10) % 11 + 1 = 11 by omega, hfin] at hrun
  have hsucc := carried_succ V c ⟨11 * r.val + 10, ht⟩
  change Dat2.carried V c (11 * r.val + 10 + 1) = _ at hsucc
  rw [hsucc] at hrun
  have hm := congrArg Prod.fst hrun
  have hl := congrArg (fun x => x.2.1) hrun
  have htt := congrArg (fun x => x.2.2) hrun
  dsimp only at hm hl htt
  unfold Dat2.outTile Body2.rowOut
  rw [Pay2.out_apply, hm, hl, htt, yT_apply V c ⟨11 * r.val + 10, ht⟩ p n hnt, clT_apply V c ⟨11 * r.val + 10, ht⟩ p n hnt]
  obtain ⟨M, hM⟩ := rowMax_real (by decide) _ hs
  obtain ⟨E, hE, hEe⟩ := expSum_pos_real (by decide) _ hs
  obtain ⟨tt, htt'⟩ := hs (tgtIdx (C := 10257) (by decide) 40000#32 10256#32 (arrY V c n))
  obtain ⟨a, ha⟩ := hcl n
  have ha' : arrCl V c n = (a : EReal) := ha
  unfold clusterVal logSoftmax
  rw [hM, hEe, htt', ha', final_form a M tt E hE]

/-- The same with the token written out as 1024·r + p. -/
theorem outTile_apply (c : Dev nD) (r : Fin 4) (p : Fin 1024)
    (hX : ∀ n k, ∃ a : ℝ, (V c main_arg0 : S4096x1024.Idx → EReal) (ix2 n k) = (a : EReal))
    (hW : ∀ k v, ∃ a : ℝ, (V c main_v25 : S1024x10257.Idx → EReal) (ix2 k v) = (a : EReal))
    (hcl : ∀ n, ∃ a : ℝ, (V c main_v26 : S4096x1.Idx → EReal) (ix2 n (0 : Fin 1)) = (a : EReal)) :
    Dat2.outTile V c ⟨11 * r.val + 10, by have := r.isLt; show 11 * r.val + 10 < 44; omega⟩ (ix2 p (0 : Fin 1))
      = Scalar.select (memBit 40000#32 50257#32 (arrY V c ⟨1024 * r.val + p.val, by have := r.isLt; have := p.isLt; omega⟩))
          (clusterVal (C := 10257) (by decide) 40000#32 10256#32 (arrX V c) (arrW V c) (arrCl V c) (arrY V c)
            ⟨1024 * r.val + p.val, by have := r.isLt; have := p.isLt; omega⟩) 0 :=
  outTile_apply' V c r p _ rfl hX hW hcl

end Cert.KernelIdeal.Val2
end
-- ==== Proof.RefLsm.lean ====
/-
  log-softmax along the rows of a 4096 × C array, as the host computes it (row maximum by a max-reduction started at −∞ and
  joined once more with −∞, shift, exponentiate, sum from 0, logarithm, subtract), read at one entry: it is the
  specification's log-softmax of that row at that column.
-/
import proofs.«427347_j10273561772327_2_alg».proof.Proof.Spec
import Idealize.ShloMosaic.PureOps.Ideal.Laws
import Idealize.ShloMosaic.PureOps.Reduce
import Idealize.ShloMosaic.Lib.Pipeline.Value

noncomputable section

namespace Cert.RefLsm

open Idealize.ShloMosaic Idealize.ShloMosaic.ValueIdx

variable {C : ℕ}

/-- A row index with column `k` put back on axis 1 is (n, k). -/
theorem lift_row (h : (⟨2, ![4096, C]⟩ : Shape).Reduces [1] (⟨1, ![4096]⟩ : Shape)) (n : Fin 4096)
    (k : Fin ((⟨2, ![4096, C]⟩ : Shape).size 1)) : h.lift (ix1 n) k = ix2 n (⟨k.val, k.isLt⟩ : Fin C) := by
  funext c; apply Fin.ext
  fin_cases c <;> rfl

/-- The f32 word of −∞ is the bottom extended real. -/
theorem ofBits_neg_inf : Ideal.ofBits .f32 0xFF800000#32 = (⊥ : EReal) := by
  simp [Ideal.ofBits, Ideal.ieee]

/-- The host's max-reduction of the rows from −∞, at row `n`, is the row's supremum. -/
theorem rowMax_reduce (x : FVec Ideal ⟨2, ![4096, C]⟩ .f32)
    (h' : (⟨2, ![4096, C]⟩ : Shape).ReducesTo [1] (⟨1, ![4096]⟩ : Shape))
    (h : (⟨2, ![4096, C]⟩ : Shape).Reduces [1] (⟨1, ![4096]⟩ : Shape)) (hu : 0 < (⟨0, ![]⟩ : Shape).numel) (n : Fin 4096) :
    Host.reduce FloatOps.maximumf x (constant (F := Ideal) (⟨0, ![]⟩ : Shape) .f32 0xFF800000#32) h' hu (ix1 n)
      = Cert.Spec.rowMax (fun u : Fin C => x (ix2 n u)) := by
  rw [Host.reduce_eq_fold_single FloatOps.maximumf x _ h' h hu]
  have hf : (x ∘ h.lift (ix1 n)) = fun k : Fin C => x (ix2 n k) := funext fun k => congrArg x (lift_row h n k)
  show Finset.fold FloatOps.maximumf (Ideal.ofBits .f32 0xFF800000#32) (x ∘ h.lift (ix1 n)) (Finset.univ : Finset (Fin C)) = _
  rw [hf, ofBits_neg_inf]
  rfl

/-- A column of per-row values spread along the columns reads, at (n, v), the column's entry for row `n`. -/
theorem bcast_col_apply {α : Type} (hb : (⟨2, ![4096, 1]⟩ : Shape).BroadcastsInDim (⟨2, ![4096, C]⟩ : Shape) ![0, 1])
    (y : (⟨2, ![4096, 1]⟩ : Shape).Idx → α) (n : Fin 4096) (v : Fin C) :
    broadcastInDim (⟨2, ![4096, C]⟩ : Shape) ![0, 1] hb y (ix2 n v) = y (ix2 n (0 : Fin 1)) :=
  broadcastInDim_apply _ hb y (ix2 n v) (ix2 n (0 : Fin 1)) (fun a => by fin_cases a <;> rfl)

/-- A vector of per-row values stood up as a column reads, at (n, 0), the vector's entry `n`. -/
theorem bcast_vec_apply {α : Type} (hb : (⟨1, ![4096]⟩ : Shape).BroadcastsInDim (⟨2, ![4096, 1]⟩ : Shape) ![0])
    (z : (⟨1, ![4096]⟩ : Shape).Idx → α) (n : Fin 4096) (o : Fin 1) :
    broadcastInDim (⟨2, ![4096, 1]⟩ : Shape) ![0] hb z (ix2 n o) = z (ix1 n) :=
  broadcastInDim_apply _ hb z (ix2 n o) (ix1 n) (fun a => by fin_cases a; rfl)

/-- A scalar spread over the 4096 rows reads the scalar everywhere. -/
theorem bcast_scalar_apply {α : Type} (hb : (⟨0, ![]⟩ : Shape).BroadcastsInDim (⟨1, ![4096]⟩ : Shape) ![])
    (c : (⟨0, ![]⟩ : Shape).Idx → α) (n : Fin 4096) :
    broadcastInDim (⟨1, ![4096]⟩ : Shape) ![] hb c (ix1 n) = c ix0 :=
  broadcastInDim_apply _ hb c (ix1 n) ix0 (fun a => a.elim0)

/-- The host's sum-reduction of the rows from 0, at row `n`, is the row's sum. -/
theorem rowSum_reduce (x : FVec Ideal ⟨2, ![4096, C]⟩ .f32)
    (h' : (⟨2, ![4096, C]⟩ : Shape).ReducesTo [1] (⟨1, ![4096]⟩ : Shape))
    (h : (⟨2, ![4096, C]⟩ : Shape).Reduces [1] (⟨1, ![4096]⟩ : Shape)) (hu : 0 < (⟨0, ![]⟩ : Shape).numel) (n : Fin 4096) :
    Host.reduceAdd (F := Ideal) x (constant (F := Ideal) (⟨0, ![]⟩ : Shape) .f32 0x00000000#32) h' hu (ix1 n)
      = ∑ u : Fin C, x (ix2 n u) := by
  show Ideal.hostReduceAdd h' x (Ideal.ofBits .f32 0x00000000#32) (ix1 n) = _
  rw [Ideal.hostReduceAdd_single h' h, Ideal.ofBits_zero_f32, zero_add]
  exact Finset.sum_congr rfl fun k _ => congrArg x (lift_row h n k)

/-- The host's logarithm at an index is the extended reals' logarithm of the entry. -/
theorem hostLog_apply {s : Shape} (y : FVec Ideal s .f32) (i : s.Idx) : Host.log y i = Ideal.log (y i) := rfl
/-- The host's exponential at an index is the extended reals' exponential of the entry. -/
theorem hostExp_apply {s : Shape} (y : FVec Ideal s .f32) (i : s.Idx) : Host.exp y i = Ideal.exp (y i) := rfl

/-- THE CHAIN: the host's log-softmax of a 4096 × C array, read at (n, v). -/
theorem logSoftmax_chain (x : FVec Ideal ⟨2, ![4096, C]⟩ .f32)
    (hr : (⟨2, ![4096, C]⟩ : Shape).ReducesTo [1] (⟨1, ![4096]⟩ : Shape))
    (hR : (⟨2, ![4096, C]⟩ : Shape).Reduces [1] (⟨1, ![4096]⟩ : Shape)) (hu : 0 < (⟨0, ![]⟩ : Shape).numel)
    (hb0 : (⟨0, ![]⟩ : Shape).BroadcastsInDim (⟨1, ![4096]⟩ : Shape) ![])
    (hb1 : (⟨1, ![4096]⟩ : Shape).BroadcastsInDim (⟨2, ![4096, 1]⟩ : Shape) ![0])
    (hb2 : (⟨2, ![4096, 1]⟩ : Shape).BroadcastsInDim (⟨2, ![4096, C]⟩ : Shape) ![0, 1])
    (n : Fin 4096) (v : Fin C) :
    subf
      (subf x (broadcastInDim (⟨2, ![4096, C]⟩ : Shape) ![0, 1] hb2 (broadcastInDim (⟨2, ![4096, 1]⟩ : Shape) ![0] hb1
        (maximumf (broadcastInDim (⟨1, ![4096]⟩ : Shape) ![] hb0 (constant (F := Ideal) (⟨0, ![]⟩ : Shape) .f32 0xFF800000#32))
          (Host.reduce FloatOps.maximumf x (constant (F := Ideal) (⟨0, ![]⟩ : Shape) .f32 0xFF800000#32) hr hu)))))
      (broadcastInDim (⟨2, ![4096, C]⟩ : Shape) ![0, 1] hb2 (Host.log (broadcastInDim (⟨2, ![4096, 1]⟩ : Shape) ![0] hb1
        (Host.reduceAdd (F := Ideal)
          (Host.exp (subf x (broadcastInDim (⟨2, ![4096, C]⟩ : Shape) ![0, 1] hb2 (broadcastInDim (⟨2, ![4096, 1]⟩ : Shape) ![0] hb1
            (maximumf (broadcastInDim (⟨1, ![4096]⟩ : Shape) ![] hb0 (constant (F := Ideal) (⟨0, ![]⟩ : Shape) .f32 0xFF800000#32))
              (Host.reduce FloatOps.maximumf x (constant (F := Ideal) (⟨0, ![]⟩ : Shape) .f32 0xFF800000#32) hr hu))))))
          (constant (F := Ideal) (⟨0, ![]⟩ : Shape) .f32 0x00000000#32) hr hu))))
      (ix2 n v)
    = Cert.Spec.logSoftmax (fun u : Fin C => x (ix2 n u)) v := by
  -- the shifted array at any entry of row n
  have hshift : ∀ u : Fin C,
      subf x (broadcastInDim (⟨2, ![4096, C]⟩ : Shape) ![0, 1] hb2 (broadcastInDim (⟨2, ![4096, 1]⟩ : Shape) ![0] hb1
        (maximumf (broadcastInDim (⟨1, ![4096]⟩ : Shape) ![] hb0 (constant (F := Ideal) (⟨0, ![]⟩ : Shape) .f32 0xFF800000#32))
          (Host.reduce FloatOps.maximumf x (constant (F := Ideal) (⟨0, ![]⟩ : Shape) .f32 0xFF800000#32) hr hu)))) (ix2 n u)
      = x (ix2 n u) - Cert.Spec.rowMax (fun u : Fin C => x (ix2 n u)) := by
    intro u
    rw [subf_apply, bcast_col_apply, bcast_vec_apply, maximumf_apply, bcast_scalar_apply, rowMax_reduce x hr hR hu n]
    show x (ix2 n u) - max (Ideal.ofBits .f32 0xFF800000#32) _ = _
    rw [ofBits_neg_inf, max_eq_right bot_le]
  rw [subf_apply, hshift v, bcast_col_apply, hostLog_apply, bcast_vec_apply, rowSum_reduce _ hr hR hu n]
  unfold Cert.Spec.logSoftmax Cert.Spec.expSum
  congr 2
  exact Finset.sum_congr rfl fun u _ => by rw [hostExp_apply, hshift u]

end Cert.RefLsm

end
-- ==== Proof.KI.Finite.lean ====
/-
  The precondition read back: every entry of the three float arguments is a real number.

  The printed precondition compares the absolute value of every entry of x, of the cluster-head weights and of the output
  weights with +∞, strictly, and takes the conjunction of all the comparisons. At the ideal instance an entry is an extended
  real, and one whose absolute value is strictly below +∞ is neither +∞ nor −∞.
-/
import proofs.«427347_j10273561772327_2_alg».proof.Defs
import Idealize.ShloMosaic.Lib.ReduceAll
import Idealize.ShloMosaic.Lib.ValueIdx
import Idealize.ShloMosaic.Lib.Affine

noncomputable section

namespace Cert.KernelIdeal.Finite

open Idealize.ShloMosaic Idealize.SL.Sem

variable [hPre_finite_inputs : Cert.Pre_finite_inputs.Facts]

/-- The rank-0 shape has one index. -/
instance : Subsingleton Cert.Pre_finite_inputs.S_.Idx := ⟨fun a b => funext fun d => d.elim0⟩

/-- The word the precondition compares against denotes +∞. -/
theorem inf_word : (Ideal.ofBits .f32 0x7F800000#32 : EReal) = ⊤ := by
  simp [Ideal.ofBits, Ideal.ieee]

/-- An extended real whose absolute value is strictly below +∞ is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  change Ideal.cmp .olt (max x (-x)) (Ideal.ofBits .f32 0x7F800000#32) = 1#1 at h
  rw [inf_word] at h
  unfold Ideal.cmp at h
  induction x using EReal.rec with
  | bot => simp at h
  | coe a => exact ⟨a, rfl⟩
  | top => simp at h

/-- Under the precondition every entry of x, of the cluster-head weights and of the output weights is a real. -/
theorem of_pre (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ a : ℝ, (m ((c.tc : Thread _ _).loc Cert.KernelIdeal.main_arg0) : Cert.KernelIdeal.S4096x1024.Idx → EReal) i = (a : EReal))
    ∧ (∀ i, ∃ a : ℝ, (m ((c.tc : Thread _ _).loc Cert.KernelIdeal.main_arg2) : Cert.KernelIdeal.S3x1024.Idx → EReal) i = (a : EReal))
    ∧ (∀ i, ∃ a : ℝ, (m ((c.tc : Thread _ _).loc Cert.KernelIdeal.main_arg3) : Cert.KernelIdeal.S1024x50257.Idx → EReal) i = (a : EReal)) := by
  have h := congrFun (hpre c) ValueIdx.ix0
  dsimp only [Cert.Pre_finite_inputs.fn] at h
  obtain ⟨h38, h12⟩ := IntOp.andi_eq_one.1 h
  obtain ⟨h3, h7⟩ := IntOp.andi_eq_one.1 h38
  refine ⟨fun i => ?_, fun i => ?_, fun i => ?_⟩
  · exact real_of_abs_lt _ (Host.reduce_andi_all _ _ _ _ _ h3 i)
  · exact real_of_abs_lt _ (Host.reduce_andi_all _ _ _ _ _ h7 i)
  · exact real_of_abs_lt _ (Host.reduce_andi_all _ _ _ _ _ h12 i)

end Cert.KernelIdeal.Finite

end
-- ==== Proof.KI.Value.lean ====
/-
  What the idealized kernel program leaves in its result array: the negative log-likelihood of every token, as the one
  function of the four argument arrays that the specification names.

  The program is host operations around three per-cluster kernels. Before the first kernel the host computes the cluster
  head's log-probabilities (log-softmax along the three scores x·Wcᵀ of each token), stands the labels up as a column and cuts
  the first cluster's columns out of the output matrix; before the second and third it cuts their columns and their column of
  the head. Each kernel's result column holds, at token n, the cluster's value under the cluster's membership bit (and 0 outside
  it); the host reshapes the column and folds it into the running result by a select on the same bit, so the three selects
  nest exactly as the specification's. Every quantity met is a real number because the arguments' entries are.
-/
import proofs.«427347_j10273561772327_2_alg».proof.Proof.KI.Tail
import proofs.«427347_j10273561772327_2_alg».proof.Proof.KI.Regs
import proofs.«427347_j10273561772327_2_alg».proof.Proof.KI.Val0
import proofs.«427347_j10273561772327_2_alg».proof.Proof.KI.Val1
import proofs.«427347_j10273561772327_2_alg».proof.Proof.KI.Val2
import proofs.«427347_j10273561772327_2_alg».proof.Proof.RefLsm
import proofs.«427347_j10273561772327_2_alg».proof.Proof.KI.Finite
import proofs.«427347_j10273561772327_2_alg».proof.Proof.Gen.Pre_finite_inputs

set_option maxRecDepth 16384

noncomputable section

namespace Cert.KernelIdeal.Value

open Cert.KernelIdeal Cert.KernelIdeal.Gen
open Idealize.ShloMosaic Idealize.ShloMosaic.TcCoe Idealize.ShloMosaic.Tactic
open Idealize.ShloMosaic.StableHlo
open Idealize.ShloMosaic.ValueIdx
open Cert.Spec

variable (m : (ℓ : Loc nD τ sig) → Buf (Elt Ideal) ℓ) (outs : Gen.Outs (F := Ideal))

/-! ## The cluster head, as the host computes it -/

section Head
variable (A0 : FVec Ideal S4096x1024 .f32) (A2 : FVec Ideal S3x1024 .f32)

/-- The head's weights transposed. -/
def headT : FVec Ideal S1024x3 .f32 := transpose S1024x3 [1, 0] A2 transposes_S3x1024_S1024x3_1_0
/-- The three cluster scores of every token. -/
def headS : FVec Ideal S4096x3 .f32 := Host.dotGeneral dot_S4096x1024_S1024x3_S4096x3_1_0_0_1_n_n none A0 (headT A2)
/-- A 4096 × 3 array less its row maxima. -/
def shifted (x : FVec Ideal S4096x3 .f32) : FVec Ideal S4096x3 .f32 :=
  subf x (broadcastInDim S4096x3 ![0, 1] bcast_S4096x1_S4096x3_0_1 (broadcastInDim S4096x1 ![0] bcast_S4096_S4096x1_0
    (maximumf (broadcastInDim S4096 ![] bcast_S_S4096 (constant (F := Ideal) S_ .f32 0xFF800000#32))
      (Host.reduce FloatOps.maximumf x (constant (F := Ideal) S_ .f32 0xFF800000#32) reducesTo_S4096x3_S4096_d1 h_S_))))
/-- The cluster log-probabilities of every token: log-softmax along the three scores. -/
def headLL : FVec Ideal S4096x3 .f32 :=
  subf (shifted (headS A0 A2))
    (broadcastInDim S4096x3 ![0, 1] bcast_S4096x1_S4096x3_0_1 (Host.log (broadcastInDim S4096x1 ![0] bcast_S4096_S4096x1_0
      (Host.reduceAdd (F := Ideal) (Host.exp (shifted (headS A0 A2))) (constant (F := Ideal) S_ .f32 0x00000000#32)
        reducesTo_S4096x3_S4096_d1 h_S_))))

theorem lhs_head_0 (i : S4096x3.Idx) (q : dot_S4096x1024_S1024x3_S4096x3_1_0_0_1_n_n.contr.Idx) :
    (dot_S4096x1024_S1024x3_S4096x3_1_0_0_1_n_n.lhsIdx i q 0).val = (i 0).val := by
  unfold DotDims.lhsIdx
  rw [dif_neg (show ¬(0 : Fin S4096x1024.rank) ∈ dot_S4096x1024_S1024x3_S4096x3_1_0_0_1_n_n.lhsBatch by decide), dif_pos (show (0 : Fin S4096x1024.rank) ∈ dot_S4096x1024_S1024x3_S4096x3_1_0_0_1_n_n.lhsNonContracting by decide)]
  rfl
theorem lhs_head_1 (i : S4096x3.Idx) (q : dot_S4096x1024_S1024x3_S4096x3_1_0_0_1_n_n.contr.Idx) :
    (dot_S4096x1024_S1024x3_S4096x3_1_0_0_1_n_n.lhsIdx i q 1).val = (q ⟨0, by decide⟩).val :=
  dot_S4096x1024_S1024x3_S4096x3_1_0_0_1_n_n.lhsIdx_val_of_single rfl i q
theorem rhs_head_0 (i : S4096x3.Idx) (q : dot_S4096x1024_S1024x3_S4096x3_1_0_0_1_n_n.contr.Idx) :
    (dot_S4096x1024_S1024x3_S4096x3_1_0_0_1_n_n.rhsIdx i q 0).val = (q ⟨0, by decide⟩).val :=
  dot_S4096x1024_S1024x3_S4096x3_1_0_0_1_n_n.rhsIdx_val_of_single rfl i q
theorem rhs_head_1 (i : S4096x3.Idx) (q : dot_S4096x1024_S1024x3_S4096x3_1_0_0_1_n_n.contr.Idx) :
    (dot_S4096x1024_S1024x3_S4096x3_1_0_0_1_n_n.rhsIdx i q 1).val = (i 1).val := by
  unfold DotDims.rhsIdx
  rw [dif_neg (show ¬(1 : Fin S1024x3.rank) ∈ dot_S4096x1024_S1024x3_S4096x3_1_0_0_1_n_n.rhsBatch by decide), dif_pos (show (1 : Fin S1024x3.rank) ∈ dot_S4096x1024_S1024x3_S4096x3_1_0_0_1_n_n.rhsNonContracting by decide)]
  rfl

/-- The head's score of token n for cluster j: row n of the hidden vectors against row j of the head. -/
theorem headS_apply (n : Fin 4096) (j : Fin 3) : headS A0 A2 (ix2 n j) = ∑ k : Fin 1024, A0 (ix2 n k) * A2 (ix2 j k) := by
  unfold headS
  generalize hy : headT A2 = y0
  simp only [Host.dotGeneral]
  rw [Ideal.dotGeneral_apply, ← Equiv.sum_comp (ValueIdx.contrEquiv1 dot_S4096x1024_S1024x3_S4096x3_1_0_0_1_n_n 1024 rfl rfl).symm]
  refine Finset.sum_congr rfl fun k _ => ?_
  have hk := ValueIdx.contrEquiv1_symm_val dot_S4096x1024_S1024x3_S4096x3_1_0_0_1_n_n 1024 rfl rfl k
  have el : dot_S4096x1024_S1024x3_S4096x3_1_0_0_1_n_n.lhsIdx (ix2 n j) ((ValueIdx.contrEquiv1 dot_S4096x1024_S1024x3_S4096x3_1_0_0_1_n_n 1024 rfl rfl).symm k) = ix2 n k := funext fun a => Fin.ext (by
    match a with
    | ⟨0, _⟩ => exact lhs_head_0 _ _
    | ⟨1, _⟩ => exact (lhs_head_1 _ _).trans hk)
  have er : dot_S4096x1024_S1024x3_S4096x3_1_0_0_1_n_n.rhsIdx (ix2 n j) ((ValueIdx.contrEquiv1 dot_S4096x1024_S1024x3_S4096x3_1_0_0_1_n_n 1024 rfl rfl).symm k) = ix2 k j := funext fun a => Fin.ext (by
    match a with
    | ⟨0, _⟩ => exact (rhs_head_0 _ _).trans hk
    | ⟨1, _⟩ => exact rhs_head_1 _ _)
  rw [el, er, ← hy]
  unfold headT
  rw [transpose_apply [1, 0] A2 transposes_S3x1024_S1024x3_1_0 (ix2 k j) (ix2 j k) (fun b => match b with
    | ⟨0, _⟩ => rfl
    | ⟨1, _⟩ => rfl)]

/-- The cluster log-probabilities read at (n, j) are the specification's. -/
theorem headLL_apply (n : Fin 4096) (j : Fin 3) :
    headLL A0 A2 (ix2 n j) = clusterLL (fun n k => A0 (ix2 n k)) (fun j k => A2 (ix2 j k)) n j := by
  unfold headLL shifted
  refine (Cert.RefLsm.logSoftmax_chain (C := 3) (headS A0 A2) reducesTo_S4096x3_S4096_d1 (by decide) h_S_
    bcast_S_S4096 bcast_S4096_S4096x1_0 bcast_S4096x1_S4096x3_0_1 n j).trans ?_
  unfold clusterLL
  exact congrArg (fun s => logSoftmax s j) (funext fun u => headS_apply A0 A2 n u)

end Head

/-! ## The cluster log-probability columns the kernels are entered with -/

/-- The host's log-softmax of the head's scores, as the first kernel and every later item find it. -/
theorem V2_v2 (c : Dev nD) :
    (Gen.V2 m c main_v2 : S4096x3.Idx → EReal) = headLL (m ((c : Thread nD τ).loc main_arg0)) (m ((c : Thread nD τ).loc main_arg2)) := by
  show StableHlo.after hostOps0_1 (Gen.V1 m c) (Proc.devRef .tc main_v2) = _
  after_results
  rfl

/-- The first kernel's column of it is cut before the kernel … -/
theorem V3_v6 (c : Dev nD) :
    (Gen.V3 m c main_v6 : S4096x1.Idx → EReal)
      = extractStridedSlice S4096x1 ![0, 0] (Gen.V2 m c main_v2 : S4096x3.Idx → EReal) slices_S4096x3_S4096x1_0_0 := by
  show StableHlo.after hostOps0_2 (Gen.V2 m c) (Proc.devRef .tc main_v6)
    = extractStridedSlice S4096x1 ![0, 0] (Gen.V2 m c (Proc.devRef .tc main_v2)) slices_S4096x3_S4096x1_0_0
  generalize Gen.V2 m c = W
  after_results

/-- … the second's before the second kernel … -/
theorem V7_v16 (c : Dev nD) :
    (Gen.V7 m outs c main_v16 : S4096x1.Idx → EReal)
      = extractStridedSlice S4096x1 ![0, 1] (Gen.V6 m outs c main_v2 : S4096x3.Idx → EReal) slices_S4096x3_S4096x1_0_1 := by
  show StableHlo.after hostOps1_2 (Gen.V6 m outs c) (Proc.devRef .tc main_v16)
    = extractStridedSlice S4096x1 ![0, 1] (Gen.V6 m outs c (Proc.devRef .tc main_v2)) slices_S4096x3_S4096x1_0_1
  generalize Gen.V6 m outs c = W
  after_results

/-- … the third's before the third. -/
theorem V11_v26 (c : Dev nD) :
    (Gen.V11 m outs c main_v26 : S4096x1.Idx → EReal)
      = extractStridedSlice S4096x1 ![0, 2] (Gen.V10 m outs c main_v2 : S4096x3.Idx → EReal) slices_S4096x3_S4096x1_0_2 := by
  show StableHlo.after hostOps2_2 (Gen.V10 m outs c) (Proc.devRef .tc main_v26)
    = extractStridedSlice S4096x1 ![0, 2] (Gen.V10 m outs c (Proc.devRef .tc main_v2)) slices_S4096x3_S4096x1_0_2
  generalize Gen.V10 m outs c = W
  after_results

/-- No item after the head's log-softmax writes it. -/
theorem V6_v2 (c : Dev nD) : Gen.V6 m outs c main_v2 = Gen.V2 m c main_v2 :=
  (V6_of m outs c main_v2 (by decide)).trans <| (V5_of m outs c main_v2 (by decide)).trans <| (V4_of m outs c main_v2 (by decide)).trans <|
    V3_of m c main_v2 (by decide)
theorem V10_v2 (c : Dev nD) : Gen.V10 m outs c main_v2 = Gen.V2 m c main_v2 :=
  (V10_of m outs c main_v2 (by decide)).trans <| (V9_of m outs c main_v2 (by decide)).trans <| (V8_of m outs c main_v2 (by decide)).trans <|
    (V7_of m outs c main_v2 (by decide)).trans <| V6_v2 m outs c

section Cols
variable (c : Dev nD) (n : Fin 4096)

/-- The first kernel is entered with the first cluster's log-probability of every token. -/
theorem entry_cl0 :
    (Gen.V3 m c main_v6 : S4096x1.Idx → EReal) (ix2 n (0 : Fin 1))
      = clusterLL (fun n k => (m ((c : Thread nD τ).loc main_arg0) : S4096x1024.Idx → EReal) (ix2 n k))
          (fun j k => (m ((c : Thread nD τ).loc main_arg2) : S3x1024.Idx → EReal) (ix2 j k)) n 0 := by
  rw [V3_v6, extractStridedSlice_apply ![0, 0] _ slices_S4096x3_S4096x1_0_0 (ix2 n (0 : Fin 1)) (ix2 n (0 : Fin 3)) (fun a => match a with
    | ⟨0, _⟩ => by show n.val = 0 + n.val; omega
    | ⟨1, _⟩ => rfl), V2_v2, headLL_apply]

/-- The second with the second cluster's. -/
theorem entry_cl1 :
    (Gen.V7 m outs c main_v16 : S4096x1.Idx → EReal) (ix2 n (0 : Fin 1))
      = clusterLL (fun n k => (m ((c : Thread nD τ).loc main_arg0) : S4096x1024.Idx → EReal) (ix2 n k))
          (fun j k => (m ((c : Thread nD τ).loc main_arg2) : S3x1024.Idx → EReal) (ix2 j k)) n 1 := by
  rw [V7_v16, extractStridedSlice_apply ![0, 1] _ slices_S4096x3_S4096x1_0_1 (ix2 n (0 : Fin 1)) (ix2 n (1 : Fin 3)) (fun a => match a with
    | ⟨0, _⟩ => by show n.val = 0 + n.val; omega
    | ⟨1, _⟩ => rfl), V6_v2, V2_v2, headLL_apply]

/-- The third with the third cluster's. -/
theorem entry_cl2 :
    (Gen.V11 m outs c main_v26 : S4096x1.Idx → EReal) (ix2 n (0 : Fin 1))
      = clusterLL (fun n k => (m ((c : Thread nD τ).loc main_arg0) : S4096x1024.Idx → EReal) (ix2 n k))
          (fun j k => (m ((c : Thread nD τ).loc main_arg2) : S3x1024.Idx → EReal) (ix2 j k)) n 2 := by
  rw [V11_v26, extractStridedSlice_apply ![0, 2] _ slices_S4096x3_S4096x1_0_2 (ix2 n (0 : Fin 1)) (ix2 n (2 : Fin 3)) (fun a => match a with
    | ⟨0, _⟩ => by show n.val = 0 + n.val; omega
    | ⟨1, _⟩ => rfl), V10_v2, V2_v2, headLL_apply]

end Cols

/-! ## Real numbers -/

/-- A finite sum of products of real numbers is a real number. -/
theorem sum_mul_real (x w : Fin 1024 → EReal) (hx : ∀ k, ∃ a : ℝ, x k = (a : EReal)) (hw : ∀ k, ∃ a : ℝ, w k = (a : EReal)) :
    ∃ a : ℝ, ∑ k : Fin 1024, x k * w k = (a : EReal) := by
  choose a ha using hx
  choose b hb using hw
  refine ⟨∑ k : Fin 1024, a k * b k, ?_⟩
  rw [Cert.Fold.coe_finset_sum]
  exact Finset.sum_congr rfl fun k _ => by rw [ha, hb, EReal.coe_mul]

/-- The cluster log-probabilities are real numbers when the hidden vectors and the head are. -/
theorem clusterLL_real (X : Fin 4096 → Fin 1024 → EReal) (Wc : Fin 3 → Fin 1024 → EReal)
    (hX : ∀ n k, ∃ a : ℝ, X n k = (a : EReal)) (hWc : ∀ j k, ∃ a : ℝ, Wc j k = (a : EReal)) (n : Fin 4096) (j : Fin 3) :
    ∃ a : ℝ, clusterLL X Wc n j = (a : EReal) :=
  Cert.Fold.logSoftmax_real (by decide) _ (fun j' => sum_mul_real _ _ (hX n) (hWc j')) j

/-! ## Two selects on one bit -/

/-- A value selected under a bit, selected again under the same bit against another alternative. -/
theorem select_select {α : Type} (b : BitVec 1) (v z w : α) :
    Scalar.select b (Scalar.select b v z) w = Scalar.select b v w := by
  rcases BitVec.eq_zero_or_eq_one b with h | h
  · subst h; rw [select_zero, select_zero]
  · subst h; rw [select_one, select_one, select_one]

/-! ## What each kernel leaves at a token -/

/-- The first kernel's column at token n: the first cluster's value under its membership bit. -/
theorem out0_apply (hpre : Cert.Pre_KernelIdeal m) (c : Dev nD) (n : Fin 4096) :
    (Launch.out0 m c : S4096x1.Idx → EReal) (ix2 n (0 : Fin 1))
      = Scalar.select (memBit 0#32 20000#32 ((m ((c : Thread nD τ).loc main_arg1) : S4096.Idx → BitVec 32) (ix1 n)))
          (clusterVal (C := 20000) (by decide) 0#32 19999#32
            (fun n k => (m ((c : Thread nD τ).loc main_arg0) : S4096x1024.Idx → EReal) (ix2 n k))
            (colSlice (C := 20000) 0 (by decide) (fun k v => (m ((c : Thread nD τ).loc main_arg3) : S1024x50257.Idx → EReal) (ix2 k v)))
            (fun n => clusterLL (fun n k => (m ((c : Thread nD τ).loc main_arg0) : S4096x1024.Idx → EReal) (ix2 n k))
              (fun j k => (m ((c : Thread nD τ).loc main_arg2) : S3x1024.Idx → EReal) (ix2 j k)) n 0)
            (fun n => (m ((c : Thread nD τ).loc main_arg1) : S4096.Idx → BitVec 32) (ix1 n)) n) 0 := by
  obtain ⟨f0, f2, f3⟩ := Cert.KernelIdeal.Finite.of_pre m hpre c
  have eX : Val0.arrX (Launch.VE0 m) c = fun n k => (m ((c : Thread nD τ).loc main_arg0) : S4096x1024.Idx → EReal) (ix2 n k) :=
    funext fun n => funext fun k => congrFun (Tail.entry_x0 m c) (ix2 n k)
  have eY : Val0.arrY (Launch.VE0 m) c = fun n => (m ((c : Thread nD τ).loc main_arg1) : S4096.Idx → BitVec 32) (ix1 n) :=
    funext fun n => Tail.entry_y0 m c n
  have eW : Val0.arrW (Launch.VE0 m) c
      = colSlice (C := 20000) 0 (by decide) (fun k v => (m ((c : Thread nD τ).loc main_arg3) : S1024x50257.Idx → EReal) (ix2 k v)) :=
    funext fun k => funext fun v => Tail.entry_w0 m c k v
  have eCl : Val0.arrCl (Launch.VE0 m) c
      = fun n => clusterLL (fun n k => (m ((c : Thread nD τ).loc main_arg0) : S4096x1024.Idx → EReal) (ix2 n k))
          (fun j k => (m ((c : Thread nD τ).loc main_arg2) : S3x1024.Idx → EReal) (ix2 j k)) n 0 :=
    funext fun n => entry_cl0 m c n
  have hX : ∀ n k, ∃ a : ℝ, (Launch.VE0 m c main_arg0 : S4096x1024.Idx → EReal) (ix2 n k) = (a : EReal) := fun n k => by
    rw [Tail.entry_x0]; exact f0 _
  have hW : ∀ k v, ∃ a : ℝ, (Launch.VE0 m c main_v5 : S1024x20000.Idx → EReal) (ix2 k v) = (a : EReal) := fun k v => by
    rw [Tail.entry_w0]; exact f3 _
  have hcl : ∀ n, ∃ a : ℝ, (Launch.VE0 m c main_v6 : S4096x1.Idx → EReal) (ix2 n (0 : Fin 1)) = (a : EReal) := fun n => by
    rw [show (Launch.VE0 m c main_v6 : S4096x1.Idx → EReal) (ix2 n (0 : Fin 1)) = _ from entry_cl0 m c n]
    exact clusterLL_real _ _ (fun n k => f0 _) (fun j k => f2 _) n 0
  have hr : n.val / 1024 < 4 := by have := n.isLt; omega
  have hp : n.val % 1024 < 1024 := Nat.mod_lt _ (by decide)
  have hn : n.val = 1024 * (⟨n.val / 1024, hr⟩ : Fin 4).val + (⟨n.val % 1024, hp⟩ : Fin 1024).val := by
    show n.val = 1024 * (n.val / 1024) + n.val % 1024; omega
  have e : n = (⟨1024 * (⟨n.val / 1024, hr⟩ : Fin 4).val + (⟨n.val % 1024, hp⟩ : Fin 1024).val,
      by show 1024 * (n.val / 1024) + n.val % 1024 < 4096; omega⟩ : Fin 4096) := Fin.ext hn
  unfold Launch.out0
  refine (congrArg (fun i : Fin 4096 => (Dat0.dat (Launch.VE0 m) c).arrAt 4 cfg0.N (ix2 i (0 : Fin 1))) e).trans ?_
  refine (Dat0.arrAt_out_apply (Launch.VE0 m) c ⟨n.val / 1024, hr⟩ ⟨n.val % 1024, hp⟩).trans ?_
  rw [Val0.outTile_apply' (Launch.VE0 m) c ⟨n.val / 1024, hr⟩ ⟨n.val % 1024, hp⟩ n hn hX hW hcl, eX, eY, eW, eCl]

/-- The second kernel's column at token n: the second cluster's value under its membership bit. -/
theorem out1_apply (hpre : Cert.Pre_KernelIdeal m) (c : Dev nD) (n : Fin 4096) :
    (Launch.out1 m c : S4096x1.Idx → EReal) (ix2 n (0 : Fin 1))
      = Scalar.select (memBit 20000#32 40000#32 ((m ((c : Thread nD τ).loc main_arg1) : S4096.Idx → BitVec 32) (ix1 n)))
          (clusterVal (C := 20000) (by decide) 20000#32 19999#32
            (fun n k => (m ((c : Thread nD τ).loc main_arg0) : S4096x1024.Idx → EReal) (ix2 n k))
            (colSlice (C := 20000) 20000 (by decide) (fun k v => (m ((c : Thread nD τ).loc main_arg3) : S1024x50257.Idx → EReal) (ix2 k v)))
            (fun n => clusterLL (fun n k => (m ((c : Thread nD τ).loc main_arg0) : S4096x1024.Idx → EReal) (ix2 n k))
              (fun j k => (m ((c : Thread nD τ).loc main_arg2) : S3x1024.Idx → EReal) (ix2 j k)) n 1)
            (fun n => (m ((c : Thread nD τ).loc main_arg1) : S4096.Idx → BitVec 32) (ix1 n)) n) 0 := by
  obtain ⟨f0, f2, f3⟩ := Cert.KernelIdeal.Finite.of_pre m hpre c
  have eX : Val1.arrX (Launch.VE1 m) c = fun n k => (m ((c : Thread nD τ).loc main_arg0) : S4096x1024.Idx → EReal) (ix2 n k) :=
    funext fun n => funext fun k => congrFun (Tail.entry_x1 m c) (ix2 n k)
  have eY : Val1.arrY (Launch.VE1 m) c = fun n => (m ((c : Thread nD τ).loc main_arg1) : S4096.Idx → BitVec 32) (ix1 n) :=
    funext fun n => Tail.entry_y1 m c n
  have eW : Val1.arrW (Launch.VE1 m) c
      = colSlice (C := 20000) 20000 (by decide) (fun k v => (m ((c : Thread nD τ).loc main_arg3) : S1024x50257.Idx → EReal) (ix2 k v)) :=
    funext fun k => funext fun v => Tail.entry_w1 m c k v
  have eCl : Val1.arrCl (Launch.VE1 m) c
      = fun n => clusterLL (fun n k => (m ((c : Thread nD τ).loc main_arg0) : S4096x1024.Idx → EReal) (ix2 n k))
          (fun j k => (m ((c : Thread nD τ).loc main_arg2) : S3x1024.Idx → EReal) (ix2 j k)) n 1 :=
    funext fun n => entry_cl1 m (Launch.outsA m) c n
  have hX : ∀ n k, ∃ a : ℝ, (Launch.VE1 m c main_arg0 : S4096x1024.Idx → EReal) (ix2 n k) = (a : EReal) := fun n k => by
    rw [Tail.entry_x1]; exact f0 _
  have hW : ∀ k v, ∃ a : ℝ, (Launch.VE1 m c main_v15 : S1024x20000.Idx → EReal) (ix2 k v) = (a : EReal) := fun k v => by
    rw [Tail.entry_w1]; exact f3 _
  have hcl : ∀ n, ∃ a : ℝ, (Launch.VE1 m c main_v16 : S4096x1.Idx → EReal) (ix2 n (0 : Fin 1)) = (a : EReal) := fun n => by
    rw [show (Launch.VE1 m c main_v16 : S4096x1.Idx → EReal) (ix2 n (0 : Fin 1)) = _ from entry_cl1 m (Launch.outsA m) c n]
    exact clusterLL_real _ _ (fun n k => f0 _) (fun j k => f2 _) n 1
  have hr : n.val / 1024 < 4 := by have := n.isLt; omega
  have hp : n.val % 1024 < 1024 := Nat.mod_lt _ (by decide)
  have hn : n.val = 1024 * (⟨n.val / 1024, hr⟩ : Fin 4).val + (⟨n.val % 1024, hp⟩ : Fin 1024).val := by
    show n.val = 1024 * (n.val / 1024) + n.val % 1024; omega
  have e : n = (⟨1024 * (⟨n.val / 1024, hr⟩ : Fin 4).val + (⟨n.val % 1024, hp⟩ : Fin 1024).val,
      by show 1024 * (n.val / 1024) + n.val % 1024 < 4096; omega⟩ : Fin 4096) := Fin.ext hn
  unfold Launch.out1
  refine (congrArg (fun i : Fin 4096 => (Dat1.dat (Launch.VE1 m) c).arrAt 4 cfg1.N (ix2 i (0 : Fin 1))) e).trans ?_
  refine (Dat1.arrAt_out_apply (Launch.VE1 m) c ⟨n.val / 1024, hr⟩ ⟨n.val % 1024, hp⟩).trans ?_
  rw [Val1.outTile_apply' (Launch.VE1 m) c ⟨n.val / 1024, hr⟩ ⟨n.val % 1024, hp⟩ n hn hX hW hcl, eX, eY, eW, eCl]

/-- The third kernel's column at token n: the third cluster's value under its membership bit. -/
theorem out2_apply (hpre : Cert.Pre_KernelIdeal m) (c : Dev nD) (n : Fin 4096) :
    (Launch.out2 m c : S4096x1.Idx → EReal) (ix2 n (0 : Fin 1))
      = Scalar.select (memBit 40000#32 50257#32 ((m ((c : Thread nD τ).loc main_arg1) : S4096.Idx → BitVec 32) (ix1 n)))
          (clusterVal (C := 10257) (by decide) 40000#32 10256#32
            (fun n k => (m ((c : Thread nD τ).loc main_arg0) : S4096x1024.Idx → EReal) (ix2 n k))
            (colSlice (C := 10257) 40000 (by decide) (fun k v => (m ((c : Thread nD τ).loc main_arg3) : S1024x50257.Idx → EReal) (ix2 k v)))
            (fun n => clusterLL (fun n k => (m ((c : Thread nD τ).loc main_arg0) : S4096x1024.Idx → EReal) (ix2 n k))
              (fun j k => (m ((c : Thread nD τ).loc main_arg2) : S3x1024.Idx → EReal) (ix2 j k)) n 2)
            (fun n => (m ((c : Thread nD τ).loc main_arg1) : S4096.Idx → BitVec 32) (ix1 n)) n) 0 := by
  obtain ⟨f0, f2, f3⟩ := Cert.KernelIdeal.Finite.of_pre m hpre c
  have eX : Val2.arrX (Launch.VE2 m) c = fun n k => (m ((c : Thread nD τ).loc main_arg0) : S4096x1024.Idx → EReal) (ix2 n k) :=
    funext fun n => funext fun k => congrFun (Tail.entry_x2 m c) (ix2 n k)
  have eY : Val2.arrY (Launch.VE2 m) c = fun n => (m ((c : Thread nD τ).loc main_arg1) : S4096.Idx → BitVec 32) (ix1 n) :=
    funext fun n => Tail.entry_y2 m c n
  have eW : Val2.arrW (Launch.VE2 m) c
      = colSlice (C := 10257) 40000 (by decide) (fun k v => (m ((c : Thread nD τ).loc main_arg3) : S1024x50257.Idx → EReal) (ix2 k v)) :=
    funext fun k => funext fun v => Tail.entry_w2 m c k v
  have eCl : Val2.arrCl (Launch.VE2 m) c
      = fun n => clusterLL (fun n k => (m ((c : Thread nD τ).loc main_arg0) : S4096x1024.Idx → EReal) (ix2 n k))
          (fun j k => (m ((c : Thread nD τ).loc main_arg2) : S3x1024.Idx → EReal) (ix2 j k)) n 2 :=
    funext fun n => entry_cl2 m (Launch.outsB m) c n
  have hX : ∀ n k, ∃ a : ℝ, (Launch.VE2 m c main_arg0 : S4096x1024.Idx → EReal) (ix2 n k) = (a : EReal) := fun n k => by
    rw [Tail.entry_x2]; exact f0 _
  have hW : ∀ k v, ∃ a : ℝ, (Launch.VE2 m c main_v25 : S1024x10257.Idx → EReal) (ix2 k v) = (a : EReal) := fun k v => by
    rw [Tail.entry_w2]; exact f3 _
  have hcl : ∀ n, ∃ a : ℝ, (Launch.VE2 m c main_v26 : S4096x1.Idx → EReal) (ix2 n (0 : Fin 1)) = (a : EReal) := fun n => by
    rw [show (Launch.VE2 m c main_v26 : S4096x1.Idx → EReal) (ix2 n (0 : Fin 1)) = _ from entry_cl2 m (Launch.outsB m) c n]
    exact clusterLL_real _ _ (fun n k => f0 _) (fun j k => f2 _) n 2
  have hr : n.val / 1024 < 4 := by have := n.isLt; omega
  have hp : n.val % 1024 < 1024 := Nat.mod_lt _ (by decide)
  have hn : n.val = 1024 * (⟨n.val / 1024, hr⟩ : Fin 4).val + (⟨n.val % 1024, hp⟩ : Fin 1024).val := by
    show n.val = 1024 * (n.val / 1024) + n.val % 1024; omega
  have e : n = (⟨1024 * (⟨n.val / 1024, hr⟩ : Fin 4).val + (⟨n.val % 1024, hp⟩ : Fin 1024).val,
      by show 1024 * (n.val / 1024) + n.val % 1024 < 4096; omega⟩ : Fin 4096) := Fin.ext hn
  unfold Launch.out2
  refine (congrArg (fun i : Fin 4096 => (Dat2.dat (Launch.VE2 m) c).arrAt 4 cfg2.N (ix2 i (0 : Fin 1))) e).trans ?_
  refine (Dat2.arrAt_out_apply (Launch.VE2 m) c ⟨n.val / 1024, hr⟩ ⟨n.val % 1024, hp⟩).trans ?_
  rw [Val2.outTile_apply' (Launch.VE2 m) c ⟨n.val / 1024, hr⟩ ⟨n.val % 1024, hp⟩ n hn hX hW hcl, eX, eY, eW, eCl]

/-! ## The result -/

/-- The result array of the idealized kernel program is the specification's function of the four argument arrays. -/
theorem result_eq (hpre : Cert.Pre_KernelIdeal m) (c : Dev nD) :
    Launch.resultV m c = Cert.Spec.result (m ((c : Thread nD τ).loc main_arg0)) (m ((c : Thread nD τ).loc main_arg1))
      (m ((c : Thread nD τ).loc main_arg2)) (m ((c : Thread nD τ).loc main_arg3)) := by
  funext i
  obtain ⟨n, rfl⟩ : ∃ n : Fin 4096, i = ix1 n := ⟨i 0, eq_ix1 i⟩
  refine (Tail.resultV_apply m c n).trans ?_
  rw [out0_apply m hpre c n, out1_apply m hpre c n, out2_apply m hpre c n, select_select, select_select, select_select]
  rfl

end Cert.KernelIdeal.Value
end
-- ==== Proof.RefRunH.lean ====
/-
  The reference program's run, read one line of operations at a time. The program is a straight line of 211 host
  operations; cut at the seams where few buffers are live — the cluster head, the zeros, and per vocabulary cluster the
  membership bit, the scores with their log-softmax, the clipped target column, the take, and the closing select — each
  line is read from ANY contents of the buffers: the buffers it does not write keep what they held, and the buffer the
  later lines read holds the stage of the line's inputs. Chaining the lines from the launch contents gives the result
  buffer at the last stage of the four argument arrays, without ever forming the composed term of all operations.
-/
import proofs.«427347_j10273561772327_2_alg».proof.Proof.RefRun
import proofs.«427347_j10273561772327_2_alg».proof.Proof.RefRead

noncomputable section

namespace Cert.ReferenceIdeal.ValueH

open Cert.ReferenceIdeal Cert.ReferenceIdeal.Gen Idealize.ShloMosaic Idealize.ShloMosaic.TcCoe Idealize.SL.Sem Idealize.ShloMosaic.StableHlo
  Cert.ReferenceIdeal.ReadP Cert.ReferenceIdeal.ValueP

variable {F : FTy → Type} [FloatOps F]

/-- Contents carried to a buffer's own type and back are the contents. -/
theorem ofBuf_toBuf {sg : RefSig} {T : BufTy} (x : TRef sg T) (v : T.Contents (Elt F)) : x.ofBuf (x.toBuf v) = v := by
  obtain ⟨r, rfl, _, _⟩ := x; rfl

/-- Running two lines of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The cluster head and the zeros -/

/-- The cluster head: the transposed head matrix, the three scores per token, and their log-softmax. -/
abbrev sHead : List (HloOp τ sig (Elt F)) :=
  [ unary main_arg2 main_v0 ((transpose S1024x3 [1, 0] · transposes_S3x1024_S1024x3_1_0) : (⟨S3x1024, .f32⟩ : BufTy).Contents (Elt F) → (⟨S1024x3, .f32⟩ : BufTy).Contents (Elt F)),
    binary main_arg0 main_v0 main_v1 ((fun l r => Host.dotGeneral dot_S4096x1024_S1024x3_S4096x3_1_0_0_1_n_n none l r) : (⟨S4096x1024, .f32⟩ : BufTy).Contents (Elt F) → (⟨S1024x3, .f32⟩ : BufTy).Contents (Elt F) → (⟨S4096x3, .f32⟩ : BufTy).Contents (Elt F)),
    TRef.nullary (TRef.of (T := ⟨S_, .f32⟩) main_call0_cst) (constant S_ .f32 0xFF800000#32),
    TRef.binary (TRef.of (T := ⟨S4096x3, .f32⟩) main_v1) (TRef.of (T := ⟨S_, .f32⟩) main_call0_cst) (TRef.of (T := ⟨S4096, .f32⟩) main_call0_v0) (fun x v => Host.reduce FloatOps.maximumf x v reducesTo_S4096x3_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x3, .f32⟩) main_call0_v4) (broadcastInDim S4096x3 ![0, 1] bcast_S4096x1_S4096x3_0_1),
    TRef.binary (TRef.of (T := ⟨S4096x3, .f32⟩) main_v1) (TRef.of (T := ⟨S4096x3, .f32⟩) main_call0_v4) (TRef.of (T := ⟨S4096x3, .f32⟩) main_call0_v5) subf,
    TRef.unary (TRef.of (T := ⟨S4096x3, .f32⟩) main_call0_v5) (TRef.of (T := ⟨S4096x3, .f32⟩) main_call0_v6) Host.exp,
    TRef.nullary (TRef.of (T := ⟨S_, .f32⟩) main_call0_cst_1) (constant S_ .f32 0x00000000#32),
    TRef.binary (TRef.of (T := ⟨S4096x3, .f32⟩) main_call0_v6) (TRef.of (T := ⟨S_, .f32⟩) main_call0_cst_1) (TRef.of (T := ⟨S4096, .f32⟩) main_call0_v7) (fun x v => Host.reduceAdd x v reducesTo_S4096x3_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x3, .f32⟩) main_call0_v10) (broadcastInDim S4096x3 ![0, 1] bcast_S4096x1_S4096x3_0_1),
    TRef.binary (TRef.of (T := ⟨S4096x3, .f32⟩) main_call0_v5) (TRef.of (T := ⟨S4096x3, .f32⟩) main_call0_v10) (TRef.of (T := ⟨S4096x3, .f32⟩) main_v2) subf ]

/-- The buffers that line writes. -/
abbrev sHead_W : List (Ref sig .tc) := [main_v0, main_v1, main_call0_cst, main_call0_v0, main_call0_cst_0, main_call0_v1, main_call0_v2, main_call0_v3, main_call0_v4, main_call0_v5, main_call0_v6, main_call0_cst_1, main_call0_v7, main_call0_v8, main_call0_v9, main_call0_v10, main_v2]

theorem sHead_writes : (sHead : List (HloOp τ sig (Elt F))).Forall fun op => op.writes ⊆ (sHead_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sHead_keeps (W : Valuation τ sig (Elt F)) (r : Ref sig .tc) (hr : r ∉ sHead_W) :
    after (sHead (F := F)) W (Proc.devRef .tc r) = W (Proc.devRef .tc r) :=
  after_of_writes_sub sHead W sHead_writes hr

set_option maxRecDepth 8192 in
/-- After the head line the cluster log-probabilities are the stage of the hidden vectors and the head matrix. -/
theorem head (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg2) = a2
      ∧ W (Proc.devRef .tc main_arg3) = a3) :
    after (sHead (F := F)) W (Proc.devRef .tc main_arg0) = a0
      ∧ after (sHead (F := F)) W (Proc.devRef .tc main_arg1) = a1
      ∧ after (sHead (F := F)) W (Proc.devRef .tc main_arg3) = a3
      ∧ after (sHead (F := F)) W (Proc.devRef .tc main_v2) = val_main_v2 (F := F) a0 a2 := by
  obtain ⟨h0, h1, h2, h3⟩ := h
  refine ⟨?_, ?_, ?_, ?_⟩
  · exact (sHead_keeps W main_arg0 (by decide)).trans h0
  · exact (sHead_keeps W main_arg1 (by decide)).trans h1
  · exact (sHead_keeps W main_arg3 (by decide)).trans h3
  · after_results_simp
    rw [h0, h2]
    (try simp only [ofBuf_toBuf])
    rfl

/-- The array of zeros the first select falls back to. -/
abbrev sZero : List (HloOp τ sig (Elt F)) :=
  [ nullary main_cst (constant S_ .f32 0x00000000#32),
    unary main_cst main_v3 (broadcastInDim S4096 ![] bcast_S_S4096 : (⟨S_, .f32⟩ : BufTy).Contents (Elt F) → (⟨S4096, .f32⟩ : BufTy).Contents (Elt F)) ]

/-- The buffers that line writes. -/
abbrev sZero_W : List (Ref sig .tc) := [main_cst, main_v3]

theorem sZero_writes : (sZero : List (HloOp τ sig (Elt F))).Forall fun op => op.writes ⊆ (sZero_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sZero_keeps (W : Valuation τ sig (Elt F)) (r : Ref sig .tc) (hr : r ∉ sZero_W) :
    after (sZero (F := F)) W (Proc.devRef .tc r) = W (Proc.devRef .tc r) :=
  after_of_writes_sub sZero W sZero_writes hr

set_option maxRecDepth 8192 in
/-- After the zeros line the fallback array is its stage. -/
theorem zero (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2) :
    after (sZero (F := F)) W (Proc.devRef .tc main_arg0) = a0
      ∧ after (sZero (F := F)) W (Proc.devRef .tc main_arg1) = a1
      ∧ after (sZero (F := F)) W (Proc.devRef .tc main_arg3) = a3
      ∧ after (sZero (F := F)) W (Proc.devRef .tc main_v2) = val_main_v2 (F := F) a0 a2
      ∧ after (sZero (F := F)) W (Proc.devRef .tc main_v3) = val_main_v3 (F := F) := by
  obtain ⟨h0, h1, h2, h3⟩ := h
  refine ⟨?_, ?_, ?_, ?_, ?_⟩
  · exact (sZero_keeps W main_arg0 (by decide)).trans h0
  · exact (sZero_keeps W main_arg1 (by decide)).trans h1
  · exact (sZero_keeps W main_arg3 (by decide)).trans h2
  · exact (sZero_keeps W main_v2 (by decide)).trans h3
  · after_results_simp
    (try simp only [ofBuf_toBuf])
    rfl

/-! ## Cluster 0 -/

/-- Cluster 0's membership bit. -/
abbrev sMask0 : List (HloOp τ sig (Elt F)) :=
  [ nullary main_c (constantI S_ 32 0#32),
    unary main_c main_v4 (broadcastInDim S4096 ![] bcast_S_S4096 : (⟨S_, .i32⟩ : BufTy).Contents (Elt F) → (⟨S4096, .i32⟩ : BufTy).Contents (Elt F)),
    binary main_arg1 main_v4 main_v5 (cmpi .sge : (⟨S4096, .i32⟩ : BufTy).Contents (Elt F) → (⟨S4096, .i32⟩ : BufTy).Contents (Elt F) → (⟨S4096, .i1⟩ : BufTy).Contents (Elt F)),
    nullary main_c_0 (constantI S_ 32 20000#32),
    unary main_c_0 main_v6 (broadcastInDim S4096 ![] bcast_S_S4096 : (⟨S_, .i32⟩ : BufTy).Contents (Elt F) → (⟨S4096, .i32⟩ : BufTy).Contents (Elt F)),
    binary main_arg1 main_v6 main_v7 (cmpi .slt : (⟨S4096, .i32⟩ : BufTy).Contents (Elt F) → (⟨S4096, .i32⟩ : BufTy).Contents (Elt F) → (⟨S4096, .i1⟩ : BufTy).Contents (Elt F)),
    binary main_v5 main_v7 main_v8 (andi : (⟨S4096, .i1⟩ : BufTy).Contents (Elt F) → (⟨S4096, .i1⟩ : BufTy).Contents (Elt F) → (⟨S4096, .i1⟩ : BufTy).Contents (Elt F)) ]

/-- The buffers that line writes. -/
abbrev sMask0_W : List (Ref sig .tc) := [main_c, main_v4, main_v5, main_c_0, main_v6, main_v7, main_v8]

theorem sMask0_writes : (sMask0 : List (HloOp τ sig (Elt F))).Forall fun op => op.writes ⊆ (sMask0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sMask0_keeps (W : Valuation τ sig (Elt F)) (r : Ref sig .tc) (hr : r ∉ sMask0_W) :
    after (sMask0 (F := F)) W (Proc.devRef .tc r) = W (Proc.devRef .tc r) :=
  after_of_writes_sub sMask0 W sMask0_writes hr

set_option maxRecDepth 8192 in
/-- After the membership line the bit is the stage of the labels. -/
theorem mask0 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v3) = val_main_v3 (F := F)) :
    after (sMask0 (F := F)) W (Proc.devRef .tc main_arg0) = a0
      ∧ after (sMask0 (F := F)) W (Proc.devRef .tc main_arg1) = a1
      ∧ after (sMask0 (F := F)) W (Proc.devRef .tc main_arg3) = a3
      ∧ after (sMask0 (F := F)) W (Proc.devRef .tc main_v2) = val_main_v2 (F := F) a0 a2
      ∧ after (sMask0 (F := F)) W (Proc.devRef .tc main_v3) = val_main_v3 (F := F)
      ∧ after (sMask0 (F := F)) W (Proc.devRef .tc main_v8) = val_main_v8 (F := F) a1 := by
  obtain ⟨h0, h1, h2, h3, h4⟩ := h
  refine ⟨?_, ?_, ?_, ?_, ?_, ?_⟩
  · exact (sMask0_keeps W main_arg0 (by decide)).trans h0
  · exact (sMask0_keeps W main_arg1 (by decide)).trans h1
  · exact (sMask0_keeps W main_arg3 (by decide)).trans h2
  · exact (sMask0_keeps W main_v2 (by decide)).trans h3
  · exact (sMask0_keeps W main_v3 (by decide)).trans h4
  · after_results_simp
    rw [h1]
    (try simp only [ofBuf_toBuf])
    rfl

/-- Cluster 0's scores and their log-softmax. -/
abbrev sLsm0 : List (HloOp τ sig (Elt F)) :=
  [ unary main_arg3 main_v9 ((extractStridedSlice S1024x20000 ![0, 0] · slices_S1024x50257_S1024x20000_0_0) : (⟨S1024x50257, .f32⟩ : BufTy).Contents (Elt F) → (⟨S1024x20000, .f32⟩ : BufTy).Contents (Elt F)),
    binary main_arg0 main_v9 main_v10 ((fun l r => Host.dotGeneral dot_S4096x1024_S1024x20000_S4096x20000_1_0_0_1_n_n none l r) : (⟨S4096x1024, .f32⟩ : BufTy).Contents (Elt F) → (⟨S1024x20000, .f32⟩ : BufTy).Contents (Elt F) → (⟨S4096x20000, .f32⟩ : BufTy).Contents (Elt F)),
    TRef.nullary (TRef.of (T := ⟨S_, .f32⟩) main_call1_cst) (constant S_ .f32 0xFF800000#32),
    TRef.binary (TRef.of (T := ⟨S4096x20000, .f32⟩) main_v10) (TRef.of (T := ⟨S_, .f32⟩) main_call1_cst) (TRef.of (T := ⟨S4096, .f32⟩) main_call1_v0) (fun x v => Host.reduce FloatOps.maximumf x v reducesTo_S4096x20000_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x20000, .f32⟩) main_call1_v4) (broadcastInDim S4096x20000 ![0, 1] bcast_S4096x1_S4096x20000_0_1),
    TRef.binary (TRef.of (T := ⟨S4096x20000, .f32⟩) main_v10) (TRef.of (T := ⟨S4096x20000, .f32⟩) main_call1_v4) (TRef.of (T := ⟨S4096x20000, .f32⟩) main_call1_v5) subf,
    TRef.unary (TRef.of (T := ⟨S4096x20000, .f32⟩) main_call1_v5) (TRef.of (T := ⟨S4096x20000, .f32⟩) main_call1_v6) Host.exp,
    TRef.nullary (TRef.of (T := ⟨S_, .f32⟩) main_call1_cst_1) (constant S_ .f32 0x00000000#32),
    TRef.binary (TRef.of (T := ⟨S4096x20000, .f32⟩) main_call1_v6) (TRef.of (T := ⟨S_, .f32⟩) main_call1_cst_1) (TRef.of (T := ⟨S4096, .f32⟩) main_call1_v7) (fun x v => Host.reduceAdd x v reducesTo_S4096x20000_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x20000, .f32⟩) main_call1_v10) (broadcastInDim S4096x20000 ![0, 1] bcast_S4096x1_S4096x20000_0_1),
    TRef.binary (TRef.of (T := ⟨S4096x20000, .f32⟩) main_call1_v5) (TRef.of (T := ⟨S4096x20000, .f32⟩) main_call1_v10) (TRef.of (T := ⟨S4096x20000, .f32⟩) main_v11) subf ]

/-- The buffers that line writes. -/
abbrev sLsm0_W : List (Ref sig .tc) := [main_v9, main_v10, main_call1_cst, main_call1_v0, main_call1_cst_0, main_call1_v1, main_call1_v2, main_call1_v3, main_call1_v4, main_call1_v5, main_call1_v6, main_call1_cst_1, main_call1_v7, main_call1_v8, main_call1_v9, main_call1_v10, main_v11]

theorem sLsm0_writes : (sLsm0 : List (HloOp τ sig (Elt F))).Forall fun op => op.writes ⊆ (sLsm0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sLsm0_keeps (W : Valuation τ sig (Elt F)) (r : Ref sig .tc) (hr : r ∉ sLsm0_W) :
    after (sLsm0 (F := F)) W (Proc.devRef .tc r) = W (Proc.devRef .tc r) :=
  after_of_writes_sub sLsm0 W sLsm0_writes hr

set_option maxRecDepth 8192 in
/-- After the scores line the log-softmax array is the stage of the hidden vectors and the output matrix. -/
theorem lsm0 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v3) = val_main_v3 (F := F)
      ∧ W (Proc.devRef .tc main_v8) = val_main_v8 (F := F) a1) :
    after (sLsm0 (F := F)) W (Proc.devRef .tc main_arg0) = a0
      ∧ after (sLsm0 (F := F)) W (Proc.devRef .tc main_arg1) = a1
      ∧ after (sLsm0 (F := F)) W (Proc.devRef .tc main_arg3) = a3
      ∧ after (sLsm0 (F := F)) W (Proc.devRef .tc main_v2) = val_main_v2 (F := F) a0 a2
      ∧ after (sLsm0 (F := F)) W (Proc.devRef .tc main_v3) = val_main_v3 (F := F)
      ∧ after (sLsm0 (F := F)) W (Proc.devRef .tc main_v8) = val_main_v8 (F := F) a1
      ∧ after (sLsm0 (F := F)) W (Proc.devRef .tc main_v11) = val_main_v11 (F := F) a0 a3 := by
  obtain ⟨h0, h1, h2, h3, h4, h5⟩ := h
  refine ⟨?_, ?_, ?_, ?_, ?_, ?_, ?_⟩
  · exact (sLsm0_keeps W main_arg0 (by decide)).trans h0
  · exact (sLsm0_keeps W main_arg1 (by decide)).trans h1
  · exact (sLsm0_keeps W main_arg3 (by decide)).trans h2
  · exact (sLsm0_keeps W main_v2 (by decide)).trans h3
  · exact (sLsm0_keeps W main_v3 (by decide)).trans h4
  · exact (sLsm0_keeps W main_v8 (by decide)).trans h5
  · after_results_simp
    rw [h0, h2]
    (try simp only [ofBuf_toBuf])
    rfl

/-- Cluster 0's clipped target column. -/
abbrev sTgt0 : List (HloOp τ sig (Elt F)) :=
  [ nullary main_c_1 (constantI S_ 32 0#32),
    unary main_c_1 main_v12 (broadcastInDim S4096 ![] bcast_S_S4096 : (⟨S_, .i32⟩ : BufTy).Contents (Elt F) → (⟨S4096, .i32⟩ : BufTy).Contents (Elt F)),
    binary main_arg1 main_v12 main_v13 (subi : (⟨S4096, .i32⟩ : BufTy).Contents (Elt F) → (⟨S4096, .i32⟩ : BufTy).Contents (Elt F) → (⟨S4096, .i32⟩ : BufTy).Contents (Elt F)),
    nullary main_c_2 (constantI S_ 32 0#32),
    nullary main_c_3 (constantI S_ 32 19999#32),
    TRef.unary (TRef.of (T := ⟨S_, .i32⟩) main_c_2) (TRef.of (T := ⟨S_, .i32⟩) main_call2_v0) id,
    TRef.unary (TRef.of (T := ⟨S_, .i32⟩) main_call2_v0) (TRef.of (T := ⟨S4096, .i32⟩) main_call2_v1) (broadcastInDim S4096 ![] bcast_S_S4096),
    TRef.binary (TRef.of (T := ⟨S4096, .i32⟩) main_call2_v1) (TRef.of (T := ⟨S4096, .i32⟩) main_v13) (TRef.of (T := ⟨S4096, .i32⟩) main_call2_v2) maxsi,
    TRef.unary (TRef.of (T := ⟨S_, .i32⟩) main_c_3) (TRef.of (T := ⟨S_, .i32⟩) main_call2_v3) id,
    TRef.unary (TRef.of (T := ⟨S_, .i32⟩) main_call2_v3) (TRef.of (T := ⟨S4096, .i32⟩) main_call2_v4) (broadcastInDim S4096 ![] bcast_S_S4096),
    TRef.binary (TRef.of (T := ⟨S4096, .i32⟩) main_call2_v4) (TRef.of (T := ⟨S4096, .i32⟩) main_call2_v2) (TRef.of (T := ⟨S4096, .i32⟩) main_v14) minsi,
    unary main_v14 main_v15 (broadcastInDim S4096x1 ![0] bcast_S4096_S4096x1_0 : (⟨S4096, .i32⟩ : BufTy).Contents (Elt F) → (⟨S4096x1, .i32⟩ : BufTy).Contents (Elt F)) ]

/-- The buffers that line writes. -/
abbrev sTgt0_W : List (Ref sig .tc) := [main_c_1, main_v12, main_v13, main_c_2, main_c_3, main_call2_v0, main_call2_v1, main_call2_v2, main_call2_v3, main_call2_v4, main_v14, main_v15]

theorem sTgt0_writes : (sTgt0 : List (HloOp τ sig (Elt F))).Forall fun op => op.writes ⊆ (sTgt0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTgt0_keeps (W : Valuation τ sig (Elt F)) (r : Ref sig .tc) (hr : r ∉ sTgt0_W) :
    after (sTgt0 (F := F)) W (Proc.devRef .tc r) = W (Proc.devRef .tc r) :=
  after_of_writes_sub sTgt0 W sTgt0_writes hr

set_option maxRecDepth 8192 in
/-- After the target line the column of clipped targets is the stage of the labels. -/
theorem tgt0 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v3) = val_main_v3 (F := F)
      ∧ W (Proc.devRef .tc main_v8) = val_main_v8 (F := F) a1
      ∧ W (Proc.devRef .tc main_v11) = val_main_v11 (F := F) a0 a3) :
    after (sTgt0 (F := F)) W (Proc.devRef .tc main_arg0) = a0
      ∧ after (sTgt0 (F := F)) W (Proc.devRef .tc main_arg1) = a1
      ∧ after (sTgt0 (F := F)) W (Proc.devRef .tc main_arg3) = a3
      ∧ after (sTgt0 (F := F)) W (Proc.devRef .tc main_v2) = val_main_v2 (F := F) a0 a2
      ∧ after (sTgt0 (F := F)) W (Proc.devRef .tc main_v3) = val_main_v3 (F := F)
      ∧ after (sTgt0 (F := F)) W (Proc.devRef .tc main_v8) = val_main_v8 (F := F) a1
      ∧ after (sTgt0 (F := F)) W (Proc.devRef .tc main_v11) = val_main_v11 (F := F) a0 a3
      ∧ after (sTgt0 (F := F)) W (Proc.devRef .tc main_v15) = val_main_v15 (F := F) a1 := by
  obtain ⟨h0, h1, h2, h3, h4, h5, h6⟩ := h
  refine ⟨?_, ?_, ?_, ?_, ?_, ?_, ?_, ?_⟩
  · exact (sTgt0_keeps W main_arg0 (by decide)).trans h0
  · exact (sTgt0_keeps W main_arg1 (by decide)).trans h1
  · exact (sTgt0_keeps W main_arg3 (by decide)).trans h2
  · exact (sTgt0_keeps W main_v2 (by decide)).trans h3
  · exact (sTgt0_keeps W main_v3 (by decide)).trans h4
  · exact (sTgt0_keeps W main_v8 (by decide)).trans h5
  · exact (sTgt0_keeps W main_v11 (by decide)).trans h6
  · after_results_simp
    rw [h1]
    (try simp only [ofBuf_toBuf])
    rfl

/-- The entry of cluster 0's log-softmax taken at the target column. -/
abbrev sTake0 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v15) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 20000#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v15) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v15) (TRef.of (T := ⟨S4096x1, .i32⟩) main_call3_v4) select,
    TRef.reshape (TRef.of (T := ⟨S4096x1, .i32⟩) main_call3_v4) (TRef.of (T := ⟨S4096x1x1, .i32⟩) main_call3_v5) rfl shapeCasts_S4096x1_S4096x1x1,
    TRef.nullary (TRef.of (T := ⟨S1, .i32⟩) main_call3_c_1) (constantI S1 32 19999#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_),
    TRef.binary (TRef.of (T := ⟨S4096x20000, .f32⟩) main_v11) (TRef.of (T := ⟨S4096x1x1, .i32⟩) main_call3_v5) (TRef.of (T := ⟨S4096x1, .f32⟩) main_call3_v13) (fun x i => Host.gather gather_S4096x20000_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v16) select ]

/-- The buffers that line writes. -/
abbrev sTake0_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v16]

theorem sTake0_writes : (sTake0 : List (HloOp τ sig (Elt F))).Forall fun op => op.writes ⊆ (sTake0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTake0_keeps (W : Valuation τ sig (Elt F)) (r : Ref sig .tc) (hr : r ∉ sTake0_W) :
    after (sTake0 (F := F)) W (Proc.devRef .tc r) = W (Proc.devRef .tc r) :=
  after_of_writes_sub sTake0 W sTake0_writes hr

set_option maxRecDepth 8192 in
/-- After the take line the taken column is the stage of its two inputs' stages. -/
theorem take0 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v3) = val_main_v3 (F := F)
      ∧ W (Proc.devRef .tc main_v8) = val_main_v8 (F := F) a1
      ∧ W (Proc.devRef .tc main_v11) = val_main_v11 (F := F) a0 a3
      ∧ W (Proc.devRef .tc main_v15) = val_main_v15 (F := F) a1) :
    after (sTake0 (F := F)) W (Proc.devRef .tc main_arg0) = a0
      ∧ after (sTake0 (F := F)) W (Proc.devRef .tc main_arg1) = a1
      ∧ after (sTake0 (F := F)) W (Proc.devRef .tc main_arg3) = a3
      ∧ after (sTake0 (F := F)) W (Proc.devRef .tc main_v2) = val_main_v2 (F := F) a0 a2
      ∧ after (sTake0 (F := F)) W (Proc.devRef .tc main_v3) = val_main_v3 (F := F)
      ∧ after (sTake0 (F := F)) W (Proc.devRef .tc main_v8) = val_main_v8 (F := F) a1
      ∧ after (sTake0 (F := F)) W (Proc.devRef .tc main_v16) = val_main_v16 (F := F) a0 a1 a3 := by
  obtain ⟨h0, h1, h2, h3, h4, h5, h6, h7⟩ := h
  refine ⟨?_, ?_, ?_, ?_, ?_, ?_, ?_⟩
  · exact (sTake0_keeps W main_arg0 (by decide)).trans h0
  · exact (sTake0_keeps W main_arg1 (by decide)).trans h1
  · exact (sTake0_keeps W main_arg3 (by decide)).trans h2
  · exact (sTake0_keeps W main_v2 (by decide)).trans h3
  · exact (sTake0_keeps W main_v3 (by decide)).trans h4
  · exact (sTake0_keeps W main_v8 (by decide)).trans h5
  · after_results_simp
    rw [h6, h7]
    (try simp only [ofBuf_toBuf])
    rfl

/-- Cluster 0's value and the select that folds it into the result so far. -/
abbrev sTail0 : List (HloOp τ sig (Elt F)) :=
  [ reshape main_v16 main_v17 rfl shapeCasts_S4096x1_S4096,
    unary main_v2 main_v18 ((extractStridedSlice S4096x1 ![0, 0] · slices_S4096x3_S4096x1_0_0) : (⟨S4096x3, .f32⟩ : BufTy).Contents (Elt F) → (⟨S4096x1, .f32⟩ : BufTy).Contents (Elt F)),
    reshape main_v18 main_v19 rfl shapeCasts_S4096x1_S4096,
    unary main_v19 main_v20 (Host.negf : (⟨S4096, .f32⟩ : BufTy).Contents (Elt F) → (⟨S4096, .f32⟩ : BufTy).Contents (Elt F)),
    binary main_v20 main_v17 main_v21 (subf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v8) (TRef.of (T := ⟨S4096, .f32⟩) main_v21) (TRef.of (T := ⟨S4096, .f32⟩) main_v3) (TRef.of (T := ⟨S4096, .f32⟩) main_v22) select ]

/-- The buffers that line writes. -/
abbrev sTail0_W : List (Ref sig .tc) := [main_v17, main_v18, main_v19, main_v20, main_v21, main_v22]

theorem sTail0_writes : (sTail0 : List (HloOp τ sig (Elt F))).Forall fun op => op.writes ⊆ (sTail0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTail0_keeps (W : Valuation τ sig (Elt F)) (r : Ref sig .tc) (hr : r ∉ sTail0_W) :
    after (sTail0 (F := F)) W (Proc.devRef .tc r) = W (Proc.devRef .tc r) :=
  after_of_writes_sub sTail0 W sTail0_writes hr

set_option maxRecDepth 8192 in
/-- After the closing line the result so far is the stage that folds this cluster in. -/
theorem tail0 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v3) = val_main_v3 (F := F)
      ∧ W (Proc.devRef .tc main_v8) = val_main_v8 (F := F) a1
      ∧ W (Proc.devRef .tc main_v16) = val_main_v16 (F := F) a0 a1 a3) :
    after (sTail0 (F := F)) W (Proc.devRef .tc main_arg0) = a0
      ∧ after (sTail0 (F := F)) W (Proc.devRef .tc main_arg1) = a1
      ∧ after (sTail0 (F := F)) W (Proc.devRef .tc main_arg3) = a3
      ∧ after (sTail0 (F := F)) W (Proc.devRef .tc main_v2) = val_main_v2 (F := F) a0 a2
      ∧ after (sTail0 (F := F)) W (Proc.devRef .tc main_v22) = val_main_v22 (F := F) a0 a1 a2 a3 := by
  obtain ⟨h0, h1, h2, h3, h4, h5, h6⟩ := h
  refine ⟨?_, ?_, ?_, ?_, ?_⟩
  · exact (sTail0_keeps W main_arg0 (by decide)).trans h0
  · exact (sTail0_keeps W main_arg1 (by decide)).trans h1
  · exact (sTail0_keeps W main_arg3 (by decide)).trans h2
  · exact (sTail0_keeps W main_v2 (by decide)).trans h3
  · after_results_simp
    rw [h3, h4, h5, h6]
    (try simp only [ofBuf_toBuf])
    rfl

/-! ## Cluster 1 -/

/-- Cluster 1's membership bit. -/
abbrev sMask1 : List (HloOp τ sig (Elt F)) :=
  [ nullary main_c_4 (constantI S_ 32 20000#32),
    unary main_c_4 main_v23 (broadcastInDim S4096 ![] bcast_S_S4096 : (⟨S_, .i32⟩ : BufTy).Contents (Elt F) → (⟨S4096, .i32⟩ : BufTy).Contents (Elt F)),
    binary main_arg1 main_v23 main_v24 (cmpi .sge : (⟨S4096, .i32⟩ : BufTy).Contents (Elt F) → (⟨S4096, .i32⟩ : BufTy).Contents (Elt F) → (⟨S4096, .i1⟩ : BufTy).Contents (Elt F)),
    nullary main_c_5 (constantI S_ 32 40000#32),
    unary main_c_5 main_v25 (broadcastInDim S4096 ![] bcast_S_S4096 : (⟨S_, .i32⟩ : BufTy).Contents (Elt F) → (⟨S4096, .i32⟩ : BufTy).Contents (Elt F)),
    binary main_arg1 main_v25 main_v26 (cmpi .slt : (⟨S4096, .i32⟩ : BufTy).Contents (Elt F) → (⟨S4096, .i32⟩ : BufTy).Contents (Elt F) → (⟨S4096, .i1⟩ : BufTy).Contents (Elt F)),
    binary main_v24 main_v26 main_v27 (andi : (⟨S4096, .i1⟩ : BufTy).Contents (Elt F) → (⟨S4096, .i1⟩ : BufTy).Contents (Elt F) → (⟨S4096, .i1⟩ : BufTy).Contents (Elt F)) ]

/-- The buffers that line writes. -/
abbrev sMask1_W : List (Ref sig .tc) := [main_c_4, main_v23, main_v24, main_c_5, main_v25, main_v26, main_v27]

theorem sMask1_writes : (sMask1 : List (HloOp τ sig (Elt F))).Forall fun op => op.writes ⊆ (sMask1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sMask1_keeps (W : Valuation τ sig (Elt F)) (r : Ref sig .tc) (hr : r ∉ sMask1_W) :
    after (sMask1 (F := F)) W (Proc.devRef .tc r) = W (Proc.devRef .tc r) :=
  after_of_writes_sub sMask1 W sMask1_writes hr

set_option maxRecDepth 8192 in
/-- After the membership line the bit is the stage of the labels. -/
theorem mask1 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v22) = val_main_v22 (F := F) a0 a1 a2 a3) :
    after (sMask1 (F := F)) W (Proc.devRef .tc main_arg0) = a0
      ∧ after (sMask1 (F := F)) W (Proc.devRef .tc main_arg1) = a1
      ∧ after (sMask1 (F := F)) W (Proc.devRef .tc main_arg3) = a3
      ∧ after (sMask1 (F := F)) W (Proc.devRef .tc main_v2) = val_main_v2 (F := F) a0 a2
      ∧ after (sMask1 (F := F)) W (Proc.devRef .tc main_v22) = val_main_v22 (F := F) a0 a1 a2 a3
      ∧ after (sMask1 (F := F)) W (Proc.devRef .tc main_v27) = val_main_v27 (F := F) a1 := by
  obtain ⟨h0, h1, h2, h3, h4⟩ := h
  refine ⟨?_, ?_, ?_, ?_, ?_, ?_⟩
  · exact (sMask1_keeps W main_arg0 (by decide)).trans h0
  · exact (sMask1_keeps W main_arg1 (by decide)).trans h1
  · exact (sMask1_keeps W main_arg3 (by decide)).trans h2
  · exact (sMask1_keeps W main_v2 (by decide)).trans h3
  · exact (sMask1_keeps W main_v22 (by decide)).trans h4
  · after_results_simp
    rw [h1]
    (try simp only [ofBuf_toBuf])
    rfl

/-- Cluster 1's scores and their log-softmax. -/
abbrev sLsm1 : List (HloOp τ sig (Elt F)) :=
  [ unary main_arg3 main_v28 ((extractStridedSlice S1024x20000 ![0, 20000] · slices_S1024x50257_S1024x20000_0_20000) : (⟨S1024x50257, .f32⟩ : BufTy).Contents (Elt F) → (⟨S1024x20000, .f32⟩ : BufTy).Contents (Elt F)),
    binary main_arg0 main_v28 main_v29 ((fun l r => Host.dotGeneral dot_S4096x1024_S1024x20000_S4096x20000_1_0_0_1_n_n none l r) : (⟨S4096x1024, .f32⟩ : BufTy).Contents (Elt F) → (⟨S1024x20000, .f32⟩ : BufTy).Contents (Elt F) → (⟨S4096x20000, .f32⟩ : BufTy).Contents (Elt F)),
    TRef.nullary (TRef.of (T := ⟨S_, .f32⟩) main_call5_cst) (constant S_ .f32 0xFF800000#32),
    TRef.binary (TRef.of (T := ⟨S4096x20000, .f32⟩) main_v29) (TRef.of (T := ⟨S_, .f32⟩) main_call5_cst) (TRef.of (T := ⟨S4096, .f32⟩) main_call5_v0) (fun x v => Host.reduce FloatOps.maximumf x v reducesTo_S4096x20000_S4096_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S4096, .f32⟩) main_call5_v1) (broadcastInDim S4096 ![] bcast_S_S4096),
    TRef.binary (TRef.of (T := ⟨S4096, .f32⟩) main_call5_v1) (TRef.of (T := ⟨S4096, .f32⟩) main_call5_v0) (TRef.of (T := ⟨S4096, .f32⟩) main_call5_v2) maximumf,
    TRef.unary (TRef.of (T := ⟨S4096, .f32⟩) main_call5_v2) (TRef.of (T := ⟨S4096x1, .f32⟩) main_call5_v3) (broadcastInDim S4096x1 ![0] bcast_S4096_S4096x1_0),
    TRef.unary (TRef.of (T := ⟨S4096x1, .f32⟩) main_call5_v3) (TRef.of (T := ⟨S4096x20000, .f32⟩) main_call5_v4) (broadcastInDim S4096x20000 ![0, 1] bcast_S4096x1_S4096x20000_0_1),
    TRef.binary (TRef.of (T := ⟨S4096x20000, .f32⟩) main_v29) (TRef.of (T := ⟨S4096x20000, .f32⟩) main_call5_v4) (TRef.of (T := ⟨S4096x20000, .f32⟩) main_call5_v5) subf,
    TRef.unary (TRef.of (T := ⟨S4096x20000, .f32⟩) main_call5_v5) (TRef.of (T := ⟨S4096x20000, .f32⟩) main_call5_v6) Host.exp,
    TRef.nullary (TRef.of (T := ⟨S_, .f32⟩) main_call5_cst_1) (constant S_ .f32 0x00000000#32),
    TRef.binary (TRef.of (T := ⟨S4096x20000, .f32⟩) main_call5_v6) (TRef.of (T := ⟨S_, .f32⟩) main_call5_cst_1) (TRef.of (T := ⟨S4096, .f32⟩) main_call5_v7) (fun x v => Host.reduceAdd x v reducesTo_S4096x20000_S4096_d1 h_S_),
    TRef.unary (TRef.of (T := ⟨S4096, .f32⟩) main_call5_v7) (TRef.of (T := ⟨S4096x1, .f32⟩) main_call5_v8) (broadcastInDim S4096x1 ![0] bcast_S4096_S4096x1_0),
    TRef.unary (TRef.of (T := ⟨S4096x1, .f32⟩) main_call5_v8) (TRef.of (T := ⟨S4096x1, .f32⟩) main_call5_v9) Host.log,
    TRef.unary (TRef.of (T := ⟨S4096x1, .f32⟩) main_call5_v9) (TRef.of (T := ⟨S4096x20000, .f32⟩) main_call5_v10) (broadcastInDim S4096x20000 ![0, 1] bcast_S4096x1_S4096x20000_0_1),
    TRef.binary (TRef.of (T := ⟨S4096x20000, .f32⟩) main_call5_v5) (TRef.of (T := ⟨S4096x20000, .f32⟩) main_call5_v10) (TRef.of (T := ⟨S4096x20000, .f32⟩) main_v30) subf ]

/-- The buffers that line writes. -/
abbrev sLsm1_W : List (Ref sig .tc) := [main_v28, main_v29, main_call5_cst, main_call5_v0, main_call5_cst_0, main_call5_v1, main_call5_v2, main_call5_v3, main_call5_v4, main_call5_v5, main_call5_v6, main_call5_cst_1, main_call5_v7, main_call5_v8, main_call5_v9, main_call5_v10, main_v30]

theorem sLsm1_writes : (sLsm1 : List (HloOp τ sig (Elt F))).Forall fun op => op.writes ⊆ (sLsm1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sLsm1_keeps (W : Valuation τ sig (Elt F)) (r : Ref sig .tc) (hr : r ∉ sLsm1_W) :
    after (sLsm1 (F := F)) W (Proc.devRef .tc r) = W (Proc.devRef .tc r) :=
  after_of_writes_sub sLsm1 W sLsm1_writes hr

set_option maxRecDepth 8192 in
/-- After the scores line the log-softmax array is the stage of the hidden vectors and the output matrix. -/
theorem lsm1 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v22) = val_main_v22 (F := F) a0 a1 a2 a3
      ∧ W (Proc.devRef .tc main_v27) = val_main_v27 (F := F) a1) :
    after (sLsm1 (F := F)) W (Proc.devRef .tc main_arg0) = a0
      ∧ after (sLsm1 (F := F)) W (Proc.devRef .tc main_arg1) = a1
      ∧ after (sLsm1 (F := F)) W (Proc.devRef .tc main_arg3) = a3
      ∧ after (sLsm1 (F := F)) W (Proc.devRef .tc main_v2) = val_main_v2 (F := F) a0 a2
      ∧ after (sLsm1 (F := F)) W (Proc.devRef .tc main_v22) = val_main_v22 (F := F) a0 a1 a2 a3
      ∧ after (sLsm1 (F := F)) W (Proc.devRef .tc main_v27) = val_main_v27 (F := F) a1
      ∧ after (sLsm1 (F := F)) W (Proc.devRef .tc main_v30) = val_main_v30 (F := F) a0 a3 := by
  obtain ⟨h0, h1, h2, h3, h4, h5⟩ := h
  refine ⟨?_, ?_, ?_, ?_, ?_, ?_, ?_⟩
  · exact (sLsm1_keeps W main_arg0 (by decide)).trans h0
  · exact (sLsm1_keeps W main_arg1 (by decide)).trans h1
  · exact (sLsm1_keeps W main_arg3 (by decide)).trans h2
  · exact (sLsm1_keeps W main_v2 (by decide)).trans h3
  · exact (sLsm1_keeps W main_v22 (by decide)).trans h4
  · exact (sLsm1_keeps W main_v27 (by decide)).trans h5
  · after_results_simp
    rw [h0, h2]
    (try simp only [ofBuf_toBuf])
    rfl

/-- Cluster 1's clipped target column. -/
abbrev sTgt1 : List (HloOp τ sig (Elt F)) :=
  [ nullary main_c_6 (constantI S_ 32 20000#32),
    unary main_c_6 main_v31 (broadcastInDim S4096 ![] bcast_S_S4096 : (⟨S_, .i32⟩ : BufTy).Contents (Elt F) → (⟨S4096, .i32⟩ : BufTy).Contents (Elt F)),
    binary main_arg1 main_v31 main_v32 (subi : (⟨S4096, .i32⟩ : BufTy).Contents (Elt F) → (⟨S4096, .i32⟩ : BufTy).Contents (Elt F) → (⟨S4096, .i32⟩ : BufTy).Contents (Elt F)),
    nullary main_c_7 (constantI S_ 32 0#32),
    nullary main_c_8 (constantI S_ 32 19999#32),
    TRef.unary (TRef.of (T := ⟨S_, .i32⟩) main_c_7) (TRef.of (T := ⟨S_, .i32⟩) main_call6_v0) id,
    TRef.unary (TRef.of (T := ⟨S_, .i32⟩) main_call6_v0) (TRef.of (T := ⟨S4096, .i32⟩) main_call6_v1) (broadcastInDim S4096 ![] bcast_S_S4096),
    TRef.binary (TRef.of (T := ⟨S4096, .i32⟩) main_call6_v1) (TRef.of (T := ⟨S4096, .i32⟩) main_v32) (TRef.of (T := ⟨S4096, .i32⟩) main_call6_v2) maxsi,
    TRef.unary (TRef.of (T := ⟨S_, .i32⟩) main_c_8) (TRef.of (T := ⟨S_, .i32⟩) main_call6_v3) id,
    TRef.unary (TRef.of (T := ⟨S_, .i32⟩) main_call6_v3) (TRef.of (T := ⟨S4096, .i32⟩) main_call6_v4) (broadcastInDim S4096 ![] bcast_S_S4096),
    TRef.binary (TRef.of (T := ⟨S4096, .i32⟩) main_call6_v4) (TRef.of (T := ⟨S4096, .i32⟩) main_call6_v2) (TRef.of (T := ⟨S4096, .i32⟩) main_v33) minsi,
    unary main_v33 main_v34 (broadcastInDim S4096x1 ![0] bcast_S4096_S4096x1_0 : (⟨S4096, .i32⟩ : BufTy).Contents (Elt F) → (⟨S4096x1, .i32⟩ : BufTy).Contents (Elt F)) ]

/-- The buffers that line writes. -/
abbrev sTgt1_W : List (Ref sig .tc) := [main_c_6, main_v31, main_v32, main_c_7, main_c_8, main_call6_v0, main_call6_v1, main_call6_v2, main_call6_v3, main_call6_v4, main_v33, main_v34]

theorem sTgt1_writes : (sTgt1 : List (HloOp τ sig (Elt F))).Forall fun op => op.writes ⊆ (sTgt1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTgt1_keeps (W : Valuation τ sig (Elt F)) (r : Ref sig .tc) (hr : r ∉ sTgt1_W) :
    after (sTgt1 (F := F)) W (Proc.devRef .tc r) = W (Proc.devRef .tc r) :=
  after_of_writes_sub sTgt1 W sTgt1_writes hr

set_option maxRecDepth 8192 in
/-- After the target line the column of clipped targets is the stage of the labels. -/
theorem tgt1 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v22) = val_main_v22 (F := F) a0 a1 a2 a3
      ∧ W (Proc.devRef .tc main_v27) = val_main_v27 (F := F) a1
      ∧ W (Proc.devRef .tc main_v30) = val_main_v30 (F := F) a0 a3) :
    after (sTgt1 (F := F)) W (Proc.devRef .tc main_arg0) = a0
      ∧ after (sTgt1 (F := F)) W (Proc.devRef .tc main_arg1) = a1
      ∧ after (sTgt1 (F := F)) W (Proc.devRef .tc main_arg3) = a3
      ∧ after (sTgt1 (F := F)) W (Proc.devRef .tc main_v2) = val_main_v2 (F := F) a0 a2
      ∧ after (sTgt1 (F := F)) W (Proc.devRef .tc main_v22) = val_main_v22 (F := F) a0 a1 a2 a3
      ∧ after (sTgt1 (F := F)) W (Proc.devRef .tc main_v27) = val_main_v27 (F := F) a1
      ∧ after (sTgt1 (F := F)) W (Proc.devRef .tc main_v30) = val_main_v30 (F := F) a0 a3
      ∧ after (sTgt1 (F := F)) W (Proc.devRef .tc main_v34) = val_main_v34 (F := F) a1 := by
  obtain ⟨h0, h1, h2, h3, h4, h5, h6⟩ := h
  refine ⟨?_, ?_, ?_, ?_, ?_, ?_, ?_, ?_⟩
  · exact (sTgt1_keeps W main_arg0 (by decide)).trans h0
  · exact (sTgt1_keeps W main_arg1 (by decide)).trans h1
  · exact (sTgt1_keeps W main_arg3 (by decide)).trans h2
  · exact (sTgt1_keeps W main_v2 (by decide)).trans h3
  · exact (sTgt1_keeps W main_v22 (by decide)).trans h4
  · exact (sTgt1_keeps W main_v27 (by decide)).trans h5
  · exact (sTgt1_keeps W main_v30 (by decide)).trans h6
  · after_results_simp
    rw [h1]
    (try simp only [ofBuf_toBuf])
    rfl

/-- The entry of cluster 1's log-softmax taken at the target column. -/
abbrev sTake1 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S4096x1, .i32⟩) main_call7_v0) (broadcastInDim S4096x1 ![] bcast_S_S4096x1),
    TRef.binary (TRef.of (T := ⟨S4096x1, .i32⟩) main_v34) (TRef.of (T := ⟨S4096x1, .i32⟩) main_call7_v0) (TRef.of (T := ⟨S4096x1, .i1⟩) main_call7_v1) (cmpi .slt),
    TRef.nullary (TRef.of (T := ⟨S_, .i32⟩) main_call7_c_0) (constantI S_ 32 20000#32),
    TRef.unary (TRef.of (T := ⟨S_, .i32⟩) main_call7_c_0) (TRef.of (T := ⟨S4096x1, .i32⟩) main_call7_v2) (broadcastInDim S4096x1 ![] bcast_S_S4096x1),
    TRef.binary (TRef.of (T := ⟨S4096x1, .i32⟩) main_v34) (TRef.of (T := ⟨S4096x1, .i32⟩) main_call7_v2) (TRef.of (T := ⟨S4096x1, .i32⟩) main_call7_v3) addi,
    TRef.ternary (TRef.of (T := ⟨S4096x1, .i1⟩) main_call7_v1) (TRef.of (T := ⟨S4096x1, .i32⟩) main_call7_v3) (TRef.of (T := ⟨S4096x1, .i32⟩) main_v34) (TRef.of (T := ⟨S4096x1, .i32⟩) main_call7_v4) select,
    TRef.reshape (TRef.of (T := ⟨S4096x1, .i32⟩) main_call7_v4) (TRef.of (T := ⟨S4096x1x1, .i32⟩) main_call7_v5) rfl shapeCasts_S4096x1_S4096x1x1,
    TRef.nullary (TRef.of (T := ⟨S1, .i32⟩) main_call7_c_1) (constantI S1 32 19999#32),
    TRef.nullary (TRef.of (T := ⟨S_, .i32⟩) main_call7_c_2) (constantI S_ 32 0#32),
    TRef.unary (TRef.of (T := ⟨S_, .i32⟩) main_call7_c_2) (TRef.of (T := ⟨S4096x1x1, .i32⟩) main_call7_v6) (broadcastInDim S4096x1x1 ![] bcast_S_S4096x1x1),
    TRef.binary (TRef.of (T := ⟨S4096x1x1, .i32⟩) main_call7_v5) (TRef.of (T := ⟨S4096x1x1, .i32⟩) main_call7_v6) (TRef.of (T := ⟨S4096x1x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4096x1x1, .i32⟩) main_call7_v9) (broadcastInDim S4096x1x1 ![0, 1, 2] bcast_S1x1x1_S4096x1x1_0_1_2),
    TRef.binary (TRef.of (T := ⟨S4096x1x1, .i32⟩) main_call7_v5) (TRef.of (T := ⟨S4096x1x1, .i32⟩) main_call7_v9) (TRef.of (T := ⟨S4096x1x1, .i1⟩) main_call7_v10) (cmpi .sle),
    TRef.binary (TRef.of (T := ⟨S4096x1x1, .i1⟩) main_call7_v7) (TRef.of (T := ⟨S4096x1x1, .i1⟩) main_call7_v10) (TRef.of (T := ⟨S4096x1x1, .i1⟩) main_call7_v11) andi,
    TRef.nullary (TRef.of (T := ⟨S_, .i1⟩) main_call7_c_3) (constantI S_ 1 1#1),
    TRef.binary (TRef.of (T := ⟨S4096x1x1, .i1⟩) main_call7_v11) (TRef.of (T := ⟨S_, .i1⟩) main_call7_c_3) (TRef.of (T := ⟨S4096x1, .i1⟩) main_call7_v12) (fun x v => Host.reduce IntOp.andi x v reducesTo_S4096x1x1_S4096x1_d2 h_S_),
    TRef.binary (TRef.of (T := ⟨S4096x20000, .f32⟩) main_v30) (TRef.of (T := ⟨S4096x1x1, .i32⟩) main_call7_v5) (TRef.of (T := ⟨S4096x1, .f32⟩) main_call7_v13) (fun x i => Host.gather gather_S4096x20000_S4096x1x1_S4096x1_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S4096x1, .f32⟩) main_call7_v14) (broadcastInDim S4096x1 ![] bcast_S_S4096x1),
    TRef.ternary (TRef.of (T := ⟨S4096x1, .i1⟩) main_call7_v12) (TRef.of (T := ⟨S4096x1, .f32⟩) main_call7_v13) (TRef.of (T := ⟨S4096x1, .f32⟩) main_call7_v14) (TRef.of (T := ⟨S4096x1, .f32⟩) main_v35) select ]

/-- The buffers that line writes. -/
abbrev sTake1_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v35]

theorem sTake1_writes : (sTake1 : List (HloOp τ sig (Elt F))).Forall fun op => op.writes ⊆ (sTake1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTake1_keeps (W : Valuation τ sig (Elt F)) (r : Ref sig .tc) (hr : r ∉ sTake1_W) :
    after (sTake1 (F := F)) W (Proc.devRef .tc r) = W (Proc.devRef .tc r) :=
  after_of_writes_sub sTake1 W sTake1_writes hr

set_option maxRecDepth 8192 in
/-- After the take line the taken column is the stage of its two inputs' stages. -/
theorem take1 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v22) = val_main_v22 (F := F) a0 a1 a2 a3
      ∧ W (Proc.devRef .tc main_v27) = val_main_v27 (F := F) a1
      ∧ W (Proc.devRef .tc main_v30) = val_main_v30 (F := F) a0 a3
      ∧ W (Proc.devRef .tc main_v34) = val_main_v34 (F := F) a1) :
    after (sTake1 (F := F)) W (Proc.devRef .tc main_arg0) = a0
      ∧ after (sTake1 (F := F)) W (Proc.devRef .tc main_arg1) = a1
      ∧ after (sTake1 (F := F)) W (Proc.devRef .tc main_arg3) = a3
      ∧ after (sTake1 (F := F)) W (Proc.devRef .tc main_v2) = val_main_v2 (F := F) a0 a2
      ∧ after (sTake1 (F := F)) W (Proc.devRef .tc main_v22) = val_main_v22 (F := F) a0 a1 a2 a3
      ∧ after (sTake1 (F := F)) W (Proc.devRef .tc main_v27) = val_main_v27 (F := F) a1
      ∧ after (sTake1 (F := F)) W (Proc.devRef .tc main_v35) = val_main_v35 (F := F) a0 a1 a3 := by
  obtain ⟨h0, h1, h2, h3, h4, h5, h6, h7⟩ := h
  refine ⟨?_, ?_, ?_, ?_, ?_, ?_, ?_⟩
  · exact (sTake1_keeps W main_arg0 (by decide)).trans h0
  · exact (sTake1_keeps W main_arg1 (by decide)).trans h1
  · exact (sTake1_keeps W main_arg3 (by decide)).trans h2
  · exact (sTake1_keeps W main_v2 (by decide)).trans h3
  · exact (sTake1_keeps W main_v22 (by decide)).trans h4
  · exact (sTake1_keeps W main_v27 (by decide)).trans h5
  · after_results_simp
    rw [h6, h7]
    (try simp only [ofBuf_toBuf])
    rfl

/-- Cluster 1's value and the select that folds it into the result so far. -/
abbrev sTail1 : List (HloOp τ sig (Elt F)) :=
  [ reshape main_v35 main_v36 rfl shapeCasts_S4096x1_S4096,
    unary main_v2 main_v37 ((extractStridedSlice S4096x1 ![0, 1] · slices_S4096x3_S4096x1_0_1) : (⟨S4096x3, .f32⟩ : BufTy).Contents (Elt F) → (⟨S4096x1, .f32⟩ : BufTy).Contents (Elt F)),
    reshape main_v37 main_v38 rfl shapeCasts_S4096x1_S4096,
    unary main_v38 main_v39 (Host.negf : (⟨S4096, .f32⟩ : BufTy).Contents (Elt F) → (⟨S4096, .f32⟩ : BufTy).Contents (Elt F)),
    binary main_v39 main_v36 main_v40 (subf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v27) (TRef.of (T := ⟨S4096, .f32⟩) main_v40) (TRef.of (T := ⟨S4096, .f32⟩) main_v22) (TRef.of (T := ⟨S4096, .f32⟩) main_v41) select ]

/-- The buffers that line writes. -/
abbrev sTail1_W : List (Ref sig .tc) := [main_v36, main_v37, main_v38, main_v39, main_v40, main_v41]

theorem sTail1_writes : (sTail1 : List (HloOp τ sig (Elt F))).Forall fun op => op.writes ⊆ (sTail1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTail1_keeps (W : Valuation τ sig (Elt F)) (r : Ref sig .tc) (hr : r ∉ sTail1_W) :
    after (sTail1 (F := F)) W (Proc.devRef .tc r) = W (Proc.devRef .tc r) :=
  after_of_writes_sub sTail1 W sTail1_writes hr

set_option maxRecDepth 8192 in
/-- After the closing line the result so far is the stage that folds this cluster in. -/
theorem tail1 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v22) = val_main_v22 (F := F) a0 a1 a2 a3
      ∧ W (Proc.devRef .tc main_v27) = val_main_v27 (F := F) a1
      ∧ W (Proc.devRef .tc main_v35) = val_main_v35 (F := F) a0 a1 a3) :
    after (sTail1 (F := F)) W (Proc.devRef .tc main_arg0) = a0
      ∧ after (sTail1 (F := F)) W (Proc.devRef .tc main_arg1) = a1
      ∧ after (sTail1 (F := F)) W (Proc.devRef .tc main_arg3) = a3
      ∧ after (sTail1 (F := F)) W (Proc.devRef .tc main_v2) = val_main_v2 (F := F) a0 a2
      ∧ after (sTail1 (F := F)) W (Proc.devRef .tc main_v41) = val_main_v41 (F := F) a0 a1 a2 a3 := by
  obtain ⟨h0, h1, h2, h3, h4, h5, h6⟩ := h
  refine ⟨?_, ?_, ?_, ?_, ?_⟩
  · exact (sTail1_keeps W main_arg0 (by decide)).trans h0
  · exact (sTail1_keeps W main_arg1 (by decide)).trans h1
  · exact (sTail1_keeps W main_arg3 (by decide)).trans h2
  · exact (sTail1_keeps W main_v2 (by decide)).trans h3
  · after_results_simp
    rw [h3, h4, h5, h6]
    (try simp only [ofBuf_toBuf])
    rfl

/-! ## Cluster 2 -/

/-- Cluster 2's membership bit. -/
abbrev sMask2 : List (HloOp τ sig (Elt F)) :=
  [ nullary main_c_9 (constantI S_ 32 40000#32),
    unary main_c_9 main_v42 (broadcastInDim S4096 ![] bcast_S_S4096 : (⟨S_, .i32⟩ : BufTy).Contents (Elt F) → (⟨S4096, .i32⟩ : BufTy).Contents (Elt F)),
    binary main_arg1 main_v42 main_v43 (cmpi .sge : (⟨S4096, .i32⟩ : BufTy).Contents (Elt F) → (⟨S4096, .i32⟩ : BufTy).Contents (Elt F) → (⟨S4096, .i1⟩ : BufTy).Contents (Elt F)),
    nullary main_c_10 (constantI S_ 32 50257#32),
    unary main_c_10 main_v44 (broadcastInDim S4096 ![] bcast_S_S4096 : (⟨S_, .i32⟩ : BufTy).Contents (Elt F) → (⟨S4096, .i32⟩ : BufTy).Contents (Elt F)),
    binary main_arg1 main_v44 main_v45 (cmpi .slt : (⟨S4096, .i32⟩ : BufTy).Contents (Elt F) → (⟨S4096, .i32⟩ : BufTy).Contents (Elt F) → (⟨S4096, .i1⟩ : BufTy).Contents (Elt F)),
    binary main_v43 main_v45 main_v46 (andi : (⟨S4096, .i1⟩ : BufTy).Contents (Elt F) → (⟨S4096, .i1⟩ : BufTy).Contents (Elt F) → (⟨S4096, .i1⟩ : BufTy).Contents (Elt F)) ]

/-- The buffers that line writes. -/
abbrev sMask2_W : List (Ref sig .tc) := [main_c_9, main_v42, main_v43, main_c_10, main_v44, main_v45, main_v46]

theorem sMask2_writes : (sMask2 : List (HloOp τ sig (Elt F))).Forall fun op => op.writes ⊆ (sMask2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sMask2_keeps (W : Valuation τ sig (Elt F)) (r : Ref sig .tc) (hr : r ∉ sMask2_W) :
    after (sMask2 (F := F)) W (Proc.devRef .tc r) = W (Proc.devRef .tc r) :=
  after_of_writes_sub sMask2 W sMask2_writes hr

set_option maxRecDepth 8192 in
/-- After the membership line the bit is the stage of the labels. -/
theorem mask2 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v41) = val_main_v41 (F := F) a0 a1 a2 a3) :
    after (sMask2 (F := F)) W (Proc.devRef .tc main_arg0) = a0
      ∧ after (sMask2 (F := F)) W (Proc.devRef .tc main_arg1) = a1
      ∧ after (sMask2 (F := F)) W (Proc.devRef .tc main_arg3) = a3
      ∧ after (sMask2 (F := F)) W (Proc.devRef .tc main_v2) = val_main_v2 (F := F) a0 a2
      ∧ after (sMask2 (F := F)) W (Proc.devRef .tc main_v41) = val_main_v41 (F := F) a0 a1 a2 a3
      ∧ after (sMask2 (F := F)) W (Proc.devRef .tc main_v46) = val_main_v46 (F := F) a1 := by
  obtain ⟨h0, h1, h2, h3, h4⟩ := h
  refine ⟨?_, ?_, ?_, ?_, ?_, ?_⟩
  · exact (sMask2_keeps W main_arg0 (by decide)).trans h0
  · exact (sMask2_keeps W main_arg1 (by decide)).trans h1
  · exact (sMask2_keeps W main_arg3 (by decide)).trans h2
  · exact (sMask2_keeps W main_v2 (by decide)).trans h3
  · exact (sMask2_keeps W main_v41 (by decide)).trans h4
  · after_results_simp
    rw [h1]
    (try simp only [ofBuf_toBuf])
    rfl

/-- Cluster 2's scores and their log-softmax. -/
abbrev sLsm2 : List (HloOp τ sig (Elt F)) :=
  [ unary main_arg3 main_v47 ((extractStridedSlice S1024x10257 ![0, 40000] · slices_S1024x50257_S1024x10257_0_40000) : (⟨S1024x50257, .f32⟩ : BufTy).Contents (Elt F) → (⟨S1024x10257, .f32⟩ : BufTy).Contents (Elt F)),
    binary main_arg0 main_v47 main_v48 ((fun l r => Host.dotGeneral dot_S4096x1024_S1024x10257_S4096x10257_1_0_0_1_n_n none l r) : (⟨S4096x1024, .f32⟩ : BufTy).Contents (Elt F) → (⟨S1024x10257, .f32⟩ : BufTy).Contents (Elt F) → (⟨S4096x10257, .f32⟩ : BufTy).Contents (Elt F)),
    TRef.nullary (TRef.of (T := ⟨S_, .f32⟩) main_call9_cst) (constant S_ .f32 0xFF800000#32),
    TRef.binary (TRef.of (T := ⟨S4096x10257, .f32⟩) main_v48) (TRef.of (T := ⟨S_, .f32⟩) main_call9_cst) (TRef.of (T := ⟨S4096, .f32⟩) main_call9_v0) (fun x v => Host.reduce FloatOps.maximumf x v reducesTo_S4096x10257_S4096_d1 h_S_),
    TRef.nullary (TRef.of (T := ⟨S_, .f32⟩) main_call9_cst_0) (constant S_ .f32 0xFF800000#32),
    TRef.unary (TRef.of (T := ⟨S_, .f32⟩) main_call9_cst_0) (TRef.of (T := ⟨S4096, .f32⟩) main_call9_v1) (broadcastInDim S4096 ![] bcast_S_S4096),
    TRef.binary (TRef.of (T := ⟨S4096, .f32⟩) main_call9_v1) (TRef.of (T := ⟨S4096, .f32⟩) main_call9_v0) (TRef.of (T := ⟨S4096, .f32⟩) main_call9_v2) maximumf,
    TRef.unary (TRef.of (T := ⟨S4096, .f32⟩) main_call9_v2) (TRef.of (T := ⟨S4096x1, .f32⟩) main_call9_v3) (broadcastInDim S4096x1 ![0] bcast_S4096_S4096x1_0),
    TRef.unary (TRef.of (T := ⟨S4096x1, .f32⟩) main_call9_v3) (TRef.of (T := ⟨S4096x10257, .f32⟩) main_call9_v4) (broadcastInDim S4096x10257 ![0, 1] bcast_S4096x1_S4096x10257_0_1),
    TRef.binary (TRef.of (T := ⟨S4096x10257, .f32⟩) main_v48) (TRef.of (T := ⟨S4096x10257, .f32⟩) main_call9_v4) (TRef.of (T := ⟨S4096x10257, .f32⟩) main_call9_v5) subf,
    TRef.unary (TRef.of (T := ⟨S4096x10257, .f32⟩) main_call9_v5) (TRef.of (T := ⟨S4096x10257, .f32⟩) main_call9_v6) Host.exp,
    TRef.nullary (TRef.of (T := ⟨S_, .f32⟩) main_call9_cst_1) (constant S_ .f32 0x00000000#32),
    TRef.binary (TRef.of (T := ⟨S4096x10257, .f32⟩) main_call9_v6) (TRef.of (T := ⟨S_, .f32⟩) main_call9_cst_1) (TRef.of (T := ⟨S4096, .f32⟩) main_call9_v7) (fun x v => Host.reduceAdd x v reducesTo_S4096x10257_S4096_d1 h_S_),
    TRef.unary (TRef.of (T := ⟨S4096, .f32⟩) main_call9_v7) (TRef.of (T := ⟨S4096x1, .f32⟩) main_call9_v8) (broadcastInDim S4096x1 ![0] bcast_S4096_S4096x1_0),
    TRef.unary (TRef.of (T := ⟨S4096x1, .f32⟩) main_call9_v8) (TRef.of (T := ⟨S4096x1, .f32⟩) main_call9_v9) Host.log,
    TRef.unary (TRef.of (T := ⟨S4096x1, .f32⟩) main_call9_v9) (TRef.of (T := ⟨S4096x10257, .f32⟩) main_call9_v10) (broadcastInDim S4096x10257 ![0, 1] bcast_S4096x1_S4096x10257_0_1),
    TRef.binary (TRef.of (T := ⟨S4096x10257, .f32⟩) main_call9_v5) (TRef.of (T := ⟨S4096x10257, .f32⟩) main_call9_v10) (TRef.of (T := ⟨S4096x10257, .f32⟩) main_v49) subf ]

/-- The buffers that line writes. -/
abbrev sLsm2_W : List (Ref sig .tc) := [main_v47, main_v48, main_call9_cst, main_call9_v0, main_call9_cst_0, main_call9_v1, main_call9_v2, main_call9_v3, main_call9_v4, main_call9_v5, main_call9_v6, main_call9_cst_1, main_call9_v7, main_call9_v8, main_call9_v9, main_call9_v10, main_v49]

theorem sLsm2_writes : (sLsm2 : List (HloOp τ sig (Elt F))).Forall fun op => op.writes ⊆ (sLsm2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sLsm2_keeps (W : Valuation τ sig (Elt F)) (r : Ref sig .tc) (hr : r ∉ sLsm2_W) :
    after (sLsm2 (F := F)) W (Proc.devRef .tc r) = W (Proc.devRef .tc r) :=
  after_of_writes_sub sLsm2 W sLsm2_writes hr

set_option maxRecDepth 8192 in
/-- After the scores line the log-softmax array is the stage of the hidden vectors and the output matrix. -/
theorem lsm2 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v41) = val_main_v41 (F := F) a0 a1 a2 a3
      ∧ W (Proc.devRef .tc main_v46) = val_main_v46 (F := F) a1) :
    after (sLsm2 (F := F)) W (Proc.devRef .tc main_arg0) = a0
      ∧ after (sLsm2 (F := F)) W (Proc.devRef .tc main_arg1) = a1
      ∧ after (sLsm2 (F := F)) W (Proc.devRef .tc main_arg3) = a3
      ∧ after (sLsm2 (F := F)) W (Proc.devRef .tc main_v2) = val_main_v2 (F := F) a0 a2
      ∧ after (sLsm2 (F := F)) W (Proc.devRef .tc main_v41) = val_main_v41 (F := F) a0 a1 a2 a3
      ∧ after (sLsm2 (F := F)) W (Proc.devRef .tc main_v46) = val_main_v46 (F := F) a1
      ∧ after (sLsm2 (F := F)) W (Proc.devRef .tc main_v49) = val_main_v49 (F := F) a0 a3 := by
  obtain ⟨h0, h1, h2, h3, h4, h5⟩ := h
  refine ⟨?_, ?_, ?_, ?_, ?_, ?_, ?_⟩
  · exact (sLsm2_keeps W main_arg0 (by decide)).trans h0
  · exact (sLsm2_keeps W main_arg1 (by decide)).trans h1
  · exact (sLsm2_keeps W main_arg3 (by decide)).trans h2
  · exact (sLsm2_keeps W main_v2 (by decide)).trans h3
  · exact (sLsm2_keeps W main_v41 (by decide)).trans h4
  · exact (sLsm2_keeps W main_v46 (by decide)).trans h5
  · after_results_simp
    rw [h0, h2]
    (try simp only [ofBuf_toBuf])
    rfl

/-- Cluster 2's clipped target column. -/
abbrev sTgt2 : List (HloOp τ sig (Elt F)) :=
  [ nullary main_c_11 (constantI S_ 32 40000#32),
    unary main_c_11 main_v50 (broadcastInDim S4096 ![] bcast_S_S4096 : (⟨S_, .i32⟩ : BufTy).Contents (Elt F) → (⟨S4096, .i32⟩ : BufTy).Contents (Elt F)),
    binary main_arg1 main_v50 main_v51 (subi : (⟨S4096, .i32⟩ : BufTy).Contents (Elt F) → (⟨S4096, .i32⟩ : BufTy).Contents (Elt F) → (⟨S4096, .i32⟩ : BufTy).Contents (Elt F)),
    nullary main_c_12 (constantI S_ 32 0#32),
    nullary main_c_13 (constantI S_ 32 10256#32),
    TRef.unary (TRef.of (T := ⟨S_, .i32⟩) main_c_12) (TRef.of (T := ⟨S_, .i32⟩) main_call10_v0) id,
    TRef.unary (TRef.of (T := ⟨S_, .i32⟩) main_call10_v0) (TRef.of (T := ⟨S4096, .i32⟩) main_call10_v1) (broadcastInDim S4096 ![] bcast_S_S4096),
    TRef.binary (TRef.of (T := ⟨S4096, .i32⟩) main_call10_v1) (TRef.of (T := ⟨S4096, .i32⟩) main_v51) (TRef.of (T := ⟨S4096, .i32⟩) main_call10_v2) maxsi,
    TRef.unary (TRef.of (T := ⟨S_, .i32⟩) main_c_13) (TRef.of (T := ⟨S_, .i32⟩) main_call10_v3) id,
    TRef.unary (TRef.of (T := ⟨S_, .i32⟩) main_call10_v3) (TRef.of (T := ⟨S4096, .i32⟩) main_call10_v4) (broadcastInDim S4096 ![] bcast_S_S4096),
    TRef.binary (TRef.of (T := ⟨S4096, .i32⟩) main_call10_v4) (TRef.of (T := ⟨S4096, .i32⟩) main_call10_v2) (TRef.of (T := ⟨S4096, .i32⟩) main_v52) minsi,
    unary main_v52 main_v53 (broadcastInDim S4096x1 ![0] bcast_S4096_S4096x1_0 : (⟨S4096, .i32⟩ : BufTy).Contents (Elt F) → (⟨S4096x1, .i32⟩ : BufTy).Contents (Elt F)) ]

/-- The buffers that line writes. -/
abbrev sTgt2_W : List (Ref sig .tc) := [main_c_11, main_v50, main_v51, main_c_12, main_c_13, main_call10_v0, main_call10_v1, main_call10_v2, main_call10_v3, main_call10_v4, main_v52, main_v53]

theorem sTgt2_writes : (sTgt2 : List (HloOp τ sig (Elt F))).Forall fun op => op.writes ⊆ (sTgt2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTgt2_keeps (W : Valuation τ sig (Elt F)) (r : Ref sig .tc) (hr : r ∉ sTgt2_W) :
    after (sTgt2 (F := F)) W (Proc.devRef .tc r) = W (Proc.devRef .tc r) :=
  after_of_writes_sub sTgt2 W sTgt2_writes hr

set_option maxRecDepth 8192 in
/-- After the target line the column of clipped targets is the stage of the labels. -/
theorem tgt2 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v41) = val_main_v41 (F := F) a0 a1 a2 a3
      ∧ W (Proc.devRef .tc main_v46) = val_main_v46 (F := F) a1
      ∧ W (Proc.devRef .tc main_v49) = val_main_v49 (F := F) a0 a3) :
    after (sTgt2 (F := F)) W (Proc.devRef .tc main_arg0) = a0
      ∧ after (sTgt2 (F := F)) W (Proc.devRef .tc main_arg1) = a1
      ∧ after (sTgt2 (F := F)) W (Proc.devRef .tc main_arg3) = a3
      ∧ after (sTgt2 (F := F)) W (Proc.devRef .tc main_v2) = val_main_v2 (F := F) a0 a2
      ∧ after (sTgt2 (F := F)) W (Proc.devRef .tc main_v41) = val_main_v41 (F := F) a0 a1 a2 a3
      ∧ after (sTgt2 (F := F)) W (Proc.devRef .tc main_v46) = val_main_v46 (F := F) a1
      ∧ after (sTgt2 (F := F)) W (Proc.devRef .tc main_v49) = val_main_v49 (F := F) a0 a3
      ∧ after (sTgt2 (F := F)) W (Proc.devRef .tc main_v53) = val_main_v53 (F := F) a1 := by
  obtain ⟨h0, h1, h2, h3, h4, h5, h6⟩ := h
  refine ⟨?_, ?_, ?_, ?_, ?_, ?_, ?_, ?_⟩
  · exact (sTgt2_keeps W main_arg0 (by decide)).trans h0
  · exact (sTgt2_keeps W main_arg1 (by decide)).trans h1
  · exact (sTgt2_keeps W main_arg3 (by decide)).trans h2
  · exact (sTgt2_keeps W main_v2 (by decide)).trans h3
  · exact (sTgt2_keeps W main_v41 (by decide)).trans h4
  · exact (sTgt2_keeps W main_v46 (by decide)).trans h5
  · exact (sTgt2_keeps W main_v49 (by decide)).trans h6
  · after_results_simp
    rw [h1]
    (try simp only [ofBuf_toBuf])
    rfl

/-- The entry of cluster 2's log-softmax taken at the target column. -/
abbrev sTake2 : List (HloOp τ sig (Elt F)) :=
  [ TRef.nullary (TRef.of (T := ⟨S_, .i32⟩) main_call11_c) (constantI S_ 32 0#32),
    TRef.unary (TRef.of (T := ⟨S_, .i32⟩) main_call11_c) (TRef.of (T := ⟨S4096x1, .i32⟩) main_call11_v0) (broadcastInDim S4096x1 ![] bcast_S_S4096x1),
    TRef.binary (TRef.of (T := ⟨S4096x1, .i32⟩) main_v53) (TRef.of (T := ⟨S4096x1, .i32⟩) main_call11_v0) (TRef.of (T := ⟨S4096x1, .i1⟩) main_call11_v1) (cmpi .slt),
    TRef.nullary (TRef.of (T := ⟨S_, .i32⟩) main_call11_c_0) (constantI S_ 32 10257#32),
    TRef.unary (TRef.of (T := ⟨S_, .i32⟩) main_call11_c_0) (TRef.of (T := ⟨S4096x1, .i32⟩) main_call11_v2) (broadcastInDim S4096x1 ![] bcast_S_S4096x1),
    TRef.binary (TRef.of (T := ⟨S4096x1, .i32⟩) main_v53) (TRef.of (T := ⟨S4096x1, .i32⟩) main_call11_v2) (TRef.of (T := ⟨S4096x1, .i32⟩) main_call11_v3) addi,
    TRef.ternary (TRef.of (T := ⟨S4096x1, .i1⟩) main_call11_v1) (TRef.of (T := ⟨S4096x1, .i32⟩) main_call11_v3) (TRef.of (T := ⟨S4096x1, .i32⟩) main_v53) (TRef.of (T := ⟨S4096x1, .i32⟩) main_call11_v4) select,
    TRef.reshape (TRef.of (T := ⟨S4096x1, .i32⟩) main_call11_v4) (TRef.of (T := ⟨S4096x1x1, .i32⟩) main_call11_v5) rfl shapeCasts_S4096x1_S4096x1x1,
    TRef.nullary (TRef.of (T := ⟨S1, .i32⟩) main_call11_c_1) (constantI S1 32 10256#32),
    TRef.nullary (TRef.of (T := ⟨S_, .i32⟩) main_call11_c_2) (constantI S_ 32 0#32),
    TRef.unary (TRef.of (T := ⟨S_, .i32⟩) main_call11_c_2) (TRef.of (T := ⟨S4096x1x1, .i32⟩) main_call11_v6) (broadcastInDim S4096x1x1 ![] bcast_S_S4096x1x1),
    TRef.binary (TRef.of (T := ⟨S4096x1x1, .i32⟩) main_call11_v5) (TRef.of (T := ⟨S4096x1x1, .i32⟩) main_call11_v6) (TRef.of (T := ⟨S4096x1x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S4096x1x1, .i32⟩) main_call11_v9) (broadcastInDim S4096x1x1 ![0, 1, 2] bcast_S1x1x1_S4096x1x1_0_1_2),
    TRef.binary (TRef.of (T := ⟨S4096x1x1, .i32⟩) main_call11_v5) (TRef.of (T := ⟨S4096x1x1, .i32⟩) main_call11_v9) (TRef.of (T := ⟨S4096x1x1, .i1⟩) main_call11_v10) (cmpi .sle),
    TRef.binary (TRef.of (T := ⟨S4096x1x1, .i1⟩) main_call11_v7) (TRef.of (T := ⟨S4096x1x1, .i1⟩) main_call11_v10) (TRef.of (T := ⟨S4096x1x1, .i1⟩) main_call11_v11) andi,
    TRef.nullary (TRef.of (T := ⟨S_, .i1⟩) main_call11_c_3) (constantI S_ 1 1#1),
    TRef.binary (TRef.of (T := ⟨S4096x1x1, .i1⟩) main_call11_v11) (TRef.of (T := ⟨S_, .i1⟩) main_call11_c_3) (TRef.of (T := ⟨S4096x1, .i1⟩) main_call11_v12) (fun x v => Host.reduce IntOp.andi x v reducesTo_S4096x1x1_S4096x1_d2 h_S_),
    TRef.binary (TRef.of (T := ⟨S4096x10257, .f32⟩) main_v49) (TRef.of (T := ⟨S4096x1x1, .i32⟩) main_call11_v5) (TRef.of (T := ⟨S4096x1, .f32⟩) main_call11_v13) (fun x i => Host.gather gather_S4096x10257_S4096x1x1_S4096x1_n_1_0_0_1_2_11 x i),
    TRef.nullary (TRef.of (T := ⟨S_, .f32⟩) main_call11_cst) (constant S_ .f32 0x7FC00000#32),
    TRef.unary (TRef.of (T := ⟨S_, .f32⟩) main_call11_cst) (TRef.of (T := ⟨S4096x1, .f32⟩) main_call11_v14) (broadcastInDim S4096x1 ![] bcast_S_S4096x1),
    TRef.ternary (TRef.of (T := ⟨S4096x1, .i1⟩) main_call11_v12) (TRef.of (T := ⟨S4096x1, .f32⟩) main_call11_v13) (TRef.of (T := ⟨S4096x1, .f32⟩) main_call11_v14) (TRef.of (T := ⟨S4096x1, .f32⟩) main_v54) select ]

/-- The buffers that line writes. -/
abbrev sTake2_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v54]

theorem sTake2_writes : (sTake2 : List (HloOp τ sig (Elt F))).Forall fun op => op.writes ⊆ (sTake2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTake2_keeps (W : Valuation τ sig (Elt F)) (r : Ref sig .tc) (hr : r ∉ sTake2_W) :
    after (sTake2 (F := F)) W (Proc.devRef .tc r) = W (Proc.devRef .tc r) :=
  after_of_writes_sub sTake2 W sTake2_writes hr

set_option maxRecDepth 8192 in
/-- After the take line the taken column is the stage of its two inputs' stages. -/
theorem take2 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v41) = val_main_v41 (F := F) a0 a1 a2 a3
      ∧ W (Proc.devRef .tc main_v46) = val_main_v46 (F := F) a1
      ∧ W (Proc.devRef .tc main_v49) = val_main_v49 (F := F) a0 a3
      ∧ W (Proc.devRef .tc main_v53) = val_main_v53 (F := F) a1) :
    after (sTake2 (F := F)) W (Proc.devRef .tc main_arg0) = a0
      ∧ after (sTake2 (F := F)) W (Proc.devRef .tc main_arg1) = a1
      ∧ after (sTake2 (F := F)) W (Proc.devRef .tc main_arg3) = a3
      ∧ after (sTake2 (F := F)) W (Proc.devRef .tc main_v2) = val_main_v2 (F := F) a0 a2
      ∧ after (sTake2 (F := F)) W (Proc.devRef .tc main_v41) = val_main_v41 (F := F) a0 a1 a2 a3
      ∧ after (sTake2 (F := F)) W (Proc.devRef .tc main_v46) = val_main_v46 (F := F) a1
      ∧ after (sTake2 (F := F)) W (Proc.devRef .tc main_v54) = val_main_v54 (F := F) a0 a1 a3 := by
  obtain ⟨h0, h1, h2, h3, h4, h5, h6, h7⟩ := h
  refine ⟨?_, ?_, ?_, ?_, ?_, ?_, ?_⟩
  · exact (sTake2_keeps W main_arg0 (by decide)).trans h0
  · exact (sTake2_keeps W main_arg1 (by decide)).trans h1
  · exact (sTake2_keeps W main_arg3 (by decide)).trans h2
  · exact (sTake2_keeps W main_v2 (by decide)).trans h3
  · exact (sTake2_keeps W main_v41 (by decide)).trans h4
  · exact (sTake2_keeps W main_v46 (by decide)).trans h5
  · after_results_simp
    rw [h6, h7]
    (try simp only [ofBuf_toBuf])
    rfl

/-- Cluster 2's value and the select that folds it into the result so far. -/
abbrev sTail2 : List (HloOp τ sig (Elt F)) :=
  [ reshape main_v54 main_v55 rfl shapeCasts_S4096x1_S4096,
    unary main_v2 main_v56 ((extractStridedSlice S4096x1 ![0, 2] · slices_S4096x3_S4096x1_0_2) : (⟨S4096x3, .f32⟩ : BufTy).Contents (Elt F) → (⟨S4096x1, .f32⟩ : BufTy).Contents (Elt F)),
    reshape main_v56 main_v57 rfl shapeCasts_S4096x1_S4096,
    unary main_v57 main_v58 (Host.negf : (⟨S4096, .f32⟩ : BufTy).Contents (Elt F) → (⟨S4096, .f32⟩ : BufTy).Contents (Elt F)),
    binary main_v58 main_v55 main_v59 (subf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v46) (TRef.of (T := ⟨S4096, .f32⟩) main_v59) (TRef.of (T := ⟨S4096, .f32⟩) main_v41) (TRef.of (T := ⟨S4096, .f32⟩) main_v60) select ]

/-- The buffers that line writes. -/
abbrev sTail2_W : List (Ref sig .tc) := [main_v55, main_v56, main_v57, main_v58, main_v59, main_v60]

theorem sTail2_writes : (sTail2 : List (HloOp τ sig (Elt F))).Forall fun op => op.writes ⊆ (sTail2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that line does not write keeps its contents. -/
theorem sTail2_keeps (W : Valuation τ sig (Elt F)) (r : Ref sig .tc) (hr : r ∉ sTail2_W) :
    after (sTail2 (F := F)) W (Proc.devRef .tc r) = W (Proc.devRef .tc r) :=
  after_of_writes_sub sTail2 W sTail2_writes hr

set_option maxRecDepth 8192 in
/-- After the closing line the result so far is the stage that folds this cluster in. -/
theorem tail2 (W : Valuation τ sig (Elt F)) (a0 : (⟨S4096x1024, .f32⟩ : BufTy).Contents (Elt F)) (a1 : (⟨S4096, .i32⟩ : BufTy).Contents (Elt F)) (a2 : (⟨S3x1024, .f32⟩ : BufTy).Contents (Elt F)) (a3 : (⟨S1024x50257, .f32⟩ : BufTy).Contents (Elt F))
    (h : W (Proc.devRef .tc main_arg0) = a0
      ∧ W (Proc.devRef .tc main_arg1) = a1
      ∧ W (Proc.devRef .tc main_arg3) = a3
      ∧ W (Proc.devRef .tc main_v2) = val_main_v2 (F := F) a0 a2
      ∧ W (Proc.devRef .tc main_v41) = val_main_v41 (F := F) a0 a1 a2 a3
      ∧ W (Proc.devRef .tc main_v46) = val_main_v46 (F := F) a1
      ∧ W (Proc.devRef .tc main_v54) = val_main_v54 (F := F) a0 a1 a3) :
    after (sTail2 (F := F)) W (Proc.devRef .tc main_arg0) = a0
      ∧ after (sTail2 (F := F)) W (Proc.devRef .tc main_arg1) = a1
      ∧ after (sTail2 (F := F)) W (Proc.devRef .tc main_arg3) = a3
      ∧ after (sTail2 (F := F)) W (Proc.devRef .tc main_v2) = val_main_v2 (F := F) a0 a2
      ∧ after (sTail2 (F := F)) W (Proc.devRef .tc main_v60) = val_main_v60 (F := F) a0 a1 a2 a3 := by
  obtain ⟨h0, h1, h2, h3, h4, h5, h6⟩ := h
  refine ⟨?_, ?_, ?_, ?_, ?_⟩
  · exact (sTail2_keeps W main_arg0 (by decide)).trans h0
  · exact (sTail2_keeps W main_arg1 (by decide)).trans h1
  · exact (sTail2_keeps W main_arg3 (by decide)).trans h2
  · exact (sTail2_keeps W main_v2 (by decide)).trans h3
  · after_results_simp
    rw [h3, h4, h5, h6]
    (try simp only [ofBuf_toBuf])
    rfl

/-! ## The whole program -/

set_option maxRecDepth 16384 in
/-- The program's operations are these 17 lines in order. -/
theorem ops_eq : (ops : List (HloOp τ sig (Elt F))) = sHead ++ (sZero ++ (sMask0 ++ (sLsm0 ++ (sTgt0 ++ (sTake0 ++ (sTail0 ++ (sMask1 ++ (sLsm1 ++ (sTgt1 ++ (sTake1 ++ (sTail1 ++ (sMask2 ++ (sLsm2 ++ (sTgt2 ++ (sTake2 ++ (sTail2)))))))))))))))) := rfl

/-- After all its operations, from any contents, the result buffer holds the last stage of the four argument buffers. -/
theorem after_v60 (V : Valuation τ sig (Elt F)) :
    after (ops (F := F)) V (Proc.devRef .tc main_v60)
      = val_main_v60 (F := F) (V (Proc.devRef .tc main_arg0)) (V (Proc.devRef .tc main_arg1)) (V (Proc.devRef .tc main_arg2)) (V (Proc.devRef .tc main_arg3)) := by
  rw [ops_eq, after_append, after_append, after_append, after_append, after_append, after_append, after_append, after_append, after_append, after_append, after_append, after_append, after_append, after_append, after_append, after_append]
  have s0 := head V _ _ _ _ ⟨rfl, rfl, rfl, rfl⟩
  have s1 := zero _ _ _ _ _ s0
  have s2 := mask0 _ _ _ _ _ s1
  have s3 := lsm0 _ _ _ _ _ s2
  have s4 := tgt0 _ _ _ _ _ s3
  have s5 := take0 _ _ _ _ _ s4
  have s6 := tail0 _ _ _ _ _ s5
  have s7 := mask1 _ _ _ _ _ s6
  have s8 := lsm1 _ _ _ _ _ s7
  have s9 := tgt1 _ _ _ _ _ s8
  have s10 := take1 _ _ _ _ _ s9
  have s11 := tail1 _ _ _ _ _ s10
  have s12 := mask2 _ _ _ _ _ s11
  have s13 := lsm2 _ _ _ _ _ s12
  have s14 := tgt2 _ _ _ _ _ s13
  have s15 := take2 _ _ _ _ _ s14
  have s16 := tail2 _ _ _ _ _ s15
  exact s16.2.2.2.2

/-- No operation writes argument 0. -/
theorem ops_keeps_main_arg0 (V : Valuation τ sig (Elt F)) : after (ops (F := F)) V (Proc.devRef .tc main_arg0) = V (Proc.devRef .tc main_arg0) := by
  rw [ops_eq, after_append, after_append, after_append, after_append, after_append, after_append, after_append, after_append, after_append, after_append, after_append, after_append, after_append, after_append, after_append, after_append,
    sTail2_keeps _ main_arg0 (by decide),
    sTake2_keeps _ main_arg0 (by decide),
    sTgt2_keeps _ main_arg0 (by decide),
    sLsm2_keeps _ main_arg0 (by decide),
    sMask2_keeps _ main_arg0 (by decide),
    sTail1_keeps _ main_arg0 (by decide),
    sTake1_keeps _ main_arg0 (by decide),
    sTgt1_keeps _ main_arg0 (by decide),
    sLsm1_keeps _ main_arg0 (by decide),
    sMask1_keeps _ main_arg0 (by decide),
    sTail0_keeps _ main_arg0 (by decide),
    sTake0_keeps _ main_arg0 (by decide),
    sTgt0_keeps _ main_arg0 (by decide),
    sLsm0_keeps _ main_arg0 (by decide),
    sMask0_keeps _ main_arg0 (by decide),
    sZero_keeps _ main_arg0 (by decide),
    sHead_keeps _ main_arg0 (by decide)]

/-- No operation writes argument 1. -/
theorem ops_keeps_main_arg1 (V : Valuation τ sig (Elt F)) : after (ops (F := F)) V (Proc.devRef .tc main_arg1) = V (Proc.devRef .tc main_arg1) := by
  rw [ops_eq, after_append, after_append, after_append, after_append, after_append, after_append, after_append, after_append, after_append, after_append, after_append, after_append, after_append, after_append, after_append, after_append,
    sTail2_keeps _ main_arg1 (by decide),
    sTake2_keeps _ main_arg1 (by decide),
    sTgt2_keeps _ main_arg1 (by decide),
    sLsm2_keeps _ main_arg1 (by decide),
    sMask2_keeps _ main_arg1 (by decide),
    sTail1_keeps _ main_arg1 (by decide),
    sTake1_keeps _ main_arg1 (by decide),
    sTgt1_keeps _ main_arg1 (by decide),
    sLsm1_keeps _ main_arg1 (by decide),
    sMask1_keeps _ main_arg1 (by decide),
    sTail0_keeps _ main_arg1 (by decide),
    sTake0_keeps _ main_arg1 (by decide),
    sTgt0_keeps _ main_arg1 (by decide),
    sLsm0_keeps _ main_arg1 (by decide),
    sMask0_keeps _ main_arg1 (by decide),
    sZero_keeps _ main_arg1 (by decide),
    sHead_keeps _ main_arg1 (by decide)]

/-- No operation writes argument 2. -/
theorem ops_keeps_main_arg2 (V : Valuation τ sig (Elt F)) : after (ops (F := F)) V (Proc.devRef .tc main_arg2) = V (Proc.devRef .tc main_arg2) := by
  rw [ops_eq, after_append, after_append, after_append, after_append, after_append, after_append, after_append, after_append, after_append, after_append, after_append, after_append, after_append, after_append, after_append, after_append,
    sTail2_keeps _ main_arg2 (by decide),
    sTake2_keeps _ main_arg2 (by decide),
    sTgt2_keeps _ main_arg2 (by decide),
    sLsm2_keeps _ main_arg2 (by decide),
    sMask2_keeps _ main_arg2 (by decide),
    sTail1_keeps _ main_arg2 (by decide),
    sTake1_keeps _ main_arg2 (by decide),
    sTgt1_keeps _ main_arg2 (by decide),
    sLsm1_keeps _ main_arg2 (by decide),
    sMask1_keeps _ main_arg2 (by decide),
    sTail0_keeps _ main_arg2 (by decide),
    sTake0_keeps _ main_arg2 (by decide),
    sTgt0_keeps _ main_arg2 (by decide),
    sLsm0_keeps _ main_arg2 (by decide),
    sMask0_keeps _ main_arg2 (by decide),
    sZero_keeps _ main_arg2 (by decide),
    sHead_keeps _ main_arg2 (by decide)]

/-- No operation writes argument 3. -/
theorem ops_keeps_main_arg3 (V : Valuation τ sig (Elt F)) : after (ops (F := F)) V (Proc.devRef .tc main_arg3) = V (Proc.devRef .tc main_arg3) := by
  rw [ops_eq, after_append, after_append, after_append, after_append, after_append, after_append, after_append, after_append, after_append, after_append, after_append, after_append, after_append, after_append, after_append, after_append,
    sTail2_keeps _ main_arg3 (by decide),
    sTake2_keeps _ main_arg3 (by decide),
    sTgt2_keeps _ main_arg3 (by decide),
    sLsm2_keeps _ main_arg3 (by decide),
    sMask2_keeps _ main_arg3 (by decide),
    sTail1_keeps _ main_arg3 (by decide),
    sTake1_keeps _ main_arg3 (by decide),
    sTgt1_keeps _ main_arg3 (by decide),
    sLsm1_keeps _ main_arg3 (by decide),
    sMask1_keeps _ main_arg3 (by decide),
    sTail0_keeps _ main_arg3 (by decide),
    sTake0_keeps _ main_arg3 (by decide),
    sTgt0_keeps _ main_arg3 (by decide),
    sLsm0_keeps _ main_arg3 (by decide),
    sMask0_keeps _ main_arg3 (by decide),
    sZero_keeps _ main_arg3 (by decide),
    sHead_keeps _ main_arg3 (by decide)]

/-- On every device, for any float values, from any memory with zero counters: every weakly fair execution of the program
    terminates with the result buffer at the last stage of the four argument buffers' launch contents, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = val_main_v60 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v60).trans (after_v60 (launchContents m c)),
      (h c main_arg0).trans (ops_keeps_main_arg0 _), (h c main_arg1).trans (ops_keeps_main_arg1 _),
      (h c main_arg2).trans (ops_keeps_main_arg2 _), (h c main_arg3).trans (ops_keeps_main_arg3 _)⟩)
    (run_after m ρ)

end Cert.ReferenceIdeal.ValueH

end
-- ==== Proof.LibTake.lean ====
/-
  Reading rows of a table at in-range positions. A take along the first axis of a table with N rows prints, for a
  vector of 32-bit positions, as: the positions with N added where negative (w); w as a column (v); a mask that is set
  at a row exactly when 0 ≤ v ≤ N - 1 there, signed; the gather of the table's rows at v; and a select that keeps a
  gathered row where the mask is set and writes a constant (a NaN) where it is not. Plain indexing `x[idx]` prints the
  same w and v and then the gather alone.

  When every position, read unsigned, is below N and N ≤ 2³¹ — that is, every position read as a signed integer lies in
  [0, N) — no position is negative, so w is the positions themselves; every mask bit is set, so the select keeps every
  gathered row; and the two programs' results are the same gather. All of this is pointwise in the positions and does
  not depend on the shapes involved, on which axes the broadcasts and the reduction run along, or on what the gather
  reads, so it is stated once at arbitrary shapes and evidence.
-/
import Idealize.ShloMosaic.Lib.StableHlo.Predicate
import Idealize.ShloMosaic.Lib.ReduceAll

namespace LibTake

open Idealize.ShloMosaic

/-- Every entry of an array of 32-bit words, read unsigned, is below `N`. For `N ≤ 2³¹`: every entry, read as a signed
    integer, lies in `[0, N)`. -/
def InRange {s : Shape} (N : ℕ) (idx : IVec s 32) : Prop := ∀ i, (idx i).toNat < N

theorem InRange.mono {s : Shape} {N M : ℕ} {idx : IVec s 32} (h : InRange N idx) (hNM : N ≤ M) : InRange M idx :=
  fun i => Nat.lt_of_lt_of_le (h i) hNM

/-! ## Words -/

/-- A word below 2³¹ is not negative: the signed "less than zero" is not set. -/
theorem slt_zero_ne_one {a : BitVec 32} (ha : a.toNat < 2 ^ 31) : IntOp.cmpi .slt a 0#32 ≠ 1#1 := fun h => by
  have h' := (StableHlo.Predicate.slt_iff_toNat ha (by decide)).1 h
  simp at h'

/-- A word below 2³¹ is at least zero, signed. -/
theorem sge_zero_eq_one {a : BitVec 32} (ha : a.toNat < 2 ^ 31) : IntOp.cmpi .sge a 0#32 = 1#1 :=
  (StableHlo.Predicate.sge_iff_toNat ha (by decide)).2 (by simp)

/-- Two words below 2³¹ compare signed as they do unsigned. -/
theorem sle_eq_one {a hi : BitVec 32} (hhi : hi.toNat < 2 ^ 31) (h : a.toNat ≤ hi.toNat) : IntOp.cmpi .sle a hi = 1#1 :=
  (StableHlo.Predicate.sle_iff_toNat (Nat.lt_of_le_of_lt h hhi) hhi).2 h

/-- A word that is at least zero, signed, is below 2³¹. -/
theorem toNat_lt_of_sge_zero {w : BitVec 32} (h : IntOp.cmpi .sge w 0#32 = 1#1) : w.toNat < 2 ^ 31 := by
  unfold IntOp.cmpi at h
  rw [StableHlo.Predicate.ofBool_eq_one_iff] at h
  have h' : (0#32).toInt ≤ w.toInt := by simpa [BitVec.sle] using h
  have h0 : (0#32).toInt = 0 := by decide
  rw [h0] at h'
  have hw := BitVec.toInt_eq_toNat_cond w
  have := w.isLt
  split at hw <;> omega

/-- A word in `[0, b)` signed, for a bound `b` below 2³¹, is below `b` unsigned. -/
theorem toNat_lt_of_signed {w b : BitVec 32} (hb : b.toNat < 2 ^ 31) (h0 : IntOp.cmpi .sge w 0#32 = 1#1)
    (h1 : IntOp.cmpi .slt w b = 1#1) : w.toNat < b.toNat :=
  (StableHlo.Predicate.slt_iff_toNat (toNat_lt_of_sge_zero h0) hb).1 h1

/-- The range test read back: positions that pass "≥ 0" and "< b" at every index, signed, against constant arrays of
    zeros and of a bound `b` below 2³¹ with value `N`, are in range. -/
theorem InRange.of_compares {s : Shape} {N : ℕ} {idx lo hi : IVec s 32} {b : BitVec 32} (hb : b.toNat < 2 ^ 31)
    (hbN : b.toNat = N) (hlo : ∀ i, lo i = 0#32) (hhi : ∀ i, hi i = b)
    (h0 : ∀ i, cmpi .sge idx lo i = 1#1) (h1 : ∀ i, cmpi .slt idx hi i = 1#1) : InRange N idx := fun i => by
  have e0 : IntOp.cmpi .sge (idx i) 0#32 = 1#1 := by rw [← hlo i]; exact h0 i
  have e1 : IntOp.cmpi .slt (idx i) b = 1#1 := by rw [← hhi i]; exact h1 i
  rw [← hbN]
  exact toNat_lt_of_signed hb e0 e1

/-! ## A mask of ones -/

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of 1s is 1 at every result index, along whatever axes. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose condition is set everywhere is its first branch. -/
theorem select_ones {α : Type} {s : Shape} (c : IVec s 1) (hc : ∀ i, c i = 1#1) (a b : s.Idx → α) : select c a b = a := by
  funext i
  have h1 : c i = 1 := hc i
  show (if c i = 1 then a i else b i) = a i
  rw [if_pos h1]

/-- A select whose condition is set nowhere is its second branch. -/
theorem select_not_ones {α : Type} {s : Shape} (c : IVec s 1) (hc : ∀ i, c i ≠ 1#1) (a b : s.Idx → α) : select c a b = b := by
  funext i
  have h1 : ¬ c i = 1 := hc i
  show (if c i = 1 then a i else b i) = b i
  rw [if_neg h1]

/-! ## The printed take -/

section Take

variable {α : Type} {sx si sv sm so sc s1 s11 su : Shape}

/-- The wrapped positions: where every position is below 2³¹ (not negative), "add N where negative" changes nothing. -/
theorem wrap_eq (d0 : Fin sc.rank → Fin si.rank) (h0 : sc.BroadcastsInDim si d0) (idx add : IVec si 32)
    (hidx : InRange (2 ^ 31) idx) :
    select (cmpi .slt idx (broadcastInDim si d0 h0 (constantI sc 32 0#32))) (addi idx add) idx = idx :=
  select_not_ones _ (fun i => slt_zero_ne_one (hidx i)) _ _

/-- The bounds mask over a column `v` of positions all at most `hi` (itself below 2³¹): set everywhere. -/
theorem mask_eq_one (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (v : IVec sv 32) (hi : BitVec 32) (hhi : hi.toNat < 2 ^ 31) (hv : ∀ i, (v i).toNat ≤ hi.toNat) (j : sm.Idx) :
    Host.reduce IntOp.andi
      (andi (cmpi .sge v (broadcastInDim sv d6 h6 (constantI sc 32 0#32)))
            (cmpi .sle v (broadcastInDim sv d9 h9 (broadcastInDim s11 d8 h8 (constantI s1 32 hi)))))
      (constantI su 1 1#1) hr hu j = 1#1 :=
  reduce_andi_ones _ _ hr hu
    (fun i => IntOp.andi_eq_one.2 ⟨sge_zero_eq_one (Nat.lt_of_le_of_lt (hv i) hhi), sle_eq_one hhi (hv i)⟩)
    (fun _ => rfl) j

/-- THE TAKE, the positions left as printed. With every position in `[0, N)` and `hi = N - 1` the masked gather is
    the gather: the same term with the mask, its broadcast, the constant and the select removed. -/
theorem take_eq_gather {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x
        (broadcastInDim sv d5 h5 (select (cmpi .slt idx (broadcastInDim si d0 h0 (constantI sc 32 0#32))) (addi idx add) idx)) := by
  have hle : ∀ k, (idx k).toNat ≤ hi.toNat := fun k => by have := hidx k; omega
  rw [wrap_eq d0 h0 idx add (hidx.mono hN)]
  exact select_ones _ (fun j => mask_eq_one d6 h6 d8 h8 d9 h9 hr hu _ hi (by omega) (fun i => hle _) _) _ _

/-- THE TAKE, read at the positions themselves: the masked gather at in-range positions is the gather of the table at the
    column of positions. -/
theorem take_eq_gather_idx {N : ℕ} (G : GatherDims sx sv so) (x : sx.Idx → α) (nanv : so.Idx → α)
    (d0 : Fin sc.rank → Fin si.rank) (h0 : sc.BroadcastsInDim si d0)
    (d5 : Fin si.rank → Fin sv.rank) (h5 : si.BroadcastsInDim sv d5)
    (d6 : Fin sc.rank → Fin sv.rank) (h6 : sc.BroadcastsInDim sv d6)
    (d8 : Fin s1.rank → Fin s11.rank) (h8 : s1.BroadcastsInDim s11 d8)
    (d9 : Fin s11.rank → Fin sv.rank) (h9 : s11.BroadcastsInDim sv d9)
    {axes : List (Fin sv.rank)} (hr : sv.ReducesTo axes sm) (hu : 0 < su.numel)
    (dm : Fin sm.rank → Fin so.rank) (hm : sm.BroadcastsInDim so dm)
    (idx add : IVec si 32) (hi : BitVec 32) (hN : N ≤ 2 ^ 31) (hhi : hi.toNat + 1 = N) (hidx : InRange N idx) :
    select
      (broadcastInDim so dm hm (Host.reduce IntOp.andi
        (andi
          (cmpi .sge
            (broadcastInDim sv d5 h5 (select (cmpi .slt idx (broadcastInDim si d0 h0 (constantI sc 32 0#32))) (addi idx add) idx))
            (broadcastInDim sv d6 h6 (constantI sc 32 0#32)))
          (cmpi .sle
            (broadcastInDim sv d5 h5 (select (cmpi .slt idx (broadcastInDim si d0 h0 (constantI sc 32 0#32))) (addi idx add) idx))
            (broadcastInDim sv d9 h9 (broadcastInDim s11 d8 h8 (constantI s1 32 hi)))))
        (constantI su 1 1#1) hr hu))
      (Host.gather G x
        (broadcastInDim sv d5 h5 (select (cmpi .slt idx (broadcastInDim si d0 h0 (constantI sc 32 0#32))) (addi idx add) idx)))
      nanv
    = Host.gather G x (broadcastInDim sv d5 h5 idx) := by
  rw [take_eq_gather G x nanv d0 h0 d5 h5 d6 h6 d8 h8 d9 h9 hr hu dm hm idx add hi hN hhi hidx,
    wrap_eq d0 h0 idx add (hidx.mono hN)]

/-- Plain indexing at in-range positions: the gather at the wrapped positions is the gather at the positions. -/
theorem index_eq_gather_idx {N : ℕ} (G : GatherDims sx sv so) (x : sx.Idx → α)
    (d0 : Fin sc.rank → Fin si.rank) (h0 : sc.BroadcastsInDim si d0)
    (d5 : Fin si.rank → Fin sv.rank) (h5 : si.BroadcastsInDim sv d5)
    (idx add : IVec si 32) (hN : N ≤ 2 ^ 31) (hidx : InRange N idx) :
    Host.gather G x
        (broadcastInDim sv d5 h5 (select (cmpi .slt idx (broadcastInDim si d0 h0 (constantI sc 32 0#32))) (addi idx add) idx))
    = Host.gather G x (broadcastInDim sv d5 h5 idx) := by
  rw [wrap_eq d0 h0 idx add (hidx.mono hN)]

end Take

end LibTake
-- ==== Proof.RefTake.lean ====
/-
  Picking one entry per row. A take along the columns of a 4096 × C table at a column of 32-bit positions prints as: the
  positions with C added where negative; those recast as a 4096 × 1 × 1 array; a mask set at a row exactly when the
  recast position lies in [0, C − 1], signed; the gather that reads, in row n, the table's entry of row n at the
  recast position (clamped into the row); and a select keeping the gathered entry where the mask is set and writing a
  constant where it is not. When every position, read unsigned, is below C ≤ 2³¹ the result at row n is the table's entry
  of row n at the position itself.
-/
import proofs.«427347_j10273561772327_2_alg».proof.Proof.LibTake
import Idealize.ShloMosaic.Lib.ValueIdx
import Idealize.ShloMosaic.Lib.Pipeline.Value

noncomputable section

namespace Cert.RefTake

open Idealize.ShloMosaic Idealize.ShloMosaic.ValueIdx

variable {α : Type}

/-- The dimension numbers of "in row n read column idx[n, 0, 0]": the row axis batches, the column axis is indexed and
    collapsed. -/
abbrev rowDims (C : ℕ)
    (wf : GatherDims.WF ⟨2, ![4096, C]⟩ ⟨3, ![4096, 1, 1]⟩ ⟨2, ![4096, 1]⟩ [] [1] [0] [1] [0] 2 ![1, 1]) :
    GatherDims ⟨2, ![4096, C]⟩ ⟨3, ![4096, 1, 1]⟩ ⟨2, ![4096, 1]⟩ where
  offsetDims := []
  collapsedSliceDims := [1]
  operandBatchingDims := [0]
  startIndicesBatchingDims := [0]
  startIndexMap := [1]
  indexVectorDim := 2
  sliceSizes := ![1, 1]
  wf := wf

/-- On the row axis the gather's operand index is the row itself. -/
theorem rowDims_axis0 {C : ℕ}
    (wf : GatherDims.WF ⟨2, ![4096, C]⟩ ⟨3, ![4096, 1, 1]⟩ ⟨2, ![4096, 1]⟩ [] [1] [0] [1] [0] 2 ![1, 1])
    (idx : IVec ⟨3, ![4096, 1, 1]⟩ 32) (n : Fin 4096) (o : Fin 1) :
    (rowDims C wf).start (ix2 n o) idx 0 + (rowDims C wf).batchCoord (ix2 n o) 0 + (rowDims C wf).offCoord (ix2 n o) 0
      = n.val := by
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  rfl

/-- On the column axis it is the start index of the row, read signed and clamped into [0, C − 1]. -/
theorem rowDims_axis1 {C : ℕ}
    (wf : GatherDims.WF ⟨2, ![4096, C]⟩ ⟨3, ![4096, 1, 1]⟩ ⟨2, ![4096, 1]⟩ [] [1] [0] [1] [0] 2 ![1, 1])
    (idx : IVec ⟨3, ![4096, 1, 1]⟩ 32) (n : Fin 4096) (o : Fin 1) :
    (rowDims C wf).start (ix2 n o) idx 1 + (rowDims C wf).batchCoord (ix2 n o) 1 + (rowDims C wf).offCoord (ix2 n o) 1
      = min (idx (ix3 n (0 : Fin 1) (0 : Fin 1))).toInt.toNat (C - 1) := by
  rw [GatherDims.batchCoord_eq_zero _ _ _ (fun h => by cases List.mem_singleton.mp h),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowDims C wf).startIndexMap from List.mem_singleton.mpr rfl)]
  have hsi : (rowDims C wf).siIdx (ix2 n o) ⟨List.idxOf (1 : Fin 2) (rowDims C wf).startIndexMap,
      List.idxOf_lt_length_iff.2 (List.mem_singleton.mpr rfl)⟩ = ix3 n (0 : Fin 1) (0 : Fin 1) := by
    funext b; refine Fin.ext ?_
    match b with
    | ⟨0, _⟩ => rfl
    | ⟨1, _⟩ => have := o.isLt; show (o : ℕ) = 0; omega
    | ⟨2, _⟩ => rfl
  rw [hsi]
  rfl

/-- THE GATHER READ AT (n, 0): the table's row n at the start index of row n, read signed and clamped into [0, C − 1]. -/
theorem gather_row_apply {C : ℕ} (hC : 0 < C)
    (wf : GatherDims.WF ⟨2, ![4096, C]⟩ ⟨3, ![4096, 1, 1]⟩ ⟨2, ![4096, 1]⟩ [] [1] [0] [1] [0] 2 ![1, 1])
    (x : (⟨2, ![4096, C]⟩ : Shape).Idx → α) (idx : IVec ⟨3, ![4096, 1, 1]⟩ 32) (n : Fin 4096) (o : Fin 1) :
    Host.gather (rowDims C wf) x idx (ix2 n o)
      = x (ix2 n (⟨min (idx (ix3 n (0 : Fin 1) (0 : Fin 1))).toInt.toNat (C - 1), by omega⟩ : Fin C)) := by
  unfold Host.gather
  congr 1
  funext a
  refine Fin.ext ?_
  show (rowDims C wf).start (ix2 n o) idx a + (rowDims C wf).batchCoord (ix2 n o) a + (rowDims C wf).offCoord (ix2 n o) a = _
  match a with
  | ⟨0, _⟩ => exact rowDims_axis0 wf idx n o
  | ⟨1, _⟩ => exact rowDims_axis1 wf idx n o

/-- A word below 2³¹, read signed, is its unsigned value. -/
theorem toInt_toNat_of_lt {a : BitVec 32} (ha : a.toNat < 2 ^ 31) : a.toInt.toNat = a.toNat := by
  rw [StableHlo.Predicate.toInt_eq_toNat_of_lt ha]; rfl

/-- A 4096 × 1 column recast as 4096 × 1 × 1 reads, at (n, 0, 0), the column's entry for row n. -/
theorem recast_apply {β : Type} (hsc : (⟨2, ![4096, 1]⟩ : Shape).ShapeCasts (⟨3, ![4096, 1, 1]⟩ : Shape))
    (z : (⟨2, ![4096, 1]⟩ : Shape).Idx → β) (n : Fin 4096) :
    shapeCast (⟨3, ![4096, 1, 1]⟩ : Shape) z hsc (ix3 n (0 : Fin 1) (0 : Fin 1)) = z (ix2 n (0 : Fin 1)) :=
  shapeCast_apply z hsc _ _ (by
    rw [Shape.rowMajor_val_two, Shape.rowMajor_val_three]
    show n.val * 1 + 0 = (n.val * 1 + 0) * 1 + 0
    omega)

/-- THE TAKE along the columns, read at (n, 0): at in-range positions it is the table's row n at the position. -/
theorem take_row_apply {C : ℕ} (hC31 : C ≤ 2 ^ 31)
    (wf : GatherDims.WF ⟨2, ![4096, C]⟩ ⟨3, ![4096, 1, 1]⟩ ⟨2, ![4096, 1]⟩ [] [1] [0] [1] [0] 2 ![1, 1])
    (T : (⟨2, ![4096, C]⟩ : Shape).Idx → α) (nanv : (⟨2, ![4096, 1]⟩ : Shape).Idx → α)
    (hb : (⟨0, ![]⟩ : Shape).BroadcastsInDim (⟨2, ![4096, 1]⟩ : Shape) ![])
    (hsc : (⟨2, ![4096, 1]⟩ : Shape).ShapeCasts (⟨3, ![4096, 1, 1]⟩ : Shape))
    (hb6 : (⟨0, ![]⟩ : Shape).BroadcastsInDim (⟨3, ![4096, 1, 1]⟩ : Shape) ![])
    (hb8 : (⟨1, ![1]⟩ : Shape).BroadcastsInDim (⟨3, ![1, 1, 1]⟩ : Shape) ![2])
    (hb9 : (⟨3, ![1, 1, 1]⟩ : Shape).BroadcastsInDim (⟨3, ![4096, 1, 1]⟩ : Shape) ![0, 1, 2])
    (hr : (⟨3, ![4096, 1, 1]⟩ : Shape).ReducesTo [2] (⟨2, ![4096, 1]⟩ : Shape)) (hu : 0 < (⟨0, ![]⟩ : Shape).numel)
    (idx : IVec ⟨2, ![4096, 1]⟩ 32) (cw hi : BitVec 32) (hhi : hi.toNat + 1 = C) (hidx : ∀ k, (idx k).toNat < C) (n : Fin 4096) :
    select
      (Host.reduce IntOp.andi
        (andi
          (cmpi .sge
            (shapeCast (⟨3, ![4096, 1, 1]⟩ : Shape)
              (select (cmpi .slt idx (broadcastInDim (⟨2, ![4096, 1]⟩ : Shape) ![] hb (constantI (⟨0, ![]⟩ : Shape) 32 0#32)))
                (addi idx (broadcastInDim (⟨2, ![4096, 1]⟩ : Shape) ![] hb (constantI (⟨0, ![]⟩ : Shape) 32 cw))) idx) hsc)
            (broadcastInDim (⟨3, ![4096, 1, 1]⟩ : Shape) ![] hb6 (constantI (⟨0, ![]⟩ : Shape) 32 0#32)))
          (cmpi .sle
            (shapeCast (⟨3, ![4096, 1, 1]⟩ : Shape)
              (select (cmpi .slt idx (broadcastInDim (⟨2, ![4096, 1]⟩ : Shape) ![] hb (constantI (⟨0, ![]⟩ : Shape) 32 0#32)))
                (addi idx (broadcastInDim (⟨2, ![4096, 1]⟩ : Shape) ![] hb (constantI (⟨0, ![]⟩ : Shape) 32 cw))) idx) hsc)
            (broadcastInDim (⟨3, ![4096, 1, 1]⟩ : Shape) ![0, 1, 2] hb9
              (broadcastInDim (⟨3, ![1, 1, 1]⟩ : Shape) ![2] hb8 (constantI (⟨1, ![1]⟩ : Shape) 32 hi)))))
        (constantI (⟨0, ![]⟩ : Shape) 1 1#1) hr hu)
      (Host.gather (rowDims C wf) T
        (shapeCast (⟨3, ![4096, 1, 1]⟩ : Shape)
          (select (cmpi .slt idx (broadcastInDim (⟨2, ![4096, 1]⟩ : Shape) ![] hb (constantI (⟨0, ![]⟩ : Shape) 32 0#32)))
            (addi idx (broadcastInDim (⟨2, ![4096, 1]⟩ : Shape) ![] hb (constantI (⟨0, ![]⟩ : Shape) 32 cw))) idx) hsc))
      nanv (ix2 n (0 : Fin 1))
    = T (ix2 n (⟨(idx (ix2 n (0 : Fin 1))).toNat, hidx _⟩ : Fin C)) := by
  have hC : 0 < C := by omega
  have h31 : ∀ k, (idx k).toNat < 2 ^ 31 := fun k => Nat.lt_of_lt_of_le (hidx k) hC31
  rw [LibTake.wrap_eq (sc := (⟨0, ![]⟩ : Shape)) (si := (⟨2, ![4096, 1]⟩ : Shape)) ![] hb idx _ (fun k => h31 k)]
  rw [LibTake.select_ones _ (fun j => LibTake.mask_eq_one (sc := (⟨0, ![]⟩ : Shape)) (sv := (⟨3, ![4096, 1, 1]⟩ : Shape))
    (s1 := (⟨1, ![1]⟩ : Shape)) (s11 := (⟨3, ![1, 1, 1]⟩ : Shape)) (su := (⟨0, ![]⟩ : Shape)) ![] hb6 ![2] hb8 ![0, 1, 2] hb9 hr hu _ hi (by omega)
    (fun i => by
      show (idx _).toNat ≤ hi.toNat
      have := hidx (Shape.reshapeEquiv hsc i); omega) j)]
  rw [gather_row_apply hC wf T _ n (0 : Fin 1)]
  congr 2
  refine Fin.ext ?_
  show min (shapeCast (⟨3, ![4096, 1, 1]⟩ : Shape) idx hsc (ix3 n (0 : Fin 1) (0 : Fin 1))).toInt.toNat (C - 1) = _
  rw [recast_apply hsc idx n, toInt_toNat_of_lt (h31 _)]
  show min (idx (ix2 n (0 : Fin 1))).toNat (C - 1) = (idx (ix2 n (0 : Fin 1))).toNat
  have := hidx (ix2 n (0 : Fin 1))
  omega

end Cert.RefTake

end
-- ==== Proof.Ref.lean ====
/-
  The reference program's value: its result array, read index by index, is the function of the four argument arrays
  that the specification names. Stage by stage: the cluster head's scores and their log-softmax; per vocabulary cluster
  the scores against the cluster's columns of the output matrix, their log-softmax, the clipped target column, the entry
  taken at it, and the cluster's value; the membership bits; and the three selects that fold the clusters' values.
  No finiteness of the inputs is used: every step is a reading of an index.
-/
import proofs.«427347_j10273561772327_2_alg».proof.Proof.RefRunH
import proofs.«427347_j10273561772327_2_alg».proof.Proof.RefRead
import proofs.«427347_j10273561772327_2_alg».proof.Proof.Spec
import proofs.«427347_j10273561772327_2_alg».proof.Proof.RefLsm
import proofs.«427347_j10273561772327_2_alg».proof.Proof.RefTake
import proofs.«427347_j10273561772327_2_alg».proof.Proof.RefWords

noncomputable section

namespace Cert.ReferenceIdeal.RefValue

open Idealize.ShloMosaic Idealize.SL.Sem Idealize.ShloMosaic.ValueIdx Cert.ReferenceIdeal Cert.ReferenceIdeal.Gen
  Cert.ReferenceIdeal.ReadP

/-- A rank-1 index with the given coordinate is `ix1` of it. -/
theorem idx1_eq {n0 : ℕ} (f : (⟨1, ![n0]⟩ : Shape).Idx) (a : Fin n0) (h0 : (f 0).val = a.val) : f = ix1 a := by
  funext d; refine Fin.ext ?_
  match d with
  | ⟨0, _⟩ => exact h0

/-- A rank-2 index with the given coordinates is `ix2` of them. -/
theorem idx2_eq {n0 n1 : ℕ} (f : (⟨2, ![n0, n1]⟩ : Shape).Idx) (a : Fin n0) (b : Fin n1) (h0 : (f 0).val = a.val)
    (h1 : (f 1).val = b.val) : f = ix2 a b := by
  funext d; refine Fin.ext ?_
  match d with
  | ⟨0, _⟩ => exact h0
  | ⟨1, _⟩ => exact h1

section Stages
variable (x0 : (⟨S4096x1024, .f32⟩ : BufTy).Contents (Elt Ideal)) (x1 : (⟨S4096, .i32⟩ : BufTy).Contents (Elt Ideal)) (x2 : (⟨S3x1024, .f32⟩ : BufTy).Contents (Elt Ideal)) (x3 : (⟨S1024x50257, .f32⟩ : BufTy).Contents (Elt Ideal))

/-! ## The cluster head -/

/-- The cluster head's scores: row n of the hidden vectors against row j of the head. -/
theorem head_scores (n : Fin 4096) (j : Fin 3) :
    val_main_v1 (F := Ideal) x0 x2 (ix2 n j) = ∑ k : Fin 1024, x0 (ix2 n k) * x2 (ix2 j k) := by
  rw [val_main_v1_apply]
  refine Finset.sum_congr rfl fun k _ => ?_
  rw [val_main_v0_apply]
  exact congrArg₂ (· * ·) (congrArg x0 (idx2_eq _ n k rfl rfl)) (congrArg x2 (idx2_eq _ j k rfl rfl))

/-- The cluster log-probabilities. -/
theorem head_ll (n : Fin 4096) (j : Fin 3) :
    val_main_v2 (F := Ideal) x0 x2 (ix2 n j)
      = Cert.Spec.clusterLL (fun n k => x0 (ix2 n k)) (fun j k => x2 (ix2 j k)) n j := by
  refine (Cert.RefLsm.logSoftmax_chain (C := 3) (val_main_v1 (F := Ideal) x0 x2) reducesTo_S4096x3_S4096_d1 (by decide) h_S_
    bcast_S_S4096 bcast_S4096_S4096x1_0 bcast_S4096x1_S4096x3_0_1 n j).trans ?_
  unfold Cert.Spec.clusterLL
  exact congrArg (fun s => Cert.Spec.logSoftmax s j) (funext fun u => head_scores x0 x2 n u)

/-! ## Cluster 0: columns 0 ‥ 19999 -/

/-- Its scores: row n of the hidden vectors against column 0 + v of the output matrix. -/
theorem scores_0 (n : Fin 4096) (v : Fin 20000) :
    val_main_v10 (F := Ideal) x0 x3 (ix2 n v)
      = Cert.Spec.score (fun n k => x0 (ix2 n k)) (Cert.Spec.colSlice (C := 20000) 0 (by decide) (fun k v => x3 (ix2 k v))) n v := by
  rw [val_main_v10_apply]
  unfold Cert.Spec.score
  refine Finset.sum_congr rfl fun k _ => ?_
  rw [val_main_v9_apply]
  exact congrArg₂ (· * ·) (congrArg x0 (idx2_eq _ n k rfl rfl))
    (congrArg x3 (idx2_eq _ k (⟨0 + v.val, by have := v.isLt; omega⟩ : Fin 50257) rfl (by show (v : ℕ) = 0 + (v : ℕ); omega)))

/-- Their log-softmax along the cluster's columns. -/
theorem lsm_0 (n : Fin 4096) (v : Fin 20000) :
    val_main_v11 (F := Ideal) x0 x3 (ix2 n v)
      = Cert.Spec.logSoftmax (Cert.Spec.score (fun n k => x0 (ix2 n k))
          (Cert.Spec.colSlice (C := 20000) 0 (by decide) (fun k v => x3 (ix2 k v))) n) v := by
  refine (Cert.RefLsm.logSoftmax_chain (C := 20000) (val_main_v10 (F := Ideal) x0 x3) reducesTo_S4096x20000_S4096_d1 (by decide) h_S_
    bcast_S_S4096 bcast_S4096_S4096x1_0 bcast_S4096x1_S4096x20000_0_1 n v).trans ?_
  exact congrArg (fun s => Cert.Spec.logSoftmax s v) (funext fun u => scores_0 x0 x3 n u)

/-- The clipped target column, as a word. -/
theorem tgt_0 (n : Fin 4096) :
    val_main_v14 (F := Ideal) x1 (ix1 n) = Cert.Spec.tgtWord 0#32 19999#32 (x1 (ix1 n)) := rfl

/-- The same stood up as a column. -/
theorem tgtcol_0 (n : Fin 4096) :
    val_main_v15 (F := Ideal) x1 (ix2 n (0 : Fin 1)) = Cert.Spec.tgtWord 0#32 19999#32 (x1 (ix1 n)) := by
  rw [val_main_v15_apply, idx1_eq (idx_main_v15 (ix2 n (0 : Fin 1))) n rfl]
  exact tgt_0 x1 n

/-- Every entry of that column, read unsigned, is below the cluster's size. -/
theorem tgtcol_lt_0 (k : S4096x1.Idx) : (val_main_v15 (F := Ideal) x1 k).toNat < 20000 := by
  obtain ⟨a, b, rfl⟩ : ∃ (a : Fin 4096) (b : Fin 1), k = ix2 a b := ⟨k 0, k 1, eq_ix2 k⟩
  rw [val_main_v15_apply, idx1_eq (idx_main_v15 (ix2 a b)) a rfl, tgt_0]
  exact Cert.RefWords.tgtWord_lt _ _ _ (by decide) rfl

/-- The entry taken at the target column. -/
theorem take_0 (n : Fin 4096) :
    val_main_v16 (F := Ideal) x0 x1 x3 (ix2 n (0 : Fin 1))
      = val_main_v11 (F := Ideal) x0 x3 (ix2 n (⟨(Cert.Spec.tgtWord 0#32 19999#32 (x1 (ix1 n))).toNat,
          Cert.RefWords.tgtWord_lt _ _ _ (by decide) rfl⟩ : Fin 20000)) := by
  refine (Cert.RefTake.take_row_apply (C := 20000) (by decide) gather_S4096x20000_S4096x1x1_S4096x1_n_1_0_0_1_2_11_wf
    (val_main_v11 (F := Ideal) x0 x3) (val_main_call3_v14 (F := Ideal)) bcast_S_S4096x1 shapeCasts_S4096x1_S4096x1x1
    bcast_S_S4096x1x1 bcast_S1_S1x1x1_2 bcast_S1x1x1_S4096x1x1_0_1_2 reducesTo_S4096x1x1_S4096x1_d2 h_S_
    (val_main_v15 (F := Ideal) x1) 20000#32 19999#32 rfl (tgtcol_lt_0 x1) n).trans ?_
  exact congrArg (fun w : Fin 20000 => val_main_v11 (F := Ideal) x0 x3 (ix2 n w)) (Fin.ext (congrArg BitVec.toNat (tgtcol_0 x1 n)))

/-- The cluster's value for token n. -/
theorem val_0 (n : Fin 4096) :
    val_main_v21 (F := Ideal) x0 x1 x2 x3 (ix1 n)
      = Cert.Spec.clusterVal (C := 20000) (by decide) 0#32 19999#32 (fun n k => x0 (ix2 n k))
          (Cert.Spec.colSlice (C := 20000) 0 (by decide) (fun k v => x3 (ix2 k v)))
          (fun n => Cert.Spec.clusterLL (fun n k => x0 (ix2 n k)) (fun j k => x2 (ix2 j k)) n 0) (fun n => x1 (ix1 n)) n := by
  rw [val_main_v21_apply, val_main_v20_apply, val_main_v19_apply, val_main_v18_apply, val_main_v17_apply,
    idx2_eq (idx_main_v18 (idx_main_v19 (ix1 n))) n (0 : Fin 3) (by show (n : ℕ) / 1 = n; omega) rfl,
    idx2_eq (idx_main_v17 (ix1 n)) n (0 : Fin 1) (by show (n : ℕ) / 1 = n; omega) rfl,
    head_ll, take_0, lsm_0]
  unfold Cert.Spec.clusterVal
  rw [Cert.RefWords.tgtIdx_eq (C := 20000) (by decide) 0#32 19999#32 (x1 (ix1 n)) (by decide) rfl]
  rfl

/-- The cluster's membership bit for token n. -/
theorem mask_0 (n : Fin 4096) :
    val_main_v8 (F := Ideal) x1 (ix1 n) = Cert.Spec.memBit 0#32 20000#32 (x1 (ix1 n)) := rfl

/-! ## Cluster 1: columns 20000 ‥ 39999 -/

/-- Its scores: row n of the hidden vectors against column 20000 + v of the output matrix. -/
theorem scores_1 (n : Fin 4096) (v : Fin 20000) :
    val_main_v29 (F := Ideal) x0 x3 (ix2 n v)
      = Cert.Spec.score (fun n k => x0 (ix2 n k)) (Cert.Spec.colSlice (C := 20000) 20000 (by decide) (fun k v => x3 (ix2 k v))) n v := by
  rw [val_main_v29_apply]
  unfold Cert.Spec.score
  refine Finset.sum_congr rfl fun k _ => ?_
  rw [val_main_v28_apply]
  exact congrArg₂ (· * ·) (congrArg x0 (idx2_eq _ n k rfl rfl))
    (congrArg x3 (idx2_eq _ k (⟨20000 + v.val, by have := v.isLt; omega⟩ : Fin 50257) rfl rfl))

/-- Their log-softmax along the cluster's columns. -/
theorem lsm_1 (n : Fin 4096) (v : Fin 20000) :
    val_main_v30 (F := Ideal) x0 x3 (ix2 n v)
      = Cert.Spec.logSoftmax (Cert.Spec.score (fun n k => x0 (ix2 n k))
          (Cert.Spec.colSlice (C := 20000) 20000 (by decide) (fun k v => x3 (ix2 k v))) n) v := by
  refine (Cert.RefLsm.logSoftmax_chain (C := 20000) (val_main_v29 (F := Ideal) x0 x3) reducesTo_S4096x20000_S4096_d1 (by decide) h_S_
    bcast_S_S4096 bcast_S4096_S4096x1_0 bcast_S4096x1_S4096x20000_0_1 n v).trans ?_
  exact congrArg (fun s => Cert.Spec.logSoftmax s v) (funext fun u => scores_1 x0 x3 n u)

/-- The clipped target column, as a word. -/
theorem tgt_1 (n : Fin 4096) :
    val_main_v33 (F := Ideal) x1 (ix1 n) = Cert.Spec.tgtWord 20000#32 19999#32 (x1 (ix1 n)) := rfl

/-- The same stood up as a column. -/
theorem tgtcol_1 (n : Fin 4096) :
    val_main_v34 (F := Ideal) x1 (ix2 n (0 : Fin 1)) = Cert.Spec.tgtWord 20000#32 19999#32 (x1 (ix1 n)) := by
  rw [val_main_v34_apply, idx1_eq (idx_main_v34 (ix2 n (0 : Fin 1))) n rfl]
  exact tgt_1 x1 n

/-- Every entry of that column, read unsigned, is below the cluster's size. -/
theorem tgtcol_lt_1 (k : S4096x1.Idx) : (val_main_v34 (F := Ideal) x1 k).toNat < 20000 := by
  obtain ⟨a, b, rfl⟩ : ∃ (a : Fin 4096) (b : Fin 1), k = ix2 a b := ⟨k 0, k 1, eq_ix2 k⟩
  rw [val_main_v34_apply, idx1_eq (idx_main_v34 (ix2 a b)) a rfl, tgt_1]
  exact Cert.RefWords.tgtWord_lt _ _ _ (by decide) rfl

/-- The entry taken at the target column. -/
theorem take_1 (n : Fin 4096) :
    val_main_v35 (F := Ideal) x0 x1 x3 (ix2 n (0 : Fin 1))
      = val_main_v30 (F := Ideal) x0 x3 (ix2 n (⟨(Cert.Spec.tgtWord 20000#32 19999#32 (x1 (ix1 n))).toNat,
          Cert.RefWords.tgtWord_lt _ _ _ (by decide) rfl⟩ : Fin 20000)) := by
  refine (Cert.RefTake.take_row_apply (C := 20000) (by decide) gather_S4096x20000_S4096x1x1_S4096x1_n_1_0_0_1_2_11_wf
    (val_main_v30 (F := Ideal) x0 x3) (val_main_call7_v14 (F := Ideal)) bcast_S_S4096x1 shapeCasts_S4096x1_S4096x1x1
    bcast_S_S4096x1x1 bcast_S1_S1x1x1_2 bcast_S1x1x1_S4096x1x1_0_1_2 reducesTo_S4096x1x1_S4096x1_d2 h_S_
    (val_main_v34 (F := Ideal) x1) 20000#32 19999#32 rfl (tgtcol_lt_1 x1) n).trans ?_
  exact congrArg (fun w : Fin 20000 => val_main_v30 (F := Ideal) x0 x3 (ix2 n w)) (Fin.ext (congrArg BitVec.toNat (tgtcol_1 x1 n)))

/-- The cluster's value for token n. -/
theorem val_1 (n : Fin 4096) :
    val_main_v40 (F := Ideal) x0 x1 x2 x3 (ix1 n)
      = Cert.Spec.clusterVal (C := 20000) (by decide) 20000#32 19999#32 (fun n k => x0 (ix2 n k))
          (Cert.Spec.colSlice (C := 20000) 20000 (by decide) (fun k v => x3 (ix2 k v)))
          (fun n => Cert.Spec.clusterLL (fun n k => x0 (ix2 n k)) (fun j k => x2 (ix2 j k)) n 1) (fun n => x1 (ix1 n)) n := by
  rw [val_main_v40_apply, val_main_v39_apply, val_main_v38_apply, val_main_v37_apply, val_main_v36_apply,
    idx2_eq (idx_main_v37 (idx_main_v38 (ix1 n))) n (1 : Fin 3) (by show (n : ℕ) / 1 = n; omega) rfl,
    idx2_eq (idx_main_v36 (ix1 n)) n (0 : Fin 1) (by show (n : ℕ) / 1 = n; omega) rfl,
    head_ll, take_1, lsm_1]
  unfold Cert.Spec.clusterVal
  rw [Cert.RefWords.tgtIdx_eq (C := 20000) (by decide) 20000#32 19999#32 (x1 (ix1 n)) (by decide) rfl]
  rfl

/-- The cluster's membership bit for token n. -/
theorem mask_1 (n : Fin 4096) :
    val_main_v27 (F := Ideal) x1 (ix1 n) = Cert.Spec.memBit 20000#32 40000#32 (x1 (ix1 n)) := rfl

/-! ## Cluster 2: columns 40000 ‥ 50256 -/

/-- Its scores: row n of the hidden vectors against column 40000 + v of the output matrix. -/
theorem scores_2 (n : Fin 4096) (v : Fin 10257) :
    val_main_v48 (F := Ideal) x0 x3 (ix2 n v)
      = Cert.Spec.score (fun n k => x0 (ix2 n k)) (Cert.Spec.colSlice (C := 10257) 40000 (by decide) (fun k v => x3 (ix2 k v))) n v := by
  rw [val_main_v48_apply]
  unfold Cert.Spec.score
  refine Finset.sum_congr rfl fun k _ => ?_
  rw [val_main_v47_apply]
  exact congrArg₂ (· * ·) (congrArg x0 (idx2_eq _ n k rfl rfl))
    (congrArg x3 (idx2_eq _ k (⟨40000 + v.val, by have := v.isLt; omega⟩ : Fin 50257) rfl rfl))

/-- Their log-softmax along the cluster's columns. -/
theorem lsm_2 (n : Fin 4096) (v : Fin 10257) :
    val_main_v49 (F := Ideal) x0 x3 (ix2 n v)
      = Cert.Spec.logSoftmax (Cert.Spec.score (fun n k => x0 (ix2 n k))
          (Cert.Spec.colSlice (C := 10257) 40000 (by decide) (fun k v => x3 (ix2 k v))) n) v := by
  refine (Cert.RefLsm.logSoftmax_chain (C := 10257) (val_main_v48 (F := Ideal) x0 x3) reducesTo_S4096x10257_S4096_d1 (by decide) h_S_
    bcast_S_S4096 bcast_S4096_S4096x1_0 bcast_S4096x1_S4096x10257_0_1 n v).trans ?_
  exact congrArg (fun s => Cert.Spec.logSoftmax s v) (funext fun u => scores_2 x0 x3 n u)

/-- The clipped target column, as a word. -/
theorem tgt_2 (n : Fin 4096) :
    val_main_v52 (F := Ideal) x1 (ix1 n) = Cert.Spec.tgtWord 40000#32 10256#32 (x1 (ix1 n)) := rfl

/-- The same stood up as a column. -/
theorem tgtcol_2 (n : Fin 4096) :
    val_main_v53 (F := Ideal) x1 (ix2 n (0 : Fin 1)) = Cert.Spec.tgtWord 40000#32 10256#32 (x1 (ix1 n)) := by
  rw [val_main_v53_apply, idx1_eq (idx_main_v53 (ix2 n (0 : Fin 1))) n rfl]
  exact tgt_2 x1 n

/-- Every entry of that column, read unsigned, is below the cluster's size. -/
theorem tgtcol_lt_2 (k : S4096x1.Idx) : (val_main_v53 (F := Ideal) x1 k).toNat < 10257 := by
  obtain ⟨a, b, rfl⟩ : ∃ (a : Fin 4096) (b : Fin 1), k = ix2 a b := ⟨k 0, k 1, eq_ix2 k⟩
  rw [val_main_v53_apply, idx1_eq (idx_main_v53 (ix2 a b)) a rfl, tgt_2]
  exact Cert.RefWords.tgtWord_lt _ _ _ (by decide) rfl

/-- The entry taken at the target column. -/
theorem take_2 (n : Fin 4096) :
    val_main_v54 (F := Ideal) x0 x1 x3 (ix2 n (0 : Fin 1))
      = val_main_v49 (F := Ideal) x0 x3 (ix2 n (⟨(Cert.Spec.tgtWord 40000#32 10256#32 (x1 (ix1 n))).toNat,
          Cert.RefWords.tgtWord_lt _ _ _ (by decide) rfl⟩ : Fin 10257)) := by
  refine (Cert.RefTake.take_row_apply (C := 10257) (by decide) gather_S4096x10257_S4096x1x1_S4096x1_n_1_0_0_1_2_11_wf
    (val_main_v49 (F := Ideal) x0 x3) (val_main_call11_v14 (F := Ideal)) bcast_S_S4096x1 shapeCasts_S4096x1_S4096x1x1
    bcast_S_S4096x1x1 bcast_S1_S1x1x1_2 bcast_S1x1x1_S4096x1x1_0_1_2 reducesTo_S4096x1x1_S4096x1_d2 h_S_
    (val_main_v53 (F := Ideal) x1) 10257#32 10256#32 rfl (tgtcol_lt_2 x1) n).trans ?_
  exact congrArg (fun w : Fin 10257 => val_main_v49 (F := Ideal) x0 x3 (ix2 n w)) (Fin.ext (congrArg BitVec.toNat (tgtcol_2 x1 n)))

/-- The cluster's value for token n. -/
theorem val_2 (n : Fin 4096) :
    val_main_v59 (F := Ideal) x0 x1 x2 x3 (ix1 n)
      = Cert.Spec.clusterVal (C := 10257) (by decide) 40000#32 10256#32 (fun n k => x0 (ix2 n k))
          (Cert.Spec.colSlice (C := 10257) 40000 (by decide) (fun k v => x3 (ix2 k v)))
          (fun n => Cert.Spec.clusterLL (fun n k => x0 (ix2 n k)) (fun j k => x2 (ix2 j k)) n 2) (fun n => x1 (ix1 n)) n := by
  rw [val_main_v59_apply, val_main_v58_apply, val_main_v57_apply, val_main_v56_apply, val_main_v55_apply,
    idx2_eq (idx_main_v56 (idx_main_v57 (ix1 n))) n (2 : Fin 3) (by show (n : ℕ) / 1 = n; omega) rfl,
    idx2_eq (idx_main_v55 (ix1 n)) n (0 : Fin 1) (by show (n : ℕ) / 1 = n; omega) rfl,
    head_ll, take_2, lsm_2]
  unfold Cert.Spec.clusterVal
  rw [Cert.RefWords.tgtIdx_eq (C := 10257) (by decide) 40000#32 10256#32 (x1 (ix1 n)) (by decide) rfl]
  rfl

/-- The cluster's membership bit for token n. -/
theorem mask_2 (n : Fin 4096) :
    val_main_v46 (F := Ideal) x1 (ix1 n) = Cert.Spec.memBit 40000#32 50257#32 (x1 (ix1 n)) := rfl

/-! ## The result -/

/-- THE REFERENCE IS THE SPECIFICATION: its result array as one function of the four argument arrays. -/
theorem result_eq : val_main_v60 (F := Ideal) x0 x1 x2 x3 = Cert.Spec.result x0 x1 x2 x3 := by
  funext i
  obtain ⟨n, rfl⟩ : ∃ n : Fin 4096, i = ix1 n := ⟨i 0, eq_ix1 i⟩
  rw [val_main_v60_apply, val_main_v41_apply, val_main_v22_apply, mask_2, mask_1, mask_0, val_2, val_1, val_0,
    val_main_v3_apply, val_main_cst_apply]
  show _ = Cert.Spec.nll _ _ _ _ n
  unfold Cert.Spec.nll
  rw [show (FloatOps.ofBits (F := Ideal) .f32 0x00000000#32 : EReal) = 0 from Ideal.ofBits_zero_f32]

end Stages

/-! ## The run -/

/-- Every weakly fair execution of the reference ends with its result array at the specification's function of the four
    argument arrays, the arguments unchanged. -/
theorem run_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v60)
          = Cert.Spec.result (m ((c.tc : Thread _ _).loc main_arg0)) (m ((c.tc : Thread _ _).loc main_arg1))
              (m ((c.tc : Thread _ _).loc main_arg2)) (m ((c.tc : Thread _ _).loc main_arg3))
        ∧ r.2.mem ((c.tc : Thread _ _).loc main_arg0) = m ((c.tc : Thread _ _).loc main_arg0)
        ∧ r.2.mem ((c.tc : Thread _ _).loc main_arg1) = m ((c.tc : Thread _ _).loc main_arg1)
        ∧ r.2.mem ((c.tc : Thread _ _).loc main_arg2) = m ((c.tc : Thread _ _).loc main_arg2)
        ∧ r.2.mem ((c.tc : Thread _ _).loc main_arg3) = m ((c.tc : Thread _ _).loc main_arg3)) :=
  (θ_run (Cert.ReferenceIdeal.defs (F := Ideal)) _ _).mono
    (fun _ h c => ⟨by rw [(h c).1, result_eq], (h c).2⟩)
    (Cert.ReferenceIdeal.ValueH.run_val (F := Ideal) m ρ)

/-- The reference runs to the end without fault and leaves its four arguments unchanged. -/
theorem frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc main_arg0) = m ((c.tc : Thread _ _).loc main_arg0)
        ∧ r.2.mem ((c.tc : Thread _ _).loc main_arg1) = m ((c.tc : Thread _ _).loc main_arg1)
        ∧ r.2.mem ((c.tc : Thread _ _).loc main_arg2) = m ((c.tc : Thread _ _).loc main_arg2)
        ∧ r.2.mem ((c.tc : Thread _ _).loc main_arg3) = m ((c.tc : Thread _ _).loc main_arg3)) :=
  (θ_run (Cert.ReferenceIdeal.defs (F := Ideal)) _ _).mono (fun _ h c => (h c).2) (run_result m ρ)

end Cert.ReferenceIdeal.RefValue

end
-- ==== Proof.lean ====
/-
  The certificate of the adaptive-softmax negative log-likelihood kernel against its jnp reference.

  Both programs compute, for token n with hidden vector x n and label y n, minus the log-probability the two-level softmax assigns to
  the label: a three-way cluster head, then inside the label's cluster a softmax over that cluster's slice of the output matrix
  (Spec.lean). The reference takes each cluster's log-softmax whole. The kernel streams it: per cluster one pass over column tiles of
  1024 that carries a running maximum, a running sum of exponentials and the target's score (Fold.lean: after the last tile these are
  the row maximum, the sum of exponentials of the shifted row and the score at the clipped target), the ragged last tile masked with a
  fill value that the statement names −∞, so that its exponentials vanish. The word-level kernel's frame holds whatever the machine
  leaves past the weight slice's end; the idealized kernel's values do not depend on it.
-/
import proofs.«427347_j10273561772327_2_alg».proof.Defs
import proofs.«427347_j10273561772327_2_alg».proof.Proof.Gen.Kernel
import proofs.«427347_j10273561772327_2_alg».proof.Proof.Gen.KernelIdeal
import proofs.«427347_j10273561772327_2_alg».proof.Proof.Gen.ReferenceIdeal
import proofs.«427347_j10273561772327_2_alg».proof.Proof.Gen.Pre_finite_inputs
import proofs.«427347_j10273561772327_2_alg».proof.Proof.K.FrameB
import proofs.«427347_j10273561772327_2_alg».proof.Proof.KI.Launch
import proofs.«427347_j10273561772327_2_alg».proof.Proof.KI.Value
import proofs.«427347_j10273561772327_2_alg».proof.Proof.Ref
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.FrameB.frame m ρ

/-- So does the idealized kernel. -/
theorem frame_ki : Cert.frame_KernelIdeal := fun m ρ _ => Cert.KernelIdeal.Launch.frame m ρ

/-- So does the reference. -/
theorem frame_ri : Cert.frame_ReferenceIdeal := fun m ρ _ => Cert.ReferenceIdeal.RefValue.frame m ρ

/-- The certificate's table gives the fill value's name −∞, and the printed constant is that value at the ideal instance. -/
theorem named_fill : IdealRules.named_const.Statement Cert.KernelIdeal.κ "neg_big" .f32 0xFF333332#32 ⊥ :=
  IdealRules.named_const.statement Cert.KernelIdeal.κ "neg_big" .f32 0xFF333332#32 ⊥ rfl

/-- The ledger's six entries are that one statement, at the two sites of each pallas_call. -/
theorem preserves : Cert.preserves_Kernel_KernelIdeal := ⟨named_fill, named_fill, named_fill, named_fill, named_fill, named_fill⟩

/-- From memories that agree on the arguments both idealized programs end with the result array at the one function of the
    arguments, `Cert.Spec.result`. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Value.result_eq m hpre c), (h c).2⟩)
      (Cert.KernelIdeal.Launch.run_ideal m ρ)
  · refine (θ_run Cert.ReferenceIdeal.defs _ _).mono (fun _ h c => ⟨(h c).1.trans ?_, (h c).2⟩)
      (Cert.ReferenceIdeal.RefValue.run_result m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
